-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x768x768 : Shape := ⟨4, ![4, 16, 768, 768]⟩
abbrev S4x768x768 : Shape := ⟨3, ![4, 768, 768]⟩
abbrev S4x2x200 : Shape := ⟨3, ![4, 2, 200]⟩
abbrev S_ : Shape := ⟨0, ![]⟩
abbrev S4x1x589824 : Shape := ⟨3, ![4, 1, 589824]⟩
abbrev S24 : Shape := ⟨1, ![24]⟩
abbrev S1x24x1 : Shape := ⟨3, ![1, 24, 1]⟩
abbrev S4x24x589824 : Shape := ⟨3, ![4, 24, 589824]⟩
abbrev S4x24 : Shape := ⟨2, ![4, 24]⟩

class Facts : Prop where
  bcast_S_S4x16x768x768 : S_.BroadcastsInDim S4x16x768x768 (![] : Fin 0 → Fin S4x16x768x768.rank)
  reducesTo_S4x16x768x768_S_d0_1_2_3 : S4x16x768x768.ReducesTo [0, 1, 2, 3] S_
  h_S_ : 0 < S_.numel
  bcast_S_S4x768x768 : S_.BroadcastsInDim S4x768x768 (![] : Fin 0 → Fin S4x768x768.rank)
  reducesTo_S4x768x768_S_d0_1_2 : S4x768x768.ReducesTo [0, 1, 2] S_
  shapeCasts_S4x768x768_S4x1x589824 : S4x768x768.ShapeCasts S4x1x589824
  shapeCasts_S24_S1x24x1 : S24.ShapeCasts S1x24x1
  bcast_S4x1x589824_S4x24x589824_0_1_2 : S4x1x589824.BroadcastsInDim S4x24x589824 (![0, 1, 2] : Fin 3 → Fin S4x24x589824.rank)
  bcast_S1x24x1_S4x24x589824_0_1_2 : S1x24x1.BroadcastsInDim S4x24x589824 (![0, 1, 2] : Fin 3 → Fin S4x24x589824.rank)
  reducesTo_S4x24x589824_S4x24_d2 : S4x24x589824.ReducesTo [2] S4x24
  reducesTo_S4x24_S_d0_1 : S4x24.ReducesTo [0, 1] S_

variable [Facts]

def fn_part1 {F : FTy → Type} [FloatOps F] (main_v10 : IVec S_ 1) (main_v17 : IVec S4x24 1) : IVec S_ 1 :=
  let main_c_4 : IVec S_ 1 := constantI S_ 1 1#1
  let main_v18 : IVec S_ 1 := (fun x v => Host.reduce IntOp.andi x v reducesTo_S4x24_S_d0_1 h_S_) main_v17 main_c_4
  let main_v19 : IVec S_ 1 := andi main_v10 main_v18
  main_v19

def fn {F : FTy → Type} [FloatOps F] (main_arg0 : FVec F S4x16x768x768 .f32) (main_arg1 : IVec S4x768x768 32) (main_arg2 : IVec S4x2x200 32) (main_arg3 : IVec S4x2x200 32) : IVec S_ 1 :=
  let main_v0 : FVec F S4x16x768x768 .f32 := Host.absf main_arg0
  let main_cst : FVec F S_ .f32 := constant S_ .f32 0x7F800000#32
  let main_v1 : FVec F S4x16x768x768 .f32 := broadcastInDim S4x16x768x768 ![] bcast_S_S4x16x768x768 main_cst
  let main_v2 : IVec S4x16x768x768 1 := cmpf .olt main_v0 main_v1
  let main_c : IVec S_ 1 := constantI S_ 1 1#1
  let main_v3 : IVec S_ 1 := (fun x v => Host.reduce IntOp.andi x v reducesTo_S4x16x768x768_S_d0_1_2_3 h_S_) main_v2 main_c
  let main_c_0 : IVec S_ 32 := constantI S_ 32 0#32
  let main_v4 : IVec S4x768x768 32 := broadcastInDim S4x768x768 ![] bcast_S_S4x768x768 main_c_0
  let main_v5 : IVec S4x768x768 1 := cmpi .sge main_arg1 main_v4
  let main_c_1 : IVec S_ 32 := constantI S_ 32 24#32
  let main_v6 : IVec S4x768x768 32 := broadcastInDim S4x768x768 ![] bcast_S_S4x768x768 main_c_1
  let main_v7 : IVec S4x768x768 1 := cmpi .slt main_arg1 main_v6
  let main_v8 : IVec S4x768x768 1 := andi main_v5 main_v7
  let main_c_2 : IVec S_ 1 := constantI S_ 1 1#1
  let main_v9 : IVec S_ 1 := (fun x v => Host.reduce IntOp.andi x v reducesTo_S4x768x768_S_d0_1_2 h_S_) main_v8 main_c_2
  let main_v10 : IVec S_ 1 := andi main_v3 main_v9
  let main_v11 : IVec S4x1x589824 32 := shapeCast S4x1x589824 main_arg1 shapeCasts_S4x768x768_S4x1x589824
  let main_v12 : IVec S24 32 := iotaInDim S24 32 0
  let main_v13 : IVec S1x24x1 32 := shapeCast S1x24x1 main_v12 shapeCasts_S24_S1x24x1
  let main_v14 : IVec S4x24x589824 32 := broadcastInDim S4x24x589824 ![0, 1, 2] bcast_S4x1x589824_S4x24x589824_0_1_2 main_v11
  let main_v15 : IVec S4x24x589824 32 := broadcastInDim S4x24x589824 ![0, 1, 2] bcast_S1x24x1_S4x24x589824_0_1_2 main_v13
  let main_v16 : IVec S4x24x589824 1 := cmpi .eq main_v14 main_v15
  let main_c_3 : IVec S_ 1 := constantI S_ 1 0#1
  let main_v17 : IVec S4x24 1 := (fun x v => Host.reduce IntOp.ori x v reducesTo_S4x24x589824_S4x24_d2 h_S_) main_v16 main_c_3
  fn_part1 (F := F) main_v10 main_v17
-- ==== Kernel.lean ====
abbrev S4x16x768x768 : Shape := ⟨4, ![4, 16, 768, 768]⟩
abbrev S4x768x768 : Shape := ⟨3, ![4, 768, 768]⟩
abbrev S4x2x200 : Shape := ⟨3, ![4, 2, 200]⟩
abbrev S4x16x589824 : Shape := ⟨3, ![4, 16, 589824]⟩
abbrev S4x1x589824 : Shape := ⟨3, ![4, 1, 589824]⟩
abbrev S4x17x24 : Shape := ⟨3, ![4, 17, 24]⟩
abbrev S1x16x49152 : Shape := ⟨3, ![1, 16, 49152]⟩
abbrev S1x1x49152 : Shape := ⟨3, ![1, 1, 49152]⟩
abbrev S1x17x24 : Shape := ⟨3, ![1, 17, 24]⟩
abbrev S24x49152 : Shape := ⟨2, ![24, 49152]⟩
abbrev S16x49152 : Shape := ⟨2, ![16, 49152]⟩
abbrev S1x49152 : Shape := ⟨2, ![1, 49152]⟩
abbrev S16x24 : Shape := ⟨2, ![16, 24]⟩
abbrev S1x24 : Shape := ⟨2, ![1, 24]⟩
abbrev S17x24 : Shape := ⟨2, ![17, 24]⟩
abbrev S4x1x24 : Shape := ⟨3, ![4, 1, 24]⟩
abbrev S4x24 : Shape := ⟨2, ![4, 24]⟩
abbrev S4x16x24 : Shape := ⟨3, ![4, 16, 24]⟩
abbrev S_ : Shape := ⟨0, ![]⟩
abbrev S1x16x24 : Shape := ⟨3, ![1, 16, 24]⟩
abbrev S1x1x24 : Shape := ⟨3, ![1, 1, 24]⟩
abbrev S49152 : Shape := ⟨1, ![49152]⟩
abbrev S4 : Shape := ⟨1, ![4]⟩
abbrev S4x24x16 : Shape := ⟨3, ![4, 24, 16]⟩
abbrev S4x2x200x1x1 : Shape := ⟨5, ![4, 2, 200, 1, 1]⟩
abbrev S4x1x1x2x200 : Shape := ⟨5, ![4, 1, 1, 2, 200]⟩
abbrev S4x2x200x2x200 : Shape := ⟨5, ![4, 2, 200, 2, 200]⟩
abbrev S4x200x200 : Shape := ⟨3, ![4, 200, 200]⟩
abbrev S4x1x200 : Shape := ⟨3, ![4, 1, 200]⟩
abbrev S4x200 : Shape := ⟨2, ![4, 200]⟩
abbrev S4x200x1 : Shape := ⟨3, ![4, 200, 1]⟩
abbrev S4x200x16 : Shape := ⟨3, ![4, 200, 16]⟩

abbrev nBuf : Space → Nat
  | .hbm => 155
  | .vmem => 16
  | .smem => 0
  | _ => 0

abbrev hbmTy0_0 (i : Nat) : BufTy := match i % 128 with
  | 0 => ⟨S4x16x768x768, .f32⟩
  | 1 => ⟨S4x768x768, .i32⟩
  | 2 => ⟨S4x2x200, .i32⟩
  | 3 => ⟨S4x2x200, .i32⟩
  | 4 => ⟨S4x16x589824, .f32⟩
  | 5 => ⟨S4x1x589824, .i32⟩
  | 6 => ⟨S4x17x24, .f32⟩
  | 7 => ⟨S4x1x24, .f32⟩
  | 8 => ⟨S4x24, .f32⟩
  | 9 => ⟨S4x16x24, .f32⟩
  | 10 => ⟨S_, .f32⟩
  | 11 => ⟨S4x24, .f32⟩
  | 12 => ⟨S4x24, .f32⟩
  | 13 => ⟨S4x1x24, .f32⟩
  | 14 => ⟨S4x16x24, .f32⟩
  | 15 => ⟨S4x16x24, .f32⟩
  | 16 => ⟨S4x1x24, .f32⟩
  | 17 => ⟨S4x24, .f32⟩
  | 18 => ⟨S4x24, .f32⟩
  | 19 => ⟨S_, .f32⟩
  | 20 => ⟨S4, .f32⟩
  | 21 => ⟨S_, .f32⟩
  | 22 => ⟨S4, .f32⟩
  | 23 => ⟨S4, .f32⟩
  | 24 => ⟨S4x24x16, .f32⟩
  | 25 => ⟨S4x24x16, .f32⟩
  | 26 => ⟨S_, .f32⟩
  | 27 => ⟨S4x24, .f32⟩
  | 28 => ⟨S4x24, .f32⟩
  | 29 => ⟨S_, .f32⟩
  | 30 => ⟨S4x24, .f32⟩
  | 31 => ⟨S4x24, .f32⟩
  | 32 => ⟨S4x24, .f32⟩
  | 33 => ⟨S_, .f32⟩
  | 34 => ⟨S4, .f32⟩
  | 35 => ⟨S_, .f32⟩
  | 36 => ⟨S4, .f32⟩
  | 37 => ⟨S4, .f32⟩
  | 38 => ⟨S4x2x200x1x1, .i32⟩
  | 39 => ⟨S4x1x1x2x200, .i32⟩
  | 40 => ⟨S4x2x200x2x200, .i32⟩
  | 41 => ⟨S4x2x200x2x200, .i32⟩
  | 42 => ⟨S4x2x200x2x200, .i1⟩
  | 43 => ⟨S4x2x200x2x200, .i32⟩
  | 44 => ⟨S_, .i32⟩
  | 45 => ⟨S4x200x200, .i32⟩
  | 46 => ⟨S_, .i32⟩
  | 47 => ⟨S4x200x200, .i32⟩
  | 48 => ⟨S4x200x200, .i1⟩
  | 49 => ⟨S4x1x200, .i32⟩
  | 50 => ⟨S4x200, .i32⟩
  | 51 => ⟨S_, .i32⟩
  | 52 => ⟨S4x200, .i32⟩
  | 53 => ⟨S4x200, .i1⟩
  | 54 => ⟨S_, .i32⟩
  | 55 => ⟨S4x200, .i32⟩
  | 56 => ⟨S4x200, .i32⟩
  | 57 => ⟨S4x200, .i32⟩
  | 58 => ⟨S4x200x1, .i32⟩
  | 59 => ⟨S4x200x16, .f32⟩
  | 60 => ⟨S4x1x200, .i32⟩
  | 61 => ⟨S4x200, .i32⟩
  | 62 => ⟨S_, .i32⟩
  | 63 => ⟨S4x200, .i32⟩
  | 64 => ⟨S4x200, .i1⟩
  | 65 => ⟨S_, .i32⟩
  | 66 => ⟨S4x200, .i32⟩
  | 67 => ⟨S4x200, .i32⟩
  | 68 => ⟨S4x200, .i32⟩
  | 69 => ⟨S4x200x1, .i32⟩
  | 70 => ⟨S4x200x16, .f32⟩
  | 71 => ⟨S4x200x16, .f32⟩
  | 72 => ⟨S_, .f32⟩
  | 73 => ⟨S4x200x16, .f32⟩
  | 74 => ⟨S4x200x16, .f32⟩
  | 75 => ⟨S4x200x16, .f32⟩
  | 76 => ⟨S_, .f32⟩
  | 77 => ⟨S4x200, .f32⟩
  | 78 => ⟨S4x1x200, .i32⟩
  | 79 => ⟨S4x200, .i32⟩
  | 80 => ⟨S_, .i32⟩
  | 81 => ⟨S4x200, .i32⟩
  | 82 => ⟨S4x200, .i1⟩
  | 83 => ⟨S_, .i32⟩
  | 84 => ⟨S4x200, .i32⟩
  | 85 => ⟨S4x200, .i32⟩
  | 86 => ⟨S4x200, .i32⟩
  | 87 => ⟨S4x200x1, .i32⟩
  | 88 => ⟨S4x200x16, .f32⟩
  | 89 => ⟨S4x1x200, .i32⟩
  | 90 => ⟨S4x200, .i32⟩
  | 91 => ⟨S_, .i32⟩
  | 92 => ⟨S4x200, .i32⟩
  | 93 => ⟨S4x200, .i1⟩
  | 94 => ⟨S_, .i32⟩
  | 95 => ⟨S4x200, .i32⟩
  | 96 => ⟨S4x200, .i32⟩
  | 97 => ⟨S4x200, .i32⟩
  | 98 => ⟨S4x200x1, .i32⟩
  | 99 => ⟨S4x200x16, .f32⟩
  | 100 => ⟨S4x200x16, .f32⟩
  | 101 => ⟨S_, .f32⟩
  | 102 => ⟨S4x200x16, .f32⟩
  | 103 => ⟨S4x200x16, .f32⟩
  | 104 => ⟨S4x200x16, .f32⟩
  | 105 => ⟨S_, .f32⟩
  | 106 => ⟨S4x200, .f32⟩
  | 107 => ⟨S4x200x1, .f32⟩
  | 108 => ⟨S4x1x200, .f32⟩
  | 109 => ⟨S4x200x200, .f32⟩
  | 110 => ⟨S4x200x200, .f32⟩
  | 111 => ⟨S4x200x200, .f32⟩
  | 112 => ⟨S_, .f32⟩
  | 113 => ⟨S4x200x200, .f32⟩
  | 114 => ⟨S4x200x200, .f32⟩
  | 115 => ⟨S_, .f32⟩
  | 116 => ⟨S4x200x200, .f32⟩
  | 117 => ⟨S4x200x200, .f32⟩
  | 118 => ⟨S_, .f32⟩
  | 119 => ⟨S4x200x200, .f32⟩
  | 120 => ⟨S4x200x200, .f32⟩
  | 121 => ⟨S4x200x200, .f32⟩
  | 122 => ⟨S4x200x200, .f32⟩
  | 123 => ⟨S_, .f32⟩
  | 124 => ⟨S4x200x200, .f32⟩
  | 125 => ⟨S4x200x200, .i1⟩
  | 126 => ⟨S4x200x200, .i32⟩
  | 127 => ⟨S_, .i32⟩
  | _ => ⟨S4x16x768x768, .f32⟩

abbrev hbmTy0_1 (i : Nat) : BufTy := match i % 128 with
  | 0 => ⟨S4, .i32⟩
  | 1 => ⟨S4, .f32⟩
  | 2 => ⟨S_, .f32⟩
  | 3 => ⟨S4, .f32⟩
  | 4 => ⟨S4, .i1⟩
  | 5 => ⟨S_, .f32⟩
  | 6 => ⟨S4, .f32⟩
  | 7 => ⟨S4, .f32⟩
  | 8 => ⟨S_, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S_, .f32⟩
  | 24 => ⟨S_, .f32⟩
  | 25 => ⟨S_, .f32⟩
  | 26 => ⟨S_, .f32⟩
  | _ => ⟨S4x16x768x768, .f32⟩

abbrev hbmTy (i : Nat) : BufTy := match i / 128 with
  | 0 => hbmTy0_0 i
  | 1 => hbmTy0_1 i
  | _ => ⟨S4x16x768x768, .f32⟩

abbrev bufTy : (tb : Table) → Fin (tcTables nBuf tb) → BufTy
  | .hbm, ⟨i, _⟩ => hbmTy i
  | .local _ .vmem, ⟨0, _⟩ => ⟨S1x16x49152, .f32⟩
  | .local _ .vmem, ⟨1, _⟩ => ⟨S1x16x49152, .f32⟩
  | .local _ .vmem, ⟨2, _⟩ => ⟨S1x1x49152, .i32⟩
  | .local _ .vmem, ⟨3, _⟩ => ⟨S1x1x49152, .i32⟩
  | .local _ .vmem, ⟨4, _⟩ => ⟨S1x17x24, .f32⟩
  | .local _ .vmem, ⟨5, _⟩ => ⟨S1x17x24, .f32⟩
  | .local _ .vmem, ⟨6, _⟩ => ⟨S24x49152, .i32⟩
  | .local _ .vmem, ⟨7, _⟩ => ⟨S1x16x49152, .f32⟩
  | .local _ .vmem, ⟨8, _⟩ => ⟨S1x16x49152, .f32⟩
  | .local _ .vmem, ⟨9, _⟩ => ⟨S1x1x49152, .i32⟩
  | .local _ .vmem, ⟨10, _⟩ => ⟨S1x1x49152, .i32⟩
  | .local _ .vmem, ⟨11, _⟩ => ⟨S1x16x24, .f32⟩
  | .local _ .vmem, ⟨12, _⟩ => ⟨S1x16x24, .f32⟩
  | .local _ .vmem, ⟨13, _⟩ => ⟨S1x1x24, .f32⟩
  | .local _ .vmem, ⟨14, _⟩ => ⟨S1x1x24, .f32⟩
  | .local _ .vmem, ⟨15, _⟩ => ⟨S24x49152, .i32⟩
  | _, _ => ⟨S4x16x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_12 : Ref sig .tc := ⟨.hbm, 80, rfl⟩
abbrev main_v59 : Ref sig .tc := ⟨.hbm, 81, rfl⟩
abbrev main_v60 : Ref sig .tc := ⟨.hbm, 82, rfl⟩
abbrev main_c_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_14 : Ref sig .tc := ⟨.hbm, 91, rfl⟩
abbrev main_v68 : Ref sig .tc := ⟨.hbm, 92, rfl⟩
abbrev main_v69 : Ref sig .tc := ⟨.hbm, 93, rfl⟩
abbrev main_c_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_17 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_18 : Ref sig .tc := ⟨.hbm, 112, rfl⟩
abbrev main_v85 : Ref sig .tc := ⟨.hbm, 113, rfl⟩
abbrev main_v86 : Ref sig .tc := ⟨.hbm, 114, rfl⟩
abbrev main_cst_19 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_22 : Ref sig .tc := ⟨.hbm, 127, rfl⟩
abbrev main_v96 : Ref sig .tc := ⟨.hbm, 128, rfl⟩
abbrev main_v97 : Ref sig .tc := ⟨.hbm, 129, rfl⟩
abbrev main_cst_23 : Ref sig .tc := ⟨.hbm, 130, rfl⟩
abbrev main_v98 : Ref sig .tc := ⟨.hbm, 131, rfl⟩
abbrev main_v99 : Ref sig .tc := ⟨.hbm, 132, rfl⟩
abbrev main_cst_24 : Ref sig .tc := ⟨.hbm, 133, rfl⟩
abbrev main_v100 : Ref sig .tc := ⟨.hbm, 134, rfl⟩
abbrev main_v101 : Ref sig .tc := ⟨.hbm, 135, rfl⟩
abbrev main_cst_25 : Ref sig .tc := ⟨.hbm, 136, rfl⟩
abbrev main_call1_v0 : Ref sig .tc := ⟨.hbm, 137, rfl⟩
abbrev main_call1_v1 : Ref sig .tc := ⟨.hbm, 138, rfl⟩
abbrev main_v102 : Ref sig .tc := ⟨.hbm, 139, rfl⟩
abbrev main_cst_26 : Ref sig .tc := ⟨.hbm, 140, rfl⟩
abbrev main_v103 : Ref sig .tc := ⟨.hbm, 141, rfl⟩
abbrev main_v104 : Ref sig .tc := ⟨.hbm, 142, rfl⟩
abbrev main_cst_27 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_28 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_29 : Ref sig .tc := ⟨.hbm, 151, rfl⟩
abbrev main_v111 : Ref sig .tc := ⟨.hbm, 152, rfl⟩
abbrev main_cst_30 : Ref sig .tc := ⟨.hbm, 153, rfl⟩
abbrev main_v112 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x49152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x49152 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x17x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 12], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x49152 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x49152 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x24 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x16x768x768_S4x16x589824 : S4x16x768x768.ShapeCasts S4x16x589824
  shapeCasts_S4x768x768_S4x1x589824 : S4x768x768.ShapeCasts S4x1x589824
  inb_S1x17x24_S1x17x24_0_0_0 : ∀ a, (![0, 0, 0] : Fin 3 → Nat) a + S1x17x24.size a ≤ S1x17x24.size a
  h_S1x17x24 : 0 < S1x17x24.numel
  iota_S24x49152_d0_w32 : S24x49152.Iotas .tc 32 [0]
  inb_S24x49152_S24x49152_0_0 : ∀ a, (![0, 0] : Fin 2 → Nat) a + S24x49152.size a ≤ S24x49152.size a
  h_S24x49152 : 0 < S24x49152.numel
  shapeCasts_S24x49152_S24x49152 : S24x49152.ShapeCasts S24x49152
  inb_S1x16x49152_S1x16x49152_0_0_0 : ∀ a, (![0, 0, 0] : Fin 3 → Nat) a + S1x16x49152.size a ≤ S1x16x49152.size a
  h_S1x16x49152 : 0 < S1x16x49152.numel
  shapeCasts_S1x16x49152_S16x49152 : S1x16x49152.ShapeCasts S16x49152
  inb_S1x1x49152_S1x1x49152_0_0_0 : ∀ a, (![0, 0, 0] : Fin 3 → Nat) a + S1x1x49152.size a ≤ S1x1x49152.size a
  h_S1x1x49152 : 0 < S1x1x49152.numel
  shapeCasts_S1x1x49152_S1x49152 : S1x1x49152.ShapeCasts S1x49152
  broadcasts_S1x49152_S24x49152 : S1x49152.Broadcasts S24x49152
  natLt_1_32 : 1 < 32
  bitsLt_bf16_f32 : FTy.bits .bf16 < FTy.bits .f32
  concatenates_S16x24_S1x24_S17x24_d0 : Shape.Concatenates [S16x24, S1x24] S17x24 0
  shapeCasts_S1x17x24_S17x24 : S1x17x24.ShapeCasts S17x24
  shapeCasts_S17x24_S1x17x24 : S17x24.ShapeCasts S1x17x24
  slices_S4x17x24_S4x1x24_0_16_0 : S4x17x24.Slices ![0, 16, 0] S4x1x24
  shapeCasts_S4x1x24_S4x24 : S4x1x24.ShapeCasts S4x24
  slices_S4x17x24_S4x16x24_0_0_0 : S4x17x24.Slices ![0, 0, 0] S4x16x24
  bcast_S_S4x24 : S_.BroadcastsInDim S4x24 (![] : Fin 0 → Fin S4x24.rank)
  bcast_S4x24_S4x1x24_0_2 : S4x24.BroadcastsInDim S4x1x24 (![0, 2] : Fin 2 → Fin S4x1x24.rank)
  bcast_S4x1x24_S4x16x24_0_1_2 : S4x1x24.BroadcastsInDim S4x16x24 (![0, 1, 2] : Fin 3 → Fin S4x16x24.rank)
  inb_S1x1x24_S1x1x24_0_0_0 : ∀ a, (![0, 0, 0] : Fin 3 → Nat) a + S1x1x24.size a ≤ S1x1x24.size a
  h_S1x1x24 : 0 < S1x1x24.numel
  inb_S1x16x24_S1x16x24_0_0_0 : ∀ a, (![0, 0, 0] : Fin 3 → Nat) a + S1x16x24.size a ≤ S1x16x24.size a
  h_S1x16x24 : 0 < S1x16x24.numel
  shapeCasts_S1x16x24_S16x24 : S1x16x24.ShapeCasts S16x24
  reduces_S16x49152_S49152 : S16x49152.Reduces [0] S49152
  shapeCasts_S49152_S1x49152 : S49152.ShapeCasts S1x49152
  shapeCasts_S1x1x24_S1x24 : S1x1x24.ShapeCasts S1x24
  shapeCasts_S1x24_S1x1x24 : S1x24.ShapeCasts S1x1x24
  reducesTo_S4x24_S4_d1 : S4x24.ReducesTo [1] S4
  h_S_ : 0 < S_.numel
  bcast_S_S4 : S_.BroadcastsInDim S4 (![] : Fin 0 → Fin S4.rank)
  transposes_S4x16x24_S4x24x16_0_2_1 : S4x16x24.Transposes [0, 2, 1] S4x24x16
  reducesTo_S4x24x16_S4x24_d2 : S4x24x16.ReducesTo [2] S4x24
  bcast_S4x2x200_S4x2x200x1x1_0_1_2 : S4x2x200.BroadcastsInDim S4x2x200x1x1 (![0, 1, 2] : Fin 3 → Fin S4x2x200x1x1.rank)
  bcast_S4x2x200_S4x1x1x2x200_0_3_4 : S4x2x200.BroadcastsInDim S4x1x1x2x200 (![0, 3, 4] : Fin 3 → Fin S4x1x1x2x200.rank)
  bcast_S4x2x200x1x1_S4x2x200x2x200_0_1_2_3_4 : S4x2x200x1x1.BroadcastsInDim S4x2x200x2x200 (![0, 1, 2, 3, 4] : Fin 5 → Fin S4x2x200x2x200.rank)
  bcast_S4x1x1x2x200_S4x2x200x2x200_0_1_2_3_4 : S4x1x1x2x200.BroadcastsInDim S4x2x200x2x200 (![0, 1, 2, 3, 4] : Fin 5 → Fin S4x2x200x2x200.rank)
  reducesTo_S4x2x200x2x200_S4x200x200_d1_3 : S4x2x200x2x200.ReducesTo [1, 3] S4x200x200
  bcast_S_S4x200x200 : S_.BroadcastsInDim S4x200x200 (![] : Fin 0 → Fin S4x200x200.rank)
  slices_S4x2x200_S4x1x200_0_0_0 : S4x2x200.Slices ![0, 0, 0] S4x1x200
  shapeCasts_S4x1x200_S4x200 : S4x1x200.ShapeCasts S4x200
  bcast_S_S4x200 : S_.BroadcastsInDim S4x200 (![] : Fin 0 → Fin S4x200.rank)
  bcast_S4x200_S4x200x1_0_1 : S4x200.BroadcastsInDim S4x200x1 (![0, 1] : Fin 2 → Fin S4x200x1.rank)
  slices_S4x2x200_S4x1x200_0_1_0 : S4x2x200.Slices ![0, 1, 0] S4x1x200
  bcast_S_S4x200x16 : S_.BroadcastsInDim S4x200x16 (![] : Fin 0 → Fin S4x200x16.rank)
  reducesTo_S4x200x16_S4x200_d2 : S4x200x16.ReducesTo [2] S4x200
  bcast_S4x200_S4x1x200_0_2 : S4x200.BroadcastsInDim S4x1x200 (![0, 2] : Fin 2 → Fin S4x1x200.rank)
  bcast_S4x200x1_S4x200x200_0_1_2 : S4x200x1.BroadcastsInDim S4x200x200 (![0, 1, 2] : Fin 3 → Fin S4x200x200.rank)
  bcast_S4x1x200_S4x200x200_0_1_2 : S4x1x200.BroadcastsInDim S4x200x200 (![0, 1, 2] : Fin 3 → Fin S4x200x200.rank)
  reducesTo_S4x200x200_S4_d1_2 : S4x200x200.ReducesTo [1, 2] S4
  reducesTo_S4_S_d0 : S4.ReducesTo [0] S_
  dot_S16x49152_S24x49152_S16x24_1_1_0_0_n_n_wf : DotDims.WF S16x49152 S24x49152 S16x24 [1] [1] [0] [0] [] []
  dot_S1x49152_S24x49152_S1x24_1_1_0_0_n_n_wf : DotDims.WF S1x49152 S24x49152 S1x24 [1] [1] [0] [0] [] []
  dot_S16x24_S24x49152_S16x49152_1_0_0_1_n_n_wf : DotDims.WF S16x24 S24x49152 S16x49152 [1] [0] [0] [1] [] []
  gather_S4x24x16_S4x200x1_S4x200x16_2_1_0_0_1_2_1116_wf : GatherDims.WF S4x24x16 S4x200x1 S4x200x16 [2] [1] [0] [1] [0] 2 ![1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x49152.size a ≤ S4x16x589824.size a
  hwx0_0 : ∀ i : grid0.Coords, EltTy.bits .f32 = 32 ∨ (Rect.block (s := S4x16x589824) S1x16x49152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x49152.size a ≤ S4x1x589824.size a
  hwx0_1 : ∀ i : grid0.Coords, EltTy.bits .i32 = 32 ∨ (Rect.block (s := S4x1x589824) S1x1x49152.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x17x24.size a ≤ S4x17x24.size a
  hwx0_2 : ∀ i : grid0.Coords, EltTy.bits .f32 = 32 ∨ (Rect.block (s := S4x17x24) S1x17x24.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x49152.size a ≤ S4x16x589824.size a
  hwx1_0 : ∀ i : grid1.Coords, EltTy.bits .f32 = 32 ∨ (Rect.block (s := S4x16x589824) S1x16x49152.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x49152.size a ≤ S4x1x589824.size a
  hwx1_1 : ∀ i : grid1.Coords, EltTy.bits .i32 = 32 ∨ (Rect.block (s := S4x1x589824) S1x1x49152.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x24.size a ≤ S4x16x24.size a
  hwx1_2 : ∀ i : grid1.Coords, EltTy.bits .f32 = 32 ∨ (Rect.block (s := S4x16x24) S1x16x24.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x24.size a ≤ S4x1x24.size a
  hwx1_3 : ∀ i : grid1.Coords, EltTy.bits .f32 = 32 ∨ (Rect.block (s := S4x1x24) S1x1x24.size (cc1_transform_3 i) (hinb1_3 i)).WholeWords (EltTy.packing .f32)

variable [Facts₀]

def dot_S16x49152_S24x49152_S16x24_1_1_0_0_n_n : DotDims S16x49152 S24x49152 S16x24 where
  lhsContracting := [1]
  rhsContracting := [1]
  lhsNonContracting := [0]
  rhsNonContracting := [0]
  lhsBatch := []
  rhsBatch := []
  wf := dot_S16x49152_S24x49152_S16x24_1_1_0_0_n_n_wf
def dot_S1x49152_S24x49152_S1x24_1_1_0_0_n_n : DotDims S1x49152 S24x49152 S1x24 where
  lhsContracting := [1]
  rhsContracting := [1]
  lhsNonContracting := [0]
  rhsNonContracting := [0]
  lhsBatch := []
  rhsBatch := []
  wf := dot_S1x49152_S24x49152_S1x24_1_1_0_0_n_n_wf
def dot_S16x24_S24x49152_S16x49152_1_0_0_1_n_n : DotDims S16x24 S24x49152 S16x49152 where
  lhsContracting := [1]
  rhsContracting := [0]
  lhsNonContracting := [0]
  rhsNonContracting := [1]
  lhsBatch := []
  rhsBatch := []
  wf := dot_S16x24_S24x49152_S16x49152_1_0_0_1_n_n_wf
def gather_S4x24x16_S4x200x1_S4x200x16_2_1_0_0_1_2_1116 : GatherDims S4x24x16 S4x200x1 S4x200x16 where
  offsetDims := [2]
  collapsedSliceDims := [1]
  operandBatchingDims := [0]
  startIndicesBatchingDims := [0]
  startIndexMap := [1]
  indexVectorDim := 2
  sliceSizes := ![1, 1, 16]
  wf := gather_S4x24x16_S4x200x1_S4x200x16_2_1_0_0_1_2_1116_wf

abbrev win0_0 : Pipeline.Window sig grid0 :=
  Pipeline.Window.ofSpec (Memref.whole main_v0) S1x16x49152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x49152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x17x24.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x16x49152.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x49152.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x16x24.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1x24.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x16x768x768 : Shape := ⟨4, ![4, 16, 768, 768]⟩
abbrev S4x768x768 : Shape := ⟨3, ![4, 768, 768]⟩
abbrev S4x2x200 : Shape := ⟨3, ![4, 2, 200]⟩
abbrev S4x768x768x16 : Shape := ⟨4, ![4, 768, 768, 16]⟩
abbrev S2359296x16 : Shape := ⟨2, ![2359296, 16]⟩
abbrev S4 : Shape := ⟨1, ![4]⟩
abbrev S4x1x1 : Shape := ⟨3, ![4, 1, 1]⟩
abbrev S_ : Shape := ⟨0, ![]⟩
abbrev S2359296 : Shape := ⟨1, ![2359296]⟩
abbrev S96 : Shape := ⟨1, ![96]⟩
abbrev S2359296x1 : Shape := ⟨2, ![2359296, 1]⟩
abbrev S96x16 : Shape := ⟨2, ![96, 16]⟩
abbrev S96x1 : Shape := ⟨2, ![96, 1]⟩
abbrev S4x24 : Shape := ⟨2, ![4, 24]⟩
abbrev S4x24x16 : Shape := ⟨3, ![4, 24, 16]⟩
abbrev S4x2x200x1x1 : Shape := ⟨5, ![4, 2, 200, 1, 1]⟩
abbrev S4x1x1x2x200 : Shape := ⟨5, ![4, 1, 1, 2, 200]⟩
abbrev S4x2x200x2x200 : Shape := ⟨5, ![4, 2, 200, 2, 200]⟩
abbrev S4x200x200 : Shape := ⟨3, ![4, 200, 200]⟩
abbrev S4x1x200 : Shape := ⟨3, ![4, 1, 200]⟩
abbrev S4x200 : Shape := ⟨2, ![4, 200]⟩
abbrev S4x200x1 : Shape := ⟨3, ![4, 200, 1]⟩
abbrev S4x200x16 : Shape := ⟨3, ![4, 200, 16]⟩

abbrev nBuf : Space → Nat
  | .hbm => 191
  | .vmem => 0
  | .smem => 0
  | _ => 0

abbrev hbmTy0_0 (i : Nat) : BufTy := match i % 128 with
  | 0 => ⟨S4x16x768x768, .f32⟩
  | 1 => ⟨S4x768x768, .i32⟩
  | 2 => ⟨S4x2x200, .i32⟩
  | 3 => ⟨S4x2x200, .i32⟩
  | 4 => ⟨S4x768x768x16, .f32⟩
  | 5 => ⟨S2359296x16, .f32⟩
  | 6 => ⟨S4, .i32⟩
  | 7 => ⟨S4x1x1, .i32⟩
  | 8 => ⟨S_, .i32⟩
  | 9 => ⟨S4x1x1, .i32⟩
  | 10 => ⟨S4x1x1, .i32⟩
  | 11 => ⟨S4x768x768, .i32⟩
  | 12 => ⟨S4x768x768, .i32⟩
  | 13 => ⟨S2359296, .i32⟩
  | 14 => ⟨S_, .f32⟩
  | 15 => ⟨S2359296, .f32⟩
  | 16 => ⟨S_, .f32⟩
  | 17 => ⟨S96, .f32⟩
  | 18 => ⟨S2359296x1, .i32⟩
  | 19 => ⟨S96, .f32⟩
  | 20 => ⟨S_, .f32⟩
  | 21 => ⟨S96x16, .f32⟩
  | 22 => ⟨S2359296x1, .i32⟩
  | 23 => ⟨S96x16, .f32⟩
  | 24 => ⟨S96x1, .f32⟩
  | 25 => ⟨S96x16, .f32⟩
  | 26 => ⟨S96x16, .f32⟩
  | 27 => ⟨S_, .i32⟩
  | 28 => ⟨S2359296, .i32⟩
  | 29 => ⟨S2359296, .i1⟩
  | 30 => ⟨S_, .i32⟩
  | 31 => ⟨S2359296, .i32⟩
  | 32 => ⟨S2359296, .i32⟩
  | 33 => ⟨S2359296, .i32⟩
  | 34 => ⟨S2359296x1, .i32⟩
  | 35 => ⟨S2359296x16, .f32⟩
  | 36 => ⟨S2359296x16, .f32⟩
  | 37 => ⟨S2359296x16, .f32⟩
  | 38 => ⟨S_, .f32⟩
  | 39 => ⟨S2359296, .f32⟩
  | 40 => ⟨S2359296, .f32⟩
  | 41 => ⟨S_, .f32⟩
  | 42 => ⟨S2359296, .f32⟩
  | 43 => ⟨S2359296, .f32⟩
  | 44 => ⟨S_, .f32⟩
  | 45 => ⟨S2359296, .f32⟩
  | 46 => ⟨S2359296, .f32⟩
  | 47 => ⟨S2359296, .f32⟩
  | 48 => ⟨S_, .f32⟩
  | 49 => ⟨S96, .f32⟩
  | 50 => ⟨S2359296x1, .i32⟩
  | 51 => ⟨S96, .f32⟩
  | 52 => ⟨S4x24, .f32⟩
  | 53 => ⟨S4x24, .f32⟩
  | 54 => ⟨S4x24, .f32⟩
  | 55 => ⟨S_, .f32⟩
  | 56 => ⟨S4, .f32⟩
  | 57 => ⟨S_, .f32⟩
  | 58 => ⟨S4, .f32⟩
  | 59 => ⟨S4, .f32⟩
  | 60 => ⟨S4x24x16, .f32⟩
  | 61 => ⟨S4x24x16, .f32⟩
  | 62 => ⟨S_, .f32⟩
  | 63 => ⟨S4x24, .f32⟩
  | 64 => ⟨S4x24, .f32⟩
  | 65 => ⟨S_, .f32⟩
  | 66 => ⟨S4x24, .f32⟩
  | 67 => ⟨S4x24, .f32⟩
  | 68 => ⟨S4x24, .f32⟩
  | 69 => ⟨S_, .f32⟩
  | 70 => ⟨S4, .f32⟩
  | 71 => ⟨S_, .f32⟩
  | 72 => ⟨S4, .f32⟩
  | 73 => ⟨S4, .f32⟩
  | 74 => ⟨S4x2x200x1x1, .i32⟩
  | 75 => ⟨S4x1x1x2x200, .i32⟩
  | 76 => ⟨S4x2x200x2x200, .i32⟩
  | 77 => ⟨S4x2x200x2x200, .i32⟩
  | 78 => ⟨S4x2x200x2x200, .i1⟩
  | 79 => ⟨S4x2x200x2x200, .i32⟩
  | 80 => ⟨S_, .i32⟩
  | 81 => ⟨S4x200x200, .i32⟩
  | 82 => ⟨S_, .i32⟩
  | 83 => ⟨S4x200x200, .i32⟩
  | 84 => ⟨S4x200x200, .i1⟩
  | 85 => ⟨S4x1x200, .i32⟩
  | 86 => ⟨S4x200, .i32⟩
  | 87 => ⟨S_, .i32⟩
  | 88 => ⟨S4x200, .i32⟩
  | 89 => ⟨S4x200, .i1⟩
  | 90 => ⟨S_, .i32⟩
  | 91 => ⟨S4x200, .i32⟩
  | 92 => ⟨S4x200, .i32⟩
  | 93 => ⟨S4x200, .i32⟩
  | 94 => ⟨S4x200x1, .i32⟩
  | 95 => ⟨S4x200x16, .f32⟩
  | 96 => ⟨S4x1x200, .i32⟩
  | 97 => ⟨S4x200, .i32⟩
  | 98 => ⟨S_, .i32⟩
  | 99 => ⟨S4x200, .i32⟩
  | 100 => ⟨S4x200, .i1⟩
  | 101 => ⟨S_, .i32⟩
  | 102 => ⟨S4x200, .i32⟩
  | 103 => ⟨S4x200, .i32⟩
  | 104 => ⟨S4x200, .i32⟩
  | 105 => ⟨S4x200x1, .i32⟩
  | 106 => ⟨S4x200x16, .f32⟩
  | 107 => ⟨S4x200x16, .f32⟩
  | 108 => ⟨S_, .f32⟩
  | 109 => ⟨S4x200x16, .f32⟩
  | 110 => ⟨S4x200x16, .f32⟩
  | 111 => ⟨S4x200x16, .f32⟩
  | 112 => ⟨S_, .f32⟩
  | 113 => ⟨S4x200, .f32⟩
  | 114 => ⟨S4x1x200, .i32⟩
  | 115 => ⟨S4x200, .i32⟩
  | 116 => ⟨S_, .i32⟩
  | 117 => ⟨S4x200, .i32⟩
  | 118 => ⟨S4x200, .i1⟩
  | 119 => ⟨S_, .i32⟩
  | 120 => ⟨S4x200, .i32⟩
  | 121 => ⟨S4x200, .i32⟩
  | 122 => ⟨S4x200, .i32⟩
  | 123 => ⟨S4x200x1, .i32⟩
  | 124 => ⟨S4x200x16, .f32⟩
  | 125 => ⟨S4x1x200, .i32⟩
  | 126 => ⟨S4x200, .i32⟩
  | 127 => ⟨S_, .i32⟩
  | _ => ⟨S4x16x768x768, .f32⟩

abbrev hbmTy0_1 (i : Nat) : BufTy := match i % 128 with
  | 0 => ⟨S4x200, .i32⟩
  | 1 => ⟨S4x200, .i1⟩
  | 2 => ⟨S_, .i32⟩
  | 3 => ⟨S4x200, .i32⟩
  | 4 => ⟨S4x200, .i32⟩
  | 5 => ⟨S4x200, .i32⟩
  | 6 => ⟨S4x200x1, .i32⟩
  | 7 => ⟨S4x200x16, .f32⟩
  | 8 => ⟨S4x200x16, .f32⟩
  | 9 => ⟨S_, .f32⟩
  | 10 => ⟨S4x200x16, .f32⟩
  | 11 => ⟨S4x200x16, .f32⟩
  | 12 => ⟨S4x200x16, .f32⟩
  | 13 => ⟨S_, .f32⟩
  | 14 => ⟨S4x200, .f32⟩
  | 15 => ⟨S4x200x1, .f32⟩
  | 16 => ⟨S4x1x200, .f32⟩
  | 17 => ⟨S4x200x200, .f32⟩
  | 18 => ⟨S4x200x200, .f32⟩
  | 19 => ⟨S4x200x200, .f32⟩
  | 20 => ⟨S_, .f32⟩
  | 21 => ⟨S4x200x200, .f32⟩
  | 22 => ⟨S4x200x200, .f32⟩
  | 23 => ⟨S_, .f32⟩
  | 24 => ⟨S4x200x200, .f32⟩
  | 25 => ⟨S4x200x200, .f32⟩
  | 26 => ⟨S_, .f32⟩
  | 27 => ⟨S4x200x200, .f32⟩
  | 28 => ⟨S4x200x200, .f32⟩
  | 29 => ⟨S4x200x200, .f32⟩
  | 30 => ⟨S4x200x200, .f32⟩
  | 31 => ⟨S_, .f32⟩
  | 32 => ⟨S4x200x200, .f32⟩
  | 33 => ⟨S4x200x200, .i1⟩
  | 34 => ⟨S4x200x200, .i32⟩
  | 35 => ⟨S_, .i32⟩
  | 36 => ⟨S4, .i32⟩
  | 37 => ⟨S4, .f32⟩
  | 38 => ⟨S_, .f32⟩
  | 39 => ⟨S4, .f32⟩
  | 40 => ⟨S4, .i1⟩
  | 41 => ⟨S_, .f32⟩
  | 42 => ⟨S4, .f32⟩
  | 43 => ⟨S4, .f32⟩
  | 44 => ⟨S_, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S_, .f32⟩
  | 52 => ⟨S4, .f32⟩
  | 53 => ⟨S4, .f32⟩
  | 54 => ⟨S4, .f32⟩
  | 55 => ⟨S_, .f32⟩
  | 56 => ⟨S4, .f32⟩
  | 57 => ⟨S4, .f32⟩
  | 58 => ⟨S4, .f32⟩
  | 59 => ⟨S_, .f32⟩
  | 60 => ⟨S_, .f32⟩
  | 61 => ⟨S_, .f32⟩
  | 62 => ⟨S_, .f32⟩
  | _ => ⟨S4x16x768x768, .f32⟩

abbrev hbmTy (i : Nat) : BufTy := match i / 128 with
  | 0 => hbmTy0_0 i
  | 1 => hbmTy0_1 i
  | _ => ⟨S4x16x768x768, .f32⟩

abbrev bufTy : (tb : Table) → Fin (tcTables nBuf tb) → BufTy
  | .hbm, ⟨i, _⟩ => hbmTy i
  | _, _ => ⟨S4x16x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_v0 : Ref sig .tc := ⟨.hbm, 61, rfl⟩
abbrev main_call1_cst : Ref sig .tc := ⟨.hbm, 62, rfl⟩
abbrev main_call1_v1 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_18 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_c_21 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_22 : Ref sig .tc := ⟨.hbm, 127, rfl⟩
abbrev main_v93 : Ref sig .tc := ⟨.hbm, 128, rfl⟩
abbrev main_v94 : Ref sig .tc := ⟨.hbm, 129, rfl⟩
abbrev main_c_23 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_24 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_25 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_26 : Ref sig .tc := ⟨.hbm, 148, rfl⟩
abbrev main_v110 : Ref sig .tc := ⟨.hbm, 149, rfl⟩
abbrev main_v111 : Ref sig .tc := ⟨.hbm, 150, rfl⟩
abbrev main_cst_27 : Ref sig .tc := ⟨.hbm, 151, rfl⟩
abbrev main_v112 : Ref sig .tc := ⟨.hbm, 152, rfl⟩
abbrev main_v113 : Ref sig .tc := ⟨.hbm, 153, rfl⟩
abbrev main_cst_28 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_29 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_30 : Ref sig .tc := ⟨.hbm, 163, rfl⟩
abbrev main_v121 : Ref sig .tc := ⟨.hbm, 164, rfl⟩
abbrev main_v122 : Ref sig .tc := ⟨.hbm, 165, rfl⟩
abbrev main_cst_31 : Ref sig .tc := ⟨.hbm, 166, rfl⟩
abbrev main_v123 : Ref sig .tc := ⟨.hbm, 167, rfl⟩
abbrev main_v124 : Ref sig .tc := ⟨.hbm, 168, rfl⟩
abbrev main_cst_32 : Ref sig .tc := ⟨.hbm, 169, rfl⟩
abbrev main_v125 : Ref sig .tc := ⟨.hbm, 170, rfl⟩
abbrev main_v126 : Ref sig .tc := ⟨.hbm, 171, rfl⟩
abbrev main_cst_33 : Ref sig .tc := ⟨.hbm, 172, rfl⟩
abbrev main_call2_v0 : Ref sig .tc := ⟨.hbm, 173, rfl⟩
abbrev main_call2_v1 : Ref sig .tc := ⟨.hbm, 174, rfl⟩
abbrev main_v127 : Ref sig .tc := ⟨.hbm, 175, rfl⟩
abbrev main_cst_34 : Ref sig .tc := ⟨.hbm, 176, rfl⟩
abbrev main_v128 : Ref sig .tc := ⟨.hbm, 177, rfl⟩
abbrev main_v129 : Ref sig .tc := ⟨.hbm, 178, rfl⟩
abbrev main_cst_35 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_36 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_37 : Ref sig .tc := ⟨.hbm, 187, rfl⟩
abbrev main_v136 : Ref sig .tc := ⟨.hbm, 188, rfl⟩
abbrev main_cst_38 : Ref sig .tc := ⟨.hbm, 189, rfl⟩
abbrev main_v137 : Ref sig .tc := ⟨.hbm, 190, rfl⟩

abbrev nD : Nat := 1
abbrev τ : Topo := Topo.v7x

variable {F : FTy → Type} [FloatOps F]

class Facts₀ : Prop where
  transposes_S4x16x768x768_S4x768x768x16_0_2_3_1 : S4x16x768x768.Transposes [0, 2, 3, 1] S4x768x768x16
  shapeCasts_S4x768x768x16_S2359296x16 : S4x768x768x16.ShapeCasts S2359296x16
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x768x768_0_1_2 : S4x1x1.BroadcastsInDim S4x768x768 (![0, 1, 2] : Fin 3 → Fin S4x768x768.rank)
  shapeCasts_S4x768x768_S2359296 : S4x768x768.ShapeCasts S2359296
  bcast_S_S2359296 : S_.BroadcastsInDim S2359296 (![] : Fin 0 → Fin S2359296.rank)
  bcast_S_S96 : S_.BroadcastsInDim S96 (![] : Fin 0 → Fin S96.rank)
  bcast_S2359296_S2359296x1_0 : S2359296.BroadcastsInDim S2359296x1 (![0] : Fin 1 → Fin S2359296x1.rank)
  bcast_S_S96x16 : S_.BroadcastsInDim S96x16 (![] : Fin 0 → Fin S96x16.rank)
  bcast_S96_S96x1_0 : S96.BroadcastsInDim S96x1 (![0] : Fin 1 → Fin S96x1.rank)
  bcast_S96x1_S96x16_0_1 : S96x1.BroadcastsInDim S96x16 (![0, 1] : Fin 2 → Fin S96x16.rank)
  reducesTo_S2359296x16_S2359296_d1 : S2359296x16.ReducesTo [1] S2359296
  h_S_ : 0 < S_.numel
  shapeCasts_S96_S4x24 : S96.ShapeCasts S4x24
  reducesTo_S4x24_S4_d1 : S4x24.ReducesTo [1] S4
  bcast_S_S4 : S_.BroadcastsInDim S4 (![] : Fin 0 → Fin S4.rank)
  shapeCasts_S96x16_S4x24x16 : S96x16.ShapeCasts S4x24x16
  reducesTo_S4x24x16_S4x24_d2 : S4x24x16.ReducesTo [2] S4x24
  bcast_S_S4x24 : S_.BroadcastsInDim S4x24 (![] : Fin 0 → Fin S4x24.rank)
  bcast_S4x2x200_S4x2x200x1x1_0_1_2 : S4x2x200.BroadcastsInDim S4x2x200x1x1 (![0, 1, 2] : Fin 3 → Fin S4x2x200x1x1.rank)
  bcast_S4x2x200_S4x1x1x2x200_0_3_4 : S4x2x200.BroadcastsInDim S4x1x1x2x200 (![0, 3, 4] : Fin 3 → Fin S4x1x1x2x200.rank)
  bcast_S4x2x200x1x1_S4x2x200x2x200_0_1_2_3_4 : S4x2x200x1x1.BroadcastsInDim S4x2x200x2x200 (![0, 1, 2, 3, 4] : Fin 5 → Fin S4x2x200x2x200.rank)
  bcast_S4x1x1x2x200_S4x2x200x2x200_0_1_2_3_4 : S4x1x1x2x200.BroadcastsInDim S4x2x200x2x200 (![0, 1, 2, 3, 4] : Fin 5 → Fin S4x2x200x2x200.rank)
  natLt_1_32 : 1 < 32
  reducesTo_S4x2x200x2x200_S4x200x200_d1_3 : S4x2x200x2x200.ReducesTo [1, 3] S4x200x200
  bcast_S_S4x200x200 : S_.BroadcastsInDim S4x200x200 (![] : Fin 0 → Fin S4x200x200.rank)
  slices_S4x2x200_S4x1x200_0_0_0 : S4x2x200.Slices ![0, 0, 0] S4x1x200
  shapeCasts_S4x1x200_S4x200 : S4x1x200.ShapeCasts S4x200
  bcast_S_S4x200 : S_.BroadcastsInDim S4x200 (![] : Fin 0 → Fin S4x200.rank)
  bcast_S4x200_S4x200x1_0_1 : S4x200.BroadcastsInDim S4x200x1 (![0, 1] : Fin 2 → Fin S4x200x1.rank)
  slices_S4x2x200_S4x1x200_0_1_0 : S4x2x200.Slices ![0, 1, 0] S4x1x200
  bcast_S_S4x200x16 : S_.BroadcastsInDim S4x200x16 (![] : Fin 0 → Fin S4x200x16.rank)
  reducesTo_S4x200x16_S4x200_d2 : S4x200x16.ReducesTo [2] S4x200
  bcast_S4x200_S4x1x200_0_2 : S4x200.BroadcastsInDim S4x1x200 (![0, 2] : Fin 2 → Fin S4x1x200.rank)
  bcast_S4x200x1_S4x200x200_0_1_2 : S4x200x1.BroadcastsInDim S4x200x200 (![0, 1, 2] : Fin 3 → Fin S4x200x200.rank)
  bcast_S4x1x200_S4x200x200_0_1_2 : S4x1x200.BroadcastsInDim S4x200x200 (![0, 1, 2] : Fin 3 → Fin S4x200x200.rank)
  reducesTo_S4x200x200_S4_d1_2 : S4x200x200.ReducesTo [1, 2] S4
  reducesTo_S4_S_d0 : S4.ReducesTo [0] S_
  scatter_S96_S2359296x1_S2359296_n_0_0_1_wf : ScatterDims.WF S96 S2359296x1 S2359296 [] [0] [0] 1
  scatter_S96x16_S2359296x1_S2359296x16_1_0_0_1_wf : ScatterDims.WF S96x16 S2359296x1 S2359296x16 [1] [0] [0] 1
  gather_S96x16_S2359296x1_S2359296x16_1_0_n_n_0_1_116_wf : GatherDims.WF S96x16 S2359296x1 S2359296x16 [1] [0] [] [0] [] 1 ![1, 16]
  gather_S4x24x16_S4x200x1_S4x200x16_2_1_0_0_1_2_1116_wf : GatherDims.WF S4x24x16 S4x200x1 S4x200x16 [2] [1] [0] [1] [0] 2 ![1, 1, 16]

variable [Facts₀]

def scatter_S96_S2359296x1_S2359296_n_0_0_1 : ScatterDims S96 S2359296x1 S2359296 where
  updateWindowDims := []
  insertedWindowDims := [0]
  scatterDimsToOperandDims := [0]
  indexVectorDim := 1
  wf := scatter_S96_S2359296x1_S2359296_n_0_0_1_wf
def scatter_S96x16_S2359296x1_S2359296x16_1_0_0_1 : ScatterDims S96x16 S2359296x1 S2359296x16 where
  updateWindowDims := [1]
  insertedWindowDims := [0]
  scatterDimsToOperandDims := [0]
  indexVectorDim := 1
  wf := scatter_S96x16_S2359296x1_S2359296x16_1_0_0_1_wf
def gather_S96x16_S2359296x1_S2359296x16_1_0_n_n_0_1_116 : GatherDims S96x16 S2359296x1 S2359296x16 where
  offsetDims := [1]
  collapsedSliceDims := [0]
  operandBatchingDims := []
  startIndicesBatchingDims := []
  startIndexMap := [0]
  indexVectorDim := 1
  sliceSizes := ![1, 16]
  wf := gather_S96x16_S2359296x1_S2359296x16_1_0_n_n_0_1_116_wf
def gather_S4x24x16_S4x200x1_S4x200x16_2_1_0_0_1_2_1116 : GatherDims S4x24x16 S4x200x1 S4x200x16 where
  offsetDims := [2]
  collapsedSliceDims := [1]
  operandBatchingDims := [0]
  startIndicesBatchingDims := [0]
  startIndexMap := [1]
  indexVectorDim := 2
  sliceSizes := ![1, 1, 16]
  wf := gather_S4x24x16_S4x200x1_S4x200x16_2_1_0_0_1_2_1116_wf

class Facts : Prop extends Facts₀ where

variable [Facts]
-- ==== Proof.KRegion0.lean ====
/- Region 0 of the two-region program (the pallas_call that sums the blocks per label), at the TensorCore's
   buffer contents on entry: the windows' blocks, the accumulator the output window's staging buffer holds point by
   point, the pipeline's proof data with the invariant that tracks the label table kept in scratch between points,
   the body's two triples (the first point of each run of twelve; every other point) and the body obligation. -/
import proofs.«427995_j35871566856560_2_alg».proof.Proof.Gen.Kernel.Launch
import proofs.«427995_j35871566856560_2_alg».proof.Proof.Gen.Kernel.Skeleton
import proofs.«427995_j35871566856560_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator -/

/-- What the output window's staging buffer holds after point `n`: the point's contribution added to zeros at the
    first point of each run of twelve, to what the point before left at the others. -/
def acc0 (c : Dev nD) : ℕ → Vec F S1x17x24 .f32
  | 0 => if h : 0 < cfg0.N then Gen.k0_pay3 (iblk0 V c 0 ⟨0, h⟩) (iblk0 V c 1 ⟨0, h⟩) Gen.k0_pay2 Gen.k0_pay1 else Gen.k0_pay1
  | n + 1 => if h : n + 1 < cfg0.N then
      Gen.k0_pay3 (iblk0 V c 0 ⟨n + 1, h⟩) (iblk0 V c 1 ⟨n + 1, h⟩) Gen.k0_pay2 (if (n + 1) % 12 = 0 then Gen.k0_pay1 else acc0 c n)
    else Gen.k0_pay1

/-- The accumulator at a point of the grid, one step unfolded. -/
theorem acc0_eq (c : Dev nD) (n : ℕ) (hn : n < cfg0.N) :
    acc0 V c n = Gen.k0_pay3 (iblk0 V c 0 ⟨n, hn⟩) (iblk0 V c 1 ⟨n, hn⟩) Gen.k0_pay2 (if n % 12 = 0 then Gen.k0_pay1 else acc0 V c (n - 1)) := by
  cases n with
  | zero => exact (dif_pos hn).trans (by rw [if_pos (Nat.zero_mod _)])
  | succ n => exact dif_pos hn

/-! ## The invariant -/

/-- The scratch operand, a whole scoped buffer of the kernel's own. -/
abbrev scM0 : Memref sig .tc .vmem S24x49152 .i32 := Memref.whole cc0_scratch0

/-- The core's scoped buffers that are neither a staging buffer of this region nor its scratch (the other region's
    staging buffers and scratch), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Separating conjunction reassociated, as an equation. -/
theorem sep_assoc_eq (A B P : sProp 𝕄) : iprop((A ∗ B) ∗ P) = iprop(A ∗ B ∗ P) := by
  have h₁ : iprop((A ∗ B) ∗ P) ⊢ iprop(A ∗ B ∗ P) := by
    iintro ⟨⟨HA, HB⟩, HP⟩
    isplitl [HA]; · iexact HA
    isplitl [HB]; · iexact HB
    iexact HP
  have h₂ : iprop(A ∗ B ∗ P) ⊢ iprop((A ∗ B) ∗ P) := by
    iintro ⟨HA, HB, HP⟩
    isplitr [HP]
    · isplitl [HA]; · iexact HA
      iexact HB
    iexact HP
  exact BI.equiv_iff.mp ⟨h₁, h₂⟩

/-- The class's invariant with the scratch operand split off as a memref owned at some contents. -/
theorem PhiA0_eq (c : Dev nD) :
    (Pipeline.ΦA spec0 c : sProp 𝕄)
      = iprop((∃ d, owns (c : Thread nD τ) scM0 fullShare d) ∗ others0 (F := F) c ∗ (∃ r, prngReg c r)) := by
  unfold Pipeline.ΦA others0; rw [Gen.scopedRest0_eq]; simp only [scM0, owns_whole]
  exact sep_assoc_eq _ _ _

/-- The invariant before position `n`: where the body is about to refill the scratch (the first point of a run of
    twelve, and after the last point) the class's, every scoped buffer at anything; elsewhere the scratch at the label
    table, the other scoped buffers at anything, the generator register at some state. -/
def Phi0 (c : Dev nD) (n : ℕ) : sProp 𝕄 :=
  if n % 12 = 0 then Pipeline.ΦA spec0 c
  else iprop(owns (c : Thread nD τ) scM0 fullShare (Gen.k0_pay2 : Vec F S24x49152 .i32) ∗ others0 (F := F) c ∗ (∃ r, prngReg c r))

theorem Phi0_reset (c : Dev nD) (n : ℕ) (h : n % 12 = 0) : Phi0 (F := F) c n = Pipeline.ΦA spec0 c := if_pos h

theorem Phi0_kept (c : Dev nD) (n : ℕ) (h : ¬n % 12 = 0) :
    Phi0 (F := F) c n = iprop(owns (c : Thread nD τ) scM0 fullShare (Gen.k0_pay2 : Vec F S24x49152 .i32) ∗ others0 (F := F) c ∗ (∃ r, prngReg c r)) := if_neg h

/-- Whatever the position, the invariant gives the class's back: the scratch's named contents are forgotten. -/
theorem Phi0_out (c : Dev nD) (n : ℕ) : Phi0 (F := F) c n ⊢ Pipeline.ΦA spec0 c := by
  by_cases h : n % 12 = 0
  · rw [Phi0_reset c n h]
  · rw [Phi0_kept c n h, PhiA0_eq]
    iintro ⟨HS, HB, HP⟩
    isplitl [HS]; · iexists _; iexact HS
    isplitl [HB]; · iexact HB
    iexact HP

/-- Whatever the position, the invariant takes the scratch at the label table. -/
theorem Phi0_in (c : Dev nD) (n : ℕ) :
    iprop(owns (c : Thread nD τ) scM0 fullShare (Gen.k0_pay2 : Vec F S24x49152 .i32) ∗ others0 (F := F) c ∗ (∃ r, prngReg c r)) ⊢ Phi0 (F := F) c n := by
  by_cases h : n % 12 = 0
  · rw [Phi0_reset c n h, PhiA0_eq]
    iintro ⟨HS, HB, HP⟩
    isplitl [HS]; · iexists _; iexact HS
    isplitl [HB]; · iexact HB
    iexact HP
  · rw [Phi0_kept c n h]

/-! ## The body's branch condition -/

/-- The condition of the body's one conditional, from the grid coordinates. -/
abbrev cond0 (i : grid0.Coords) : Prop := (Scalar.cmpi .ne (Scalar.extui (Scalar.cmpi .eq (BitVec.ofNat 32 (i 1).val) 0#32)) 0#32) = 1#1

/-- It holds at the first point of each run of twelve. -/
theorem hcond0 : ∀ t : Fin cfg0.N, cond0 (grid0.coords t) ↔ t.val % 12 = 0 :=
  (by decide +kernel : ∀ t : Fin grid0.N, cond0 (grid0.coords t) ↔ t.val % 12 = 0)

/-! ## The body's accesses: every one the whole buffer, through the unit rectangle at zero offsets -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's triples -/

set_option maxHeartbeats 1000000 in
/-- The body at the first point of a run of twelve, on whole staging memrefs: the inputs' at their contents, the
    output's and the scratch at anything. It zeroes the output's buffer, fills the scratch with the label table, and
    stores the point's contribution added to the zeros; the inputs stay and the scratch keeps the table. -/
theorem sound_kernel0_first (c : Dev nD) (E : Set ℕ) (i : grid0.Coords)
    (arg2 : Memref sig .tc .vmem S1x16x49152 .f32) (harg2 : arg2.IsWhole) (arg3 : Memref sig .tc .vmem S1x1x49152 .i32) (harg3 : arg3.IsWhole)
    (arg4 : Memref sig .tc .vmem S1x17x24 .f32) (harg4 : arg4.IsWhole) (arg5 : Memref sig .tc .vmem S24x49152 .i32) (harg5 : arg5.IsWhole)
    (hc : cond0 i) (x0 : Vec F S1x16x49152 .f32) (x1 : Vec F S1x1x49152 .i32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (Gen.k0_pay3 x0 x1 Gen.k0_pay2 Gen.k0_pay1)
            ∗ owns (c : Thread nD τ) arg5 fullShare (Gen.k0_pay2 : Vec F S24x49152 .i32)) -∗ K ⟨⟩))
      ⊢ wp frame (wpE (defs₀ (F := F)) Variants.none c none) E (cc0_sums_kernel i arg2 harg2 arg3 harg3 arg4 harg4 arg5 harg5) K := by
  simp only [Gen.cc0_sums_kernel_eq_skeleton]; unfold Gen.cc0_sums_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => ⟨_, List.mem_cons.mpr (Or.inl rfl), View.mem_set_unit_zero hz3 Gen.inb_S1x17x24_S1x17x24_0_0_0 y⟩),
      View.canon_cons_unit_zero (S := S1x17x24) hz3, View.readCov_unit_zero (S := S24x49152) _ hz2,
      View.readCov_unit_zero (S := S1x17x24) _ hz3]
    simp only [View.readAt_eq_ld, View.ld_unit_zero (S := S1x16x49152) hz3, View.ld_unit_zero (S := S1x1x49152) hz3]
  iexists _; isplitr
  swap; · iexact H5
  ipureintro
  sl_unfold_run_names
  rw [View.read_writes_eq_canon _ _ _ (fun y => ⟨_, List.mem_cons.mpr (Or.inl rfl), View.mem_set_unit_zero hz2 Gen.inb_S24x49152_S24x49152_0_0 y⟩),
    View.canon_unit_zero (S := S24x49152) hz2]

set_option maxHeartbeats 1000000 in
/-- The body at any other point, on whole staging memrefs: the inputs' at their contents, the output's at the
    accumulator `a`, the scratch at the label table. It stores the point's contribution added to `a`; the inputs and
    the scratch stay. -/
theorem sound_kernel0_later (c : Dev nD) (E : Set ℕ) (i : grid0.Coords)
    (arg2 : Memref sig .tc .vmem S1x16x49152 .f32) (harg2 : arg2.IsWhole) (arg3 : Memref sig .tc .vmem S1x1x49152 .i32) (harg3 : arg3.IsWhole)
    (arg4 : Memref sig .tc .vmem S1x17x24 .f32) (harg4 : arg4.IsWhole) (arg5 : Memref sig .tc .vmem S24x49152 .i32) (harg5 : arg5.IsWhole)
    (hc : ¬cond0 i) (x0 : Vec F S1x16x49152 .f32) (x1 : Vec F S1x1x49152 .i32) (a : Vec F S1x17x24 .f32) (K : PUnit → sProp 𝕄) :
    iprop(owns (c : Thread nD τ) arg2 fullShare x0 ∗ owns (c : Thread nD τ) arg3 fullShare x1
        ∗ owns (c : Thread nD τ) arg4 fullShare a ∗ owns (c : Thread nD τ) arg5 fullShare (Gen.k0_pay2 : Vec F S24x49152 .i32)
        ∗ (iprop(owns (c : Thread nD τ) arg2 fullShare x0 ∗ owns (c : Thread nD τ) arg3 fullShare x1
            ∗ owns (c : Thread nD τ) arg4 fullShare (Gen.k0_pay3 x0 x1 Gen.k0_pay2 a)
            ∗ owns (c : Thread nD τ) arg5 fullShare (Gen.k0_pay2 : Vec F S24x49152 .i32)) -∗ K ⟨⟩))
      ⊢ wp frame (wpE (defs₀ (F := F)) Variants.none c none) E (cc0_sums_kernel i arg2 harg2 arg3 harg3 arg4 harg4 arg5 harg5) K := by
  simp only [Gen.cc0_sums_kernel_eq_skeleton]; unfold Gen.cc0_sums_kernel_skel
  unfold owns
  iintro ⟨⟨%f0, %hf0, H0⟩, ⟨%f1, %hf1, H1⟩, ⟨%f4, %hf4, H4⟩, ⟨%f5, %hf5, H5⟩, Hk⟩
  subst hf0; subst hf1; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => ⟨_, List.mem_cons.mpr (Or.inl rfl), View.mem_set_unit_zero hz3 Gen.inb_S1x17x24_S1x17x24_0_0_0 y⟩),
      View.canon_unit_zero (S := S1x17x24) hz3]
    simp only [View.readAt_eq_ld, View.ld_unit_zero (S := S1x16x49152) hz3, View.ld_unit_zero (S := S1x1x49152) hz3,
      View.ld_unit_zero (S := S24x49152) hz2, View.ld_unit_zero (S := S1x17x24) hz3, hf5]
  iexists f5; isplitr; · ipureintro; exact hf5
  iexact H5

/-! ## The pipeline's proof data -/

/-- The proof data of the pipeline on core `c`: the arrays as the region finds them; after the body at point `t` each
    input's buffer at its block and the output's at the accumulator; the tracking invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val
  Φ t := Phi0 c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_out (c : Dev nD) (t : Fin cfg0.N) : (dat0 V c).after 2 t = acc0 V c t.val := by dsimp only [dat0]

/-- The invariant at a point's start and end, restated at the position. -/
theorem Phi0_castSucc (c : Dev nD) (t : Fin cfg0.N) : (dat0 V c).Φ t.castSucc = Phi0 c t.val := by
  dsimp only [dat0]; simp only [Fin.coe_castSucc]
theorem Phi0_succ (c : Dev nD) (t : Fin cfg0.N) : (dat0 V c).Φ t.succ = Phi0 c (t.val + 1) := by
  dsimp only [dat0]; simp only [Fin.val_succ]

/-! ## What the body finds in each window's buffer -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- At the first point of a run of twelve the output's current staging buffer is fresh: the grid's first point, or
    the point after a write-back. -/
theorem before0_2_reset (c : Dev nD) (t : Fin cfg0.N) (h0 : t.val % 12 = 0) (d) : (dat0 V c).before 2 t d = d := by
  refine (dat0 V c).before_out_reset 2 rfl t ?_ d
  by_cases hz : t.val = 0
  · exact .inl hz
  · exact .inr ⟨hz, (Gen.flush0_2 _).mpr (by show (t.val - 1) % 12 = 11; omega)⟩

/-- At every other point it holds what the body left at the point before: the buffer was not written back between,
    the window is live and uncut. -/
theorem before0_2_kept (c : Dev nD) (t : Fin cfg0.N) (h0 : ¬t.val % 12 = 0) (d) :
    (dat0 V c).before 2 t d = acc0 V c (t.val - 1) := by
  rw [Dat.before_out_kept _ 2 rfl t (by omega) (Bool.eq_false_iff.mpr fun h => by have := (Gen.flush0_2 _).mp h; dsimp only at this; omega)
    (fun _ => rfl) (fun _ _ => rfl)]
  dsimp only [dat0]

/-- The accumulator at a point of the grid, one step unfolded, over the point itself. -/
theorem acc0_at (c : Dev nD) (t : Fin cfg0.N) :
    acc0 V c t.val = Gen.k0_pay3 (iblk0 V c 0 t) (iblk0 V c 1 t) Gen.k0_pay2 (if t.val % 12 = 0 then Gen.k0_pay1 else acc0 V c (t.val - 1)) :=
  acc0_eq V c t.val t.isLt

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (Gen.st0_0 t) fullShare ((dat0 V c).before 0 t d))
    ∗ (∃ d, owns (c : Thread nD τ) (Gen.st0_1 t) fullShare ((dat0 V c).before 1 t d))
    ∗ (∃ d, owns (c : Thread nD τ) (Gen.st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (Gen.st0_0 t) fullShare ((dat0 V c).after 0 t)
    ∗ owns (c : Thread nD τ) (Gen.st0_1 t) fullShare ((dat0 V c).after 1 t)
    ∗ owns (c : Thread nD τ) (Gen.st0_2 t) fullShare ((dat0 V c).after 2 t))

set_option maxHeartbeats 1000000 in
/-- The body at any point: the inputs' memrefs hold their blocks; the closed form of the condition says which triple
    applies; at the first point of a run the invariant hands the scratch over at anything and the output's buffer is
    fresh, at the others the scratch holds the label table and the output's buffer the accumulator; either way the
    invariant takes the scratch back at the label table, and the core owes nothing throughout. -/
theorem sound_body0 (c : Dev nD) (t : Fin cfg0.N) :
    bodyPre0 V c t ⊢ wp frame (wpE (defs₀ (F := F)) Variants.none c none) Set.univ (Gen.bodyAt0 t) (fun _ => bodyPost0 V c t) := by
  unfold bodyPre0 bodyPost0 Gen.bodyAt0
  simp only [before0_0, before0_1]
  rw [show (dat0 V c).owesAt () t.succ = (dat0 V c).owesAt () t.castSucc from rfl,
    Phi0_castSucc, Phi0_succ, after0_0, after0_1, after0_out, acc0_at V c t]
  by_cases h0 : t.val % 12 = 0
  · simp only [before0_2_reset V c t h0]
    rw [if_pos h0, Phi0_reset c _ h0, PhiA0_eq]
    iintro ⟨⟨⟨%ds, HS⟩, HB, HP⟩, Ho, ⟨%d0, H0⟩, ⟨%d1, H1⟩, ⟨%d2, H2⟩⟩
    iapply (sound_kernel0_first c Set.univ _ _ _ _ _ _ _ _ _ ((hcond0 t).mpr h0) (iblk0 V c 0 t) (iblk0 V c 1 t) _)
    isplitl [H0]; · iexact H0
    isplitl [H1]; · iexact H1
    isplitl [H2]; · iexists _; iexact H2
    isplitl [HS]; · iexists _; iexact HS
    iintro ⟨H0, H1, H2, HS⟩
    isplitl [HS HB HP]
    · iapply (Phi0_in c (t.val + 1))
      isplitl [HS]; · iexact HS
      isplitl [HB]; · iexact HB
      iexact HP
    isplitl [Ho]; · iexact Ho
    isplitl [H0]; · iexact H0
    isplitl [H1]; · iexact H1
    iexact H2
  · simp only [before0_2_kept V c t h0]
    rw [if_neg h0, Phi0_kept c _ h0]
    iintro ⟨⟨HS, HB, HP⟩, Ho, ⟨%d0, H0⟩, ⟨%d1, H1⟩, ⟨%d2, H2⟩⟩
    iapply (sound_kernel0_later c Set.univ _ _ _ _ _ _ _ _ _ (fun h => h0 ((hcond0 t).mp h)) (iblk0 V c 0 t) (iblk0 V c 1 t) (acc0 V c (t.val - 1)) _)
    isplitl [H0]; · iexact H0
    isplitl [H1]; · iexact H1
    isplitl [H2]; · iexact H2
    isplitl [HS]; · iexact HS
    iintro ⟨H0, H1, H2, HS⟩
    isplitl [HS HB HP]
    · iapply (Phi0_in c (t.val + 1))
      isplitl [HS]; · iexact HS
      isplitl [HB]; · iexact HB
      iexact HP
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [Gen.bigSep_W0, Gen.bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 c 0 from rfl, Phi0_reset c 0 (Nat.zero_mod _)]

/-- After the last point the invariant gives the class's back. -/
theorem hout0 (c : Dev nD) : (dat0 V c).Φ (Fin.last cfg0.N) ⊢ Pipeline.ΦA spec0 c := by
  rw [show (dat0 V c).Φ (Fin.last cfg0.N) = Phi0 c (Fin.last cfg0.N).val from rfl]
  exact Phi0_out c _

end Cert.Kernel.Hand

end
-- ==== Proof.KRegion1.lean ====
/- Region 1 of @main (custom_call 1, the kernel `cc1_var_kernel` on the grid 4 × 12), at the buffer contents `V`
   the region is entered with. Along each run of 12 points (one value of the first grid coordinate) the body
   accumulates into the output window's staging buffer: at the run's first point it zeroes that buffer and fills
   the scratch with an iota; at every point it adds this point's contribution — a function of the point's three
   input blocks and of the scratch — to what the buffer holds. So the scratch is carried from point to point (it
   holds the iota from a run's first point on), and the staging buffer after point `n` is a recursion on `n` that
   restarts at every multiple of 12 (`acc1`). This module states the windows' blocks, that recursion, the body's
   two triples (a run's first point; any other point), the proof data with the invariant that tracks the scratch,
   and the body obligation. -/
import proofs.«427995_j35871566856560_2_alg».proof.Proof.Gen.Kernel.Launch
import proofs.«427995_j35871566856560_2_alg».proof.Proof.Gen.Kernel.Skeleton
import proofs.«427995_j35871566856560_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- One point's step: the accumulator row `a` plus the contribution of point `n` (computed from its three input
    blocks and the iota the scratch holds), reshaped to the staging buffer's shape. Past the grid, nothing. -/
def step1 (c : Dev nD) (n : ℕ) (a : Vec F S1x1x24 .f32) : Vec F S1x1x24 .f32 :=
  if hn : n < cfg1.N then
    Gen.k1_pay1 (Gen.k1_pay4 (iblk1 V c 0 ⟨n, hn⟩) (iblk1 V c 1 ⟨n, hn⟩) (iblk1 V c 2 ⟨n, hn⟩) Gen.k1_pay3 a)
  else a

/-- What the output window's staging buffer holds after point `n`: the step at `n` applied to zeros at the
    first point of a run of 12, to what point `n - 1` left elsewhere. -/
def acc1 (c : Dev nD) : ℕ → Vec F S1x1x24 .f32
  | 0 => step1 V c 0 Gen.k1_pay2
  | n + 1 => step1 V c (n + 1) (if (n + 1) % 12 = 0 then Gen.k1_pay2 else acc1 c n)

theorem acc1_eq (c : Dev nD) (n : ℕ) (hn : n < cfg1.N) :
    acc1 V c n = Gen.k1_pay1 (Gen.k1_pay4 (iblk1 V c 0 ⟨n, hn⟩) (iblk1 V c 1 ⟨n, hn⟩) (iblk1 V c 2 ⟨n, hn⟩) Gen.k1_pay3
      (if n % 12 = 0 then Gen.k1_pay2 else acc1 V c (n - 1))) := by
  cases n with
  | zero =>
    rw [if_pos (Nat.zero_mod 12)]
    show step1 V c 0 Gen.k1_pay2 = _
    unfold step1; rw [dif_pos hn]
  | succ n =>
    simp only [Nat.add_sub_cancel]
    show step1 V c (n + 1) (if (n + 1) % 12 = 0 then Gen.k1_pay2 else acc1 V c n) = _
    unfold step1; rw [dif_pos hn]

/-! ## Whole-buffer accesses -/

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- After a list of stores whose LAST is a store of the whole buffer, the buffer reads as that store's payload,
    whatever it held and whatever was stored before. -/
theorem read_writes_cons_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

/-! ## The body's branch condition -/

/-- The condition of the body's one `scf.if`, from the grid coordinates: the second coordinate is 0. -/
abbrev cond1 (i : grid1.Coords) : Prop := (Scalar.cmpi .ne (Scalar.extui (Scalar.cmpi .eq (BitVec.ofNat 32 (i 1).val) 0#32)) 0#32) = 1#1

/-- It holds at the first point of every run of 12 — decided over the grid. -/
theorem hcond1 : ∀ t : Fin cfg1.N, cond1 (grid1.coords t) ↔ t.val % 12 = 0 :=
  (by decide +kernel : ∀ t : Fin grid1.N, cond1 (grid1.coords t) ↔ t.val % 12 = 0)

/-! ## The body's triples -/

set_option maxHeartbeats 1000000 in
/-- The body at a run's first point, on whole memrefs: the inputs' at read contents, the output's and the scratch at
    anything. It zeroes the output's buffer, fills the scratch with the iota, and leaves the output's buffer at the
    step over zeros and the scratch at the iota; the inputs as they were. -/
theorem sound_kernel1_first (c : Dev nD) (E : Set ℕ) (i : grid1.Coords)
    (arg2 : Memref sig .tc .vmem S1x16x49152 .f32) (harg2 : arg2.IsWhole) (arg3 : Memref sig .tc .vmem S1x1x49152 .i32) (harg3 : arg3.IsWhole)
    (arg4 : Memref sig .tc .vmem S1x16x24 .f32) (harg4 : arg4.IsWhole) (arg5 : Memref sig .tc .vmem S1x1x24 .f32) (harg5 : arg5.IsWhole)
    (arg6 : Memref sig .tc .vmem S24x49152 .i32) (harg6 : arg6.IsWhole) (hc : cond1 i)
    (x0 : Vec F S1x16x49152 .f32) (x1 : Vec F S1x1x49152 .i32) (x2 : Vec F S1x16x24 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (Gen.k1_pay1 (Gen.k1_pay4 x0 x1 x2 Gen.k1_pay3 Gen.k1_pay2))
            ∗ owns (c : Thread nD τ) arg6 fullShare (Gen.k1_pay3 : Vec F S24x49152 .i32)) -∗ K ⟨⟩))
      ⊢ wp frame (wpE (defs₀ (F := F)) Variants.none c none) E (cc1_var_kernel i arg2 harg2 arg3 harg3 arg4 harg4 arg5 harg5 arg6 harg6) K := by
  simp only [Gen.cc1_var_kernel_eq_skeleton]; unfold Gen.cc1_var_kernel_skel
  simp only [Gen.k1_part1_eq_skeleton]; unfold Gen.k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (read_writes_cons_whole (S := S1x1x24) _ _ zeros3 _ _ _).trans ?_
    dsimp only
    rw [View.readAt_eq_ld, View.readAt_eq_ld, View.readAt_eq_ld,
      View.ld_unit_zero (S := S1x16x49152) zeros3, View.ld_unit_zero (S := S1x1x49152) zeros3,
      View.ld_unit_zero (S := S1x16x24) zeros3,
      View.readCov_unit_zero (S := S24x49152) _ zeros2, View.readCov_unit_zero (S := S1x1x24) _ zeros3]
  iexists _; isplitr
  swap; · iexact H4
  ipureintro
  sl_unfold_run_names
  exact read_writes_cons_whole (S := S24x49152) _ _ zeros2 _ _ _

set_option maxHeartbeats 1000000 in
/-- The body at any other point of a run, on whole memrefs: the inputs' at read contents, the output's at the
    accumulator `a` so far, the scratch at the iota. It leaves the output's buffer at the step over `a`; the inputs and
    the scratch as they were. -/
theorem sound_kernel1_rest (c : Dev nD) (E : Set ℕ) (i : grid1.Coords)
    (arg2 : Memref sig .tc .vmem S1x16x49152 .f32) (harg2 : arg2.IsWhole) (arg3 : Memref sig .tc .vmem S1x1x49152 .i32) (harg3 : arg3.IsWhole)
    (arg4 : Memref sig .tc .vmem S1x16x24 .f32) (harg4 : arg4.IsWhole) (arg5 : Memref sig .tc .vmem S1x1x24 .f32) (harg5 : arg5.IsWhole)
    (arg6 : Memref sig .tc .vmem S24x49152 .i32) (harg6 : arg6.IsWhole) (hc : ¬cond1 i)
    (x0 : Vec F S1x16x49152 .f32) (x1 : Vec F S1x1x49152 .i32) (x2 : Vec F S1x16x24 .f32) (a : Vec F S1x1x24 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare a ∗ owns (c : Thread nD τ) arg6 fullShare (Gen.k1_pay3 : Vec F S24x49152 .i32)
        ∗ (iprop(owns (c : Thread nD τ) arg2 fullShare x0 ∗ owns (c : Thread nD τ) arg3 fullShare x1 ∗ owns (c : Thread nD τ) arg4 fullShare x2
            ∗ owns (c : Thread nD τ) arg5 fullShare (Gen.k1_pay1 (Gen.k1_pay4 x0 x1 x2 Gen.k1_pay3 a))
            ∗ owns (c : Thread nD τ) arg6 fullShare (Gen.k1_pay3 : Vec F S24x49152 .i32)) -∗ K ⟨⟩))
      ⊢ wp frame (wpE (defs₀ (F := F)) Variants.none c none) E (cc1_var_kernel i arg2 harg2 arg3 harg3 arg4 harg4 arg5 harg5 arg6 harg6) K := by
  simp only [Gen.cc1_var_kernel_eq_skeleton]; unfold Gen.cc1_var_kernel_skel
  simp only [Gen.k1_part1_eq_skeleton]; unfold Gen.k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (read_writes_cons_whole (S := S1x1x24) _ _ zeros3 _ _ _).trans ?_
    dsimp only
    rw [View.readAt_eq_ld, View.readAt_eq_ld, View.readAt_eq_ld, View.readAt_eq_ld, View.readAt_eq_ld,
      View.ld_unit_zero (S := S1x16x49152) zeros3, View.ld_unit_zero (S := S1x1x49152) zeros3,
      View.ld_unit_zero (S := S1x16x24) zeros3, View.ld_unit_zero (S := S24x49152) zeros2,
      View.ld_unit_zero (S := S1x1x24) zeros3, hf4]
  iexists _; isplitr
  swap; · iexact H4
  ipureintro
  exact hf4

/-! ## The invariant that tracks the scratch -/

/-- The scratch operand: a whole scoped buffer of the kernel's own, passed beside the windows. -/
abbrev scM1 : Memref sig .tc .vmem S24x49152 .i32 := Memref.whole cc1_scratch0

/-- What the body neither reads nor writes of the class invariant: the core's other scoped buffers that are no
    staging buffer of this call, at some contents each, and its generator register at some state. -/
def rest1 (c : Dev nD) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))
    ∗ ∃ r, prngReg c r)

/-- The class invariant with the scratch named: the scratch at the iota, the rest as it is. -/
def PhiI1 (c : Dev nD) : sProp 𝕄 :=
  iprop(owns (c : Thread nD τ) scM1 fullShare (Gen.k1_pay3 : Vec F S24x49152 .i32) ∗ rest1 (F := F) c)

/-- The class invariant opens into the scratch at some contents and the rest, -/
theorem PhiA1_open (c : Dev nD) :
    (Pipeline.ΦA spec1 c : sProp 𝕄) ⊢ iprop((∃ d, owns (c : Thread nD τ) scM1 fullShare d) ∗ rest1 (F := F) c) := by
  unfold Pipeline.ΦA rest1; rw [Gen.scopedRest1_eq]; simp only [scM1, owns_whole]
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

/-- and closes from them. -/
theorem PhiA1_close (c : Dev nD) :
    iprop((∃ d, owns (c : Thread nD τ) scM1 fullShare d) ∗ rest1 (F := F) c) ⊢ (Pipeline.ΦA spec1 c : sProp 𝕄) := by
  unfold Pipeline.ΦA rest1; rw [Gen.scopedRest1_eq]; simp only [scM1, owns_whole]
  iintro ⟨HS, ⟨H1, H2, H3, H4, H5, H6, H7⟩, Hg⟩
  isplitl [H1 H2 H3 H4 H5 H6 H7 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The pipeline's proof data -/

/-- The proof data of pipeline 1 on core `c`: the arrays as the region finds them (`V`); after the body at point
    `t` each input's buffer at its block and the output's at the accumulator `acc1`; the invariant the class's
    before the first point of every run of 12 (the scratch at anything: the body is about to fill it) and the
    scratch at the iota before every other point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val
  Φ t := if t.val % 12 = 0 then Pipeline.ΦA spec1 c else PhiI1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_out (c : Dev nD) (t : Fin cfg1.N) : (dat1 V c).after 3 t = acc1 V c t.val := by dsimp only [dat1]

/-- The invariant before a run's first point is the class's; -/
theorem Phi1_of_zero (c : Dev nD) (t : Fin (cfg1.N + 1)) (h : t.val % 12 = 0) : (dat1 V c).Φ t = Pipeline.ΦA spec1 c := by
  dsimp only [dat1]; rw [if_pos h]

/-- before any other point it names the scratch's contents. -/
theorem Phi1_of_pos (c : Dev nD) (t : Fin (cfg1.N + 1)) (h : ¬t.val % 12 = 0) : (dat1 V c).Φ t = PhiI1 c := by
  dsimp only [dat1]; rw [if_neg h]

/-! ## What the body finds in each window's current staging buffer -/

/-- Each input's current staging buffer holds its block at every point, fetched there or not: an input not fetched
    at a point has the block index it had at the point before, and the body left that block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The output's staging buffer at a run's first point holds anything: it is the grid's first point, or the point
    before wrote the block back and the buffer is fresh. -/
theorem before1_3_first (c : Dev nD) (t : Fin cfg1.N) (h : t.val % 12 = 0) (d) : (dat1 V c).before 3 t d = d :=
  (dat1 V c).before_out_reset 3 rfl t (by
    by_cases h0 : t.val = 0
    · exact .inl h0
    · exact .inr ⟨h0, (Gen.flush1_3 _).mpr (by show (t.val - 1) % 12 = 11; omega)⟩) d

/-- At any other point it holds what the point before left: the accumulator. -/
theorem before1_3_rest (c : Dev nD) (t : Fin cfg1.N) (h : ¬t.val % 12 = 0) (d) :
    (dat1 V c).before 3 t d = acc1 V c (t.val - 1) :=
  ((dat1 V c).before_out_kept 3 rfl t (fun h0 => h (by rw [h0]))
    (Bool.eq_false_iff.mpr fun hf => h (by
      have h11 := (Gen.flush1_3 _).mp hf
      have h11' : (t.val - 1) % 12 = 11 := h11
      omega))
    (fun _ => rfl) (fun _ _ => rfl) d).trans (after1_out V c _)

/-! ## The body obligation -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (Gen.st1_0 t) fullShare ((dat1 V c).before 0 t d))
    ∗ (∃ d, owns (c : Thread nD τ) (Gen.st1_1 t) fullShare ((dat1 V c).before 1 t d))
    ∗ (∃ d, owns (c : Thread nD τ) (Gen.st1_2 t) fullShare ((dat1 V c).before 2 t d))
    ∗ (∃ d, owns (c : Thread nD τ) (Gen.st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (Gen.st1_0 t) fullShare ((dat1 V c).after 0 t)
    ∗ owns (c : Thread nD τ) (Gen.st1_1 t) fullShare ((dat1 V c).after 1 t)
    ∗ owns (c : Thread nD τ) (Gen.st1_2 t) fullShare ((dat1 V c).after 2 t)
    ∗ owns (c : Thread nD τ) (Gen.st1_3 t) fullShare ((dat1 V c).after 3 t))

set_option maxHeartbeats 1000000 in
/-- The body at any point. The inputs' memrefs hold their blocks. At a run's first point the invariant hands the
    scratch over at anything and the output's buffer holds anything, the body resets both, and the invariant takes the
    scratch back at the iota. At any other point the scratch comes at the iota and the output's buffer at what the
    point before left, and the body adds this point's contribution; if the next point starts a run the scratch's
    contents are forgotten. The core owes nothing throughout. -/
theorem sound_body1 (c : Dev nD) (t : Fin cfg1.N) :
    bodyPre1 V c t ⊢ wp frame (wpE (defs₀ (F := F)) Variants.none c none) Set.univ (Gen.bodyAt1 t) (fun _ => bodyPost1 V c t) := by
  unfold bodyPre1 bodyPost1 Gen.bodyAt1
  simp only [before1_0, before1_1, before1_2]
  rw [show (dat1 V c).owesAt () t.succ = (dat1 V c).owesAt () t.castSucc from rfl,
    after1_0, after1_1, after1_2, after1_out]
  have hN : t.val < 48 := lt_of_lt_of_eq t.isLt (show cfg1.N = 48 from Gen.N_1)
  by_cases h0 : t.val % 12 = 0
  · rw [Phi1_of_zero V c t.castSucc (by show t.val % 12 = 0; exact h0),
      Phi1_of_pos V c t.succ (by show ¬(t.val + 1) % 12 = 0; omega)]
    simp only [before1_3_first V c t h0]
    rw [acc1_eq V c t.val t.isLt, if_pos h0]
    unfold PhiI1
    iintro ⟨HΦ, Ho, ⟨%d0, H0⟩, ⟨%d1, H1⟩, ⟨%d2, H2⟩, ⟨%d3, H3⟩⟩
    ihave HΦ' := PhiA1_open c $$ HΦ
    icases HΦ' with ⟨HS, HR⟩
    iapply (sound_kernel1_first c Set.univ _ _ _ _ _ _ _ _ _ _ _ ((hcond1 t).mpr h0)
      (iblk1 V c 0 t) (iblk1 V c 1 t) (iblk1 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR]
    · isplitl [HS]; · iexact HS
      iexact HR
    isplitl [Ho]; · iexact Ho
    isplitl [H0]; · iexact H0
    isplitl [H1]; · iexact H1
    isplitl [H2]; · iexact H2
    iexact H3
  · rw [Phi1_of_pos V c t.castSucc (by show ¬t.val % 12 = 0; exact h0)]
    simp only [before1_3_rest V c t h0]
    rw [acc1_eq V c t.val t.isLt, if_neg h0]
    by_cases h1 : (t.val + 1) % 12 = 0
    · rw [Phi1_of_zero V c t.succ (by show (t.val + 1) % 12 = 0; exact h1)]
      unfold PhiI1
      iintro ⟨⟨HS, HR⟩, Ho, ⟨%d0, H0⟩, ⟨%d1, H1⟩, ⟨%d2, H2⟩, ⟨%d3, H3⟩⟩
      iapply (sound_kernel1_rest c Set.univ _ _ _ _ _ _ _ _ _ _ _ (fun h => h0 ((hcond1 t).mp h))
        (iblk1 V c 0 t) (iblk1 V c 1 t) (iblk1 V c 2 t) (acc1 V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · iapply (PhiA1_close c)
        isplitl [HS]; · iexists _; iexact HS
        iexact HR
      isplitl [Ho]; · iexact Ho
      isplitl [H0]; · iexact H0
      isplitl [H1]; · iexact H1
      isplitl [H2]; · iexact H2
      iexact H3
    · rw [Phi1_of_pos V c t.succ (by show ¬(t.val + 1) % 12 = 0; exact h1)]
      unfold PhiI1
      iintro ⟨⟨HS, HR⟩, Ho, ⟨%d0, H0⟩, ⟨%d1, H1⟩, ⟨%d2, H2⟩, ⟨%d3, H3⟩⟩
      iapply (sound_kernel1_rest c Set.univ _ _ _ _ _ _ _ _ _ _ _ (fun h => h0 ((hcond1 t).mp h))
        (iblk1 V c 0 t) (iblk1 V c 1 t) (iblk1 V c 2 t) (acc1 V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [Gen.bigSep_W1, Gen.bigSep_W1]
  exact sound_body1 V c t

/-- What the launch hands the region (the class invariant) is the invariant before the first point. -/
theorem hin1 (c : Dev nD) : Pipeline.ΦA spec1 c ⊢ (dat1 V c).Φ 0 := by
  rw [Phi1_of_zero V c 0 (Nat.zero_mod 12)]
  try exact Idealize.SL.BI.Entails.refl _

/-- After the last point the invariant gives the class's back. -/
theorem hout1 (c : Dev nD) : (dat1 V c).Φ (Fin.last cfg1.N) ⊢ Pipeline.ΦA spec1 c := by
  rw [Phi1_of_zero V c (Fin.last cfg1.N) (by rw [Fin.val_last]; have hN : cfg1.N = 48 := Gen.N_1; omega)]
  try exact Idealize.SL.BI.Entails.refl _

end Cert.Kernel.Hand

end
-- ==== Proof.KRun.lean ====
/-
  The run of the kernel program: @main cut into its host stretches and its two kernel regions, each stretch a fold
  of its operations over the buffer contents at its start, each region entered at the contents the stretch before
  left and left with its arrays at what the region's write-backs leave. The thread state between segments is
  "every unscoped buffer at the boundary's contents, the generator register at some state, nothing owed".
  The first region's invariant carries its scratch (the class index table) from point to point; before the first
  point and after the last it is the plain invariant "the scoped buffers at anything".
  Conclusion: every weakly fair execution terminates, and every final state has every unscoped buffer at the last
  boundary's contents; the argument arrays are written by nothing, so they end as launched.
-/
import proofs.«427995_j35871566856560_2_alg».proof.Proof.KRegion0
import proofs.«427995_j35871566856560_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the stretch between the regions (region 1's entry). -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After each of the seven stretches that follow region 1. -/
abbrev W5 : Dev nD → Valuation τ sig (Elt F) := fun c => StableHlo.after main_part0_ops2 (W4 m ρ c)
abbrev W6 : Dev nD → Valuation τ sig (Elt F) := fun c => StableHlo.after main_part0_ops3 (W5 m ρ c)
abbrev W7 : Dev nD → Valuation τ sig (Elt F) := fun c => StableHlo.after main_part0_ops4 (W6 m ρ c)
abbrev W8 : Dev nD → Valuation τ sig (Elt F) := fun c => StableHlo.after main_part1_ops0 (W7 m ρ c)
abbrev W9 : Dev nD → Valuation τ sig (Elt F) := fun c => StableHlo.after main_part2_ops0 (W8 m ρ c)
abbrev W10 : Dev nD → Valuation τ sig (Elt F) := fun c => StableHlo.after main_part2_ops1 (W9 m ρ c)
abbrev W11 : Dev nD → Valuation τ sig (Elt F) := fun c => StableHlo.after main_part2_ops2 (W10 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part0_ops4_fresh : (main_part0_ops4 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    refine BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch as a segment whose post is the last thread state beside the core owing nothing. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .region (reg1 m ρ),
    .host (hseg main_part0_ops2 main_part0_ops2_sub main_part0_ops2_fresh (W4 m ρ)),
    .host (hseg main_part0_ops3 main_part0_ops3_sub main_part0_ops3_fresh (W5 m ρ)),
    .host (hseg main_part0_ops4 main_part0_ops4_sub main_part0_ops4_fresh (W6 m ρ)),
    .host (hseg main_part1_ops0 main_part1_ops0_sub main_part1_ops0_fresh (W7 m ρ)),
    .host (hseg main_part2_ops0 main_part2_ops0_sub main_part2_ops0_fresh (W8 m ρ)),
    .host (hseg main_part2_ops1 main_part2_ops1_sub main_part2_ops1_fresh (W9 m ρ)),
    .host (hseg main_part2_ops2 main_part2_ops2_sub main_part2_ops2_fresh (W10 m ρ)) ]

theorem main_run (c : Dev nD) : main (F := F) c = Pipeline.Seg.run (segs m ρ) := (main_chain_windows c).trans (by chain_rfl)

set_option backward.isDefEq.respectTransparency.types false in
/-- Every weakly fair execution of @main terminates, nothing faulting, and every final state has every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.Hand

end
-- ==== Proof.KFrame.lean ====
/-
  The argument arrays end as launched: no host operation writes one and each region only reads them through input
  windows or not at all, so the fold of the buffer contents through @main, read at an argument, walks back to the
  launch memory. With the run, this is the frame claim at any instance.
-/
import proofs.«427995_j35871566856560_2_alg».proof.Proof.KRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- A stretch of host operations leaves a buffer none of them writes as it found it. -/
syntax "not_written " ident : tactic
macro_rules
  | `(tactic| not_written $l:ident) => `(tactic|
      (refine StableHlo.after_of_forall_not_mem _ _ (List.forall_iff_forall_mem.mp ?_)
       simp only [$l:ident, List.Forall, StableHlo.TRef.nullary, StableHlo.TRef.unary, StableHlo.TRef.binary, StableHlo.TRef.ternary,
         StableHlo.nullary_writes, StableHlo.unary_writes, StableHlo.binary_writes, StableHlo.ternary_writes,
         StableHlo.quaternary_writes, StableHlo.reshape_writes, StableHlo.binaryIndexed_writes, Finset.mem_singleton]
       repeat' apply And.intro
       all_goals exact StableHlo.devRef_ne_of_ne (by decide)))

theorem keep_main_part0_ops0_main_arg0 (W : Valuation τ sig (Elt F)) : StableHlo.after main_part0_ops0 W (Proc.devRef .tc main_arg0) = W (Proc.devRef .tc main_arg0) := by
  not_written main_part0_ops0
theorem keep_main_part0_ops1_main_arg0 (W : Valuation τ sig (Elt F)) : StableHlo.after main_part0_ops1 W (Proc.devRef .tc main_arg0) = W (Proc.devRef .tc main_arg0) := by
  not_written main_part0_ops1
theorem keep_main_part0_ops2_main_arg0 (W : Valuation τ sig (Elt F)) : StableHlo.after main_part0_ops2 W (Proc.devRef .tc main_arg0) = W (Proc.devRef .tc main_arg0) := by
  not_written main_part0_ops2
theorem keep_main_part0_ops3_main_arg0 (W : Valuation τ sig (Elt F)) : StableHlo.after main_part0_ops3 W (Proc.devRef .tc main_arg0) = W (Proc.devRef .tc main_arg0) := by
  not_written main_part0_ops3
theorem keep_main_part0_ops4_main_arg0 (W : Valuation τ sig (Elt F)) : StableHlo.after main_part0_ops4 W (Proc.devRef .tc main_arg0) = W (Proc.devRef .tc main_arg0) := by
  not_written main_part0_ops4
theorem keep_main_part1_ops0_main_arg0 (W : Valuation τ sig (Elt F)) : StableHlo.after main_part1_ops0 W (Proc.devRef .tc main_arg0) = W (Proc.devRef .tc main_arg0) := by
  not_written main_part1_ops0
theorem keep_main_part2_ops0_main_arg0 (W : Valuation τ sig (Elt F)) : StableHlo.after main_part2_ops0 W (Proc.devRef .tc main_arg0) = W (Proc.devRef .tc main_arg0) := by
  not_written main_part2_ops0
theorem keep_main_part2_ops1_main_arg0 (W : Valuation τ sig (Elt F)) : StableHlo.after main_part2_ops1 W (Proc.devRef .tc main_arg0) = W (Proc.devRef .tc main_arg0) := by
  not_written main_part2_ops1
theorem keep_main_part2_ops2_main_arg0 (W : Valuation τ sig (Elt F)) : StableHlo.after main_part2_ops2 W (Proc.devRef .tc main_arg0) = W (Proc.devRef .tc main_arg0) := by
  not_written main_part2_ops2
theorem keep_main_part0_ops0_main_arg1 (W : Valuation τ sig (Elt F)) : StableHlo.after main_part0_ops0 W (Proc.devRef .tc main_arg1) = W (Proc.devRef .tc main_arg1) := by
  not_written main_part0_ops0
theorem keep_main_part0_ops1_main_arg1 (W : Valuation τ sig (Elt F)) : StableHlo.after main_part0_ops1 W (Proc.devRef .tc main_arg1) = W (Proc.devRef .tc main_arg1) := by
  not_written main_part0_ops1
theorem keep_main_part0_ops2_main_arg1 (W : Valuation τ sig (Elt F)) : StableHlo.after main_part0_ops2 W (Proc.devRef .tc main_arg1) = W (Proc.devRef .tc main_arg1) := by
  not_written main_part0_ops2
theorem keep_main_part0_ops3_main_arg1 (W : Valuation τ sig (Elt F)) : StableHlo.after main_part0_ops3 W (Proc.devRef .tc main_arg1) = W (Proc.devRef .tc main_arg1) := by
  not_written main_part0_ops3
theorem keep_main_part0_ops4_main_arg1 (W : Valuation τ sig (Elt F)) : StableHlo.after main_part0_ops4 W (Proc.devRef .tc main_arg1) = W (Proc.devRef .tc main_arg1) := by
  not_written main_part0_ops4
theorem keep_main_part1_ops0_main_arg1 (W : Valuation τ sig (Elt F)) : StableHlo.after main_part1_ops0 W (Proc.devRef .tc main_arg1) = W (Proc.devRef .tc main_arg1) := by
  not_written main_part1_ops0
theorem keep_main_part2_ops0_main_arg1 (W : Valuation τ sig (Elt F)) : StableHlo.after main_part2_ops0 W (Proc.devRef .tc main_arg1) = W (Proc.devRef .tc main_arg1) := by
  not_written main_part2_ops0
theorem keep_main_part2_ops1_main_arg1 (W : Valuation τ sig (Elt F)) : StableHlo.after main_part2_ops1 W (Proc.devRef .tc main_arg1) = W (Proc.devRef .tc main_arg1) := by
  not_written main_part2_ops1
theorem keep_main_part2_ops2_main_arg1 (W : Valuation τ sig (Elt F)) : StableHlo.after main_part2_ops2 W (Proc.devRef .tc main_arg1) = W (Proc.devRef .tc main_arg1) := by
  not_written main_part2_ops2
theorem keep_main_part0_ops0_main_arg2 (W : Valuation τ sig (Elt F)) : StableHlo.after main_part0_ops0 W (Proc.devRef .tc main_arg2) = W (Proc.devRef .tc main_arg2) := by
  not_written main_part0_ops0
theorem keep_main_part0_ops1_main_arg2 (W : Valuation τ sig (Elt F)) : StableHlo.after main_part0_ops1 W (Proc.devRef .tc main_arg2) = W (Proc.devRef .tc main_arg2) := by
  not_written main_part0_ops1
theorem keep_main_part0_ops2_main_arg2 (W : Valuation τ sig (Elt F)) : StableHlo.after main_part0_ops2 W (Proc.devRef .tc main_arg2) = W (Proc.devRef .tc main_arg2) := by
  not_written main_part0_ops2
theorem keep_main_part0_ops3_main_arg2 (W : Valuation τ sig (Elt F)) : StableHlo.after main_part0_ops3 W (Proc.devRef .tc main_arg2) = W (Proc.devRef .tc main_arg2) := by
  not_written main_part0_ops3
theorem keep_main_part0_ops4_main_arg2 (W : Valuation τ sig (Elt F)) : StableHlo.after main_part0_ops4 W (Proc.devRef .tc main_arg2) = W (Proc.devRef .tc main_arg2) := by
  not_written main_part0_ops4
theorem keep_main_part1_ops0_main_arg2 (W : Valuation τ sig (Elt F)) : StableHlo.after main_part1_ops0 W (Proc.devRef .tc main_arg2) = W (Proc.devRef .tc main_arg2) := by
  not_written main_part1_ops0
theorem keep_main_part2_ops0_main_arg2 (W : Valuation τ sig (Elt F)) : StableHlo.after main_part2_ops0 W (Proc.devRef .tc main_arg2) = W (Proc.devRef .tc main_arg2) := by
  not_written main_part2_ops0
theorem keep_main_part2_ops1_main_arg2 (W : Valuation τ sig (Elt F)) : StableHlo.after main_part2_ops1 W (Proc.devRef .tc main_arg2) = W (Proc.devRef .tc main_arg2) := by
  not_written main_part2_ops1
theorem keep_main_part2_ops2_main_arg2 (W : Valuation τ sig (Elt F)) : StableHlo.after main_part2_ops2 W (Proc.devRef .tc main_arg2) = W (Proc.devRef .tc main_arg2) := by
  not_written main_part2_ops2
theorem keep_main_part0_ops0_main_arg3 (W : Valuation τ sig (Elt F)) : StableHlo.after main_part0_ops0 W (Proc.devRef .tc main_arg3) = W (Proc.devRef .tc main_arg3) := by
  not_written main_part0_ops0
theorem keep_main_part0_ops1_main_arg3 (W : Valuation τ sig (Elt F)) : StableHlo.after main_part0_ops1 W (Proc.devRef .tc main_arg3) = W (Proc.devRef .tc main_arg3) := by
  not_written main_part0_ops1
theorem keep_main_part0_ops2_main_arg3 (W : Valuation τ sig (Elt F)) : StableHlo.after main_part0_ops2 W (Proc.devRef .tc main_arg3) = W (Proc.devRef .tc main_arg3) := by
  not_written main_part0_ops2
theorem keep_main_part0_ops3_main_arg3 (W : Valuation τ sig (Elt F)) : StableHlo.after main_part0_ops3 W (Proc.devRef .tc main_arg3) = W (Proc.devRef .tc main_arg3) := by
  not_written main_part0_ops3
theorem keep_main_part0_ops4_main_arg3 (W : Valuation τ sig (Elt F)) : StableHlo.after main_part0_ops4 W (Proc.devRef .tc main_arg3) = W (Proc.devRef .tc main_arg3) := by
  not_written main_part0_ops4
theorem keep_main_part1_ops0_main_arg3 (W : Valuation τ sig (Elt F)) : StableHlo.after main_part1_ops0 W (Proc.devRef .tc main_arg3) = W (Proc.devRef .tc main_arg3) := by
  not_written main_part1_ops0
theorem keep_main_part2_ops0_main_arg3 (W : Valuation τ sig (Elt F)) : StableHlo.after main_part2_ops0 W (Proc.devRef .tc main_arg3) = W (Proc.devRef .tc main_arg3) := by
  not_written main_part2_ops0
theorem keep_main_part2_ops1_main_arg3 (W : Valuation τ sig (Elt F)) : StableHlo.after main_part2_ops1 W (Proc.devRef .tc main_arg3) = W (Proc.devRef .tc main_arg3) := by
  not_written main_part2_ops1
theorem keep_main_part2_ops2_main_arg3 (W : Valuation τ sig (Elt F)) : StableHlo.after main_part2_ops2 W (Proc.devRef .tc main_arg3) = W (Proc.devRef .tc main_arg3) := by
  not_written main_part2_ops2

variable (m : (ℓ : Loc nD τ sig) → Buf (Elt F) ℓ) (ρ : Dev nD → PrngReg)

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := keep_main_part0_ops0_main_arg0 _
    _ = m ((c : Thread nD τ).loc main_arg0) := rfl
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep_main_part0_ops1_main_arg0 _
    _ = m ((c : Thread nD τ).loc main_arg0) := W2_main_arg0 m ρ c
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := keep_main_part2_ops2_main_arg0 _
    _ = W9 m ρ c (Proc.devRef .tc main_arg0) := keep_main_part2_ops1_main_arg0 _
    _ = W8 m ρ c (Proc.devRef .tc main_arg0) := keep_main_part2_ops0_main_arg0 _
    _ = W7 m ρ c (Proc.devRef .tc main_arg0) := keep_main_part1_ops0_main_arg0 _
    _ = W6 m ρ c (Proc.devRef .tc main_arg0) := keep_main_part0_ops4_main_arg0 _
    _ = W5 m ρ c (Proc.devRef .tc main_arg0) := keep_main_part0_ops3_main_arg0 _
    _ = W4 m ρ c (Proc.devRef .tc main_arg0) := keep_main_part0_ops2_main_arg0 _
    _ = m ((c : Thread nD τ).loc main_arg0) := W4_main_arg0 m ρ c

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := keep_main_part0_ops0_main_arg1 _
    _ = m ((c : Thread nD τ).loc main_arg1) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := keep_main_part0_ops1_main_arg1 _
    _ = m ((c : Thread nD τ).loc main_arg1) := W2_main_arg1 m ρ c
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := keep_main_part2_ops2_main_arg1 _
    _ = W9 m ρ c (Proc.devRef .tc main_arg1) := keep_main_part2_ops1_main_arg1 _
    _ = W8 m ρ c (Proc.devRef .tc main_arg1) := keep_main_part2_ops0_main_arg1 _
    _ = W7 m ρ c (Proc.devRef .tc main_arg1) := keep_main_part1_ops0_main_arg1 _
    _ = W6 m ρ c (Proc.devRef .tc main_arg1) := keep_main_part0_ops4_main_arg1 _
    _ = W5 m ρ c (Proc.devRef .tc main_arg1) := keep_main_part0_ops3_main_arg1 _
    _ = W4 m ρ c (Proc.devRef .tc main_arg1) := keep_main_part0_ops2_main_arg1 _
    _ = m ((c : Thread nD τ).loc main_arg1) := W4_main_arg1 m ρ c

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := keep_main_part0_ops0_main_arg2 _
    _ = m ((c : Thread nD τ).loc main_arg2) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := keep_main_part0_ops1_main_arg2 _
    _ = m ((c : Thread nD τ).loc main_arg2) := W2_main_arg2 m ρ c
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := keep_main_part2_ops2_main_arg2 _
    _ = W9 m ρ c (Proc.devRef .tc main_arg2) := keep_main_part2_ops1_main_arg2 _
    _ = W8 m ρ c (Proc.devRef .tc main_arg2) := keep_main_part2_ops0_main_arg2 _
    _ = W7 m ρ c (Proc.devRef .tc main_arg2) := keep_main_part1_ops0_main_arg2 _
    _ = W6 m ρ c (Proc.devRef .tc main_arg2) := keep_main_part0_ops4_main_arg2 _
    _ = W5 m ρ c (Proc.devRef .tc main_arg2) := keep_main_part0_ops3_main_arg2 _
    _ = W4 m ρ c (Proc.devRef .tc main_arg2) := keep_main_part0_ops2_main_arg2 _
    _ = m ((c : Thread nD τ).loc main_arg2) := W4_main_arg2 m ρ c

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := keep_main_part0_ops0_main_arg3 _
    _ = m ((c : Thread nD τ).loc main_arg3) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := keep_main_part0_ops1_main_arg3 _
    _ = m ((c : Thread nD τ).loc main_arg3) := W2_main_arg3 m ρ c
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := keep_main_part2_ops2_main_arg3 _
    _ = W9 m ρ c (Proc.devRef .tc main_arg3) := keep_main_part2_ops1_main_arg3 _
    _ = W8 m ρ c (Proc.devRef .tc main_arg3) := keep_main_part2_ops0_main_arg3 _
    _ = W7 m ρ c (Proc.devRef .tc main_arg3) := keep_main_part1_ops0_main_arg3 _
    _ = W6 m ρ c (Proc.devRef .tc main_arg3) := keep_main_part0_ops4_main_arg3 _
    _ = W5 m ρ c (Proc.devRef .tc main_arg3) := keep_main_part0_ops3_main_arg3 _
    _ = W4 m ρ c (Proc.devRef .tc main_arg3) := keep_main_part0_ops2_main_arg3 _
    _ = m ((c : Thread nD τ).loc main_arg3) := W4_main_arg3 m ρ c

/-- The frame claim at any instance: @main runs to the end, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩) (run_all m ρ)

end Cert.Kernel.Hand

end
-- ==== Proof.KIRegion0.lean ====
/- Region 0 of the two-region program (the pallas_call that sums the blocks per label), at the TensorCore's
   buffer contents on entry: the windows' blocks, the accumulator the output window's staging buffer holds point by
   point, the pipeline's proof data with the invariant that tracks the label table kept in scratch between points,
   the body's two triples (the first point of each run of twelve; every other point) and the body obligation. -/
import proofs.«427995_j35871566856560_2_alg».proof.Proof.Gen.KernelIdeal.Launch
import proofs.«427995_j35871566856560_2_alg».proof.Proof.Gen.KernelIdeal.Skeleton
import proofs.«427995_j35871566856560_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator -/

/-- What the output window's staging buffer holds after point `n`: the point's contribution added to zeros at the
    first point of each run of twelve, to what the point before left at the others. -/
def acc0 (c : Dev nD) : ℕ → Vec F S1x17x24 .f32
  | 0 => if h : 0 < cfg0.N then Gen.k0_pay3 (iblk0 V c 0 ⟨0, h⟩) (iblk0 V c 1 ⟨0, h⟩) Gen.k0_pay2 Gen.k0_pay1 else Gen.k0_pay1
  | n + 1 => if h : n + 1 < cfg0.N then
      Gen.k0_pay3 (iblk0 V c 0 ⟨n + 1, h⟩) (iblk0 V c 1 ⟨n + 1, h⟩) Gen.k0_pay2 (if (n + 1) % 12 = 0 then Gen.k0_pay1 else acc0 c n)
    else Gen.k0_pay1

/-- The accumulator at a point of the grid, one step unfolded. -/
theorem acc0_eq (c : Dev nD) (n : ℕ) (hn : n < cfg0.N) :
    acc0 V c n = Gen.k0_pay3 (iblk0 V c 0 ⟨n, hn⟩) (iblk0 V c 1 ⟨n, hn⟩) Gen.k0_pay2 (if n % 12 = 0 then Gen.k0_pay1 else acc0 V c (n - 1)) := by
  cases n with
  | zero => exact (dif_pos hn).trans (by rw [if_pos (Nat.zero_mod _)])
  | succ n => exact dif_pos hn

/-! ## The invariant -/

/-- The scratch operand, a whole scoped buffer of the kernel's own. -/
abbrev scM0 : Memref sig .tc .vmem S24x49152 .i32 := Memref.whole cc0_scratch0

/-- The core's scoped buffers that are neither a staging buffer of this region nor its scratch (the other region's
    staging buffers and scratch), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- Separating conjunction reassociated, as an equation. -/
theorem sep_assoc_eq (A B P : sProp 𝕄) : iprop((A ∗ B) ∗ P) = iprop(A ∗ B ∗ P) := by
  have h₁ : iprop((A ∗ B) ∗ P) ⊢ iprop(A ∗ B ∗ P) := by
    iintro ⟨⟨HA, HB⟩, HP⟩
    isplitl [HA]; · iexact HA
    isplitl [HB]; · iexact HB
    iexact HP
  have h₂ : iprop(A ∗ B ∗ P) ⊢ iprop((A ∗ B) ∗ P) := by
    iintro ⟨HA, HB, HP⟩
    isplitr [HP]
    · isplitl [HA]; · iexact HA
      iexact HB
    iexact HP
  exact BI.equiv_iff.mp ⟨h₁, h₂⟩

/-- The class's invariant with the scratch operand split off as a memref owned at some contents. -/
theorem PhiA0_eq (c : Dev nD) :
    (Pipeline.ΦA spec0 c : sProp 𝕄)
      = iprop((∃ d, owns (c : Thread nD τ) scM0 fullShare d) ∗ others0 (F := F) c ∗ (∃ r, prngReg c r)) := by
  unfold Pipeline.ΦA others0; rw [Gen.scopedRest0_eq]; simp only [scM0, owns_whole]
  exact sep_assoc_eq _ _ _

/-- The invariant before position `n`: where the body is about to refill the scratch (the first point of a run of
    twelve, and after the last point) the class's, every scoped buffer at anything; elsewhere the scratch at the label
    table, the other scoped buffers at anything, the generator register at some state. -/
def Phi0 (c : Dev nD) (n : ℕ) : sProp 𝕄 :=
  if n % 12 = 0 then Pipeline.ΦA spec0 c
  else iprop(owns (c : Thread nD τ) scM0 fullShare (Gen.k0_pay2 : Vec F S24x49152 .i32) ∗ others0 (F := F) c ∗ (∃ r, prngReg c r))

theorem Phi0_reset (c : Dev nD) (n : ℕ) (h : n % 12 = 0) : Phi0 (F := F) c n = Pipeline.ΦA spec0 c := if_pos h

theorem Phi0_kept (c : Dev nD) (n : ℕ) (h : ¬n % 12 = 0) :
    Phi0 (F := F) c n = iprop(owns (c : Thread nD τ) scM0 fullShare (Gen.k0_pay2 : Vec F S24x49152 .i32) ∗ others0 (F := F) c ∗ (∃ r, prngReg c r)) := if_neg h

/-- Whatever the position, the invariant gives the class's back: the scratch's named contents are forgotten. -/
theorem Phi0_out (c : Dev nD) (n : ℕ) : Phi0 (F := F) c n ⊢ Pipeline.ΦA spec0 c := by
  by_cases h : n % 12 = 0
  · rw [Phi0_reset c n h]
  · rw [Phi0_kept c n h, PhiA0_eq]
    iintro ⟨HS, HB, HP⟩
    isplitl [HS]; · iexists _; iexact HS
    isplitl [HB]; · iexact HB
    iexact HP

/-- Whatever the position, the invariant takes the scratch at the label table. -/
theorem Phi0_in (c : Dev nD) (n : ℕ) :
    iprop(owns (c : Thread nD τ) scM0 fullShare (Gen.k0_pay2 : Vec F S24x49152 .i32) ∗ others0 (F := F) c ∗ (∃ r, prngReg c r)) ⊢ Phi0 (F := F) c n := by
  by_cases h : n % 12 = 0
  · rw [Phi0_reset c n h, PhiA0_eq]
    iintro ⟨HS, HB, HP⟩
    isplitl [HS]; · iexists _; iexact HS
    isplitl [HB]; · iexact HB
    iexact HP
  · rw [Phi0_kept c n h]

/-! ## The body's branch condition -/

/-- The condition of the body's one conditional, from the grid coordinates. -/
abbrev cond0 (i : grid0.Coords) : Prop := (Scalar.cmpi .ne (Scalar.extui (Scalar.cmpi .eq (BitVec.ofNat 32 (i 1).val) 0#32)) 0#32) = 1#1

/-- It holds at the first point of each run of twelve. -/
theorem hcond0 : ∀ t : Fin cfg0.N, cond0 (grid0.coords t) ↔ t.val % 12 = 0 :=
  (by decide +kernel : ∀ t : Fin grid0.N, cond0 (grid0.coords t) ↔ t.val % 12 = 0)

/-! ## The body's accesses: every one the whole buffer, through the unit rectangle at zero offsets -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's triples -/

set_option maxHeartbeats 1000000 in
/-- The body at the first point of a run of twelve, on whole staging memrefs: the inputs' at their contents, the
    output's and the scratch at anything. It zeroes the output's buffer, fills the scratch with the label table, and
    stores the point's contribution added to the zeros; the inputs stay and the scratch keeps the table. -/
theorem sound_kernel0_first (c : Dev nD) (E : Set ℕ) (i : grid0.Coords)
    (arg2 : Memref sig .tc .vmem S1x16x49152 .f32) (harg2 : arg2.IsWhole) (arg3 : Memref sig .tc .vmem S1x1x49152 .i32) (harg3 : arg3.IsWhole)
    (arg4 : Memref sig .tc .vmem S1x17x24 .f32) (harg4 : arg4.IsWhole) (arg5 : Memref sig .tc .vmem S24x49152 .i32) (harg5 : arg5.IsWhole)
    (hc : cond0 i) (x0 : Vec F S1x16x49152 .f32) (x1 : Vec F S1x1x49152 .i32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (Gen.k0_pay3 x0 x1 Gen.k0_pay2 Gen.k0_pay1)
            ∗ owns (c : Thread nD τ) arg5 fullShare (Gen.k0_pay2 : Vec F S24x49152 .i32)) -∗ K ⟨⟩))
      ⊢ wp frame (wpE (defs₀ (F := F)) Variants.none c none) E (cc0_sums_kernel i arg2 harg2 arg3 harg3 arg4 harg4 arg5 harg5) K := by
  simp only [Gen.cc0_sums_kernel_eq_skeleton]; unfold Gen.cc0_sums_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => ⟨_, List.mem_cons.mpr (Or.inl rfl), View.mem_set_unit_zero hz3 Gen.inb_S1x17x24_S1x17x24_0_0_0 y⟩),
      View.canon_cons_unit_zero (S := S1x17x24) hz3, View.readCov_unit_zero (S := S24x49152) _ hz2,
      View.readCov_unit_zero (S := S1x17x24) _ hz3]
    simp only [View.readAt_eq_ld, View.ld_unit_zero (S := S1x16x49152) hz3, View.ld_unit_zero (S := S1x1x49152) hz3]
  iexists _; isplitr
  swap; · iexact H5
  ipureintro
  sl_unfold_run_names
  rw [View.read_writes_eq_canon _ _ _ (fun y => ⟨_, List.mem_cons.mpr (Or.inl rfl), View.mem_set_unit_zero hz2 Gen.inb_S24x49152_S24x49152_0_0 y⟩),
    View.canon_unit_zero (S := S24x49152) hz2]

set_option maxHeartbeats 1000000 in
/-- The body at any other point, on whole staging memrefs: the inputs' at their contents, the output's at the
    accumulator `a`, the scratch at the label table. It stores the point's contribution added to `a`; the inputs and
    the scratch stay. -/
theorem sound_kernel0_later (c : Dev nD) (E : Set ℕ) (i : grid0.Coords)
    (arg2 : Memref sig .tc .vmem S1x16x49152 .f32) (harg2 : arg2.IsWhole) (arg3 : Memref sig .tc .vmem S1x1x49152 .i32) (harg3 : arg3.IsWhole)
    (arg4 : Memref sig .tc .vmem S1x17x24 .f32) (harg4 : arg4.IsWhole) (arg5 : Memref sig .tc .vmem S24x49152 .i32) (harg5 : arg5.IsWhole)
    (hc : ¬cond0 i) (x0 : Vec F S1x16x49152 .f32) (x1 : Vec F S1x1x49152 .i32) (a : Vec F S1x17x24 .f32) (K : PUnit → sProp 𝕄) :
    iprop(owns (c : Thread nD τ) arg2 fullShare x0 ∗ owns (c : Thread nD τ) arg3 fullShare x1
        ∗ owns (c : Thread nD τ) arg4 fullShare a ∗ owns (c : Thread nD τ) arg5 fullShare (Gen.k0_pay2 : Vec F S24x49152 .i32)
        ∗ (iprop(owns (c : Thread nD τ) arg2 fullShare x0 ∗ owns (c : Thread nD τ) arg3 fullShare x1
            ∗ owns (c : Thread nD τ) arg4 fullShare (Gen.k0_pay3 x0 x1 Gen.k0_pay2 a)
            ∗ owns (c : Thread nD τ) arg5 fullShare (Gen.k0_pay2 : Vec F S24x49152 .i32)) -∗ K ⟨⟩))
      ⊢ wp frame (wpE (defs₀ (F := F)) Variants.none c none) E (cc0_sums_kernel i arg2 harg2 arg3 harg3 arg4 harg4 arg5 harg5) K := by
  simp only [Gen.cc0_sums_kernel_eq_skeleton]; unfold Gen.cc0_sums_kernel_skel
  unfold owns
  iintro ⟨⟨%f0, %hf0, H0⟩, ⟨%f1, %hf1, H1⟩, ⟨%f4, %hf4, H4⟩, ⟨%f5, %hf5, H5⟩, Hk⟩
  subst hf0; subst hf1; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => ⟨_, List.mem_cons.mpr (Or.inl rfl), View.mem_set_unit_zero hz3 Gen.inb_S1x17x24_S1x17x24_0_0_0 y⟩),
      View.canon_unit_zero (S := S1x17x24) hz3]
    simp only [View.readAt_eq_ld, View.ld_unit_zero (S := S1x16x49152) hz3, View.ld_unit_zero (S := S1x1x49152) hz3,
      View.ld_unit_zero (S := S24x49152) hz2, View.ld_unit_zero (S := S1x17x24) hz3, hf5]
  iexists f5; isplitr; · ipureintro; exact hf5
  iexact H5

/-! ## The pipeline's proof data -/

/-- The proof data of the pipeline on core `c`: the arrays as the region finds them; after the body at point `t` each
    input's buffer at its block and the output's at the accumulator; the tracking invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val
  Φ t := Phi0 c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_out (c : Dev nD) (t : Fin cfg0.N) : (dat0 V c).after 2 t = acc0 V c t.val := by dsimp only [dat0]

/-- The invariant at a point's start and end, restated at the position. -/
theorem Phi0_castSucc (c : Dev nD) (t : Fin cfg0.N) : (dat0 V c).Φ t.castSucc = Phi0 c t.val := by
  dsimp only [dat0]; simp only [Fin.coe_castSucc]
theorem Phi0_succ (c : Dev nD) (t : Fin cfg0.N) : (dat0 V c).Φ t.succ = Phi0 c (t.val + 1) := by
  dsimp only [dat0]; simp only [Fin.val_succ]

/-! ## What the body finds in each window's buffer -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- At the first point of a run of twelve the output's current staging buffer is fresh: the grid's first point, or
    the point after a write-back. -/
theorem before0_2_reset (c : Dev nD) (t : Fin cfg0.N) (h0 : t.val % 12 = 0) (d) : (dat0 V c).before 2 t d = d := by
  refine (dat0 V c).before_out_reset 2 rfl t ?_ d
  by_cases hz : t.val = 0
  · exact .inl hz
  · exact .inr ⟨hz, (Gen.flush0_2 _).mpr (by show (t.val - 1) % 12 = 11; omega)⟩

/-- At every other point it holds what the body left at the point before: the buffer was not written back between,
    the window is live and uncut. -/
theorem before0_2_kept (c : Dev nD) (t : Fin cfg0.N) (h0 : ¬t.val % 12 = 0) (d) :
    (dat0 V c).before 2 t d = acc0 V c (t.val - 1) := by
  rw [Dat.before_out_kept _ 2 rfl t (by omega) (Bool.eq_false_iff.mpr fun h => by have := (Gen.flush0_2 _).mp h; dsimp only at this; omega)
    (fun _ => rfl) (fun _ _ => rfl)]
  dsimp only [dat0]

/-- The accumulator at a point of the grid, one step unfolded, over the point itself. -/
theorem acc0_at (c : Dev nD) (t : Fin cfg0.N) :
    acc0 V c t.val = Gen.k0_pay3 (iblk0 V c 0 t) (iblk0 V c 1 t) Gen.k0_pay2 (if t.val % 12 = 0 then Gen.k0_pay1 else acc0 V c (t.val - 1)) :=
  acc0_eq V c t.val t.isLt

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (Gen.st0_0 t) fullShare ((dat0 V c).before 0 t d))
    ∗ (∃ d, owns (c : Thread nD τ) (Gen.st0_1 t) fullShare ((dat0 V c).before 1 t d))
    ∗ (∃ d, owns (c : Thread nD τ) (Gen.st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (Gen.st0_0 t) fullShare ((dat0 V c).after 0 t)
    ∗ owns (c : Thread nD τ) (Gen.st0_1 t) fullShare ((dat0 V c).after 1 t)
    ∗ owns (c : Thread nD τ) (Gen.st0_2 t) fullShare ((dat0 V c).after 2 t))

set_option maxHeartbeats 1000000 in
/-- The body at any point: the inputs' memrefs hold their blocks; the closed form of the condition says which triple
    applies; at the first point of a run the invariant hands the scratch over at anything and the output's buffer is
    fresh, at the others the scratch holds the label table and the output's buffer the accumulator; either way the
    invariant takes the scratch back at the label table, and the core owes nothing throughout. -/
theorem sound_body0 (c : Dev nD) (t : Fin cfg0.N) :
    bodyPre0 V c t ⊢ wp frame (wpE (defs₀ (F := F)) Variants.none c none) Set.univ (Gen.bodyAt0 t) (fun _ => bodyPost0 V c t) := by
  unfold bodyPre0 bodyPost0 Gen.bodyAt0
  simp only [before0_0, before0_1]
  rw [show (dat0 V c).owesAt () t.succ = (dat0 V c).owesAt () t.castSucc from rfl,
    Phi0_castSucc, Phi0_succ, after0_0, after0_1, after0_out, acc0_at V c t]
  by_cases h0 : t.val % 12 = 0
  · simp only [before0_2_reset V c t h0]
    rw [if_pos h0, Phi0_reset c _ h0, PhiA0_eq]
    iintro ⟨⟨⟨%ds, HS⟩, HB, HP⟩, Ho, ⟨%d0, H0⟩, ⟨%d1, H1⟩, ⟨%d2, H2⟩⟩
    iapply (sound_kernel0_first c Set.univ _ _ _ _ _ _ _ _ _ ((hcond0 t).mpr h0) (iblk0 V c 0 t) (iblk0 V c 1 t) _)
    isplitl [H0]; · iexact H0
    isplitl [H1]; · iexact H1
    isplitl [H2]; · iexists _; iexact H2
    isplitl [HS]; · iexists _; iexact HS
    iintro ⟨H0, H1, H2, HS⟩
    isplitl [HS HB HP]
    · iapply (Phi0_in c (t.val + 1))
      isplitl [HS]; · iexact HS
      isplitl [HB]; · iexact HB
      iexact HP
    isplitl [Ho]; · iexact Ho
    isplitl [H0]; · iexact H0
    isplitl [H1]; · iexact H1
    iexact H2
  · simp only [before0_2_kept V c t h0]
    rw [if_neg h0, Phi0_kept c _ h0]
    iintro ⟨⟨HS, HB, HP⟩, Ho, ⟨%d0, H0⟩, ⟨%d1, H1⟩, ⟨%d2, H2⟩⟩
    iapply (sound_kernel0_later c Set.univ _ _ _ _ _ _ _ _ _ (fun h => h0 ((hcond0 t).mp h)) (iblk0 V c 0 t) (iblk0 V c 1 t) (acc0 V c (t.val - 1)) _)
    isplitl [H0]; · iexact H0
    isplitl [H1]; · iexact H1
    isplitl [H2]; · iexact H2
    isplitl [HS]; · iexact HS
    iintro ⟨H0, H1, H2, HS⟩
    isplitl [HS HB HP]
    · iapply (Phi0_in c (t.val + 1))
      isplitl [HS]; · iexact HS
      isplitl [HB]; · iexact HB
      iexact HP
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [Gen.bigSep_W0, Gen.bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 c 0 from rfl, Phi0_reset c 0 (Nat.zero_mod _)]

/-- After the last point the invariant gives the class's back. -/
theorem hout0 (c : Dev nD) : (dat0 V c).Φ (Fin.last cfg0.N) ⊢ Pipeline.ΦA spec0 c := by
  rw [show (dat0 V c).Φ (Fin.last cfg0.N) = Phi0 c (Fin.last cfg0.N).val from rfl]
  exact Phi0_out c _

end Cert.KernelIdeal.Hand

end
-- ==== Proof.KIRegion1.lean ====
/- Region 1 of @main (custom_call 1, the kernel `cc1_var_kernel` on the grid 4 × 12), at the buffer contents `V`
   the region is entered with. Along each run of 12 points (one value of the first grid coordinate) the body
   accumulates into the output window's staging buffer: at the run's first point it zeroes that buffer and fills
   the scratch with an iota; at every point it adds this point's contribution — a function of the point's three
   input blocks and of the scratch — to what the buffer holds. So the scratch is carried from point to point (it
   holds the iota from a run's first point on), and the staging buffer after point `n` is a recursion on `n` that
   restarts at every multiple of 12 (`acc1`). This module states the windows' blocks, that recursion, the body's
   two triples (a run's first point; any other point), the proof data with the invariant that tracks the scratch,
   and the body obligation. -/
import proofs.«427995_j35871566856560_2_alg».proof.Proof.Gen.KernelIdeal.Launch
import proofs.«427995_j35871566856560_2_alg».proof.Proof.Gen.KernelIdeal.Skeleton
import proofs.«427995_j35871566856560_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- One point's step: the accumulator row `a` plus the contribution of point `n` (computed from its three input
    blocks and the iota the scratch holds), reshaped to the staging buffer's shape. Past the grid, nothing. -/
def step1 (c : Dev nD) (n : ℕ) (a : Vec F S1x1x24 .f32) : Vec F S1x1x24 .f32 :=
  if hn : n < cfg1.N then
    Gen.k1_pay1 (Gen.k1_pay4 (iblk1 V c 0 ⟨n, hn⟩) (iblk1 V c 1 ⟨n, hn⟩) (iblk1 V c 2 ⟨n, hn⟩) Gen.k1_pay3 a)
  else a

/-- What the output window's staging buffer holds after point `n`: the step at `n` applied to zeros at the
    first point of a run of 12, to what point `n - 1` left elsewhere. -/
def acc1 (c : Dev nD) : ℕ → Vec F S1x1x24 .f32
  | 0 => step1 V c 0 Gen.k1_pay2
  | n + 1 => step1 V c (n + 1) (if (n + 1) % 12 = 0 then Gen.k1_pay2 else acc1 c n)

theorem acc1_eq (c : Dev nD) (n : ℕ) (hn : n < cfg1.N) :
    acc1 V c n = Gen.k1_pay1 (Gen.k1_pay4 (iblk1 V c 0 ⟨n, hn⟩) (iblk1 V c 1 ⟨n, hn⟩) (iblk1 V c 2 ⟨n, hn⟩) Gen.k1_pay3
      (if n % 12 = 0 then Gen.k1_pay2 else acc1 V c (n - 1))) := by
  cases n with
  | zero =>
    rw [if_pos (Nat.zero_mod 12)]
    show step1 V c 0 Gen.k1_pay2 = _
    unfold step1; rw [dif_pos hn]
  | succ n =>
    simp only [Nat.add_sub_cancel]
    show step1 V c (n + 1) (if (n + 1) % 12 = 0 then Gen.k1_pay2 else acc1 V c n) = _
    unfold step1; rw [dif_pos hn]

/-! ## Whole-buffer accesses -/

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- After a list of stores whose LAST is a store of the whole buffer, the buffer reads as that store's payload,
    whatever it held and whatever was stored before. -/
theorem read_writes_cons_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

/-! ## The body's branch condition -/

/-- The condition of the body's one `scf.if`, from the grid coordinates: the second coordinate is 0. -/
abbrev cond1 (i : grid1.Coords) : Prop := (Scalar.cmpi .ne (Scalar.extui (Scalar.cmpi .eq (BitVec.ofNat 32 (i 1).val) 0#32)) 0#32) = 1#1

/-- It holds at the first point of every run of 12 — decided over the grid. -/
theorem hcond1 : ∀ t : Fin cfg1.N, cond1 (grid1.coords t) ↔ t.val % 12 = 0 :=
  (by decide +kernel : ∀ t : Fin grid1.N, cond1 (grid1.coords t) ↔ t.val % 12 = 0)

/-! ## The body's triples -/

set_option maxHeartbeats 1000000 in
/-- The body at a run's first point, on whole memrefs: the inputs' at read contents, the output's and the scratch at
    anything. It zeroes the output's buffer, fills the scratch with the iota, and leaves the output's buffer at the
    step over zeros and the scratch at the iota; the inputs as they were. -/
theorem sound_kernel1_first (c : Dev nD) (E : Set ℕ) (i : grid1.Coords)
    (arg2 : Memref sig .tc .vmem S1x16x49152 .f32) (harg2 : arg2.IsWhole) (arg3 : Memref sig .tc .vmem S1x1x49152 .i32) (harg3 : arg3.IsWhole)
    (arg4 : Memref sig .tc .vmem S1x16x24 .f32) (harg4 : arg4.IsWhole) (arg5 : Memref sig .tc .vmem S1x1x24 .f32) (harg5 : arg5.IsWhole)
    (arg6 : Memref sig .tc .vmem S24x49152 .i32) (harg6 : arg6.IsWhole) (hc : cond1 i)
    (x0 : Vec F S1x16x49152 .f32) (x1 : Vec F S1x1x49152 .i32) (x2 : Vec F S1x16x24 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (Gen.k1_pay1 (Gen.k1_pay4 x0 x1 x2 Gen.k1_pay3 Gen.k1_pay2))
            ∗ owns (c : Thread nD τ) arg6 fullShare (Gen.k1_pay3 : Vec F S24x49152 .i32)) -∗ K ⟨⟩))
      ⊢ wp frame (wpE (defs₀ (F := F)) Variants.none c none) E (cc1_var_kernel i arg2 harg2 arg3 harg3 arg4 harg4 arg5 harg5 arg6 harg6) K := by
  simp only [Gen.cc1_var_kernel_eq_skeleton]; unfold Gen.cc1_var_kernel_skel
  simp only [Gen.k1_part1_eq_skeleton]; unfold Gen.k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (read_writes_cons_whole (S := S1x1x24) _ _ zeros3 _ _ _).trans ?_
    dsimp only
    rw [View.readAt_eq_ld, View.readAt_eq_ld, View.readAt_eq_ld,
      View.ld_unit_zero (S := S1x16x49152) zeros3, View.ld_unit_zero (S := S1x1x49152) zeros3,
      View.ld_unit_zero (S := S1x16x24) zeros3,
      View.readCov_unit_zero (S := S24x49152) _ zeros2, View.readCov_unit_zero (S := S1x1x24) _ zeros3]
  iexists _; isplitr
  swap; · iexact H4
  ipureintro
  sl_unfold_run_names
  exact read_writes_cons_whole (S := S24x49152) _ _ zeros2 _ _ _

set_option maxHeartbeats 1000000 in
/-- The body at any other point of a run, on whole memrefs: the inputs' at read contents, the output's at the
    accumulator `a` so far, the scratch at the iota. It leaves the output's buffer at the step over `a`; the inputs and
    the scratch as they were. -/
theorem sound_kernel1_rest (c : Dev nD) (E : Set ℕ) (i : grid1.Coords)
    (arg2 : Memref sig .tc .vmem S1x16x49152 .f32) (harg2 : arg2.IsWhole) (arg3 : Memref sig .tc .vmem S1x1x49152 .i32) (harg3 : arg3.IsWhole)
    (arg4 : Memref sig .tc .vmem S1x16x24 .f32) (harg4 : arg4.IsWhole) (arg5 : Memref sig .tc .vmem S1x1x24 .f32) (harg5 : arg5.IsWhole)
    (arg6 : Memref sig .tc .vmem S24x49152 .i32) (harg6 : arg6.IsWhole) (hc : ¬cond1 i)
    (x0 : Vec F S1x16x49152 .f32) (x1 : Vec F S1x1x49152 .i32) (x2 : Vec F S1x16x24 .f32) (a : Vec F S1x1x24 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare a ∗ owns (c : Thread nD τ) arg6 fullShare (Gen.k1_pay3 : Vec F S24x49152 .i32)
        ∗ (iprop(owns (c : Thread nD τ) arg2 fullShare x0 ∗ owns (c : Thread nD τ) arg3 fullShare x1 ∗ owns (c : Thread nD τ) arg4 fullShare x2
            ∗ owns (c : Thread nD τ) arg5 fullShare (Gen.k1_pay1 (Gen.k1_pay4 x0 x1 x2 Gen.k1_pay3 a))
            ∗ owns (c : Thread nD τ) arg6 fullShare (Gen.k1_pay3 : Vec F S24x49152 .i32)) -∗ K ⟨⟩))
      ⊢ wp frame (wpE (defs₀ (F := F)) Variants.none c none) E (cc1_var_kernel i arg2 harg2 arg3 harg3 arg4 harg4 arg5 harg5 arg6 harg6) K := by
  simp only [Gen.cc1_var_kernel_eq_skeleton]; unfold Gen.cc1_var_kernel_skel
  simp only [Gen.k1_part1_eq_skeleton]; unfold Gen.k1_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    refine (read_writes_cons_whole (S := S1x1x24) _ _ zeros3 _ _ _).trans ?_
    dsimp only
    rw [View.readAt_eq_ld, View.readAt_eq_ld, View.readAt_eq_ld, View.readAt_eq_ld, View.readAt_eq_ld,
      View.ld_unit_zero (S := S1x16x49152) zeros3, View.ld_unit_zero (S := S1x1x49152) zeros3,
      View.ld_unit_zero (S := S1x16x24) zeros3, View.ld_unit_zero (S := S24x49152) zeros2,
      View.ld_unit_zero (S := S1x1x24) zeros3, hf4]
  iexists _; isplitr
  swap; · iexact H4
  ipureintro
  exact hf4

/-! ## The invariant that tracks the scratch -/

/-- The scratch operand: a whole scoped buffer of the kernel's own, passed beside the windows. -/
abbrev scM1 : Memref sig .tc .vmem S24x49152 .i32 := Memref.whole cc1_scratch0

/-- What the body neither reads nor writes of the class invariant: the core's other scoped buffers that are no
    staging buffer of this call, at some contents each, and its generator register at some state. -/
def rest1 (c : Dev nD) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))
    ∗ ∃ r, prngReg c r)

/-- The class invariant with the scratch named: the scratch at the iota, the rest as it is. -/
def PhiI1 (c : Dev nD) : sProp 𝕄 :=
  iprop(owns (c : Thread nD τ) scM1 fullShare (Gen.k1_pay3 : Vec F S24x49152 .i32) ∗ rest1 (F := F) c)

/-- The class invariant opens into the scratch at some contents and the rest, -/
theorem PhiA1_open (c : Dev nD) :
    (Pipeline.ΦA spec1 c : sProp 𝕄) ⊢ iprop((∃ d, owns (c : Thread nD τ) scM1 fullShare d) ∗ rest1 (F := F) c) := by
  unfold Pipeline.ΦA rest1; rw [Gen.scopedRest1_eq]; simp only [scM1, owns_whole]
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

/-- and closes from them. -/
theorem PhiA1_close (c : Dev nD) :
    iprop((∃ d, owns (c : Thread nD τ) scM1 fullShare d) ∗ rest1 (F := F) c) ⊢ (Pipeline.ΦA spec1 c : sProp 𝕄) := by
  unfold Pipeline.ΦA rest1; rw [Gen.scopedRest1_eq]; simp only [scM1, owns_whole]
  iintro ⟨HS, ⟨H1, H2, H3, H4, H5, H6, H7⟩, Hg⟩
  isplitl [H1 H2 H3 H4 H5 H6 H7 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The pipeline's proof data -/

/-- The proof data of pipeline 1 on core `c`: the arrays as the region finds them (`V`); after the body at point
    `t` each input's buffer at its block and the output's at the accumulator `acc1`; the invariant the class's
    before the first point of every run of 12 (the scratch at anything: the body is about to fill it) and the
    scratch at the iota before every other point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val
  Φ t := if t.val % 12 = 0 then Pipeline.ΦA spec1 c else PhiI1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_out (c : Dev nD) (t : Fin cfg1.N) : (dat1 V c).after 3 t = acc1 V c t.val := by dsimp only [dat1]

/-- The invariant before a run's first point is the class's; -/
theorem Phi1_of_zero (c : Dev nD) (t : Fin (cfg1.N + 1)) (h : t.val % 12 = 0) : (dat1 V c).Φ t = Pipeline.ΦA spec1 c := by
  dsimp only [dat1]; rw [if_pos h]

/-- before any other point it names the scratch's contents. -/
theorem Phi1_of_pos (c : Dev nD) (t : Fin (cfg1.N + 1)) (h : ¬t.val % 12 = 0) : (dat1 V c).Φ t = PhiI1 c := by
  dsimp only [dat1]; rw [if_neg h]

/-! ## What the body finds in each window's current staging buffer -/

/-- Each input's current staging buffer holds its block at every point, fetched there or not: an input not fetched
    at a point has the block index it had at the point before, and the body left that block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The output's staging buffer at a run's first point holds anything: it is the grid's first point, or the point
    before wrote the block back and the buffer is fresh. -/
theorem before1_3_first (c : Dev nD) (t : Fin cfg1.N) (h : t.val % 12 = 0) (d) : (dat1 V c).before 3 t d = d :=
  (dat1 V c).before_out_reset 3 rfl t (by
    by_cases h0 : t.val = 0
    · exact .inl h0
    · exact .inr ⟨h0, (Gen.flush1_3 _).mpr (by show (t.val - 1) % 12 = 11; omega)⟩) d

/-- At any other point it holds what the point before left: the accumulator. -/
theorem before1_3_rest (c : Dev nD) (t : Fin cfg1.N) (h : ¬t.val % 12 = 0) (d) :
    (dat1 V c).before 3 t d = acc1 V c (t.val - 1) :=
  ((dat1 V c).before_out_kept 3 rfl t (fun h0 => h (by rw [h0]))
    (Bool.eq_false_iff.mpr fun hf => h (by
      have h11 := (Gen.flush1_3 _).mp hf
      have h11' : (t.val - 1) % 12 = 11 := h11
      omega))
    (fun _ => rfl) (fun _ _ => rfl) d).trans (after1_out V c _)

/-! ## The body obligation -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (Gen.st1_0 t) fullShare ((dat1 V c).before 0 t d))
    ∗ (∃ d, owns (c : Thread nD τ) (Gen.st1_1 t) fullShare ((dat1 V c).before 1 t d))
    ∗ (∃ d, owns (c : Thread nD τ) (Gen.st1_2 t) fullShare ((dat1 V c).before 2 t d))
    ∗ (∃ d, owns (c : Thread nD τ) (Gen.st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (Gen.st1_0 t) fullShare ((dat1 V c).after 0 t)
    ∗ owns (c : Thread nD τ) (Gen.st1_1 t) fullShare ((dat1 V c).after 1 t)
    ∗ owns (c : Thread nD τ) (Gen.st1_2 t) fullShare ((dat1 V c).after 2 t)
    ∗ owns (c : Thread nD τ) (Gen.st1_3 t) fullShare ((dat1 V c).after 3 t))

set_option maxHeartbeats 1000000 in
/-- The body at any point. The inputs' memrefs hold their blocks. At a run's first point the invariant hands the
    scratch over at anything and the output's buffer holds anything, the body resets both, and the invariant takes the
    scratch back at the iota. At any other point the scratch comes at the iota and the output's buffer at what the
    point before left, and the body adds this point's contribution; if the next point starts a run the scratch's
    contents are forgotten. The core owes nothing throughout. -/
theorem sound_body1 (c : Dev nD) (t : Fin cfg1.N) :
    bodyPre1 V c t ⊢ wp frame (wpE (defs₀ (F := F)) Variants.none c none) Set.univ (Gen.bodyAt1 t) (fun _ => bodyPost1 V c t) := by
  unfold bodyPre1 bodyPost1 Gen.bodyAt1
  simp only [before1_0, before1_1, before1_2]
  rw [show (dat1 V c).owesAt () t.succ = (dat1 V c).owesAt () t.castSucc from rfl,
    after1_0, after1_1, after1_2, after1_out]
  have hN : t.val < 48 := lt_of_lt_of_eq t.isLt (show cfg1.N = 48 from Gen.N_1)
  by_cases h0 : t.val % 12 = 0
  · rw [Phi1_of_zero V c t.castSucc (by show t.val % 12 = 0; exact h0),
      Phi1_of_pos V c t.succ (by show ¬(t.val + 1) % 12 = 0; omega)]
    simp only [before1_3_first V c t h0]
    rw [acc1_eq V c t.val t.isLt, if_pos h0]
    unfold PhiI1
    iintro ⟨HΦ, Ho, ⟨%d0, H0⟩, ⟨%d1, H1⟩, ⟨%d2, H2⟩, ⟨%d3, H3⟩⟩
    ihave HΦ' := PhiA1_open c $$ HΦ
    icases HΦ' with ⟨HS, HR⟩
    iapply (sound_kernel1_first c Set.univ _ _ _ _ _ _ _ _ _ _ _ ((hcond1 t).mpr h0)
      (iblk1 V c 0 t) (iblk1 V c 1 t) (iblk1 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR]
    · isplitl [HS]; · iexact HS
      iexact HR
    isplitl [Ho]; · iexact Ho
    isplitl [H0]; · iexact H0
    isplitl [H1]; · iexact H1
    isplitl [H2]; · iexact H2
    iexact H3
  · rw [Phi1_of_pos V c t.castSucc (by show ¬t.val % 12 = 0; exact h0)]
    simp only [before1_3_rest V c t h0]
    rw [acc1_eq V c t.val t.isLt, if_neg h0]
    by_cases h1 : (t.val + 1) % 12 = 0
    · rw [Phi1_of_zero V c t.succ (by show (t.val + 1) % 12 = 0; exact h1)]
      unfold PhiI1
      iintro ⟨⟨HS, HR⟩, Ho, ⟨%d0, H0⟩, ⟨%d1, H1⟩, ⟨%d2, H2⟩, ⟨%d3, H3⟩⟩
      iapply (sound_kernel1_rest c Set.univ _ _ _ _ _ _ _ _ _ _ _ (fun h => h0 ((hcond1 t).mp h))
        (iblk1 V c 0 t) (iblk1 V c 1 t) (iblk1 V c 2 t) (acc1 V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · iapply (PhiA1_close c)
        isplitl [HS]; · iexists _; iexact HS
        iexact HR
      isplitl [Ho]; · iexact Ho
      isplitl [H0]; · iexact H0
      isplitl [H1]; · iexact H1
      isplitl [H2]; · iexact H2
      iexact H3
    · rw [Phi1_of_pos V c t.succ (by show ¬(t.val + 1) % 12 = 0; exact h1)]
      unfold PhiI1
      iintro ⟨⟨HS, HR⟩, Ho, ⟨%d0, H0⟩, ⟨%d1, H1⟩, ⟨%d2, H2⟩, ⟨%d3, H3⟩⟩
      iapply (sound_kernel1_rest c Set.univ _ _ _ _ _ _ _ _ _ _ _ (fun h => h0 ((hcond1 t).mp h))
        (iblk1 V c 0 t) (iblk1 V c 1 t) (iblk1 V c 2 t) (acc1 V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [Gen.bigSep_W1, Gen.bigSep_W1]
  exact sound_body1 V c t

/-- What the launch hands the region (the class invariant) is the invariant before the first point. -/
theorem hin1 (c : Dev nD) : Pipeline.ΦA spec1 c ⊢ (dat1 V c).Φ 0 := by
  rw [Phi1_of_zero V c 0 (Nat.zero_mod 12)]
  try exact Idealize.SL.BI.Entails.refl _

/-- After the last point the invariant gives the class's back. -/
theorem hout1 (c : Dev nD) : (dat1 V c).Φ (Fin.last cfg1.N) ⊢ Pipeline.ΦA spec1 c := by
  rw [Phi1_of_zero V c (Fin.last cfg1.N) (by rw [Fin.val_last]; have hN : cfg1.N = 48 := Gen.N_1; omega)]
  try exact Idealize.SL.BI.Entails.refl _

end Cert.KernelIdeal.Hand

end
-- ==== Proof.KIRun.lean ====
/-
  The run of the kernel program: @main cut into its host stretches and its two kernel regions, each stretch a fold
  of its operations over the buffer contents at its start, each region entered at the contents the stretch before
  left and left with its arrays at what the region's write-backs leave. The thread state between segments is
  "every unscoped buffer at the boundary's contents, the generator register at some state, nothing owed".
  The first region's invariant carries its scratch (the class index table) from point to point; before the first
  point and after the last it is the plain invariant "the scoped buffers at anything".
  Conclusion: every weakly fair execution terminates, and every final state has every unscoped buffer at the last
  boundary's contents; the argument arrays are written by nothing, so they end as launched.
-/
import proofs.«427995_j35871566856560_2_alg».proof.Proof.KIRegion0
import proofs.«427995_j35871566856560_2_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the stretch between the regions (region 1's entry). -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After each of the seven stretches that follow region 1. -/
abbrev W5 : Dev nD → Valuation τ sig (Elt F) := fun c => StableHlo.after main_part0_ops2 (W4 m ρ c)
abbrev W6 : Dev nD → Valuation τ sig (Elt F) := fun c => StableHlo.after main_part0_ops3 (W5 m ρ c)
abbrev W7 : Dev nD → Valuation τ sig (Elt F) := fun c => StableHlo.after main_part0_ops4 (W6 m ρ c)
abbrev W8 : Dev nD → Valuation τ sig (Elt F) := fun c => StableHlo.after main_part1_ops0 (W7 m ρ c)
abbrev W9 : Dev nD → Valuation τ sig (Elt F) := fun c => StableHlo.after main_part2_ops0 (W8 m ρ c)
abbrev W10 : Dev nD → Valuation τ sig (Elt F) := fun c => StableHlo.after main_part2_ops1 (W9 m ρ c)
abbrev W11 : Dev nD → Valuation τ sig (Elt F) := fun c => StableHlo.after main_part2_ops2 (W10 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part0_ops4_fresh : (main_part0_ops4 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    refine BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch as a segment whose post is the last thread state beside the core owing nothing. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .region (reg1 m ρ),
    .host (hseg main_part0_ops2 main_part0_ops2_sub main_part0_ops2_fresh (W4 m ρ)),
    .host (hseg main_part0_ops3 main_part0_ops3_sub main_part0_ops3_fresh (W5 m ρ)),
    .host (hseg main_part0_ops4 main_part0_ops4_sub main_part0_ops4_fresh (W6 m ρ)),
    .host (hseg main_part1_ops0 main_part1_ops0_sub main_part1_ops0_fresh (W7 m ρ)),
    .host (hseg main_part2_ops0 main_part2_ops0_sub main_part2_ops0_fresh (W8 m ρ)),
    .host (hseg main_part2_ops1 main_part2_ops1_sub main_part2_ops1_fresh (W9 m ρ)),
    .host (hseg main_part2_ops2 main_part2_ops2_sub main_part2_ops2_fresh (W10 m ρ)) ]

theorem main_run (c : Dev nD) : main (F := F) c = Pipeline.Seg.run (segs m ρ) := (main_chain_windows c).trans (by chain_rfl)

set_option backward.isDefEq.respectTransparency.types false in
/-- Every weakly fair execution of @main terminates, nothing faulting, and every final state has every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Hand

end
-- ==== Proof.KIFrame.lean ====
/-
  The argument arrays end as launched: no host operation writes one and each region only reads them through input
  windows or not at all, so the fold of the buffer contents through @main, read at an argument, walks back to the
  launch memory. With the run, this is the frame claim at any instance.
-/
import proofs.«427995_j35871566856560_2_alg».proof.Proof.KIRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- A stretch of host operations leaves a buffer none of them writes as it found it. -/
syntax "not_written " ident : tactic
macro_rules
  | `(tactic| not_written $l:ident) => `(tactic|
      (refine StableHlo.after_of_forall_not_mem _ _ (List.forall_iff_forall_mem.mp ?_)
       simp only [$l:ident, List.Forall, StableHlo.TRef.nullary, StableHlo.TRef.unary, StableHlo.TRef.binary, StableHlo.TRef.ternary,
         StableHlo.nullary_writes, StableHlo.unary_writes, StableHlo.binary_writes, StableHlo.ternary_writes,
         StableHlo.quaternary_writes, StableHlo.reshape_writes, StableHlo.binaryIndexed_writes, Finset.mem_singleton]
       repeat' apply And.intro
       all_goals exact StableHlo.devRef_ne_of_ne (by decide)))

theorem keep_main_part0_ops0_main_arg0 (W : Valuation τ sig (Elt F)) : StableHlo.after main_part0_ops0 W (Proc.devRef .tc main_arg0) = W (Proc.devRef .tc main_arg0) := by
  not_written main_part0_ops0
theorem keep_main_part0_ops1_main_arg0 (W : Valuation τ sig (Elt F)) : StableHlo.after main_part0_ops1 W (Proc.devRef .tc main_arg0) = W (Proc.devRef .tc main_arg0) := by
  not_written main_part0_ops1
theorem keep_main_part0_ops2_main_arg0 (W : Valuation τ sig (Elt F)) : StableHlo.after main_part0_ops2 W (Proc.devRef .tc main_arg0) = W (Proc.devRef .tc main_arg0) := by
  not_written main_part0_ops2
theorem keep_main_part0_ops3_main_arg0 (W : Valuation τ sig (Elt F)) : StableHlo.after main_part0_ops3 W (Proc.devRef .tc main_arg0) = W (Proc.devRef .tc main_arg0) := by
  not_written main_part0_ops3
theorem keep_main_part0_ops4_main_arg0 (W : Valuation τ sig (Elt F)) : StableHlo.after main_part0_ops4 W (Proc.devRef .tc main_arg0) = W (Proc.devRef .tc main_arg0) := by
  not_written main_part0_ops4
theorem keep_main_part1_ops0_main_arg0 (W : Valuation τ sig (Elt F)) : StableHlo.after main_part1_ops0 W (Proc.devRef .tc main_arg0) = W (Proc.devRef .tc main_arg0) := by
  not_written main_part1_ops0
theorem keep_main_part2_ops0_main_arg0 (W : Valuation τ sig (Elt F)) : StableHlo.after main_part2_ops0 W (Proc.devRef .tc main_arg0) = W (Proc.devRef .tc main_arg0) := by
  not_written main_part2_ops0
theorem keep_main_part2_ops1_main_arg0 (W : Valuation τ sig (Elt F)) : StableHlo.after main_part2_ops1 W (Proc.devRef .tc main_arg0) = W (Proc.devRef .tc main_arg0) := by
  not_written main_part2_ops1
theorem keep_main_part2_ops2_main_arg0 (W : Valuation τ sig (Elt F)) : StableHlo.after main_part2_ops2 W (Proc.devRef .tc main_arg0) = W (Proc.devRef .tc main_arg0) := by
  not_written main_part2_ops2
theorem keep_main_part0_ops0_main_arg1 (W : Valuation τ sig (Elt F)) : StableHlo.after main_part0_ops0 W (Proc.devRef .tc main_arg1) = W (Proc.devRef .tc main_arg1) := by
  not_written main_part0_ops0
theorem keep_main_part0_ops1_main_arg1 (W : Valuation τ sig (Elt F)) : StableHlo.after main_part0_ops1 W (Proc.devRef .tc main_arg1) = W (Proc.devRef .tc main_arg1) := by
  not_written main_part0_ops1
theorem keep_main_part0_ops2_main_arg1 (W : Valuation τ sig (Elt F)) : StableHlo.after main_part0_ops2 W (Proc.devRef .tc main_arg1) = W (Proc.devRef .tc main_arg1) := by
  not_written main_part0_ops2
theorem keep_main_part0_ops3_main_arg1 (W : Valuation τ sig (Elt F)) : StableHlo.after main_part0_ops3 W (Proc.devRef .tc main_arg1) = W (Proc.devRef .tc main_arg1) := by
  not_written main_part0_ops3
theorem keep_main_part0_ops4_main_arg1 (W : Valuation τ sig (Elt F)) : StableHlo.after main_part0_ops4 W (Proc.devRef .tc main_arg1) = W (Proc.devRef .tc main_arg1) := by
  not_written main_part0_ops4
theorem keep_main_part1_ops0_main_arg1 (W : Valuation τ sig (Elt F)) : StableHlo.after main_part1_ops0 W (Proc.devRef .tc main_arg1) = W (Proc.devRef .tc main_arg1) := by
  not_written main_part1_ops0
theorem keep_main_part2_ops0_main_arg1 (W : Valuation τ sig (Elt F)) : StableHlo.after main_part2_ops0 W (Proc.devRef .tc main_arg1) = W (Proc.devRef .tc main_arg1) := by
  not_written main_part2_ops0
theorem keep_main_part2_ops1_main_arg1 (W : Valuation τ sig (Elt F)) : StableHlo.after main_part2_ops1 W (Proc.devRef .tc main_arg1) = W (Proc.devRef .tc main_arg1) := by
  not_written main_part2_ops1
theorem keep_main_part2_ops2_main_arg1 (W : Valuation τ sig (Elt F)) : StableHlo.after main_part2_ops2 W (Proc.devRef .tc main_arg1) = W (Proc.devRef .tc main_arg1) := by
  not_written main_part2_ops2
theorem keep_main_part0_ops0_main_arg2 (W : Valuation τ sig (Elt F)) : StableHlo.after main_part0_ops0 W (Proc.devRef .tc main_arg2) = W (Proc.devRef .tc main_arg2) := by
  not_written main_part0_ops0
theorem keep_main_part0_ops1_main_arg2 (W : Valuation τ sig (Elt F)) : StableHlo.after main_part0_ops1 W (Proc.devRef .tc main_arg2) = W (Proc.devRef .tc main_arg2) := by
  not_written main_part0_ops1
theorem keep_main_part0_ops2_main_arg2 (W : Valuation τ sig (Elt F)) : StableHlo.after main_part0_ops2 W (Proc.devRef .tc main_arg2) = W (Proc.devRef .tc main_arg2) := by
  not_written main_part0_ops2
theorem keep_main_part0_ops3_main_arg2 (W : Valuation τ sig (Elt F)) : StableHlo.after main_part0_ops3 W (Proc.devRef .tc main_arg2) = W (Proc.devRef .tc main_arg2) := by
  not_written main_part0_ops3
theorem keep_main_part0_ops4_main_arg2 (W : Valuation τ sig (Elt F)) : StableHlo.after main_part0_ops4 W (Proc.devRef .tc main_arg2) = W (Proc.devRef .tc main_arg2) := by
  not_written main_part0_ops4
theorem keep_main_part1_ops0_main_arg2 (W : Valuation τ sig (Elt F)) : StableHlo.after main_part1_ops0 W (Proc.devRef .tc main_arg2) = W (Proc.devRef .tc main_arg2) := by
  not_written main_part1_ops0
theorem keep_main_part2_ops0_main_arg2 (W : Valuation τ sig (Elt F)) : StableHlo.after main_part2_ops0 W (Proc.devRef .tc main_arg2) = W (Proc.devRef .tc main_arg2) := by
  not_written main_part2_ops0
theorem keep_main_part2_ops1_main_arg2 (W : Valuation τ sig (Elt F)) : StableHlo.after main_part2_ops1 W (Proc.devRef .tc main_arg2) = W (Proc.devRef .tc main_arg2) := by
  not_written main_part2_ops1
theorem keep_main_part2_ops2_main_arg2 (W : Valuation τ sig (Elt F)) : StableHlo.after main_part2_ops2 W (Proc.devRef .tc main_arg2) = W (Proc.devRef .tc main_arg2) := by
  not_written main_part2_ops2
theorem keep_main_part0_ops0_main_arg3 (W : Valuation τ sig (Elt F)) : StableHlo.after main_part0_ops0 W (Proc.devRef .tc main_arg3) = W (Proc.devRef .tc main_arg3) := by
  not_written main_part0_ops0
theorem keep_main_part0_ops1_main_arg3 (W : Valuation τ sig (Elt F)) : StableHlo.after main_part0_ops1 W (Proc.devRef .tc main_arg3) = W (Proc.devRef .tc main_arg3) := by
  not_written main_part0_ops1
theorem keep_main_part0_ops2_main_arg3 (W : Valuation τ sig (Elt F)) : StableHlo.after main_part0_ops2 W (Proc.devRef .tc main_arg3) = W (Proc.devRef .tc main_arg3) := by
  not_written main_part0_ops2
theorem keep_main_part0_ops3_main_arg3 (W : Valuation τ sig (Elt F)) : StableHlo.after main_part0_ops3 W (Proc.devRef .tc main_arg3) = W (Proc.devRef .tc main_arg3) := by
  not_written main_part0_ops3
theorem keep_main_part0_ops4_main_arg3 (W : Valuation τ sig (Elt F)) : StableHlo.after main_part0_ops4 W (Proc.devRef .tc main_arg3) = W (Proc.devRef .tc main_arg3) := by
  not_written main_part0_ops4
theorem keep_main_part1_ops0_main_arg3 (W : Valuation τ sig (Elt F)) : StableHlo.after main_part1_ops0 W (Proc.devRef .tc main_arg3) = W (Proc.devRef .tc main_arg3) := by
  not_written main_part1_ops0
theorem keep_main_part2_ops0_main_arg3 (W : Valuation τ sig (Elt F)) : StableHlo.after main_part2_ops0 W (Proc.devRef .tc main_arg3) = W (Proc.devRef .tc main_arg3) := by
  not_written main_part2_ops0
theorem keep_main_part2_ops1_main_arg3 (W : Valuation τ sig (Elt F)) : StableHlo.after main_part2_ops1 W (Proc.devRef .tc main_arg3) = W (Proc.devRef .tc main_arg3) := by
  not_written main_part2_ops1
theorem keep_main_part2_ops2_main_arg3 (W : Valuation τ sig (Elt F)) : StableHlo.after main_part2_ops2 W (Proc.devRef .tc main_arg3) = W (Proc.devRef .tc main_arg3) := by
  not_written main_part2_ops2

variable (m : (ℓ : Loc nD τ sig) → Buf (Elt F) ℓ) (ρ : Dev nD → PrngReg)

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := keep_main_part0_ops0_main_arg0 _
    _ = m ((c : Thread nD τ).loc main_arg0) := rfl
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep_main_part0_ops1_main_arg0 _
    _ = m ((c : Thread nD τ).loc main_arg0) := W2_main_arg0 m ρ c
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := keep_main_part2_ops2_main_arg0 _
    _ = W9 m ρ c (Proc.devRef .tc main_arg0) := keep_main_part2_ops1_main_arg0 _
    _ = W8 m ρ c (Proc.devRef .tc main_arg0) := keep_main_part2_ops0_main_arg0 _
    _ = W7 m ρ c (Proc.devRef .tc main_arg0) := keep_main_part1_ops0_main_arg0 _
    _ = W6 m ρ c (Proc.devRef .tc main_arg0) := keep_main_part0_ops4_main_arg0 _
    _ = W5 m ρ c (Proc.devRef .tc main_arg0) := keep_main_part0_ops3_main_arg0 _
    _ = W4 m ρ c (Proc.devRef .tc main_arg0) := keep_main_part0_ops2_main_arg0 _
    _ = m ((c : Thread nD τ).loc main_arg0) := W4_main_arg0 m ρ c

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := keep_main_part0_ops0_main_arg1 _
    _ = m ((c : Thread nD τ).loc main_arg1) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := keep_main_part0_ops1_main_arg1 _
    _ = m ((c : Thread nD τ).loc main_arg1) := W2_main_arg1 m ρ c
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := keep_main_part2_ops2_main_arg1 _
    _ = W9 m ρ c (Proc.devRef .tc main_arg1) := keep_main_part2_ops1_main_arg1 _
    _ = W8 m ρ c (Proc.devRef .tc main_arg1) := keep_main_part2_ops0_main_arg1 _
    _ = W7 m ρ c (Proc.devRef .tc main_arg1) := keep_main_part1_ops0_main_arg1 _
    _ = W6 m ρ c (Proc.devRef .tc main_arg1) := keep_main_part0_ops4_main_arg1 _
    _ = W5 m ρ c (Proc.devRef .tc main_arg1) := keep_main_part0_ops3_main_arg1 _
    _ = W4 m ρ c (Proc.devRef .tc main_arg1) := keep_main_part0_ops2_main_arg1 _
    _ = m ((c : Thread nD τ).loc main_arg1) := W4_main_arg1 m ρ c

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := keep_main_part0_ops0_main_arg2 _
    _ = m ((c : Thread nD τ).loc main_arg2) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := keep_main_part0_ops1_main_arg2 _
    _ = m ((c : Thread nD τ).loc main_arg2) := W2_main_arg2 m ρ c
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := keep_main_part2_ops2_main_arg2 _
    _ = W9 m ρ c (Proc.devRef .tc main_arg2) := keep_main_part2_ops1_main_arg2 _
    _ = W8 m ρ c (Proc.devRef .tc main_arg2) := keep_main_part2_ops0_main_arg2 _
    _ = W7 m ρ c (Proc.devRef .tc main_arg2) := keep_main_part1_ops0_main_arg2 _
    _ = W6 m ρ c (Proc.devRef .tc main_arg2) := keep_main_part0_ops4_main_arg2 _
    _ = W5 m ρ c (Proc.devRef .tc main_arg2) := keep_main_part0_ops3_main_arg2 _
    _ = W4 m ρ c (Proc.devRef .tc main_arg2) := keep_main_part0_ops2_main_arg2 _
    _ = m ((c : Thread nD τ).loc main_arg2) := W4_main_arg2 m ρ c

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := keep_main_part0_ops0_main_arg3 _
    _ = m ((c : Thread nD τ).loc main_arg3) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := keep_main_part0_ops1_main_arg3 _
    _ = m ((c : Thread nD τ).loc main_arg3) := W2_main_arg3 m ρ c
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := keep_main_part2_ops2_main_arg3 _
    _ = W9 m ρ c (Proc.devRef .tc main_arg3) := keep_main_part2_ops1_main_arg3 _
    _ = W8 m ρ c (Proc.devRef .tc main_arg3) := keep_main_part2_ops0_main_arg3 _
    _ = W7 m ρ c (Proc.devRef .tc main_arg3) := keep_main_part1_ops0_main_arg3 _
    _ = W6 m ρ c (Proc.devRef .tc main_arg3) := keep_main_part0_ops4_main_arg3 _
    _ = W5 m ρ c (Proc.devRef .tc main_arg3) := keep_main_part0_ops3_main_arg3 _
    _ = W4 m ρ c (Proc.devRef .tc main_arg3) := keep_main_part0_ops2_main_arg3 _
    _ = m ((c : Thread nD τ).loc main_arg3) := W4_main_arg3 m ρ c

/-- The frame claim at any instance: @main runs to the end, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩) (run_all m ρ)

end Cert.KernelIdeal.Hand

end
-- ==== Proof.Spec.lean ====
/-
  The common specification of the two programs, as plain functions of the argument arrays at the ideal instance.

  An image batch x[n, e, h, w] (4 samples, 16 channels, 768 × 768 pixels) comes with integer labels tg[n, h, w].
  Pixels are flattened, p = h * 768 + w. For a sample n and a class c < 24 the pixels p with label c form the
  cluster (n, c). The quantities both programs compute from them:
    cnt n c      the size of the cluster, a sum of ones over its pixels;
    sm n e c     the sum of channel e over the cluster;
    mean n e c   their quotient, the cluster's mean embedding;
    mg n e p     the mean of the cluster pixel p belongs to (a sum over the classes of the mean where the class is
                 p's label, zero elsewhere: at most one class contributes);
    hv n p       the squared hinge (max (‖x[n, ·, p] − mg n · p‖ − 1/2) 0)² of the pixel's distance to that mean;
    vs n c       the sum of hv over the cluster;  vq n c = vs n c / cnt n c.
  The kernel divides by max (cnt, 1) where the reference divides by cnt: the two agree once every cluster is
  non-empty (cnt ≥ 1), which the precondition states.
-/
import Idealize.ShloMosaic.PureOps.Ideal
import Idealize.ShloMosaic.Lib.ValueIdx

noncomputable section

namespace Cert.Spec

open Idealize.ShloMosaic Idealize.ShloMosaic.ValueIdx

abbrev SX : Shape := ⟨4, ![4, 16, 768, 768]⟩
abbrev ST : Shape := ⟨3, ![4, 768, 768]⟩

/-- Pixel p of the flattened image is (row p / 768, column p % 768). -/
abbrev prow (p : Fin 589824) : Fin 768 := ⟨p.val / 768, by have := p.isLt; omega⟩
abbrev pcol (p : Fin 589824) : Fin 768 := ⟨p.val % 768, Nat.mod_lt _ (by decide)⟩

/-- Channel e of pixel p of sample n. -/
def xv (x : SX.Idx → EReal) (n : Fin 4) (e : Fin 16) (p : Fin 589824) : EReal := x (ix4 n e (prow p) (pcol p))
/-- The label of pixel p of sample n. -/
def lab (tg : ST.Idx → BitVec 32) (n : Fin 4) (p : Fin 589824) : BitVec 32 := tg (ix3 n (prow p) (pcol p))

/-- Pixel p of sample n carries label c. -/
def hit (tg : ST.Idx → BitVec 32) (n : Fin 4) (p : Fin 589824) (c : Fin 24) : Prop := lab tg n p = BitVec.ofNat 32 c.val

instance (tg : ST.Idx → BitVec 32) (n : Fin 4) (p : Fin 589824) (c : Fin 24) : Decidable (hit tg n p c) := by
  unfold hit; infer_instance

/-- The indicator of a cluster at a pixel, as an extended real. -/
def oh (tg : ST.Idx → BitVec 32) (n : Fin 4) (p : Fin 589824) (c : Fin 24) : EReal := if hit tg n p c then 1 else 0

def cnt (tg : ST.Idx → BitVec 32) (n : Fin 4) (c : Fin 24) : EReal := ∑ p : Fin 589824, oh tg n p c
def sm (x : SX.Idx → EReal) (tg : ST.Idx → BitVec 32) (n : Fin 4) (e : Fin 16) (c : Fin 24) : EReal :=
  ∑ p : Fin 589824, xv x n e p * oh tg n p c

/-- The mean embedding of a cluster over a given table of divisors d (the cluster sizes, or their maximum with one). -/
def meanBy (d : Fin 4 → Fin 24 → EReal) (x : SX.Idx → EReal) (tg : ST.Idx → BitVec 32) (n : Fin 4) (e : Fin 16) (c : Fin 24) : EReal :=
  Ideal.div (sm x tg n e c) (d n c)

/-- The mean of the cluster a pixel belongs to. -/
def mgBy (d : Fin 4 → Fin 24 → EReal) (x : SX.Idx → EReal) (tg : ST.Idx → BitVec 32) (n : Fin 4) (e : Fin 16) (p : Fin 589824) : EReal :=
  ∑ c : Fin 24, meanBy d x tg n e c * oh tg n p c

/-- The squared hinge of a pixel's distance to its cluster's mean. -/
def hvBy (d : Fin 4 → Fin 24 → EReal) (x : SX.Idx → EReal) (tg : ST.Idx → BitVec 32) (n : Fin 4) (p : Fin 589824) : EReal :=
  let r := max (Ideal.sqrt (∑ e : Fin 16, (xv x n e p - mgBy d x tg n e p) * (xv x n e p - mgBy d x tg n e p))
                 - Ideal.ofBits .f32 0x3F000000#32) (Ideal.ofBits .f32 0x00000000#32)
  r * r

def vsBy (d : Fin 4 → Fin 24 → EReal) (x : SX.Idx → EReal) (tg : ST.Idx → BitVec 32) (n : Fin 4) (c : Fin 24) : EReal :=
  ∑ p : Fin 589824, hvBy d x tg n p * oh tg n p c

/-- The two tables every later operation reads: the cluster means laid out [sample, class, channel], and the
    summed hinges over the cluster sizes laid out [sample, class]. -/
def cmBy (d : Fin 4 → Fin 24 → EReal) (x : SX.Idx → EReal) (tg : ST.Idx → BitVec 32) : (⟨3, ![4, 24, 16]⟩ : Shape).Idx → EReal :=
  fun i => meanBy d x tg (i 0) (i 2) (i 1)
def vqBy (d : Fin 4 → Fin 24 → EReal) (x : SX.Idx → EReal) (tg : ST.Idx → BitVec 32) : (⟨2, ![4, 24]⟩ : Shape).Idx → EReal :=
  fun i => Ideal.div (vsBy d x tg (i 0) (i 1)) (d (i 0) (i 1))

/-- The reference divides by the cluster sizes, -/
def dR (tg : ST.Idx → BitVec 32) : Fin 4 → Fin 24 → EReal := fun n c => cnt tg n c
/-- the kernel by their maximum with one. -/
def dK (tg : ST.Idx → BitVec 32) : Fin 4 → Fin 24 → EReal := fun n c => max (cnt tg n c) (Ideal.ofBits .f32 0x3F800000#32)

end Cert.Spec

end
-- ==== Proof.KIHost.lean ====
/-
  The two short stretches of host operations of @main, read at an index over arbitrary buffer contents: the two
  reshapes that flatten the pixels of the image and of the label array, and the nine operations that turn the first
  region's table (sixteen rows of per-cluster channel sums, a seventeenth of cluster sizes) into the table of cluster
  means, each sum over max (size, 1); and two layout operations met on the way out of the second region.
-/
import proofs.«427995_j35871566856560_2_alg».proof.Proof.Gen.KernelIdeal.Launch
import proofs.«427995_j35871566856560_2_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Cert.KernelIdeal.Gen

/-! ## Layout operations at an index -/

/-- The table of means transposed to [sample, class, channel] reads, at (n, k, e), the table at (n, e, k). -/
theorem tr_apply (M : FVec Ideal S4x16x24 .f32) (n : Fin 4) (k : Fin 24) (e : Fin 16) :
    transpose S4x24x16 [0, 2, 1] M Facts₀.transposes_S4x16x24_S4x24x16_0_2_1 (ix3 n k e) = M (ix3 n e k) :=
  transpose_ix3_021_apply M _ n k e

/-- A [4, 1, 24] array with its unit axis dropped reads, at (n, k), the array at (n, 0, k): both sit at row-major
    position n * 24 + k. -/
theorem sc_apply (A : FVec Ideal S4x1x24 .f32) (n : Fin 4) (k : Fin 24) :
    shapeCast S4x24 A Facts₀.shapeCasts_S4x1x24_S4x24 (ix2 n k) = A (ix3 n (0 : Fin 1) k) :=
  shapeCast_apply A _ _ _ (by
    rw [Shape.rowMajor_val_three, Shape.rowMajor_val_two]
    show (n.val * 1 + 0) * 24 + k.val = n.val * 24 + k.val
    omega)

/-! ## The two reshapes: pixel p of the flattened image is (p / 768, p % 768) -/

/-- Row-major position of (n, e, p / 768, p % 768) in [4, 16, 768, 768] is that of (n, e, p) in [4, 16, 589824]. -/
theorem flat4 (X : FVec Ideal S4x16x768x768 .f32) (n : Fin 4) (e : Fin 16) (p : Fin 589824) :
    shapeCast S4x16x589824 X Facts₀.shapeCasts_S4x16x768x768_S4x16x589824 (ix3 n e p)
      = X (ix4 n e (Cert.Spec.prow p) (Cert.Spec.pcol p)) :=
  shapeCast_apply X _ _ _ (by
    rw [Shape.rowMajor_val_four, Shape.rowMajor_val_three]
    have hp := p.isLt
    show ((n.val * 16 + e.val) * 768 + p.val / 768) * 768 + p.val % 768 = (n.val * 16 + e.val) * 589824 + p.val
    omega)

/-- The same for the labels, [4, 768, 768] flattened to [4, 1, 589824]. -/
theorem flat3 (T : IVec S4x768x768 32) (n : Fin 4) (p : Fin 589824) :
    shapeCast S4x1x589824 T Facts₀.shapeCasts_S4x768x768_S4x1x589824 (ix3 n (0 : Fin 1) p)
      = T (ix3 n (Cert.Spec.prow p) (Cert.Spec.pcol p)) :=
  shapeCast_apply T _ _ _ (by
    rw [Shape.rowMajor_val_three, Shape.rowMajor_val_three]
    have hp := p.isLt
    show (n.val * 768 + p.val / 768) * 768 + p.val % 768 = (n.val * 1 + 0) * 589824 + p.val
    omega)

theorem ops0_v0 (W : Valuation τ sig (Elt Ideal)) (n : Fin 4) (e : Fin 16) (p : Fin 589824) :
    StableHlo.after (main_part0_ops0 (F := Ideal)) W (Proc.devRef .tc main_v0) (ix3 n e p)
      = W (Proc.devRef .tc main_arg0) (ix4 n e (Cert.Spec.prow p) (Cert.Spec.pcol p)) := by
  have h : StableHlo.after (main_part0_ops0 (F := Ideal)) W (Proc.devRef .tc main_v0)
      = shapeCast S4x16x589824 (W (Proc.devRef .tc main_arg0)) Facts₀.shapeCasts_S4x16x768x768_S4x16x589824 := by
    after_results
    rfl
  rw [h]
  exact flat4 _ n e p

theorem ops0_v1 (W : Valuation τ sig (Elt Ideal)) (n : Fin 4) (p : Fin 589824) :
    StableHlo.after (main_part0_ops0 (F := Ideal)) W (Proc.devRef .tc main_v1) (ix3 n (0 : Fin 1) p)
      = W (Proc.devRef .tc main_arg1) (ix3 n (Cert.Spec.prow p) (Cert.Spec.pcol p)) := by
  have h : StableHlo.after (main_part0_ops0 (F := Ideal)) W (Proc.devRef .tc main_v1)
      = shapeCast S4x1x589824 (W (Proc.devRef .tc main_arg1)) Facts₀.shapeCasts_S4x768x768_S4x1x589824 := by
    after_results
    rfl
  rw [h]
  exact flat3 _ n p

/-! ## The table of means: sums over max (size, 1)

Row 16 of the first region's [4, 17, 24] table holds the cluster sizes, rows 0 … 15 the channel sums. -/

/-- The sizes' row, floored at one: slice row 16, drop the unit axis, take the maximum with the constant one. -/
theorem floor_apply (X : FVec Ideal S4x17x24 .f32) (n : Fin 4) (k : Fin 24) :
    maximumf (shapeCast S4x24 (extractStridedSlice S4x1x24 ![0, 16, 0] X Facts₀.slices_S4x17x24_S4x1x24_0_16_0) Facts₀.shapeCasts_S4x1x24_S4x24)
        (broadcastInDim S4x24 ![] Facts₀.bcast_S_S4x24 (constant (F := Ideal) S_ .f32 0x3F800000#32)) (ix2 n k)
      = max (α := EReal) (X (ix3 n (16 : Fin 17) k)) (Ideal.ofBits .f32 0x3F800000#32) := by
  have hrow : extractStridedSlice S4x1x24 ![0, 16, 0] X Facts₀.slices_S4x17x24_S4x1x24_0_16_0 (ix3 n (0 : Fin 1) k)
      = X (ix3 n (16 : Fin 17) k) := slice3_axis1_apply 16 X _ n (0 : Fin 1) k (16 : Fin 17) rfl
  have hone : broadcastInDim S4x24 ![] Facts₀.bcast_S_S4x24 (constant (F := Ideal) S_ .f32 0x3F800000#32) (ix2 n k)
      = Ideal.ofBits .f32 0x3F800000#32 :=
    (broadcastInDim_apply _ Facts₀.bcast_S_S4x24 _ (ix2 n k) ix0 (fun a => a.elim0)).trans (constant_apply _ _)
  rw [maximumf_apply, sc_apply, hrow, hone]

/-- The floored sizes broadcast back over the sixteen channel rows: [4, 24] to [4, 1, 24] to [4, 16, 24]. -/
theorem spread_apply (Y : FVec Ideal S4x24 .f32) (n : Fin 4) (e : Fin 16) (k : Fin 24) :
    broadcastInDim S4x16x24 ![0, 1, 2] Facts₀.bcast_S4x1x24_S4x16x24_0_1_2
        (broadcastInDim S4x1x24 ![0, 2] Facts₀.bcast_S4x24_S4x1x24_0_2 Y) (ix3 n e k) = Y (ix2 n k) := by
  refine (broadcastInDim_apply _ Facts₀.bcast_S4x1x24_S4x16x24_0_1_2 _ (ix3 n e k) (ix3 n (0 : Fin 1) k) (fun a => match a with
    | ⟨0, _⟩ => by show n.val = if (4 : Nat) = 1 then 0 else n.val; rw [if_neg (by decide)]
    | ⟨1, _⟩ => by show 0 = if (1 : Nat) = 1 then 0 else e.val; rw [if_pos rfl]
    | ⟨2, _⟩ => by show k.val = if (24 : Nat) = 1 then 0 else k.val; rw [if_neg (by decide)])).trans ?_
  exact broadcastInDim_apply _ Facts₀.bcast_S4x24_S4x1x24_0_2 Y (ix3 n (0 : Fin 1) k) (ix2 n k) (fun a => match a with
    | ⟨0, _⟩ => by show n.val = if (4 : Nat) = 1 then 0 else n.val; rw [if_neg (by decide)]
    | ⟨1, _⟩ => by show k.val = if (24 : Nat) = 1 then 0 else k.val; rw [if_neg (by decide)])

/-- The channel rows: the table's first sixteen rows. -/
theorem rows_apply (X : FVec Ideal S4x17x24 .f32) (n : Fin 4) (e : Fin 16) (k : Fin 24) :
    extractStridedSlice S4x16x24 ![0, 0, 0] X Facts₀.slices_S4x17x24_S4x16x24_0_0_0 (ix3 n e k)
      = X (ix3 n (⟨e.val, by omega⟩ : Fin 17) k) :=
  slice3_axis1_apply 0 X _ n e k _ (Nat.zero_add _).symm

theorem ops1_v7 (W : Valuation τ sig (Elt Ideal)) (n : Fin 4) (k : Fin 24) :
    StableHlo.after (main_part0_ops1 (F := Ideal)) W (Proc.devRef .tc main_v7) (ix2 n k)
      = max (α := EReal) (W (Proc.devRef .tc main_v2) (ix3 n (16 : Fin 17) k)) (Ideal.ofBits .f32 0x3F800000#32) := by
  have h : StableHlo.after (main_part0_ops1 (F := Ideal)) W (Proc.devRef .tc main_v7)
      = maximumf (shapeCast S4x24 (extractStridedSlice S4x1x24 ![0, 16, 0] (W (Proc.devRef .tc main_v2)) Facts₀.slices_S4x17x24_S4x1x24_0_16_0) Facts₀.shapeCasts_S4x1x24_S4x24)
          (broadcastInDim S4x24 ![] Facts₀.bcast_S_S4x24 (constant (F := Ideal) S_ .f32 0x3F800000#32)) := by
    after_results
    rfl
  rw [h]
  exact floor_apply _ n k

theorem ops1_v10 (W : Valuation τ sig (Elt Ideal)) (n : Fin 4) (e : Fin 16) (k : Fin 24) :
    StableHlo.after (main_part0_ops1 (F := Ideal)) W (Proc.devRef .tc main_v10) (ix3 n e k)
      = Ideal.div (W (Proc.devRef .tc main_v2) (ix3 n (⟨e.val, by omega⟩ : Fin 17) k))
          (max (α := EReal) (W (Proc.devRef .tc main_v2) (ix3 n (16 : Fin 17) k)) (Ideal.ofBits .f32 0x3F800000#32)) := by
  have h : StableHlo.after (main_part0_ops1 (F := Ideal)) W (Proc.devRef .tc main_v10)
      = Host.divf (extractStridedSlice S4x16x24 ![0, 0, 0] (W (Proc.devRef .tc main_v2)) Facts₀.slices_S4x17x24_S4x16x24_0_0_0)
          (broadcastInDim S4x16x24 ![0, 1, 2] Facts₀.bcast_S4x1x24_S4x16x24_0_1_2
            (broadcastInDim S4x1x24 ![0, 2] Facts₀.bcast_S4x24_S4x1x24_0_2
              (maximumf (shapeCast S4x24 (extractStridedSlice S4x1x24 ![0, 16, 0] (W (Proc.devRef .tc main_v2)) Facts₀.slices_S4x17x24_S4x1x24_0_16_0) Facts₀.shapeCasts_S4x1x24_S4x24)
                (broadcastInDim S4x24 ![] Facts₀.bcast_S_S4x24 (constant (F := Ideal) S_ .f32 0x3F800000#32))))) := by
    after_results
    rfl
  rw [h]
  show Ideal.div _ _ = _
  rw [rows_apply, spread_apply, floor_apply]

/-! ## What the second stretch leaves alone -/

theorem ops1_keep_v0 (W : Valuation τ sig (Elt Ideal)) :
    StableHlo.after (main_part0_ops1 (F := Ideal)) W (Proc.devRef .tc main_v0) = W (Proc.devRef .tc main_v0) := by
  after_results

theorem ops1_keep_v1 (W : Valuation τ sig (Elt Ideal)) :
    StableHlo.after (main_part0_ops1 (F := Ideal)) W (Proc.devRef .tc main_v1) = W (Proc.devRef .tc main_v1) := by
  after_results

end Cert.KernelIdeal.Hand

end
-- ==== Proof.TailDefs.lean ====
/-
  The closing chain of host operations that the two programs share, as one function of the two small tables it reads.

  A cluster is a pair (n, c) of a sample n < 4 and a class c < 24. Both programs end by the same operations on
  cm : [4, 24, 16] (the mean embedding of cluster (n, c), over the 16 channels), vq : [4, 24] (per cluster, the summed
  hinges over the cluster's size) and the two integer edge tables a2, a3 : [4, 2, 200]:
    the variance term     t_v41[n] = (sum over the 24 classes c of vq[n, c]) / 24;
    the regulariser       t_v49[n] = (sum over c of (‖cm[n, c, ·]‖ − 1)²) / 24, the norm (t_v43) being the square root of
                          the sum of squares over the 16 channels;
    the triplet term      t_v127[n]: rows of cm[n] gathered at the two rows of each edge table (a negative index wrapped by
                          24), the squared distances d₂[n, i] (t_v81, from a2) and d₃[n, j] (t_v104, from a3) of the gathered
                          pairs (each difference shifted by 1e-6 before squaring), the hinge
                          max (½ (d₂[n, i] − d₃[n, j]) + 0.01) 0 kept where the pair (i, j) is marked (t_v58: among the four
                          pairs of a row of a2[n, ·, i] and a row of a3[n, ·, j] exactly one has equal entries), summed over
                          i, j and divided by the number of positive entries, zero when there is none;
    the total             t_v137 = (sum over the 4 samples n of 1·t_v41[n] + 1·t_v127[n] + 1·t_v49[n]) / 16.
  One definition per operation, in the programs' order, each over the tables it depends on; a stage is named after the
  reference's operation it restates.  Nothing here is ever unfolded by the certificate: both programs are shown to
  compute the function tail of equal tables.
-/
import proofs.«427995_j35871566856560_2_alg».proof.Proof.Gen.ReferenceIdeal

noncomputable section

namespace Cert.Tail

open Cert.ReferenceIdeal Cert.ReferenceIdeal.Gen Idealize.ShloMosaic Idealize.ShloMosaic.TcCoe Idealize.SL.Sem Idealize.ShloMosaic.StableHlo

variable {F : FTy → Type} [FloatOps F]

def t_cst_7 : (⟨S_, .f32⟩ : BufTy).Contents (Elt F) :=
  constant S_ .f32 0x00000000#32
def t_v39 (vq : (⟨S4x24, .f32⟩ : BufTy).Contents (Elt F)) : (⟨S4, .f32⟩ : BufTy).Contents (Elt F) :=
  Host.reduceAdd (vq) (t_cst_7 (F := F)) reducesTo_S4x24_S4_d1 h_S_
def t_cst_8 : (⟨S_, .f32⟩ : BufTy).Contents (Elt F) :=
  constant S_ .f32 0x41C00000#32
def t_v40 : (⟨S4, .f32⟩ : BufTy).Contents (Elt F) :=
  broadcastInDim S4 ![] bcast_S_S4 (t_cst_8 (F := F))
def t_v41 (vq : (⟨S4x24, .f32⟩ : BufTy).Contents (Elt F)) : (⟨S4, .f32⟩ : BufTy).Contents (Elt F) :=
  Host.divf (t_v39 (F := F) vq) (t_v40 (F := F))
def t_call1_v0 (cm : (⟨S4x24x16, .f32⟩ : BufTy).Contents (Elt F)) : (⟨S4x24x16, .f32⟩ : BufTy).Contents (Elt F) :=
  mulf (cm) (cm)
def t_call1_cst : (⟨S_, .f32⟩ : BufTy).Contents (Elt F) :=
  constant S_ .f32 0x00000000#32
def t_call1_v1 (cm : (⟨S4x24x16, .f32⟩ : BufTy).Contents (Elt F)) : (⟨S4x24, .f32⟩ : BufTy).Contents (Elt F) :=
  Host.reduceAdd (t_call1_v0 (F := F) cm) (t_call1_cst (F := F)) reducesTo_S4x24x16_S4x24_d2 h_S_
def t_v43 (cm : (⟨S4x24x16, .f32⟩ : BufTy).Contents (Elt F)) : (⟨S4x24, .f32⟩ : BufTy).Contents (Elt F) :=
  Host.sqrt (t_call1_v1 (F := F) cm)
def t_cst_9 : (⟨S_, .f32⟩ : BufTy).Contents (Elt F) :=
  constant S_ .f32 0x3F800000#32
def t_v44 : (⟨S4x24, .f32⟩ : BufTy).Contents (Elt F) :=
  broadcastInDim S4x24 ![] bcast_S_S4x24 (t_cst_9 (F := F))
def t_v45 (cm : (⟨S4x24x16, .f32⟩ : BufTy).Contents (Elt F)) : (⟨S4x24, .f32⟩ : BufTy).Contents (Elt F) :=
  subf (t_v43 (F := F) cm) (t_v44 (F := F))
def t_v46 (cm : (⟨S4x24x16, .f32⟩ : BufTy).Contents (Elt F)) : (⟨S4x24, .f32⟩ : BufTy).Contents (Elt F) :=
  mulf (t_v45 (F := F) cm) (t_v45 (F := F) cm)
def t_cst_10 : (⟨S_, .f32⟩ : BufTy).Contents (Elt F) :=
  constant S_ .f32 0x00000000#32
def t_v47 (cm : (⟨S4x24x16, .f32⟩ : BufTy).Contents (Elt F)) : (⟨S4, .f32⟩ : BufTy).Contents (Elt F) :=
  Host.reduceAdd (t_v46 (F := F) cm) (t_cst_10 (F := F)) reducesTo_S4x24_S4_d1 h_S_
def t_cst_11 : (⟨S_, .f32⟩ : BufTy).Contents (Elt F) :=
  constant S_ .f32 0x41C00000#32
def t_v48 : (⟨S4, .f32⟩ : BufTy).Contents (Elt F) :=
  broadcastInDim S4 ![] bcast_S_S4 (t_cst_11 (F := F))
def t_v49 (cm : (⟨S4x24x16, .f32⟩ : BufTy).Contents (Elt F)) : (⟨S4, .f32⟩ : BufTy).Contents (Elt F) :=
  Host.divf (t_v47 (F := F) cm) (t_v48 (F := F))
def t_v50 (a2 : (⟨S4x2x200, .i32⟩ : BufTy).Contents (Elt F)) : (⟨S4x2x200x1x1, .i32⟩ : BufTy).Contents (Elt F) :=
  broadcastInDim S4x2x200x1x1 ![0, 1, 2] bcast_S4x2x200_S4x2x200x1x1_0_1_2 (a2)
def t_v51 (a3 : (⟨S4x2x200, .i32⟩ : BufTy).Contents (Elt F)) : (⟨S4x1x1x2x200, .i32⟩ : BufTy).Contents (Elt F) :=
  broadcastInDim S4x1x1x2x200 ![0, 3, 4] bcast_S4x2x200_S4x1x1x2x200_0_3_4 (a3)
def t_v52 (a2 : (⟨S4x2x200, .i32⟩ : BufTy).Contents (Elt F)) : (⟨S4x2x200x2x200, .i32⟩ : BufTy).Contents (Elt F) :=
  broadcastInDim S4x2x200x2x200 ![0, 1, 2, 3, 4] bcast_S4x2x200x1x1_S4x2x200x2x200_0_1_2_3_4 (t_v50 (F := F) a2)
def t_v53 (a3 : (⟨S4x2x200, .i32⟩ : BufTy).Contents (Elt F)) : (⟨S4x2x200x2x200, .i32⟩ : BufTy).Contents (Elt F) :=
  broadcastInDim S4x2x200x2x200 ![0, 1, 2, 3, 4] bcast_S4x1x1x2x200_S4x2x200x2x200_0_1_2_3_4 (t_v51 (F := F) a3)
def t_v54 (a2 : (⟨S4x2x200, .i32⟩ : BufTy).Contents (Elt F)) (a3 : (⟨S4x2x200, .i32⟩ : BufTy).Contents (Elt F)) : (⟨S4x2x200x2x200, .i1⟩ : BufTy).Contents (Elt F) :=
  cmpi .eq (t_v52 (F := F) a2) (t_v53 (F := F) a3)
def t_v55 (a2 : (⟨S4x2x200, .i32⟩ : BufTy).Contents (Elt F)) (a3 : (⟨S4x2x200, .i32⟩ : BufTy).Contents (Elt F)) : (⟨S4x2x200x2x200, .i32⟩ : BufTy).Contents (Elt F) :=
  extui 32 (t_v54 (F := F) a2 a3) natLt_1_32
def t_c_12 : (⟨S_, .i32⟩ : BufTy).Contents (Elt F) :=
  constantI S_ 32 0#32
def t_v56 (a2 : (⟨S4x2x200, .i32⟩ : BufTy).Contents (Elt F)) (a3 : (⟨S4x2x200, .i32⟩ : BufTy).Contents (Elt F)) : (⟨S4x200x200, .i32⟩ : BufTy).Contents (Elt F) :=
  Host.reduce IntOp.addi (t_v55 (F := F) a2 a3) (t_c_12 (F := F)) reducesTo_S4x2x200x2x200_S4x200x200_d1_3 h_S_
def t_c_13 : (⟨S_, .i32⟩ : BufTy).Contents (Elt F) :=
  constantI S_ 32 1#32
def t_v57 : (⟨S4x200x200, .i32⟩ : BufTy).Contents (Elt F) :=
  broadcastInDim S4x200x200 ![] bcast_S_S4x200x200 (t_c_13 (F := F))
def t_v58 (a2 : (⟨S4x2x200, .i32⟩ : BufTy).Contents (Elt F)) (a3 : (⟨S4x2x200, .i32⟩ : BufTy).Contents (Elt F)) : (⟨S4x200x200, .i1⟩ : BufTy).Contents (Elt F) :=
  cmpi .eq (t_v56 (F := F) a2 a3) (t_v57 (F := F))
def t_v59 (a2 : (⟨S4x2x200, .i32⟩ : BufTy).Contents (Elt F)) : (⟨S4x1x200, .i32⟩ : BufTy).Contents (Elt F) :=
  extractStridedSlice S4x1x200 ![0, 0, 0] (a2) slices_S4x2x200_S4x1x200_0_0_0
def t_v60 (a2 : (⟨S4x2x200, .i32⟩ : BufTy).Contents (Elt F)) : (⟨S4x200, .i32⟩ : BufTy).Contents (Elt F) :=
  shapeCast _ (t_v59 (F := F) a2) shapeCasts_S4x1x200_S4x200
def t_c_14 : (⟨S_, .i32⟩ : BufTy).Contents (Elt F) :=
  constantI S_ 32 0#32
def t_v61 : (⟨S4x200, .i32⟩ : BufTy).Contents (Elt F) :=
  broadcastInDim S4x200 ![] bcast_S_S4x200 (t_c_14 (F := F))
def t_v62 (a2 : (⟨S4x2x200, .i32⟩ : BufTy).Contents (Elt F)) : (⟨S4x200, .i1⟩ : BufTy).Contents (Elt F) :=
  cmpi .slt (t_v60 (F := F) a2) (t_v61 (F := F))
def t_c_15 : (⟨S_, .i32⟩ : BufTy).Contents (Elt F) :=
  constantI S_ 32 24#32
def t_v63 : (⟨S4x200, .i32⟩ : BufTy).Contents (Elt F) :=
  broadcastInDim S4x200 ![] bcast_S_S4x200 (t_c_15 (F := F))
def t_v64 (a2 : (⟨S4x2x200, .i32⟩ : BufTy).Contents (Elt F)) : (⟨S4x200, .i32⟩ : BufTy).Contents (Elt F) :=
  addi (t_v60 (F := F) a2) (t_v63 (F := F))
def t_v65 (a2 : (⟨S4x2x200, .i32⟩ : BufTy).Contents (Elt F)) : (⟨S4x200, .i32⟩ : BufTy).Contents (Elt F) :=
  select (t_v62 (F := F) a2) (t_v64 (F := F) a2) (t_v60 (F := F) a2)
def t_v66 (a2 : (⟨S4x2x200, .i32⟩ : BufTy).Contents (Elt F)) : (⟨S4x200x1, .i32⟩ : BufTy).Contents (Elt F) :=
  broadcastInDim S4x200x1 ![0, 1] bcast_S4x200_S4x200x1_0_1 (t_v65 (F := F) a2)
def t_v67 (cm : (⟨S4x24x16, .f32⟩ : BufTy).Contents (Elt F)) (a2 : (⟨S4x2x200, .i32⟩ : BufTy).Contents (Elt F)) : (⟨S4x200x16, .f32⟩ : BufTy).Contents (Elt F) :=
  Host.gather gather_S4x24x16_S4x200x1_S4x200x16_2_1_0_0_1_2_1116 (cm) (t_v66 (F := F) a2)
def t_v68 (a2 : (⟨S4x2x200, .i32⟩ : BufTy).Contents (Elt F)) : (⟨S4x1x200, .i32⟩ : BufTy).Contents (Elt F) :=
  extractStridedSlice S4x1x200 ![0, 1, 0] (a2) slices_S4x2x200_S4x1x200_0_1_0
def t_v69 (a2 : (⟨S4x2x200, .i32⟩ : BufTy).Contents (Elt F)) : (⟨S4x200, .i32⟩ : BufTy).Contents (Elt F) :=
  shapeCast _ (t_v68 (F := F) a2) shapeCasts_S4x1x200_S4x200
def t_c_16 : (⟨S_, .i32⟩ : BufTy).Contents (Elt F) :=
  constantI S_ 32 0#32
def t_v70 : (⟨S4x200, .i32⟩ : BufTy).Contents (Elt F) :=
  broadcastInDim S4x200 ![] bcast_S_S4x200 (t_c_16 (F := F))
def t_v71 (a2 : (⟨S4x2x200, .i32⟩ : BufTy).Contents (Elt F)) : (⟨S4x200, .i1⟩ : BufTy).Contents (Elt F) :=
  cmpi .slt (t_v69 (F := F) a2) (t_v70 (F := F))
def t_c_17 : (⟨S_, .i32⟩ : BufTy).Contents (Elt F) :=
  constantI S_ 32 24#32
def t_v72 : (⟨S4x200, .i32⟩ : BufTy).Contents (Elt F) :=
  broadcastInDim S4x200 ![] bcast_S_S4x200 (t_c_17 (F := F))
def t_v73 (a2 : (⟨S4x2x200, .i32⟩ : BufTy).Contents (Elt F)) : (⟨S4x200, .i32⟩ : BufTy).Contents (Elt F) :=
  addi (t_v69 (F := F) a2) (t_v72 (F := F))
def t_v74 (a2 : (⟨S4x2x200, .i32⟩ : BufTy).Contents (Elt F)) : (⟨S4x200, .i32⟩ : BufTy).Contents (Elt F) :=
  select (t_v71 (F := F) a2) (t_v73 (F := F) a2) (t_v69 (F := F) a2)
def t_v75 (a2 : (⟨S4x2x200, .i32⟩ : BufTy).Contents (Elt F)) : (⟨S4x200x1, .i32⟩ : BufTy).Contents (Elt F) :=
  broadcastInDim S4x200x1 ![0, 1] bcast_S4x200_S4x200x1_0_1 (t_v74 (F := F) a2)
def t_v76 (cm : (⟨S4x24x16, .f32⟩ : BufTy).Contents (Elt F)) (a2 : (⟨S4x2x200, .i32⟩ : BufTy).Contents (Elt F)) : (⟨S4x200x16, .f32⟩ : BufTy).Contents (Elt F) :=
  Host.gather gather_S4x24x16_S4x200x1_S4x200x16_2_1_0_0_1_2_1116 (cm) (t_v75 (F := F) a2)
def t_v77 (cm : (⟨S4x24x16, .f32⟩ : BufTy).Contents (Elt F)) (a2 : (⟨S4x2x200, .i32⟩ : BufTy).Contents (Elt F)) : (⟨S4x200x16, .f32⟩ : BufTy).Contents (Elt F) :=
  subf (t_v67 (F := F) cm a2) (t_v76 (F := F) cm a2)
def t_cst_18 : (⟨S_, .f32⟩ : BufTy).Contents (Elt F) :=
  constant S_ .f32 0x358637BD#32
def t_v78 : (⟨S4x200x16, .f32⟩ : BufTy).Contents (Elt F) :=
  broadcastInDim S4x200x16 ![] bcast_S_S4x200x16 (t_cst_18 (F := F))
def t_v79 (cm : (⟨S4x24x16, .f32⟩ : BufTy).Contents (Elt F)) (a2 : (⟨S4x2x200, .i32⟩ : BufTy).Contents (Elt F)) : (⟨S4x200x16, .f32⟩ : BufTy).Contents (Elt F) :=
  addf (t_v77 (F := F) cm a2) (t_v78 (F := F))
def t_v80 (cm : (⟨S4x24x16, .f32⟩ : BufTy).Contents (Elt F)) (a2 : (⟨S4x2x200, .i32⟩ : BufTy).Contents (Elt F)) : (⟨S4x200x16, .f32⟩ : BufTy).Contents (Elt F) :=
  mulf (t_v79 (F := F) cm a2) (t_v79 (F := F) cm a2)
def t_cst_19 : (⟨S_, .f32⟩ : BufTy).Contents (Elt F) :=
  constant S_ .f32 0x00000000#32
def t_v81 (cm : (⟨S4x24x16, .f32⟩ : BufTy).Contents (Elt F)) (a2 : (⟨S4x2x200, .i32⟩ : BufTy).Contents (Elt F)) : (⟨S4x200, .f32⟩ : BufTy).Contents (Elt F) :=
  Host.reduceAdd (t_v80 (F := F) cm a2) (t_cst_19 (F := F)) reducesTo_S4x200x16_S4x200_d2 h_S_
def t_v82 (a3 : (⟨S4x2x200, .i32⟩ : BufTy).Contents (Elt F)) : (⟨S4x1x200, .i32⟩ : BufTy).Contents (Elt F) :=
  extractStridedSlice S4x1x200 ![0, 0, 0] (a3) slices_S4x2x200_S4x1x200_0_0_0
def t_v83 (a3 : (⟨S4x2x200, .i32⟩ : BufTy).Contents (Elt F)) : (⟨S4x200, .i32⟩ : BufTy).Contents (Elt F) :=
  shapeCast _ (t_v82 (F := F) a3) shapeCasts_S4x1x200_S4x200
def t_c_20 : (⟨S_, .i32⟩ : BufTy).Contents (Elt F) :=
  constantI S_ 32 0#32
def t_v84 : (⟨S4x200, .i32⟩ : BufTy).Contents (Elt F) :=
  broadcastInDim S4x200 ![] bcast_S_S4x200 (t_c_20 (F := F))
def t_v85 (a3 : (⟨S4x2x200, .i32⟩ : BufTy).Contents (Elt F)) : (⟨S4x200, .i1⟩ : BufTy).Contents (Elt F) :=
  cmpi .slt (t_v83 (F := F) a3) (t_v84 (F := F))
def t_c_21 : (⟨S_, .i32⟩ : BufTy).Contents (Elt F) :=
  constantI S_ 32 24#32
def t_v86 : (⟨S4x200, .i32⟩ : BufTy).Contents (Elt F) :=
  broadcastInDim S4x200 ![] bcast_S_S4x200 (t_c_21 (F := F))
def t_v87 (a3 : (⟨S4x2x200, .i32⟩ : BufTy).Contents (Elt F)) : (⟨S4x200, .i32⟩ : BufTy).Contents (Elt F) :=
  addi (t_v83 (F := F) a3) (t_v86 (F := F))
def t_v88 (a3 : (⟨S4x2x200, .i32⟩ : BufTy).Contents (Elt F)) : (⟨S4x200, .i32⟩ : BufTy).Contents (Elt F) :=
  select (t_v85 (F := F) a3) (t_v87 (F := F) a3) (t_v83 (F := F) a3)
def t_v89 (a3 : (⟨S4x2x200, .i32⟩ : BufTy).Contents (Elt F)) : (⟨S4x200x1, .i32⟩ : BufTy).Contents (Elt F) :=
  broadcastInDim S4x200x1 ![0, 1] bcast_S4x200_S4x200x1_0_1 (t_v88 (F := F) a3)
def t_v90 (cm : (⟨S4x24x16, .f32⟩ : BufTy).Contents (Elt F)) (a3 : (⟨S4x2x200, .i32⟩ : BufTy).Contents (Elt F)) : (⟨S4x200x16, .f32⟩ : BufTy).Contents (Elt F) :=
  Host.gather gather_S4x24x16_S4x200x1_S4x200x16_2_1_0_0_1_2_1116 (cm) (t_v89 (F := F) a3)
def t_v91 (a3 : (⟨S4x2x200, .i32⟩ : BufTy).Contents (Elt F)) : (⟨S4x1x200, .i32⟩ : BufTy).Contents (Elt F) :=
  extractStridedSlice S4x1x200 ![0, 1, 0] (a3) slices_S4x2x200_S4x1x200_0_1_0
def t_v92 (a3 : (⟨S4x2x200, .i32⟩ : BufTy).Contents (Elt F)) : (⟨S4x200, .i32⟩ : BufTy).Contents (Elt F) :=
  shapeCast _ (t_v91 (F := F) a3) shapeCasts_S4x1x200_S4x200
def t_c_22 : (⟨S_, .i32⟩ : BufTy).Contents (Elt F) :=
  constantI S_ 32 0#32
def t_v93 : (⟨S4x200, .i32⟩ : BufTy).Contents (Elt F) :=
  broadcastInDim S4x200 ![] bcast_S_S4x200 (t_c_22 (F := F))
def t_v94 (a3 : (⟨S4x2x200, .i32⟩ : BufTy).Contents (Elt F)) : (⟨S4x200, .i1⟩ : BufTy).Contents (Elt F) :=
  cmpi .slt (t_v92 (F := F) a3) (t_v93 (F := F))
def t_c_23 : (⟨S_, .i32⟩ : BufTy).Contents (Elt F) :=
  constantI S_ 32 24#32
def t_v95 : (⟨S4x200, .i32⟩ : BufTy).Contents (Elt F) :=
  broadcastInDim S4x200 ![] bcast_S_S4x200 (t_c_23 (F := F))
def t_v96 (a3 : (⟨S4x2x200, .i32⟩ : BufTy).Contents (Elt F)) : (⟨S4x200, .i32⟩ : BufTy).Contents (Elt F) :=
  addi (t_v92 (F := F) a3) (t_v95 (F := F))
def t_v97 (a3 : (⟨S4x2x200, .i32⟩ : BufTy).Contents (Elt F)) : (⟨S4x200, .i32⟩ : BufTy).Contents (Elt F) :=
  select (t_v94 (F := F) a3) (t_v96 (F := F) a3) (t_v92 (F := F) a3)
def t_v98 (a3 : (⟨S4x2x200, .i32⟩ : BufTy).Contents (Elt F)) : (⟨S4x200x1, .i32⟩ : BufTy).Contents (Elt F) :=
  broadcastInDim S4x200x1 ![0, 1] bcast_S4x200_S4x200x1_0_1 (t_v97 (F := F) a3)
def t_v99 (cm : (⟨S4x24x16, .f32⟩ : BufTy).Contents (Elt F)) (a3 : (⟨S4x2x200, .i32⟩ : BufTy).Contents (Elt F)) : (⟨S4x200x16, .f32⟩ : BufTy).Contents (Elt F) :=
  Host.gather gather_S4x24x16_S4x200x1_S4x200x16_2_1_0_0_1_2_1116 (cm) (t_v98 (F := F) a3)
def t_v100 (cm : (⟨S4x24x16, .f32⟩ : BufTy).Contents (Elt F)) (a3 : (⟨S4x2x200, .i32⟩ : BufTy).Contents (Elt F)) : (⟨S4x200x16, .f32⟩ : BufTy).Contents (Elt F) :=
  subf (t_v90 (F := F) cm a3) (t_v99 (F := F) cm a3)
def t_cst_24 : (⟨S_, .f32⟩ : BufTy).Contents (Elt F) :=
  constant S_ .f32 0x358637BD#32
def t_v101 : (⟨S4x200x16, .f32⟩ : BufTy).Contents (Elt F) :=
  broadcastInDim S4x200x16 ![] bcast_S_S4x200x16 (t_cst_24 (F := F))
def t_v102 (cm : (⟨S4x24x16, .f32⟩ : BufTy).Contents (Elt F)) (a3 : (⟨S4x2x200, .i32⟩ : BufTy).Contents (Elt F)) : (⟨S4x200x16, .f32⟩ : BufTy).Contents (Elt F) :=
  addf (t_v100 (F := F) cm a3) (t_v101 (F := F))
def t_v103 (cm : (⟨S4x24x16, .f32⟩ : BufTy).Contents (Elt F)) (a3 : (⟨S4x2x200, .i32⟩ : BufTy).Contents (Elt F)) : (⟨S4x200x16, .f32⟩ : BufTy).Contents (Elt F) :=
  mulf (t_v102 (F := F) cm a3) (t_v102 (F := F) cm a3)
def t_cst_25 : (⟨S_, .f32⟩ : BufTy).Contents (Elt F) :=
  constant S_ .f32 0x00000000#32
def t_v104 (cm : (⟨S4x24x16, .f32⟩ : BufTy).Contents (Elt F)) (a3 : (⟨S4x2x200, .i32⟩ : BufTy).Contents (Elt F)) : (⟨S4x200, .f32⟩ : BufTy).Contents (Elt F) :=
  Host.reduceAdd (t_v103 (F := F) cm a3) (t_cst_25 (F := F)) reducesTo_S4x200x16_S4x200_d2 h_S_
def t_v105 (cm : (⟨S4x24x16, .f32⟩ : BufTy).Contents (Elt F)) (a2 : (⟨S4x2x200, .i32⟩ : BufTy).Contents (Elt F)) : (⟨S4x200x1, .f32⟩ : BufTy).Contents (Elt F) :=
  broadcastInDim S4x200x1 ![0, 1] bcast_S4x200_S4x200x1_0_1 (t_v81 (F := F) cm a2)
def t_v106 (cm : (⟨S4x24x16, .f32⟩ : BufTy).Contents (Elt F)) (a3 : (⟨S4x2x200, .i32⟩ : BufTy).Contents (Elt F)) : (⟨S4x1x200, .f32⟩ : BufTy).Contents (Elt F) :=
  broadcastInDim S4x1x200 ![0, 2] bcast_S4x200_S4x1x200_0_2 (t_v104 (F := F) cm a3)
def t_v107 (cm : (⟨S4x24x16, .f32⟩ : BufTy).Contents (Elt F)) (a2 : (⟨S4x2x200, .i32⟩ : BufTy).Contents (Elt F)) : (⟨S4x200x200, .f32⟩ : BufTy).Contents (Elt F) :=
  broadcastInDim S4x200x200 ![0, 1, 2] bcast_S4x200x1_S4x200x200_0_1_2 (t_v105 (F := F) cm a2)
def t_v108 (cm : (⟨S4x24x16, .f32⟩ : BufTy).Contents (Elt F)) (a3 : (⟨S4x2x200, .i32⟩ : BufTy).Contents (Elt F)) : (⟨S4x200x200, .f32⟩ : BufTy).Contents (Elt F) :=
  broadcastInDim S4x200x200 ![0, 1, 2] bcast_S4x1x200_S4x200x200_0_1_2 (t_v106 (F := F) cm a3)
def t_v109 (cm : (⟨S4x24x16, .f32⟩ : BufTy).Contents (Elt F)) (a2 : (⟨S4x2x200, .i32⟩ : BufTy).Contents (Elt F)) (a3 : (⟨S4x2x200, .i32⟩ : BufTy).Contents (Elt F)) : (⟨S4x200x200, .f32⟩ : BufTy).Contents (Elt F) :=
  subf (t_v107 (F := F) cm a2) (t_v108 (F := F) cm a3)
def t_cst_26 : (⟨S_, .f32⟩ : BufTy).Contents (Elt F) :=
  constant S_ .f32 0x3F000000#32
def t_v110 : (⟨S4x200x200, .f32⟩ : BufTy).Contents (Elt F) :=
  broadcastInDim S4x200x200 ![] bcast_S_S4x200x200 (t_cst_26 (F := F))
def t_v111 (cm : (⟨S4x24x16, .f32⟩ : BufTy).Contents (Elt F)) (a2 : (⟨S4x2x200, .i32⟩ : BufTy).Contents (Elt F)) (a3 : (⟨S4x2x200, .i32⟩ : BufTy).Contents (Elt F)) : (⟨S4x200x200, .f32⟩ : BufTy).Contents (Elt F) :=
  mulf (t_v110 (F := F)) (t_v109 (F := F) cm a2 a3)
def t_cst_27 : (⟨S_, .f32⟩ : BufTy).Contents (Elt F) :=
  constant S_ .f32 0x3C23D70A#32
def t_v112 : (⟨S4x200x200, .f32⟩ : BufTy).Contents (Elt F) :=
  broadcastInDim S4x200x200 ![] bcast_S_S4x200x200 (t_cst_27 (F := F))
def t_v113 (cm : (⟨S4x24x16, .f32⟩ : BufTy).Contents (Elt F)) (a2 : (⟨S4x2x200, .i32⟩ : BufTy).Contents (Elt F)) (a3 : (⟨S4x2x200, .i32⟩ : BufTy).Contents (Elt F)) : (⟨S4x200x200, .f32⟩ : BufTy).Contents (Elt F) :=
  addf (t_v111 (F := F) cm a2 a3) (t_v112 (F := F))
def t_cst_28 : (⟨S_, .f32⟩ : BufTy).Contents (Elt F) :=
  constant S_ .f32 0x00000000#32
def t_v114 : (⟨S4x200x200, .f32⟩ : BufTy).Contents (Elt F) :=
  broadcastInDim S4x200x200 ![] bcast_S_S4x200x200 (t_cst_28 (F := F))
def t_v115 (cm : (⟨S4x24x16, .f32⟩ : BufTy).Contents (Elt F)) (a2 : (⟨S4x2x200, .i32⟩ : BufTy).Contents (Elt F)) (a3 : (⟨S4x2x200, .i32⟩ : BufTy).Contents (Elt F)) : (⟨S4x200x200, .f32⟩ : BufTy).Contents (Elt F) :=
  maximumf (t_v113 (F := F) cm a2 a3) (t_v114 (F := F))
def t_v116 (a2 : (⟨S4x2x200, .i32⟩ : BufTy).Contents (Elt F)) (a3 : (⟨S4x2x200, .i32⟩ : BufTy).Contents (Elt F)) : (⟨S4x200x200, .f32⟩ : BufTy).Contents (Elt F) :=
  uitofp .f32 (t_v58 (F := F) a2 a3)
def t_v117 (cm : (⟨S4x24x16, .f32⟩ : BufTy).Contents (Elt F)) (a2 : (⟨S4x2x200, .i32⟩ : BufTy).Contents (Elt F)) (a3 : (⟨S4x2x200, .i32⟩ : BufTy).Contents (Elt F)) : (⟨S4x200x200, .f32⟩ : BufTy).Contents (Elt F) :=
  mulf (t_v115 (F := F) cm a2 a3) (t_v116 (F := F) a2 a3)
def t_cst_29 : (⟨S_, .f32⟩ : BufTy).Contents (Elt F) :=
  constant S_ .f32 0x00000000#32
def t_v118 : (⟨S4x200x200, .f32⟩ : BufTy).Contents (Elt F) :=
  broadcastInDim S4x200x200 ![] bcast_S_S4x200x200 (t_cst_29 (F := F))
def t_v119 (cm : (⟨S4x24x16, .f32⟩ : BufTy).Contents (Elt F)) (a2 : (⟨S4x2x200, .i32⟩ : BufTy).Contents (Elt F)) (a3 : (⟨S4x2x200, .i32⟩ : BufTy).Contents (Elt F)) : (⟨S4x200x200, .i1⟩ : BufTy).Contents (Elt F) :=
  cmpf .ogt (t_v117 (F := F) cm a2 a3) (t_v118 (F := F))
def t_v120 (cm : (⟨S4x24x16, .f32⟩ : BufTy).Contents (Elt F)) (a2 : (⟨S4x2x200, .i32⟩ : BufTy).Contents (Elt F)) (a3 : (⟨S4x2x200, .i32⟩ : BufTy).Contents (Elt F)) : (⟨S4x200x200, .i32⟩ : BufTy).Contents (Elt F) :=
  extui 32 (t_v119 (F := F) cm a2 a3) natLt_1_32
def t_c_30 : (⟨S_, .i32⟩ : BufTy).Contents (Elt F) :=
  constantI S_ 32 0#32
def t_v121 (cm : (⟨S4x24x16, .f32⟩ : BufTy).Contents (Elt F)) (a2 : (⟨S4x2x200, .i32⟩ : BufTy).Contents (Elt F)) (a3 : (⟨S4x2x200, .i32⟩ : BufTy).Contents (Elt F)) : (⟨S4, .i32⟩ : BufTy).Contents (Elt F) :=
  Host.reduce IntOp.addi (t_v120 (F := F) cm a2 a3) (t_c_30 (F := F)) reducesTo_S4x200x200_S4_d1_2 h_S_
def t_v122 (cm : (⟨S4x24x16, .f32⟩ : BufTy).Contents (Elt F)) (a2 : (⟨S4x2x200, .i32⟩ : BufTy).Contents (Elt F)) (a3 : (⟨S4x2x200, .i32⟩ : BufTy).Contents (Elt F)) : (⟨S4, .f32⟩ : BufTy).Contents (Elt F) :=
  sitofp .f32 (t_v121 (F := F) cm a2 a3)
def t_cst_31 : (⟨S_, .f32⟩ : BufTy).Contents (Elt F) :=
  constant S_ .f32 0x00000000#32
def t_v123 : (⟨S4, .f32⟩ : BufTy).Contents (Elt F) :=
  broadcastInDim S4 ![] bcast_S_S4 (t_cst_31 (F := F))
def t_v124 (cm : (⟨S4x24x16, .f32⟩ : BufTy).Contents (Elt F)) (a2 : (⟨S4x2x200, .i32⟩ : BufTy).Contents (Elt F)) (a3 : (⟨S4x2x200, .i32⟩ : BufTy).Contents (Elt F)) : (⟨S4, .i1⟩ : BufTy).Contents (Elt F) :=
  cmpf .ogt (t_v122 (F := F) cm a2 a3) (t_v123 (F := F))
def t_cst_32 : (⟨S_, .f32⟩ : BufTy).Contents (Elt F) :=
  constant S_ .f32 0x00000000#32
def t_v125 (cm : (⟨S4x24x16, .f32⟩ : BufTy).Contents (Elt F)) (a2 : (⟨S4x2x200, .i32⟩ : BufTy).Contents (Elt F)) (a3 : (⟨S4x2x200, .i32⟩ : BufTy).Contents (Elt F)) : (⟨S4, .f32⟩ : BufTy).Contents (Elt F) :=
  Host.reduceAdd (t_v117 (F := F) cm a2 a3) (t_cst_32 (F := F)) reducesTo_S4x200x200_S4_d1_2 h_S_
def t_v126 (cm : (⟨S4x24x16, .f32⟩ : BufTy).Contents (Elt F)) (a2 : (⟨S4x2x200, .i32⟩ : BufTy).Contents (Elt F)) (a3 : (⟨S4x2x200, .i32⟩ : BufTy).Contents (Elt F)) : (⟨S4, .f32⟩ : BufTy).Contents (Elt F) :=
  Host.divf (t_v125 (F := F) cm a2 a3) (t_v122 (F := F) cm a2 a3)
def t_cst_33 : (⟨S_, .f32⟩ : BufTy).Contents (Elt F) :=
  constant S_ .f32 0x00000000#32
def t_call2_v0 : (⟨S_, .f32⟩ : BufTy).Contents (Elt F) :=
  id (t_cst_33 (F := F))
def t_call2_v1 : (⟨S4, .f32⟩ : BufTy).Contents (Elt F) :=
  broadcastInDim S4 ![] bcast_S_S4 (t_call2_v0 (F := F))
def t_v127 (cm : (⟨S4x24x16, .f32⟩ : BufTy).Contents (Elt F)) (a2 : (⟨S4x2x200, .i32⟩ : BufTy).Contents (Elt F)) (a3 : (⟨S4x2x200, .i32⟩ : BufTy).Contents (Elt F)) : (⟨S4, .f32⟩ : BufTy).Contents (Elt F) :=
  select (t_v124 (F := F) cm a2 a3) (t_v126 (F := F) cm a2 a3) (t_call2_v1 (F := F))
def t_cst_34 : (⟨S_, .f32⟩ : BufTy).Contents (Elt F) :=
  constant S_ .f32 0x3F800000#32
def t_v128 : (⟨S4, .f32⟩ : BufTy).Contents (Elt F) :=
  broadcastInDim S4 ![] bcast_S_S4 (t_cst_34 (F := F))
def t_v129 (vq : (⟨S4x24, .f32⟩ : BufTy).Contents (Elt F)) : (⟨S4, .f32⟩ : BufTy).Contents (Elt F) :=
  mulf (t_v128 (F := F)) (t_v41 (F := F) vq)
def t_cst_35 : (⟨S_, .f32⟩ : BufTy).Contents (Elt F) :=
  constant S_ .f32 0x3F800000#32
def t_v130 : (⟨S4, .f32⟩ : BufTy).Contents (Elt F) :=
  broadcastInDim S4 ![] bcast_S_S4 (t_cst_35 (F := F))
def t_v131 (cm : (⟨S4x24x16, .f32⟩ : BufTy).Contents (Elt F)) (a2 : (⟨S4x2x200, .i32⟩ : BufTy).Contents (Elt F)) (a3 : (⟨S4x2x200, .i32⟩ : BufTy).Contents (Elt F)) : (⟨S4, .f32⟩ : BufTy).Contents (Elt F) :=
  mulf (t_v130 (F := F)) (t_v127 (F := F) cm a2 a3)
def t_v132 (cm : (⟨S4x24x16, .f32⟩ : BufTy).Contents (Elt F)) (vq : (⟨S4x24, .f32⟩ : BufTy).Contents (Elt F)) (a2 : (⟨S4x2x200, .i32⟩ : BufTy).Contents (Elt F)) (a3 : (⟨S4x2x200, .i32⟩ : BufTy).Contents (Elt F)) : (⟨S4, .f32⟩ : BufTy).Contents (Elt F) :=
  addf (t_v129 (F := F) vq) (t_v131 (F := F) cm a2 a3)
def t_cst_36 : (⟨S_, .f32⟩ : BufTy).Contents (Elt F) :=
  constant S_ .f32 0x3F800000#32
def t_v133 : (⟨S4, .f32⟩ : BufTy).Contents (Elt F) :=
  broadcastInDim S4 ![] bcast_S_S4 (t_cst_36 (F := F))
def t_v134 (cm : (⟨S4x24x16, .f32⟩ : BufTy).Contents (Elt F)) : (⟨S4, .f32⟩ : BufTy).Contents (Elt F) :=
  mulf (t_v133 (F := F)) (t_v49 (F := F) cm)
def t_v135 (cm : (⟨S4x24x16, .f32⟩ : BufTy).Contents (Elt F)) (vq : (⟨S4x24, .f32⟩ : BufTy).Contents (Elt F)) (a2 : (⟨S4x2x200, .i32⟩ : BufTy).Contents (Elt F)) (a3 : (⟨S4x2x200, .i32⟩ : BufTy).Contents (Elt F)) : (⟨S4, .f32⟩ : BufTy).Contents (Elt F) :=
  addf (t_v132 (F := F) cm vq a2 a3) (t_v134 (F := F) cm)
def t_cst_37 : (⟨S_, .f32⟩ : BufTy).Contents (Elt F) :=
  constant S_ .f32 0x00000000#32
def t_v136 (cm : (⟨S4x24x16, .f32⟩ : BufTy).Contents (Elt F)) (vq : (⟨S4x24, .f32⟩ : BufTy).Contents (Elt F)) (a2 : (⟨S4x2x200, .i32⟩ : BufTy).Contents (Elt F)) (a3 : (⟨S4x2x200, .i32⟩ : BufTy).Contents (Elt F)) : (⟨S_, .f32⟩ : BufTy).Contents (Elt F) :=
  Host.reduceAdd (t_v135 (F := F) cm vq a2 a3) (t_cst_37 (F := F)) reducesTo_S4_S_d0 h_S_
def t_cst_38 : (⟨S_, .f32⟩ : BufTy).Contents (Elt F) :=
  constant S_ .f32 0x41800000#32
def t_v137 (cm : (⟨S4x24x16, .f32⟩ : BufTy).Contents (Elt F)) (vq : (⟨S4x24, .f32⟩ : BufTy).Contents (Elt F)) (a2 : (⟨S4x2x200, .i32⟩ : BufTy).Contents (Elt F)) (a3 : (⟨S4x2x200, .i32⟩ : BufTy).Contents (Elt F)) : (⟨S_, .f32⟩ : BufTy).Contents (Elt F) :=
  Host.divf (t_v136 (F := F) cm vq a2 a3) (t_cst_38 (F := F))

/-- The shared closing chain: the scalar both programs return, from the two tables and the edge tables. -/
def tail (cm : (⟨S4x24x16, .f32⟩ : BufTy).Contents (Elt F)) (vq : (⟨S4x24, .f32⟩ : BufTy).Contents (Elt F)) (a2 a3 : (⟨S4x2x200, .i32⟩ : BufTy).Contents (Elt F)) : (⟨S_, .f32⟩ : BufTy).Contents (Elt F) :=
  t_v137 (F := F) cm vq a2 a3

end Cert.Tail

end
-- ==== Proof.Tail.lean ====
/-
  The kernel program's closing host operations are the shared chain.

  After its second kernel region the program holds, in its buffers, the summed hinges vs : [4, 1, 24] (main_v11), the
  cluster sizes' maximum with one d : [4, 24] (main_v7) and the cluster means laid out by channel, m : [4, 16, 24] (main_v10).
  Its first two operations reshape vs to [4, 24] and divide by d, which is the table vq; a transpose to [4, 24, 16] of m is
  the table cm. Every operation after these is, position by position, the operation of the shared chain of the same
  place: the same function of the same earlier results. So the scalar the program ends with (main_v112) is the
  shared chain at vq, cm and the two edge tables (the arguments main_arg2, main_arg3, written by nothing).

  The program lists these operations in seven stretches. For each stretch and each buffer a later stretch reads we
  state what the buffer holds after the stretch: given that the buffers the stretch reads hold the stage values of the
  shared chain (at tables cm, vq, a2, a3 — any), a buffer the stretch writes holds its own stage value; and a buffer the
  stretch does not write holds what it held. Each is a computation: the fold of the stretch's operations is read back
  at the buffer, the hypotheses are substituted, and what remains is the stage's definition unfolded down to the stages
  the hypotheses name. The last lemma threads the seven stretches.
-/
import proofs.«427995_j35871566856560_2_alg».proof.Proof.TailDefs
import proofs.«427995_j35871566856560_2_alg».proof.Proof.Gen.KernelIdeal.Launch

set_option maxRecDepth 8192

noncomputable section

namespace Cert.Tail

open Cert.KernelIdeal Cert.KernelIdeal.Gen Idealize.ShloMosaic Idealize.ShloMosaic.TcCoe Idealize.SL.Sem Idealize.ShloMosaic.StableHlo

variable {F : FTy → Type} [FloatOps F]

-- the reductions, gathers and searches are compared as written, never opened
attribute [local irreducible] Host.reduce Host.reduceAdd Host.gather

/-! ## Stretch 1: the two tables, and the variance term -/

/-- The transposed means are the table cm. -/
theorem ops2_v17 (V : Valuation τ sig (Elt F)) :
    after main_part0_ops2 V (Proc.devRef .tc main_v17)
      = transpose S4x24x16 [0, 2, 1] (V (Proc.devRef .tc main_v10)) transposes_S4x16x24_S4x24x16_0_2_1 := by
  after_results

/-- The variance term, of the table vq = (vs reshaped) / d. -/
theorem ops2_v16 (V : Valuation τ sig (Elt F)) :
    after main_part0_ops2 V (Proc.devRef .tc main_v16)
      = t_v41 (F := F) (Host.divf (shapeCast S4x24 (V (Proc.devRef .tc main_v11)) shapeCasts_S4x1x24_S4x24) (V (Proc.devRef .tc main_v7))) := by
  after_results
  rfl

theorem ops2_arg2 (V : Valuation τ sig (Elt F)) : after main_part0_ops2 V (Proc.devRef .tc main_arg2) = V (Proc.devRef .tc main_arg2) := by
  after_results
theorem ops2_arg3 (V : Valuation τ sig (Elt F)) : after main_part0_ops2 V (Proc.devRef .tc main_arg3) = V (Proc.devRef .tc main_arg3) := by
  after_results

/-! ## Stretch 2: the row norms of cm -/

theorem ops3_v18 (V : Valuation τ sig (Elt F)) (cm : (⟨S4x24x16, .f32⟩ : BufTy).Contents (Elt F))
    (h17 : V (Proc.devRef .tc main_v17) = cm) :
    after main_part0_ops3 V (Proc.devRef .tc main_v18) = t_v43 (F := F) cm := by
  after_results
  simp only [TRef.ofBuf, TRef.toBuf, cast_eq]
  rw [h17]
  rfl

theorem ops3_v16 (V : Valuation τ sig (Elt F)) : after main_part0_ops3 V (Proc.devRef .tc main_v16) = V (Proc.devRef .tc main_v16) := by
  after_results
theorem ops3_v17 (V : Valuation τ sig (Elt F)) : after main_part0_ops3 V (Proc.devRef .tc main_v17) = V (Proc.devRef .tc main_v17) := by
  after_results
theorem ops3_arg2 (V : Valuation τ sig (Elt F)) : after main_part0_ops3 V (Proc.devRef .tc main_arg2) = V (Proc.devRef .tc main_arg2) := by
  after_results
theorem ops3_arg3 (V : Valuation τ sig (Elt F)) : after main_part0_ops3 V (Proc.devRef .tc main_arg3) = V (Proc.devRef .tc main_arg3) := by
  after_results

/-! ## Stretch 3: the regulariser, the marks of the edge pairs, the first gathered rows and the second row's indices of a2 -/

section Ops4
variable (V : Valuation τ sig (Elt F)) (cm : (⟨S4x24x16, .f32⟩ : BufTy).Contents (Elt F))
  (a2 a3 : (⟨S4x2x200, .i32⟩ : BufTy).Contents (Elt F))

theorem ops4_v24 (h18 : V (Proc.devRef .tc main_v18) = t_v43 (F := F) cm) :
    after main_part0_ops4 V (Proc.devRef .tc main_v24) = t_v49 (F := F) cm := by
  after_results_simp
  rw [h18]
  rfl

theorem ops4_v33 (h2 : V (Proc.devRef .tc main_arg2) = a2) (h3 : V (Proc.devRef .tc main_arg3) = a3) :
    after main_part0_ops4 V (Proc.devRef .tc main_v33) = t_v58 (F := F) a2 a3 := by
  after_results_simp
  rw [h2, h3]
  rfl

theorem ops4_v42 (h17 : V (Proc.devRef .tc main_v17) = cm) (h2 : V (Proc.devRef .tc main_arg2) = a2) :
    after main_part0_ops4 V (Proc.devRef .tc main_v42) = t_v67 (F := F) cm a2 := by
  after_results_simp
  rw [h17, h2]
  rfl

theorem ops4_v44 (h2 : V (Proc.devRef .tc main_arg2) = a2) :
    after main_part0_ops4 V (Proc.devRef .tc main_v44) = t_v69 (F := F) a2 := by
  after_results_simp
  rw [h2]
  rfl

theorem ops4_v46 (h2 : V (Proc.devRef .tc main_arg2) = a2) :
    after main_part0_ops4 V (Proc.devRef .tc main_v46) = t_v71 (F := F) a2 := by
  after_results_simp
  rw [h2]
  rfl

theorem ops4_v47 : after main_part0_ops4 V (Proc.devRef .tc main_v47) = t_v72 (F := F) := by
  after_results_simp
  rfl

theorem ops4_v16 : after main_part0_ops4 V (Proc.devRef .tc main_v16) = V (Proc.devRef .tc main_v16) := by
  after_results_simp
theorem ops4_v17 : after main_part0_ops4 V (Proc.devRef .tc main_v17) = V (Proc.devRef .tc main_v17) := by
  after_results_simp
theorem ops4_arg3 : after main_part0_ops4 V (Proc.devRef .tc main_arg3) = V (Proc.devRef .tc main_arg3) := by
  after_results_simp

end Ops4

/-! ## Stretch 4: the squared distances, the hinge over the marked pairs, and its positive entries -/

section Part1
variable (V : Valuation τ sig (Elt F)) (cm : (⟨S4x24x16, .f32⟩ : BufTy).Contents (Elt F))
  (a2 a3 : (⟨S4x2x200, .i32⟩ : BufTy).Contents (Elt F))
  (h44 : V (Proc.devRef .tc main_v44) = t_v69 (F := F) a2) (h47 : V (Proc.devRef .tc main_v47) = t_v72 (F := F))
  (h46 : V (Proc.devRef .tc main_v46) = t_v71 (F := F) a2) (h17 : V (Proc.devRef .tc main_v17) = cm)
  (h42 : V (Proc.devRef .tc main_v42) = t_v67 (F := F) cm a2) (h3 : V (Proc.devRef .tc main_arg3) = a3)
  (h33 : V (Proc.devRef .tc main_v33) = t_v58 (F := F) a2 a3)
include h44 h47 h46 h17 h42 h3 h33

/-- The hinge over the marked pairs. -/
theorem part1_v92 : after main_part1_ops0 V (Proc.devRef .tc main_v92) = t_v117 (F := F) cm a2 a3 := by
  after_results_simp
  rw [h44, h47, h46, h17, h42, h3, h33]
  rfl

/-- Its positive entries, as integers. -/
theorem part1_v95 : after main_part1_ops0 V (Proc.devRef .tc main_v95) = t_v120 (F := F) cm a2 a3 := by
  after_results_simp
  rw [h44, h47, h46, h17, h42, h3, h33]
  rfl

omit h44 h47 h46 h17 h42 h3 h33 in
theorem part1_v16 : after main_part1_ops0 V (Proc.devRef .tc main_v16) = V (Proc.devRef .tc main_v16) := by
  after_results_simp
omit h44 h47 h46 h17 h42 h3 h33 in
theorem part1_v24 : after main_part1_ops0 V (Proc.devRef .tc main_v24) = V (Proc.devRef .tc main_v24) := by
  after_results_simp

end Part1

/-! ## Stretch 5: the count of positive entries and the mean hinge -/

section Part2a
variable (V : Valuation τ sig (Elt F)) (cm : (⟨S4x24x16, .f32⟩ : BufTy).Contents (Elt F))
  (a2 a3 : (⟨S4x2x200, .i32⟩ : BufTy).Contents (Elt F))
  (h95 : V (Proc.devRef .tc main_v95) = t_v120 (F := F) cm a2 a3) (h92 : V (Proc.devRef .tc main_v92) = t_v117 (F := F) cm a2 a3)
include h95 h92

theorem part2a_v99 : after main_part2_ops0 V (Proc.devRef .tc main_v99) = t_v124 (F := F) cm a2 a3 := by
  after_results
  rw [h95]
  rfl

theorem part2a_v101 : after main_part2_ops0 V (Proc.devRef .tc main_v101) = t_v126 (F := F) cm a2 a3 := by
  after_results
  rw [h95, h92]
  rfl

omit h95 h92 in
theorem part2a_cst25 : after main_part2_ops0 V (Proc.devRef .tc main_cst_25) = t_cst_33 (F := F) := by
  after_results
  rfl
omit h95 h92 in
theorem part2a_v16 : after main_part2_ops0 V (Proc.devRef .tc main_v16) = V (Proc.devRef .tc main_v16) := by
  after_results
omit h95 h92 in
theorem part2a_v24 : after main_part2_ops0 V (Proc.devRef .tc main_v24) = V (Proc.devRef .tc main_v24) := by
  after_results

end Part2a

/-! ## Stretch 6: the triplet term (the mean hinge where there is a positive entry, else zero) -/

theorem part2b_v102 (V : Valuation τ sig (Elt F)) (cm : (⟨S4x24x16, .f32⟩ : BufTy).Contents (Elt F))
    (a2 a3 : (⟨S4x2x200, .i32⟩ : BufTy).Contents (Elt F))
    (hc : V (Proc.devRef .tc main_cst_25) = t_cst_33 (F := F)) (h99 : V (Proc.devRef .tc main_v99) = t_v124 (F := F) cm a2 a3)
    (h101 : V (Proc.devRef .tc main_v101) = t_v126 (F := F) cm a2 a3) :
    after main_part2_ops1 V (Proc.devRef .tc main_v102) = t_v127 (F := F) cm a2 a3 := by
  after_results
  simp only [TRef.ofBuf, TRef.toBuf, cast_eq]
  rw [hc, h99, h101]
  rfl

theorem part2b_v16 (V : Valuation τ sig (Elt F)) : after main_part2_ops1 V (Proc.devRef .tc main_v16) = V (Proc.devRef .tc main_v16) := by
  after_results
theorem part2b_v24 (V : Valuation τ sig (Elt F)) : after main_part2_ops1 V (Proc.devRef .tc main_v24) = V (Proc.devRef .tc main_v24) := by
  after_results

/-! ## Stretch 7: the weighted sum of the three terms, its total over the samples, the division by 16 -/

theorem part2c_v112 (V : Valuation τ sig (Elt F)) (cm : (⟨S4x24x16, .f32⟩ : BufTy).Contents (Elt F))
    (vq : (⟨S4x24, .f32⟩ : BufTy).Contents (Elt F)) (a2 a3 : (⟨S4x2x200, .i32⟩ : BufTy).Contents (Elt F))
    (h16 : V (Proc.devRef .tc main_v16) = t_v41 (F := F) vq) (h102 : V (Proc.devRef .tc main_v102) = t_v127 (F := F) cm a2 a3)
    (h24 : V (Proc.devRef .tc main_v24) = t_v49 (F := F) cm) :
    after main_part2_ops2 V (Proc.devRef .tc main_v112) = t_v137 (F := F) cm vq a2 a3 := by
  after_results
  rw [h16, h102, h24]
  rfl

/-! ## The seven stretches in order -/

/-- From any contents W of the buffers after the second kernel region, the program's closing operations leave in
    main_v112 the shared chain at the transposed means, the summed hinges over the clamped sizes, and the edge tables. -/
theorem ker_tail (W : Valuation τ sig (Elt F)) :
    after main_part2_ops2 (after main_part2_ops1 (after main_part2_ops0 (after main_part1_ops0
        (after main_part0_ops4 (after main_part0_ops3 (after main_part0_ops2 W)))))) (Proc.devRef .tc main_v112)
      = tail (F := F)
          (transpose S4x24x16 [0, 2, 1] (W (Proc.devRef .tc main_v10)) transposes_S4x16x24_S4x24x16_0_2_1)
          (Host.divf (shapeCast S4x24 (W (Proc.devRef .tc main_v11)) shapeCasts_S4x1x24_S4x24) (W (Proc.devRef .tc main_v7)))
          (W (Proc.devRef .tc main_arg2)) (W (Proc.devRef .tc main_arg3)) := by
  -- after stretch 1
  have e17 := ops2_v17 W
  have e16 := ops2_v16 W
  have e2 := ops2_arg2 W
  have e3 := ops2_arg3 W
  generalize after main_part0_ops2 W = V1 at e17 e16 e2 e3 ⊢
  generalize transpose S4x24x16 [0, 2, 1] (W (Proc.devRef .tc main_v10)) transposes_S4x16x24_S4x24x16_0_2_1 = cm at e17 ⊢
  generalize Host.divf (shapeCast S4x24 (W (Proc.devRef .tc main_v11)) shapeCasts_S4x1x24_S4x24) (W (Proc.devRef .tc main_v7)) = vq at e16 ⊢
  generalize W (Proc.devRef .tc main_arg2) = a2 at e2 ⊢
  generalize W (Proc.devRef .tc main_arg3) = a3 at e3 ⊢
  -- after stretch 2
  have e18 := ops3_v18 V1 cm e17
  replace e16 := (ops3_v16 V1).trans e16
  replace e17 := (ops3_v17 V1).trans e17
  replace e2 := (ops3_arg2 V1).trans e2
  replace e3 := (ops3_arg3 V1).trans e3
  generalize after main_part0_ops3 V1 = V2 at e18 e16 e17 e2 e3 ⊢
  -- after stretch 3
  have e24 := ops4_v24 V2 cm e18
  have e33 := ops4_v33 V2 a2 a3 e2 e3
  have e42 := ops4_v42 V2 cm a2 e17 e2
  have e44 := ops4_v44 V2 a2 e2
  have e46 := ops4_v46 V2 a2 e2
  have e47 := ops4_v47 (F := F) V2
  replace e16 := (ops4_v16 V2).trans e16
  replace e17 := (ops4_v17 V2).trans e17
  replace e3 := (ops4_arg3 V2).trans e3
  clear e18 e2
  generalize after main_part0_ops4 V2 = V3 at e24 e33 e42 e44 e46 e47 e16 e17 e3 ⊢
  -- after stretch 4
  have e92 := part1_v92 V3 cm a2 a3 e44 e47 e46 e17 e42 e3 e33
  have e95 := part1_v95 V3 cm a2 a3 e44 e47 e46 e17 e42 e3 e33
  replace e16 := (part1_v16 V3).trans e16
  replace e24 := (part1_v24 V3).trans e24
  clear e44 e47 e46 e17 e42 e3 e33
  generalize after main_part1_ops0 V3 = V4 at e92 e95 e16 e24 ⊢
  -- after stretch 5
  have e99 := part2a_v99 V4 cm a2 a3 e95 e92
  have e101 := part2a_v101 V4 cm a2 a3 e95 e92
  have ec := part2a_cst25 (F := F) V4
  replace e16 := (part2a_v16 V4).trans e16
  replace e24 := (part2a_v24 V4).trans e24
  clear e92 e95
  generalize after main_part2_ops0 V4 = V5 at e99 e101 ec e16 e24 ⊢
  -- after stretch 6
  have e102 := part2b_v102 V5 cm a2 a3 ec e99 e101
  replace e16 := (part2b_v16 V5).trans e16
  replace e24 := (part2b_v24 V5).trans e24
  clear ec e99 e101
  generalize after main_part2_ops1 V5 = V6 at e102 e16 e24 ⊢
  -- stretch 7
  exact part2c_v112 V6 cm vq a2 a3 e16 e102 e24

end Cert.Tail

end
-- ==== Proof.SpecV.lean ====
/-
  The two kernel regions' results as plain functions of the arrays the regions read, at the ideal instance.

  The regions read the image flattened to X[n, e, p] (p = h * 768 + w), the labels flattened to T[n, 0, p] and, in
  the second region, a table M[n, e, k] (the cluster means). With ohV T n p k the indicator "pixel p of sample n has
  label k":
    sumsV X T n r k   row r < 16: the sum of channel r over the pixels of label k; row 16: the number of such pixels;
    mgV M T n e p     the entry of M for pixel p's label (a sum over the classes, at most one of which contributes);
    hvV X M T n p     the squared hinge (max (‖X[n, ·, p] − mgV M T n · p‖ − 1/2) 0)²;
    varsV X M T n k   the sum of hvV over the pixels of label k.
-/
import Idealize.ShloMosaic.PureOps.Ideal
import Idealize.ShloMosaic.Lib.ValueIdx

noncomputable section

namespace Cert.SpecV

open Idealize.ShloMosaic Idealize.ShloMosaic.ValueIdx

abbrev SXf : Shape := ⟨3, ![4, 16, 589824]⟩
abbrev STf : Shape := ⟨3, ![4, 1, 589824]⟩
abbrev SM : Shape := ⟨3, ![4, 16, 24]⟩

/-- Pixel p of sample n has label k. -/
def ohV (T : STf.Idx → BitVec 32) (n : Fin 4) (p : Fin 589824) (k : Fin 24) : EReal :=
  if T (ix3 n 0 p) = BitVec.ofNat 32 k.val then 1 else 0

/-- Rows 0 … 15: per-class channel sums; row 16: per-class pixel counts. -/
def sumsV (X : SXf.Idx → EReal) (T : STf.Idx → BitVec 32) (n : Fin 4) (r : Fin 17) (k : Fin 24) : EReal :=
  ∑ p : Fin 589824, (if h : r.val < 16 then X (ix3 n ⟨r.val, h⟩ p) else 1) * ohV T n p k

/-- The table's entry for the label of pixel p. -/
def mgV (M : SM.Idx → EReal) (T : STf.Idx → BitVec 32) (n : Fin 4) (e : Fin 16) (p : Fin 589824) : EReal :=
  ∑ k : Fin 24, M (ix3 n e k) * ohV T n p k

/-- The squared hinge of the distance of pixel p's embedding to its table entry. -/
def hvV (X : SXf.Idx → EReal) (M : SM.Idx → EReal) (T : STf.Idx → BitVec 32) (n : Fin 4) (p : Fin 589824) : EReal :=
  let r := max (Ideal.sqrt (∑ e : Fin 16, (X (ix3 n e p) - mgV M T n e p) * (X (ix3 n e p) - mgV M T n e p))
                 - Ideal.ofBits .f32 0x3F000000#32) (Ideal.ofBits .f32 0x00000000#32)
  r * r

/-- Per-class sums of the hinge. -/
def varsV (X : SXf.Idx → EReal) (M : SM.Idx → EReal) (T : STf.Idx → BitVec 32) (n : Fin 4) (k : Fin 24) : EReal :=
  ∑ p : Fin 589824, hvV X M T n p * ohV T n p k

end Cert.SpecV

end
-- ==== Proof.KIGlue.lean ====
/-
  The idealized kernel's result as the shared closing chain applied to the specification's two tables.

  Reading the run's buffer contents boundary by boundary: the first stretch flattens the image and the labels; the
  first region leaves per-class channel sums and pixel counts; the stretch between the regions forms the divisors
  max (count, 1) and the means; the second region leaves the per-class sums of the hinge around those means; the
  closing chain transposes the means and divides the hinge sums by the divisors. Each step is rewritten to the
  specification's function of the two argument arrays.
-/
import proofs.«427995_j35871566856560_2_alg».proof.Proof.KIFrame
import proofs.«427995_j35871566856560_2_alg».proof.Proof.KIHost
import proofs.«427995_j35871566856560_2_alg».proof.Proof.Tail
import proofs.«427995_j35871566856560_2_alg».proof.Proof.Spec
import proofs.«427995_j35871566856560_2_alg».proof.Proof.SpecV

set_option maxRecDepth 16384

noncomputable section

namespace Cert.KernelIdeal.Hand

open Idealize.ShloMosaic Idealize.ShloMosaic.TcCoe Idealize.ShloMosaic.ValueIdx
open Idealize.SL.Sem
open Cert.KernelIdeal.Gen

variable (m : (ℓ : Loc nD τ sig) → Buf (Elt Ideal) ℓ) (ρ : Dev nD → PrngReg) (c : Dev nD)

/-- The image and the labels as launched. -/
abbrev xA : Cert.Spec.SX.Idx → EReal := m ((c : Thread nD τ).loc main_arg0)
abbrev tA : Cert.Spec.ST.Idx → BitVec 32 := m ((c : Thread nD τ).loc main_arg1)

/-! ## The first region's entry: the flattened image and labels -/

theorem V1_v0 (n : Fin 4) (e : Fin 16) (p : Fin 589824) :
    V1 m ρ c main_v0 (ix3 n e p) = xA m c (ix4 n e (Cert.Spec.prow p) (Cert.Spec.pcol p)) :=
  ops0_v0 (W0 m ρ c) n e p

theorem V1_v1 (n : Fin 4) (p : Fin 589824) :
    V1 m ρ c main_v1 (ix3 n (0 : Fin 1) p) = tA m c (ix3 n (Cert.Spec.prow p) (Cert.Spec.pcol p)) :=
  ops0_v1 (W0 m ρ c) n p

theorem ohV_eq (n : Fin 4) (p : Fin 589824) (k : Fin 24) :
    Cert.SpecV.ohV (V1 m ρ c main_v1) n p k = Cert.Spec.oh (tA m c) n p k := by
  unfold Cert.SpecV.ohV Cert.Spec.oh Cert.Spec.hit Cert.Spec.lab
  rw [V1_v1]
  congr

theorem sumsV_lt (n : Fin 4) (e : Fin 16) (h : e.val < 17) (k : Fin 24) :
    Cert.SpecV.sumsV (V1 m ρ c main_v0) (V1 m ρ c main_v1) n (⟨e.val, h⟩ : Fin 17) k = Cert.Spec.sm (xA m c) (tA m c) n e k := by
  unfold Cert.SpecV.sumsV Cert.Spec.sm Cert.Spec.xv
  refine Finset.sum_congr rfl fun p _ => ?_
  rw [dif_pos (show (⟨e.val, h⟩ : Fin 17).val < 16 from e.isLt), ohV_eq]
  exact congrArg (· * _) (V1_v0 m ρ c n e p)

theorem sumsV_16 (n : Fin 4) (k : Fin 24) :
    Cert.SpecV.sumsV (V1 m ρ c main_v0) (V1 m ρ c main_v1) n (16 : Fin 17) k = Cert.Spec.cnt (tA m c) n k := by
  unfold Cert.SpecV.sumsV Cert.Spec.cnt
  refine Finset.sum_congr rfl fun p _ => ?_
  rw [dif_neg (by decide), one_mul, ohV_eq]

section
-- What the first region's output array holds after its write-backs.
variable (h0 : ∀ (n : Fin 4) (r : Fin 17) (k : Fin 24), (dat0 (F := Ideal) (V1 m ρ) c).arrAt 2 cfg0.N (ix3 n r k)
    = Cert.SpecV.sumsV (V1 m ρ c main_v0) (V1 m ρ c main_v1) n r k)
include h0

theorem W2_v2 (n : Fin 4) (r : Fin 17) (k : Fin 24) :
    W2 m ρ c (Proc.devRef .tc main_v2) (ix3 n r k) = Cert.SpecV.sumsV (V1 m ρ c main_v0) (V1 m ρ c main_v1) n r k :=
  (congrFun (W2_arr m ρ c 2) (ix3 n r k)).trans (h0 n r k)

/-! ## Between the regions: the divisors and the means -/

theorem W3_v7 (n : Fin 4) (k : Fin 24) :
    W3 m ρ c (Proc.devRef .tc main_v7) (ix2 n k) = Cert.Spec.dK (tA m c) n k := by
  refine (ops1_v7 (W2 m ρ c) n k).trans ?_
  rw [W2_v2 m ρ c h0, sumsV_16]
  rfl

theorem W3_v10 (n : Fin 4) (e : Fin 16) (k : Fin 24) :
    W3 m ρ c (Proc.devRef .tc main_v10) (ix3 n e k) = Cert.Spec.meanBy (Cert.Spec.dK (tA m c)) (xA m c) (tA m c) n e k := by
  refine (ops1_v10 (W2 m ρ c) n e k).trans ?_
  rw [W2_v2 m ρ c h0, W2_v2 m ρ c h0, sumsV_lt, sumsV_16]
  rfl
end

theorem V3_v0 : V3 m ρ c main_v0 = V1 m ρ c main_v0 :=
  (ops1_keep_v0 (W2 m ρ c)).trans ((W2_arr m ρ c 0).trans (((dat0 (V1 m ρ) c).arrAt_in 0 rfl _).trans (A_eq0 (V1 m ρ) c 0)))

theorem V3_v1 : V3 m ρ c main_v1 = V1 m ρ c main_v1 :=
  (ops1_keep_v1 (W2 m ρ c)).trans ((W2_arr m ρ c 1).trans (((dat0 (V1 m ρ) c).arrAt_in 1 rfl _).trans (A_eq0 (V1 m ρ) c 1)))

/-! ## The second region: the hinge sums around the means -/

section
variable (h0 : ∀ (n : Fin 4) (r : Fin 17) (k : Fin 24), (dat0 (F := Ideal) (V1 m ρ) c).arrAt 2 cfg0.N (ix3 n r k)
    = Cert.SpecV.sumsV (V1 m ρ c main_v0) (V1 m ρ c main_v1) n r k)
include h0

theorem mgV_eq (n : Fin 4) (e : Fin 16) (p : Fin 589824) :
    Cert.SpecV.mgV (V3 m ρ c main_v10) (V3 m ρ c main_v1) n e p
      = Cert.Spec.mgBy (Cert.Spec.dK (tA m c)) (xA m c) (tA m c) n e p := by
  unfold Cert.SpecV.mgV Cert.Spec.mgBy
  refine Finset.sum_congr rfl fun k _ => ?_
  rw [V3_v1, ohV_eq]
  exact congrArg (· * _) (W3_v10 m ρ c h0 n e k)

theorem hvV_eq (n : Fin 4) (p : Fin 589824) :
    Cert.SpecV.hvV (V3 m ρ c main_v0) (V3 m ρ c main_v10) (V3 m ρ c main_v1) n p
      = Cert.Spec.hvBy (Cert.Spec.dK (tA m c)) (xA m c) (tA m c) n p := by
  have e0 : ∀ e : Fin 16, V3 m ρ c main_v0 (ix3 n e p) = xA m c (ix4 n e (Cert.Spec.prow p) (Cert.Spec.pcol p)) :=
    fun e => (congrFun (V3_v0 m ρ c) _).trans (V1_v0 m ρ c n e p)
  unfold Cert.SpecV.hvV Cert.Spec.hvBy Cert.Spec.xv
  simp only [mgV_eq m ρ c h0, e0]

theorem varsV_eq (n : Fin 4) (k : Fin 24) :
    Cert.SpecV.varsV (V3 m ρ c main_v0) (V3 m ρ c main_v10) (V3 m ρ c main_v1) n k
      = Cert.Spec.vsBy (Cert.Spec.dK (tA m c)) (xA m c) (tA m c) n k := by
  unfold Cert.SpecV.varsV Cert.Spec.vsBy
  refine Finset.sum_congr rfl fun p _ => ?_
  rw [hvV_eq m ρ c h0, V3_v1, ohV_eq]

-- What the second region's output array holds after its write-backs.
variable (h1 : ∀ (n : Fin 4) (k : Fin 24), (dat1 (F := Ideal) (V3 m ρ) c).arrAt 3 cfg1.N (ix3 n (0 : Fin 1) k)
    = Cert.SpecV.varsV (V3 m ρ c main_v0) (V3 m ρ c main_v10) (V3 m ρ c main_v1) n k)
include h1

theorem W4_v11 (n : Fin 4) (k : Fin 24) :
    W4 m ρ c (Proc.devRef .tc main_v11) (ix3 n (0 : Fin 1) k) = Cert.Spec.vsBy (Cert.Spec.dK (tA m c)) (xA m c) (tA m c) n k :=
  (congrFun (W4_arr m ρ c 3) (ix3 n (0 : Fin 1) k)).trans ((h1 n k).trans (varsV_eq m ρ c h0 n k))

omit h1 in
theorem W4_v10 : W4 m ρ c (Proc.devRef .tc main_v10) = W3 m ρ c (Proc.devRef .tc main_v10) :=
  (W4_arr m ρ c 2).trans (((dat1 (V3 m ρ) c).arrAt_in 2 rfl _).trans (A_eq1 (V3 m ρ) c 2))

omit h0 h1 in
theorem W4_v7 : W4 m ρ c (Proc.devRef .tc main_v7) = W3 m ρ c (Proc.devRef .tc main_v7) :=
  W4_of_ne m ρ c main_v7 (by decide)

/-! ## The two tables the closing chain reads -/

omit h1 in
theorem cmK_eq :
    transpose S4x24x16 [0, 2, 1] (W4 m ρ c (Proc.devRef .tc main_v10)) Facts₀.transposes_S4x16x24_S4x24x16_0_2_1
      = Cert.Spec.cmBy (Cert.Spec.dK (tA m c)) (xA m c) (tA m c) := by
  funext i
  obtain ⟨n, k, e, rfl⟩ : ∃ (n : Fin 4) (k : Fin 24) (e : Fin 16), i = ix3 n k e := ⟨i 0, i 1, i 2, eq_ix3 i⟩
  rw [tr_apply, W4_v10 m ρ c h0, W3_v10 m ρ c h0]
  rfl

theorem vqK_eq :
    Host.divf (F := Ideal) (φ := .f32) (shapeCast S4x24 (W4 m ρ c (Proc.devRef .tc main_v11) : FVec Ideal S4x1x24 .f32) Facts₀.shapeCasts_S4x1x24_S4x24)
        (W4 m ρ c (Proc.devRef .tc main_v7) : FVec Ideal S4x24 .f32)
      = Cert.Spec.vqBy (Cert.Spec.dK (tA m c)) (xA m c) (tA m c) := by
  funext i
  obtain ⟨n, k, rfl⟩ : ∃ (n : Fin 4) (k : Fin 24), i = ix2 n k := ⟨i 0, i 1, eq_ix2 i⟩
  show Ideal.div (shapeCast S4x24 (W4 m ρ c (Proc.devRef .tc main_v11) : FVec Ideal S4x1x24 .f32) Facts₀.shapeCasts_S4x1x24_S4x24 (ix2 n k))
      ((W4 m ρ c (Proc.devRef .tc main_v7) : FVec Ideal S4x24 .f32) (ix2 n k)) = _
  rw [sc_apply, W4_v11 m ρ c h0 h1, W4_v7, W3_v7 m ρ c h0]
  rfl

/-- The kernel's result buffer after the run. -/
theorem result_eq :
    W11 m ρ c (Proc.devRef .tc main_v112)
      = Cert.Tail.tail (F := Ideal) (Cert.Spec.cmBy (Cert.Spec.dK (tA m c)) (xA m c) (tA m c))
          (Cert.Spec.vqBy (Cert.Spec.dK (tA m c)) (xA m c) (tA m c))
          (m ((c : Thread nD τ).loc main_arg2)) (m ((c : Thread nD τ).loc main_arg3)) := by
  refine (Cert.Tail.ker_tail (F := Ideal) (W4 m ρ c)).trans ?_
  rw [cmK_eq m ρ c h0, vqK_eq m ρ c h0 h1, W4_main_arg2, W4_main_arg3]

end

end Cert.KernelIdeal.Hand

end
-- ==== Proof.KIPay0.lean ====
/- One grid point's contribution to the per-label sums, read at an index at the ideal values.

   The body of the first region loads a block x[0, e, q] of sixteen channels over 49152 pixels, the block's labels
   tt[0, 0, q], the label table (row k holds the word k in every column) and the accumulator a[0, r, k], and stores

     a[0, r, k] + sum over q of  (x[0, r, q] if r < 16, else 1) * [tt[0, 0, q] = k].

   Rows 0 .. 15 come from the product of the channels with the one-hot matrix of the labels, row 16 from the product
   of a row of ones with the same matrix; both products contract the pixel axis into a zero accumulator, and at the
   ideal values a change of float format is the identity, so nothing but the sum is left. -/
import proofs.«427995_j35871566856560_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.IdealHost

noncomputable section

namespace Cert.KernelIdeal.Hand

open Idealize.ShloMosaic Idealize.ShloMosaic.ValueIdx
open scoped BigOperators

/-! ## A one-bit word as an extended real -/

/-- A comparison bit, widened to 32 bits and converted as a signed integer, is 1 when set and 0 when clear. -/
theorem sitofp_bit (b : BitVec 1) :
    (FloatOps.sitofp (F := Ideal) .f32 (b.setWidth 32) : EReal) = if b = 1#1 then 1 else 0 := by
  rcases BitVec.eq_zero_or_eq_one b with h | h <;> subst h
  · show (((BitVec.setWidth 32 0#1).toInt : ℝ) : EReal) = _
    rw [show (BitVec.setWidth 32 0#1).toInt = 0 from by decide, if_neg (by decide)]
    norm_num
  · show (((BitVec.setWidth 32 1#1).toInt : ℝ) : EReal) = _
    rw [show (BitVec.setWidth 32 1#1).toInt = 1 from by decide, if_pos rfl]
    norm_num

/-- The equality comparison's bit is set exactly when the two words are equal. -/
theorem cmpi_eq_one_iff (x y : BitVec 32) : IntOp.cmpi .eq x y = 1#1 ↔ x = y := by
  show BitVec.ofBool (x == y) = 1#1 ↔ x = y
  by_cases h : x = y
  · subst h; rw [beq_self_eq_true]; exact ⟨fun _ => rfl, fun _ => rfl⟩
  · rw [beq_eq_false_iff_ne.mpr h]; exact ⟨fun h' => absurd h' (by decide), fun h' => absurd h' h⟩

/-! ## The one-hot matrix of the labels -/

/-- The label table at (k, q) is the word k. -/
theorem table0_apply (k : Fin 24) (q : Fin 49152) : Gen.k0_pay2 (ix2 k q) = BitVec.ofNat 32 k.val := by
  unfold Gen.k0_pay2
  rw [shapeCast_self]
  exact iota_single_apply .tc S24x49152 32 0 Gen.iota_S24x49152_d0_w32 (ix2 k q)

/-- The block's labels laid along every row of the table: entry (k, q) is the label of pixel q. -/
theorem labels0_apply (tt : Vec Ideal S1x1x49152 .i32) (k : Fin 24) (q : Fin 49152) :
    broadcastTo S24x49152 (shapeCast S1x49152 tt Gen.shapeCasts_S1x1x49152_S1x49152) Gen.broadcasts_S1x49152_S24x49152 (ix2 k q)
      = tt (ix3 (0 : Fin 1) (0 : Fin 1) q) := by
  refine (broadcastTo_apply (shapeCast S1x49152 tt Gen.shapeCasts_S1x1x49152_S1x49152) Gen.broadcasts_S1x49152_S24x49152
    (ix2 k q) (ix2 (0 : Fin 1) q) ?_).trans ?_
  · intro a
    match a with
    | ⟨0, _⟩ => rfl
    | ⟨1, _⟩ => rfl
  · refine shapeCast_apply tt Gen.shapeCasts_S1x1x49152_S1x49152 (ix2 (0 : Fin 1) q) (ix3 (0 : Fin 1) (0 : Fin 1) q) ?_
    rw [Shape.rowMajor_val_three, Shape.rowMajor_val_two]
    show (0 * 1 + 0) * 49152 + q.val = 0 * 49152 + q.val
    omega

/-- The one-hot matrix at (k, q), as the two products read it: 1 where pixel q has label k, else 0. -/
theorem onehot0_apply (tt : Vec Ideal S1x1x49152 .i32) (k : Fin 24) (q : Fin 49152) :
    (truncf .bf16 (sitofp (F := Ideal) .f32 (extui 32 (cmpi .eq Gen.k0_pay2
        (broadcastTo S24x49152 (shapeCast S1x49152 tt Gen.shapeCasts_S1x1x49152_S1x49152) Gen.broadcasts_S1x49152_S24x49152))
        Gen.natLt_1_32)) Gen.bitsLt_bf16_f32 : FVec Ideal S24x49152 .bf16) (ix2 k q)
      = if tt (ix3 (0 : Fin 1) (0 : Fin 1) q) = BitVec.ofNat 32 k.val then 1 else 0 := by
  show FloatOps.sitofp (F := Ideal) .f32 ((IntOp.cmpi .eq (Gen.k0_pay2 (ix2 k q))
    (broadcastTo S24x49152 (shapeCast S1x49152 tt Gen.shapeCasts_S1x1x49152_S1x49152) Gen.broadcasts_S1x49152_S24x49152 (ix2 k q))).setWidth 32) = _
  rw [table0_apply, labels0_apply, sitofp_bit]
  exact if_congr ((cmpi_eq_one_iff _ _).trans eq_comm) rfl rfl

/-! ## The two products, read at an index

Both contract the pixel axis, axis 1 of each operand; the left operand's row is the result's row, the right operand's
row the result's column. -/

theorem lhs16_0 (j : S16x24.Idx) (kk : dot_S16x49152_S24x49152_S16x24_1_1_0_0_n_n.contr.Idx) :
    (dot_S16x49152_S24x49152_S16x24_1_1_0_0_n_n.lhsIdx j kk 0).val = (j 0).val := by
  simp [DotDims.lhsIdx, dot_S16x49152_S24x49152_S16x24_1_1_0_0_n_n]; rfl
theorem lhs16_1 (j : S16x24.Idx) (kk : dot_S16x49152_S24x49152_S16x24_1_1_0_0_n_n.contr.Idx) :
    (dot_S16x49152_S24x49152_S16x24_1_1_0_0_n_n.lhsIdx j kk 1).val = (kk ⟨0, Nat.one_pos⟩).val :=
  dot_S16x49152_S24x49152_S16x24_1_1_0_0_n_n.lhsIdx_val_of_single (cl := 1) rfl j kk
theorem rhs16_0 (j : S16x24.Idx) (kk : dot_S16x49152_S24x49152_S16x24_1_1_0_0_n_n.contr.Idx) :
    (dot_S16x49152_S24x49152_S16x24_1_1_0_0_n_n.rhsIdx j kk 0).val = (j 1).val := by
  simp [DotDims.rhsIdx, dot_S16x49152_S24x49152_S16x24_1_1_0_0_n_n]; rfl
theorem rhs16_1 (j : S16x24.Idx) (kk : dot_S16x49152_S24x49152_S16x24_1_1_0_0_n_n.contr.Idx) :
    (dot_S16x49152_S24x49152_S16x24_1_1_0_0_n_n.rhsIdx j kk 1).val = (kk ⟨0, Nat.one_pos⟩).val :=
  dot_S16x49152_S24x49152_S16x24_1_1_0_0_n_n.rhsIdx_val_of_single (cr := 1) rfl j kk

/-- The sixteen-row product into zeros at (e, k): the sum over the pixels of A[e, q] * B[k, q]. -/
theorem matmul16_apply (A : FVec Ideal S16x49152 .bf16) (B : FVec Ideal S24x49152 .bf16) (e : Fin 16) (k : Fin 24) :
    matmul dot_S16x49152_S24x49152_S16x24_1_1_0_0_n_n none A B (constant S16x24 .f32 0x00000000#32) (ix2 e k)
      = ∑ q : Fin 49152, A (ix2 e q) * B (ix2 k q) := by
  show FloatOps.matmul dot_S16x49152_S24x49152_S16x24_1_1_0_0_n_n none A B (constant S16x24 .f32 0x00000000#32) (ix2 e k) = _
  rw [Ideal.matmul_constant_zero_apply,
    ← Equiv.sum_comp (contrEquiv1 dot_S16x49152_S24x49152_S16x24_1_1_0_0_n_n 49152 rfl rfl).symm]
  refine Finset.sum_congr rfl fun q _ => ?_
  have cq := contrEquiv1_symm_val dot_S16x49152_S24x49152_S16x24_1_1_0_0_n_n 49152 rfl rfl q
  have hl : dot_S16x49152_S24x49152_S16x24_1_1_0_0_n_n.lhsIdx (ix2 e k)
      ((contrEquiv1 dot_S16x49152_S24x49152_S16x24_1_1_0_0_n_n 49152 rfl rfl).symm q) = ix2 e q := by
    funext ax; apply Fin.ext
    match ax with
    | ⟨0, _⟩ => exact lhs16_0 _ _
    | ⟨1, _⟩ => exact (lhs16_1 _ _).trans cq
  have hr : dot_S16x49152_S24x49152_S16x24_1_1_0_0_n_n.rhsIdx (ix2 e k)
      ((contrEquiv1 dot_S16x49152_S24x49152_S16x24_1_1_0_0_n_n 49152 rfl rfl).symm q) = ix2 k q := by
    funext ax; apply Fin.ext
    match ax with
    | ⟨0, _⟩ => exact rhs16_0 _ _
    | ⟨1, _⟩ => exact (rhs16_1 _ _).trans cq
  rw [hl, hr]

theorem lhs1_0 (j : S1x24.Idx) (kk : dot_S1x49152_S24x49152_S1x24_1_1_0_0_n_n.contr.Idx) :
    (dot_S1x49152_S24x49152_S1x24_1_1_0_0_n_n.lhsIdx j kk 0).val = (j 0).val := by
  have h0 : (j 0).val = 0 := by have := (j 0).isLt; simp at this; omega
  simp [DotDims.lhsIdx, dot_S1x49152_S24x49152_S1x24_1_1_0_0_n_n]; exact h0.symm
theorem lhs1_1 (j : S1x24.Idx) (kk : dot_S1x49152_S24x49152_S1x24_1_1_0_0_n_n.contr.Idx) :
    (dot_S1x49152_S24x49152_S1x24_1_1_0_0_n_n.lhsIdx j kk 1).val = (kk ⟨0, Nat.one_pos⟩).val :=
  dot_S1x49152_S24x49152_S1x24_1_1_0_0_n_n.lhsIdx_val_of_single (cl := 1) rfl j kk
theorem rhs1_0 (j : S1x24.Idx) (kk : dot_S1x49152_S24x49152_S1x24_1_1_0_0_n_n.contr.Idx) :
    (dot_S1x49152_S24x49152_S1x24_1_1_0_0_n_n.rhsIdx j kk 0).val = (j 1).val := by
  simp [DotDims.rhsIdx, dot_S1x49152_S24x49152_S1x24_1_1_0_0_n_n]; rfl
theorem rhs1_1 (j : S1x24.Idx) (kk : dot_S1x49152_S24x49152_S1x24_1_1_0_0_n_n.contr.Idx) :
    (dot_S1x49152_S24x49152_S1x24_1_1_0_0_n_n.rhsIdx j kk 1).val = (kk ⟨0, Nat.one_pos⟩).val :=
  dot_S1x49152_S24x49152_S1x24_1_1_0_0_n_n.rhsIdx_val_of_single (cr := 1) rfl j kk

/-- The one-row product into zeros at (0, k): the sum over the pixels of A[0, q] * B[k, q]. -/
theorem matmul1_apply (A : FVec Ideal S1x49152 .bf16) (B : FVec Ideal S24x49152 .bf16) (k : Fin 24) :
    matmul dot_S1x49152_S24x49152_S1x24_1_1_0_0_n_n none A B (constant S1x24 .f32 0x00000000#32) (ix2 (0 : Fin 1) k)
      = ∑ q : Fin 49152, A (ix2 (0 : Fin 1) q) * B (ix2 k q) := by
  show FloatOps.matmul dot_S1x49152_S24x49152_S1x24_1_1_0_0_n_n none A B (constant S1x24 .f32 0x00000000#32) (ix2 (0 : Fin 1) k) = _
  rw [Ideal.matmul_constant_zero_apply,
    ← Equiv.sum_comp (contrEquiv1 dot_S1x49152_S24x49152_S1x24_1_1_0_0_n_n 49152 rfl rfl).symm]
  refine Finset.sum_congr rfl fun q _ => ?_
  have cq := contrEquiv1_symm_val dot_S1x49152_S24x49152_S1x24_1_1_0_0_n_n 49152 rfl rfl q
  have hl : dot_S1x49152_S24x49152_S1x24_1_1_0_0_n_n.lhsIdx (ix2 (0 : Fin 1) k)
      ((contrEquiv1 dot_S1x49152_S24x49152_S1x24_1_1_0_0_n_n 49152 rfl rfl).symm q) = ix2 (0 : Fin 1) q := by
    funext ax; apply Fin.ext
    match ax with
    | ⟨0, _⟩ => exact lhs1_0 _ _
    | ⟨1, _⟩ => exact (lhs1_1 _ _).trans cq
  have hr : dot_S1x49152_S24x49152_S1x24_1_1_0_0_n_n.rhsIdx (ix2 (0 : Fin 1) k)
      ((contrEquiv1 dot_S1x49152_S24x49152_S1x24_1_1_0_0_n_n 49152 rfl rfl).symm q) = ix2 k q := by
    funext ax; apply Fin.ext
    match ax with
    | ⟨0, _⟩ => exact rhs1_0 _ _
    | ⟨1, _⟩ => exact (rhs1_1 _ _).trans cq
  rw [hl, hr]

/-! ## The point's contribution -/

/-- The stored value at (0, r, k): the accumulator there plus, over the block's pixels, the channel r (the constant 1
    in row 16) times the indicator that the pixel's label is k. -/
theorem pay3_apply (x : Vec Ideal S1x16x49152 .f32) (tt : Vec Ideal S1x1x49152 .i32) (a : Vec Ideal S1x17x24 .f32)
    (r : Fin 17) (k : Fin 24) :
    Gen.k0_pay3 (F := Ideal) x tt Gen.k0_pay2 a (ix3 (0 : Fin 1) r k)
      = a (ix3 (0 : Fin 1) r k)
        + ∑ q : Fin 49152, (if h : r.val < 16 then x (ix3 (0 : Fin 1) (⟨r.val, h⟩ : Fin 16) q) else 1)
            * (if tt (ix3 (0 : Fin 1) (0 : Fin 1) q) = BitVec.ofNat 32 k.val then 1 else 0) := by
  unfold Gen.k0_pay3
  refine (shapeCast_apply _ Gen.shapeCasts_S17x24_S1x17x24 (ix3 (0 : Fin 1) r k) (ix2 r k) (by
    rw [Shape.rowMajor_val_two, Shape.rowMajor_val_three]
    show r.val * 24 + k.val = (0 * 17 + r.val) * 24 + k.val
    omega)).trans ?_
  refine (addf_apply _ _ (ix2 r k)).trans ?_
  refine congrArg₂ (· + ·) ?_ ?_
  · exact shapeCast_apply a Gen.shapeCasts_S1x17x24_S17x24 (ix2 r k) (ix3 (0 : Fin 1) r k) (by
      rw [Shape.rowMajor_val_three, Shape.rowMajor_val_two]
      show (0 * 17 + r.val) * 24 + k.val = r.val * 24 + k.val
      omega)
  · by_cases hr : r.val < 16
    · refine (concatenate_pair_apply_left (t := S17x24) (s₁ := S16x24) (s₂ := S1x24) (0 : Fin 2) _ _ Gen.concatenates_S16x24_S1x24_S17x24_d0 (ix2 r k) rfl
        (ix2 (⟨r.val, hr⟩ : Fin 16) k) (fun b => by
          match b with
          | ⟨0, _⟩ => rfl
          | ⟨1, _⟩ => rfl)).trans ?_
      refine (matmul16_apply _ _ ⟨r.val, hr⟩ k).trans ?_
      refine Finset.sum_congr rfl fun q _ => ?_
      refine congrArg₂ (· * ·) ?_ (onehot0_apply tt k q)
      refine (shapeCast_apply x Gen.shapeCasts_S1x16x49152_S16x49152 (ix2 (⟨r.val, hr⟩ : Fin 16) q)
        (ix3 (0 : Fin 1) (⟨r.val, hr⟩ : Fin 16) q) (by
          rw [Shape.rowMajor_val_three, Shape.rowMajor_val_two]
          show (0 * 16 + r.val) * 49152 + q.val = r.val * 49152 + q.val
          omega)).trans ?_
      rw [dif_pos hr]
    · have h16 : r.val = 16 := by have := r.isLt; omega
      refine (concatenate_pair_apply_right (t := S17x24) (s₁ := S16x24) (s₂ := S1x24) (0 : Fin 2) _ _ Gen.concatenates_S16x24_S1x24_S17x24_d0 (ix2 r k) rfl rfl
        (ix2 (0 : Fin 1) k) (fun b hb => by
          match b with
          | ⟨0, _⟩ => exact absurd rfl hb
          | ⟨1, _⟩ => rfl) (by show 0 + 16 = r.val; omega)).trans ?_
      refine (matmul1_apply _ _ k).trans ?_
      refine Finset.sum_congr rfl fun q _ => ?_
      refine congrArg₂ (· * ·) ?_ (onehot0_apply tt k q)
      rw [dif_neg hr]
      show Ideal.ofBits .bf16 0x3F80#16 = 1
      exact Ideal.ofBits_one_bf16

end Cert.KernelIdeal.Hand

end
-- ==== Proof.KIValue0.lean ====
/- The first region's result, at the ideal values: the array of per-label sums.

   The region runs over the grid (sample n, pixel block j), point 12 n + j. At each point the body adds to the output
   window's staging buffer the point's contribution: over the 49152 pixels of block j of sample n, channel r (the
   constant 1 in row 16) times the indicator that the pixel's label is k. The buffer starts from zeros at j = 0 and is
   written back at j = 11, so what lands in row n of the array is the sum over all twelve blocks, that is over all
   589824 pixels of the sample: the specification's table. Extended-real addition is associative and commutative and
   x * 1 = x, x * 0 = 0 hold for every extended real, so no finiteness is used. -/
import proofs.«427995_j35871566856560_2_alg».proof.Proof.KIRegion0
import proofs.«427995_j35871566856560_2_alg».proof.Proof.KIPay0
import proofs.«427995_j35871566856560_2_alg».proof.Proof.SpecV
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## Pixels by block -/

/-- Pixel q of block j of a sample's 589824 pixels. -/
def pix (j : Fin 12) (q : Fin 49152) : Fin 589824 :=
  ⟨49152 * j.val + q.val, by have := j.isLt; have := q.isLt; omega⟩

/-- A sample's pixels are its twelve blocks of 49152. -/
def pixEquiv : Fin 12 × Fin 49152 ≃ Fin 589824 where
  toFun p := pix p.1 p.2
  invFun p := (⟨p.val / 49152, by have := p.isLt; omega⟩, ⟨p.val % 49152, by omega⟩)
  left_inv := by
    rintro ⟨j, q⟩
    have hj := j.isLt
    have hq := q.isLt
    refine Prod.ext (Fin.ext ?_) (Fin.ext ?_)
    · show (49152 * j.val + q.val) / 49152 = j.val
      omega
    · show (49152 * j.val + q.val) % 49152 = q.val
      omega
  right_inv := by
    intro p
    refine Fin.ext ?_
    show 49152 * (p.val / 49152) + p.val % 49152 = p.val
    omega

/-! ## The specification's sum, block by block -/

/-- One pixel's term of the specification's sum. -/
def sumsTerm (X : SpecV.SXf.Idx → EReal) (T : SpecV.STf.Idx → BitVec 32) (n : Fin 4) (r : Fin 17) (k : Fin 24) (p : Fin 589824) : EReal :=
  (if h : r.val < 16 then X (ix3 n ⟨r.val, h⟩ p) else 1) * SpecV.ohV T n p k

/-- The terms of block j, summed. -/
def sumsBlock (X : SpecV.SXf.Idx → EReal) (T : SpecV.STf.Idx → BitVec 32) (n : Fin 4) (r : Fin 17) (k : Fin 24) (j : Fin 12) : EReal :=
  ∑ q : Fin 49152, sumsTerm X T n r k (pix j q)

/-- The specification's sum over a sample's pixels is the sum of its twelve block sums. -/
theorem sumsV_eq_blocks (X : SpecV.SXf.Idx → EReal) (T : SpecV.STf.Idx → BitVec 32) (n : Fin 4) (r : Fin 17) (k : Fin 24) :
    SpecV.sumsV X T n r k = ∑ j : Fin 12, sumsBlock X T n r k j := by
  show ∑ p : Fin 589824, sumsTerm X T n r k p = _
  refine (Equiv.sum_comp pixEquiv (sumsTerm X T n r k)).symm.trans ?_
  exact Fintype.sum_prod_type _

/-! ## The input blocks read the arrays -/

/-- The printed index maps, decided over the grid: at point t the input windows sit at block (t / 12, 0, t % 12), the
    output window at block (t / 12, 0, 0). -/
theorem idx_facts0 : ∀ t : Fin cfg0.N,
    win0_0.index t (0 : Fin 3) = t.val / 12 ∧ win0_0.index t (1 : Fin 3) = 0 ∧ win0_0.index t (2 : Fin 3) = t.val % 12
    ∧ win0_1.index t (0 : Fin 3) = t.val / 12 ∧ win0_1.index t (1 : Fin 3) = 0 ∧ win0_1.index t (2 : Fin 3) = t.val % 12
    ∧ win0_2.index t (0 : Fin 3) = t.val / 12 ∧ win0_2.index t (1 : Fin 3) = 0 ∧ win0_2.index t (2 : Fin 3) = 0 :=
  (by decide +kernel : ∀ t : Fin grid0.N, _)

/-- The channels' block at point 12 n + j reads the image at sample n, block j. -/
theorem iblk0_0_apply (c : Dev nD) (n : Fin 4) (j : Fin 12) (t : Fin cfg0.N) (ht : t.val = 12 * n.val + j.val)
    (e : Fin 16) (q : Fin 49152) :
    (iblk0 V c 0 t : Vec Ideal S1x16x49152 .f32) (ix3 (0 : Fin 1) e q)
      = (V c main_v0 : SpecV.SXf.Idx → EReal) (ix3 n e (pix j q)) := by
  obtain ⟨e0, e1, e2, -⟩ := idx_facts0 t
  have hj := j.isLt
  unfold iblk0
  rw [View.read_apply]
  show V c main_v0 _ = V c main_v0 _
  refine congrArg (V c main_v0) ?_
  funext a
  apply Fin.ext
  match a with
  | ⟨0, _⟩ => show win0_0.index t (0 : Fin 3) * 1 + 1 * 0 = n.val; omega
  | ⟨1, _⟩ => show win0_0.index t (1 : Fin 3) * 16 + 1 * e.val = e.val; omega
  | ⟨2, _⟩ => show win0_0.index t (2 : Fin 3) * 49152 + 1 * q.val = 49152 * j.val + q.val; omega

/-- The labels' block at point 12 n + j reads the labels at sample n, block j. -/
theorem iblk0_1_apply (c : Dev nD) (n : Fin 4) (j : Fin 12) (t : Fin cfg0.N) (ht : t.val = 12 * n.val + j.val)
    (q : Fin 49152) :
    (iblk0 V c 1 t : Vec Ideal S1x1x49152 .i32) (ix3 (0 : Fin 1) (0 : Fin 1) q)
      = (V c main_v1 : SpecV.STf.Idx → BitVec 32) (ix3 n (0 : Fin 1) (pix j q)) := by
  obtain ⟨-, -, -, e0, e1, e2, -⟩ := idx_facts0 t
  have hj := j.isLt
  unfold iblk0
  rw [View.read_apply]
  show V c main_v1 _ = V c main_v1 _
  refine congrArg (V c main_v1) ?_
  funext a
  apply Fin.ext
  match a with
  | ⟨0, _⟩ => show win0_1.index t (0 : Fin 3) * 1 + 1 * 0 = n.val; omega
  | ⟨1, _⟩ => show win0_1.index t (1 : Fin 3) * 1 + 1 * 0 = 0; omega
  | ⟨2, _⟩ => show win0_1.index t (2 : Fin 3) * 49152 + 1 * q.val = 49152 * j.val + q.val; omega

/-! ## The accumulator -/

/-- One point's step: at block j of sample n the accumulator is what the block before left (zero at j = 0) plus the
    block's sum. -/
theorem acc0_step (c : Dev nD) (n : Fin 4) (j : Fin 12) (r : Fin 17) (k : Fin 24) :
    acc0 V c (12 * n.val + j.val) (ix3 (0 : Fin 1) r k)
      = (if j.val = 0 then 0 else acc0 V c (12 * n.val + j.val - 1) (ix3 (0 : Fin 1) r k))
        + sumsBlock (V c main_v0) (V c main_v1) n r k j := by
  have hn := n.isLt
  have hj := j.isLt
  have hlt : 12 * n.val + j.val < cfg0.N := Nat.lt_of_lt_of_eq (by omega) Gen.N_0.symm
  rw [acc0_eq V c (12 * n.val + j.val) hlt]
  refine (pay3_apply (iblk0 V c 0 ⟨12 * n.val + j.val, hlt⟩) (iblk0 V c 1 ⟨12 * n.val + j.val, hlt⟩)
    (if (12 * n.val + j.val) % 12 = 0 then Gen.k0_pay1 (F := Ideal) else acc0 V c (12 * n.val + j.val - 1)) r k).trans ?_
  refine congrArg₂ (· + ·) ?_ ?_
  · by_cases h0 : j.val = 0
    · rw [if_pos (show (12 * n.val + j.val) % 12 = 0 by omega), if_pos h0]
      show Ideal.ofBits .f32 0x00000000#32 = 0
      exact Ideal.ofBits_zero_f32
    · rw [if_neg (show ¬(12 * n.val + j.val) % 12 = 0 by omega), if_neg h0]
  · unfold sumsBlock
    refine Finset.sum_congr rfl fun q _ => ?_
    unfold sumsTerm SpecV.ohV
    refine congrArg₂ (· * ·) ?_ ?_
    · exact dite_congr rfl (fun h => iblk0_0_apply V c n j ⟨12 * n.val + j.val, hlt⟩ rfl ⟨r.val, h⟩ q) (fun _ => rfl)
    · exact if_congr (Eq.congr_left (iblk0_1_apply V c n j ⟨12 * n.val + j.val, hlt⟩ rfl q)) rfl rfl

/-- After block j the accumulator holds the sums of blocks 0 .. j. -/
theorem acc0_blocks (c : Dev nD) (n : Fin 4) (r : Fin 17) (k : Fin 24) : ∀ (j : ℕ) (hj : j < 12),
    acc0 V c (12 * n.val + j) (ix3 (0 : Fin 1) r k)
      = ∑ b : Fin (j + 1), sumsBlock (V c main_v0) (V c main_v1) n r k ⟨b.val, by have := b.isLt; omega⟩ := by
  intro j
  induction j with
  | zero =>
    intro hj
    rw [Fin.sum_univ_one]
    refine (acc0_step V c n ⟨0, hj⟩ r k).trans ?_
    rw [if_pos rfl, zero_add]
    rfl
  | succ j ih =>
    intro hj
    rw [Fin.sum_univ_castSucc]
    refine (acc0_step V c n ⟨j + 1, hj⟩ r k).trans ?_
    rw [if_neg (Nat.succ_ne_zero j)]
    refine congrArg₂ (· + ·) ?_ rfl
    exact ih (by omega)

/-- After the last block of sample n the accumulator holds the specification's sum. -/
theorem acc0_last (c : Dev nD) (n : Fin 4) (m : ℕ) (hm : m = 12 * n.val + 11) (r : Fin 17) (k : Fin 24) :
    acc0 V c m (ix3 (0 : Fin 1) r k) = SpecV.sumsV (V c main_v0) (V c main_v1) n r k := by
  subst hm
  rw [sumsV_eq_blocks]
  exact acc0_blocks V c n r k 11 (by omega)

/-! ## The array after the region -/

/-- The specification's table as contents of the result array. -/
def G0 (c : Dev nD) : Buf (Elt Ideal) ((c : Thread nD τ).loc main_v2) :=
  fun i => SpecV.sumsV (V c main_v0) (V c main_v1) (i 0) (i 1) (i 2)

/-- What a point that writes back writes is its block of any table that agrees, row by row, with the accumulator
    after the last block of the row's sample. -/
theorem flushed0_of (c : Dev nD) (G : Buf (Elt Ideal) ((c : Thread nD τ).loc main_v2))
    (hG : ∀ (n : Fin 4) (m : ℕ) (hm : m = 12 * n.val + 11) (r : Fin 17) (k : Fin 24),
      acc0 V c m (ix3 (0 : Fin 1) r k) = G (ix3 n r k))
    (t : Fin cfg0.N) (hf : (cfg0.win 2).flush t = true) :
    (dat0 (F := Ideal) V c).flushed 2 t = ((cfg0.win 2).blk t).view.read (Elt Ideal) G := by
  have h11 : t.val % 12 = 11 := (Gen.flush0_2 t).mp hf
  have hN : t.val < 48 := Nat.lt_of_lt_of_eq t.isLt Gen.N_0
  obtain ⟨-, -, -, -, -, -, e0, e1, e2⟩ := idx_facts0 t
  show (cfg0.win 2).cut (grid0.coords t) ((dat0 (F := Ideal) V c).after 2 t) = _
  rw [after0_out]
  funext y
  show acc0 V c t.val ((cfg0.win 2).xinj (grid0.coords t) y) = G (((cfg0.win 2).blk t).view.emb y)
  have h0 : (y 0).val < 1 := (y 0).isLt
  have h1 : (y 1).val < 17 := (y 1).isLt
  have h2 : (y 2).val < 24 := (y 2).isLt
  have hx : (cfg0.win 2).xinj (grid0.coords t) y
      = ix3 (0 : Fin 1) (⟨(y 1).val, h1⟩ : Fin 17) (⟨(y 2).val, h2⟩ : Fin 24) := by
    funext a
    apply Fin.ext
    match a with
    | ⟨0, _⟩ => show (y 0).val = 0; omega
    | ⟨1, _⟩ => rfl
    | ⟨2, _⟩ => rfl
  have hemb : ((cfg0.win 2).blk t).view.emb y
      = ix3 (⟨t.val / 12, by omega⟩ : Fin 4) (⟨(y 1).val, h1⟩ : Fin 17) (⟨(y 2).val, h2⟩ : Fin 24) := by
    funext a
    apply Fin.ext
    match a with
    | ⟨0, _⟩ => show win0_2.index t (0 : Fin 3) * 1 + 1 * (y 0).val = t.val / 12; omega
    | ⟨1, _⟩ => show win0_2.index t (1 : Fin 3) * 17 + 1 * (y 1).val = (y 1).val; omega
    | ⟨2, _⟩ => show win0_2.index t (2 : Fin 3) * 24 + 1 * (y 2).val = (y 2).val; omega
  rw [hx, hemb]
  exact hG ⟨t.val / 12, by omega⟩ t.val (by show t.val = 12 * (t.val / 12) + 11; omega) _ _

/-- An index of the array is in point t's block iff each coordinate is in the block's range on its axis. -/
theorem mem_blk0 (t : Fin cfg0.N) (i : S4x17x24.Idx) :
    i ∈ ((cfg0.win 2).blk t).view.set ↔ ∀ a : Fin 3, win0_2.index t a * S1x17x24.size a ≤ (i a).val ∧ (i a).val < win0_2.index t a * S1x17x24.size a + S1x17x24.size a := by
  show i ∈ ((View.whole main_v2).slice (win0_2.rect t)).set ↔ _
  rw [View.set_slice_whole, Rect.mem_set_unit]
  exact Iff.rfl

/-- Every index of the array is in the block written back at the last point of its sample. -/
theorem cover0 (i : S4x17x24.Idx) : ∃ t : Fin cfg0.N, (cfg0.win 2).flush t = true ∧ i ∈ ((cfg0.win 2).blk t).view.set := by
  have h0 : (i 0).val < 4 := (i 0).isLt
  have h1 : (i 1).val < 17 := (i 1).isLt
  have h2 : (i 2).val < 24 := (i 2).isLt
  have hlt : 12 * (i 0).val + 11 < cfg0.N := by rw [show cfg0.N = 48 from Gen.N_0]; omega
  obtain ⟨-, -, -, -, -, -, e0, e1, e2⟩ := idx_facts0 ⟨12 * (i 0).val + 11, hlt⟩
  refine ⟨⟨12 * (i 0).val + 11, hlt⟩, (Gen.flush0_2 _).mpr (by show (12 * (i 0).val + 11) % 12 = 11; omega), ?_⟩
  rw [mem_blk0]
  intro a
  match a with
  | ⟨0, _⟩ =>
    show win0_2.index ⟨12 * (i 0).val + 11, hlt⟩ (0 : Fin 3) * 1 ≤ (i 0).val
      ∧ (i 0).val < win0_2.index ⟨12 * (i 0).val + 11, hlt⟩ (0 : Fin 3) * 1 + 1
    rw [e0]
    show (12 * (i 0).val + 11) / 12 * 1 ≤ (i 0).val ∧ (i 0).val < (12 * (i 0).val + 11) / 12 * 1 + 1
    omega
  | ⟨1, _⟩ =>
    show win0_2.index ⟨12 * (i 0).val + 11, hlt⟩ (1 : Fin 3) * 17 ≤ (i 1).val
      ∧ (i 1).val < win0_2.index ⟨12 * (i 0).val + 11, hlt⟩ (1 : Fin 3) * 17 + 17
    rw [e1]
    omega
  | ⟨2, _⟩ =>
    show win0_2.index ⟨12 * (i 0).val + 11, hlt⟩ (2 : Fin 3) * 24 ≤ (i 2).val
      ∧ (i 2).val < win0_2.index ⟨12 * (i 0).val + 11, hlt⟩ (2 : Fin 3) * 24 + 24
    rw [e2]
    omega

/-- So the array ends holding the specification's table, -/
theorem arr0_eq (c : Dev nD) : (dat0 (F := Ideal) V c).arrAt 2 cfg0.N = G0 V c :=
  (dat0 (F := Ideal) V c).arrAt_eq_of_cover 2 (G0 V c)
    (flushed0_of V c (G0 V c) fun n m hm r k => acc0_last V c n m hm r k) cover0

/-- and read at an index it is the specification's sum over all the pixels of the sample. -/
theorem arr0_apply (c : Dev nD) (n : Fin 4) (r : Fin 17) (k : Fin 24) :
    (dat0 (F := Ideal) V c).arrAt 2 cfg0.N (ix3 n r k) = SpecV.sumsV (V c main_v0) (V c main_v1) n r k :=
  congrFun (arr0_eq V c) (ix3 n r k)

end Cert.KernelIdeal.Hand

end
-- ==== Proof.KIPay1.lean ====
/-
  The second region's body, as a value at an index, at the ideal instance.

  At a grid point the body holds a block of 49152 pixels of one sample: their 16-channel embeddings x[0, e, q], their
  labels tt[0, 0, q], the sample's 16 × 24 table mm[0, e, k], and an accumulator row a[0, 0, k] over the 24 classes. With
  the scratch holding the iota along the class axis, the indicator matrix of the body is, at (k, q), 1 where pixel q has
  label k and 0 elsewhere. The body gathers, per pixel, the table's column of the pixel's label (a product that contracts
  the class axis), takes the distance of the pixel's embedding to it, forms the squared hinge
  (max (distance − 1/2) 0)², and adds to the accumulator, per class, the sum of the hinges of the block's pixels of that
  class (a product that contracts the pixel axis). This module reads that off the payload: each product at an index is
  the sum over its contracted coordinate, the channel reduction is the sum over the channels, the reshapes and the
  broadcast of the label row move indices, and the comparison's bit converted to a float is 1 or 0.
-/
import proofs.«427995_j35871566856560_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Facts₀ Facts

/-! ## A comparison's bit as a number -/

/-- The bit of a word equality, widened to a word and converted to a float, is 1 where the words are equal and 0
    elsewhere. -/
theorem onehot_word (a b : BitVec 32) :
    (FloatOps.sitofp (F := Ideal) .f32 ((IntOp.cmpi .eq a b).setWidth 32) : EReal) = if b = a then 1 else 0 := by
  show (((((IntOp.cmpi .eq a b).setWidth 32).toInt : ℝ)) : EReal) = _
  by_cases h : b = a
  · subst h
    rw [if_pos rfl]
    simp [IntOp.cmpi]
  · rw [if_neg h]
    have h' : (a == b) = false := by simp; exact fun e => h e.symm
    simp [IntOp.cmpi, h']

/-! ## The two products at an index -/

/-- The table product contracts the class axis: classes are the columns of the left operand and the rows of the right. -/
abbrev dotG : DotDims S16x24 S24x49152 S16x49152 := dot_S16x24_S24x49152_S16x49152_1_0_0_1_n_n
/-- The class sums contract the pixel axis: pixels are the columns of both operands. -/
abbrev dotS : DotDims S1x49152 S24x49152 S1x24 := dot_S1x49152_S24x49152_S1x24_1_1_0_0_n_n

theorem lhs_dotG_0 (i : S16x49152.Idx) (q : dot_S16x24_S24x49152_S16x49152_1_0_0_1_n_n.contr.Idx) :
    (dot_S16x24_S24x49152_S16x49152_1_0_0_1_n_n.lhsIdx i q 0).val = (i 0).val := by
  unfold DotDims.lhsIdx
  rw [dif_neg (show ¬(0 : Fin S16x24.rank) ∈ dot_S16x24_S24x49152_S16x49152_1_0_0_1_n_n.lhsBatch by decide),
    dif_pos (show (0 : Fin S16x24.rank) ∈ dot_S16x24_S24x49152_S16x49152_1_0_0_1_n_n.lhsNonContracting by decide)]
  rfl
theorem lhs_dotG_1 (i : S16x49152.Idx) (q : dot_S16x24_S24x49152_S16x49152_1_0_0_1_n_n.contr.Idx) :
    (dot_S16x24_S24x49152_S16x49152_1_0_0_1_n_n.lhsIdx i q 1).val = (q ⟨0, by decide⟩).val :=
  dot_S16x24_S24x49152_S16x49152_1_0_0_1_n_n.lhsIdx_val_of_single rfl i q
theorem rhs_dotG_0 (i : S16x49152.Idx) (q : dot_S16x24_S24x49152_S16x49152_1_0_0_1_n_n.contr.Idx) :
    (dot_S16x24_S24x49152_S16x49152_1_0_0_1_n_n.rhsIdx i q 0).val = (q ⟨0, by decide⟩).val :=
  dot_S16x24_S24x49152_S16x49152_1_0_0_1_n_n.rhsIdx_val_of_single rfl i q
theorem rhs_dotG_1 (i : S16x49152.Idx) (q : dot_S16x24_S24x49152_S16x49152_1_0_0_1_n_n.contr.Idx) :
    (dot_S16x24_S24x49152_S16x49152_1_0_0_1_n_n.rhsIdx i q 1).val = (i 1).val := by
  unfold DotDims.rhsIdx
  rw [dif_neg (show ¬(1 : Fin S24x49152.rank) ∈ dot_S16x24_S24x49152_S16x49152_1_0_0_1_n_n.rhsBatch by decide),
    dif_pos (show (1 : Fin S24x49152.rank) ∈ dot_S16x24_S24x49152_S16x49152_1_0_0_1_n_n.rhsNonContracting by decide)]
  rfl

/-- The table product at (e, q): the sum over the classes of the table's entry times the right operand's. -/
theorem dotG_apply (l : FVec Ideal S16x24 .bf16) (r : FVec Ideal S24x49152 .bf16) (e : Fin 16) (q : Fin 49152) :
    matmul dot_S16x24_S24x49152_S16x49152_1_0_0_1_n_n none l r (constant (F := Ideal) S16x49152 .f32 0x00000000#32) (ix2 e q)
      = ∑ k : Fin 24, l (ix2 e k) * r (ix2 k q) := by
  simp only [matmul]
  rw [Ideal.matmul_constant_zero_apply, ← Equiv.sum_comp (contrEquiv1 dot_S16x24_S24x49152_S16x49152_1_0_0_1_n_n 24 rfl rfl).symm]
  refine Finset.sum_congr rfl fun k _ => ?_
  have hk := contrEquiv1_symm_val dot_S16x24_S24x49152_S16x49152_1_0_0_1_n_n 24 rfl rfl k
  have el : dot_S16x24_S24x49152_S16x49152_1_0_0_1_n_n.lhsIdx (ix2 e q) ((contrEquiv1 dot_S16x24_S24x49152_S16x49152_1_0_0_1_n_n 24 rfl rfl).symm k) = ix2 e k :=
    funext fun a => Fin.ext (by
      match a with
      | ⟨0, _⟩ => exact lhs_dotG_0 _ _
      | ⟨1, _⟩ => exact (lhs_dotG_1 _ _).trans hk)
  have er : dot_S16x24_S24x49152_S16x49152_1_0_0_1_n_n.rhsIdx (ix2 e q) ((contrEquiv1 dot_S16x24_S24x49152_S16x49152_1_0_0_1_n_n 24 rfl rfl).symm k) = ix2 k q :=
    funext fun a => Fin.ext (by
      match a with
      | ⟨0, _⟩ => exact (rhs_dotG_0 _ _).trans hk
      | ⟨1, _⟩ => exact rhs_dotG_1 _ _)
  rw [el, er]

theorem lhs_dotS_0 (i : S1x24.Idx) (q : dot_S1x49152_S24x49152_S1x24_1_1_0_0_n_n.contr.Idx) :
    (dot_S1x49152_S24x49152_S1x24_1_1_0_0_n_n.lhsIdx i q 0).val = (i 0).val := by
  unfold DotDims.lhsIdx
  rw [dif_neg (show ¬(0 : Fin S1x49152.rank) ∈ dot_S1x49152_S24x49152_S1x24_1_1_0_0_n_n.lhsBatch by decide),
    dif_pos (show (0 : Fin S1x49152.rank) ∈ dot_S1x49152_S24x49152_S1x24_1_1_0_0_n_n.lhsNonContracting by decide)]
  rfl
theorem lhs_dotS_1 (i : S1x24.Idx) (q : dot_S1x49152_S24x49152_S1x24_1_1_0_0_n_n.contr.Idx) :
    (dot_S1x49152_S24x49152_S1x24_1_1_0_0_n_n.lhsIdx i q 1).val = (q ⟨0, by decide⟩).val :=
  dot_S1x49152_S24x49152_S1x24_1_1_0_0_n_n.lhsIdx_val_of_single rfl i q
theorem rhs_dotS_0 (i : S1x24.Idx) (q : dot_S1x49152_S24x49152_S1x24_1_1_0_0_n_n.contr.Idx) :
    (dot_S1x49152_S24x49152_S1x24_1_1_0_0_n_n.rhsIdx i q 0).val = (i 1).val := by
  unfold DotDims.rhsIdx
  rw [dif_neg (show ¬(0 : Fin S24x49152.rank) ∈ dot_S1x49152_S24x49152_S1x24_1_1_0_0_n_n.rhsBatch by decide),
    dif_pos (show (0 : Fin S24x49152.rank) ∈ dot_S1x49152_S24x49152_S1x24_1_1_0_0_n_n.rhsNonContracting by decide)]
  rfl
theorem rhs_dotS_1 (i : S1x24.Idx) (q : dot_S1x49152_S24x49152_S1x24_1_1_0_0_n_n.contr.Idx) :
    (dot_S1x49152_S24x49152_S1x24_1_1_0_0_n_n.rhsIdx i q 1).val = (q ⟨0, by decide⟩).val :=
  dot_S1x49152_S24x49152_S1x24_1_1_0_0_n_n.rhsIdx_val_of_single rfl i q

/-- The class sums at (0, k): the sum over the pixels of the left operand's entry times the right operand's row k. -/
theorem dotS_apply (l : FVec Ideal S1x49152 .bf16) (r : FVec Ideal S24x49152 .bf16) (k : Fin 24) :
    matmul dot_S1x49152_S24x49152_S1x24_1_1_0_0_n_n none l r (constant (F := Ideal) S1x24 .f32 0x00000000#32) (ix2 (0 : Fin 1) k)
      = ∑ q : Fin 49152, l (ix2 (0 : Fin 1) q) * r (ix2 k q) := by
  simp only [matmul]
  rw [Ideal.matmul_constant_zero_apply, ← Equiv.sum_comp (contrEquiv1 dot_S1x49152_S24x49152_S1x24_1_1_0_0_n_n 49152 rfl rfl).symm]
  refine Finset.sum_congr rfl fun q _ => ?_
  have hq := contrEquiv1_symm_val dot_S1x49152_S24x49152_S1x24_1_1_0_0_n_n 49152 rfl rfl q
  have el : dot_S1x49152_S24x49152_S1x24_1_1_0_0_n_n.lhsIdx (ix2 (0 : Fin 1) k) ((contrEquiv1 dot_S1x49152_S24x49152_S1x24_1_1_0_0_n_n 49152 rfl rfl).symm q) = ix2 (0 : Fin 1) q :=
    funext fun a => Fin.ext (by
      match a with
      | ⟨0, _⟩ => exact lhs_dotS_0 _ _
      | ⟨1, _⟩ => exact (lhs_dotS_1 _ _).trans hq)
  have er : dot_S1x49152_S24x49152_S1x24_1_1_0_0_n_n.rhsIdx (ix2 (0 : Fin 1) k) ((contrEquiv1 dot_S1x49152_S24x49152_S1x24_1_1_0_0_n_n 49152 rfl rfl).symm q) = ix2 k q :=
    funext fun a => Fin.ext (by
      match a with
      | ⟨0, _⟩ => exact rhs_dotS_0 _ _
      | ⟨1, _⟩ => exact (rhs_dotS_1 _ _).trans hq)
  rw [el, er]

/-! ## The sum over the channels -/

/-- The reduction over the channel axis at pixel q: the sum over the sixteen channels. -/
theorem chanSum_apply (s : FVec Ideal S16x49152 .f32) (hacc : (0x00000000#32 : BitVec 32) = 0x00000000#32) (q : Fin 49152) :
    multiReduction (F := Ideal) .add [0] S49152 s 0x00000000#32 reduces_S16x49152_S49152 (.inl rfl) hacc (ix1 q)
      = ∑ e : Fin 16, s (ix2 e q) := by
  refine (Ideal.multiReduction_add_single s 0x00000000#32 reduces_S16x49152_S49152 (.inl rfl) hacc (ix1 q)).trans ?_
  refine Finset.sum_congr rfl fun e _ => congrArg s ?_
  funext a
  apply Fin.ext
  match a with
  | ⟨0, _⟩ => rfl
  | ⟨1, _⟩ => rfl

/-! ## The iota and the indicator matrix -/

/-- The scratch's iota at (k, q) is the word k. -/
theorem iota1_apply (k : Fin 24) (q : Fin 49152) : (Gen.k1_pay3 : IVec S24x49152 32) (ix2 k q) = BitVec.ofNat 32 k.val := by
  unfold Gen.k1_pay3
  dsimp only
  rw [shapeCast_self]
  exact iota_single_apply .tc S24x49152 32 0 iota_S24x49152_d0_w32 (ix2 k q)

/-- The indicator matrix the body builds from the labels `tt` and the scratch `v9`, as a number at (k, q): 1 where
    pixel q's label is the scratch's word at (k, q), else 0. -/
theorem onehot_apply (tt : Vec Ideal S1x1x49152 .i32) (v9 : Vec Ideal S24x49152 .i32) (k : Fin 24) (q : Fin 49152) :
    (truncf .bf16 (sitofp (F := Ideal) .f32 (extui 32 (cmpi .eq v9 (broadcastTo S24x49152 (shapeCast S1x49152 tt shapeCasts_S1x1x49152_S1x49152)
        broadcasts_S1x49152_S24x49152)) natLt_1_32)) bitsLt_bf16_f32 : FVec Ideal S24x49152 .bf16) (ix2 k q)
      = if tt (ix3 (0 : Fin 1) (0 : Fin 1) q) = v9 (ix2 k q) then 1 else 0 := by
  have e : broadcastTo S24x49152 (shapeCast S1x49152 tt shapeCasts_S1x1x49152_S1x49152) broadcasts_S1x49152_S24x49152 (ix2 k q)
      = tt (ix3 (0 : Fin 1) (0 : Fin 1) q) :=
    (broadcastTo_1b_ab_apply _ _ k q).trans (shapeCast_1ab_ab_apply tt _ (0 : Fin 1) q)
  show FloatOps.sitofp (F := Ideal) .f32 ((IntOp.cmpi .eq (v9 (ix2 k q))
    (broadcastTo S24x49152 (shapeCast S1x49152 tt shapeCasts_S1x1x49152_S1x49152) broadcasts_S1x49152_S24x49152 (ix2 k q))).setWidth 32) = _
  rw [e]
  exact onehot_word _ _

/-! ## One block's quantities -/

/-- Pixel q of the block has label k. -/
def ohB (tt : Vec Ideal S1x1x49152 .i32) (q : Fin 49152) (k : Fin 24) : EReal :=
  if tt (ix3 (0 : Fin 1) (0 : Fin 1) q) = BitVec.ofNat 32 k.val then 1 else 0

/-- The table's entry for the label of pixel q. -/
def mgB (mm : Vec Ideal S1x16x24 .f32) (tt : Vec Ideal S1x1x49152 .i32) (e : Fin 16) (q : Fin 49152) : EReal :=
  ∑ k : Fin 24, mm (ix3 (0 : Fin 1) e k) * ohB tt q k

/-- The squared hinge of the distance of pixel q's embedding to its table entry. -/
def hvB (x : Vec Ideal S1x16x49152 .f32) (mm : Vec Ideal S1x16x24 .f32) (tt : Vec Ideal S1x1x49152 .i32) (q : Fin 49152) : EReal :=
  let r := max (Ideal.sqrt (∑ e : Fin 16, (x (ix3 (0 : Fin 1) e q) - mgB mm tt e q) * (x (ix3 (0 : Fin 1) e q) - mgB mm tt e q))
                 - Ideal.ofBits .f32 0x3F000000#32) (Ideal.ofBits .f32 0x00000000#32)
  r * r

/-! ## The pointwise steps, over any operands -/

/-- The squared hinge of a row `v20`, at pixel q, from the row's entry there. -/
theorem hinge_apply (v20 : FVec Ideal S1x49152 .f32) (q : Fin 49152) (y : EReal) (h : v20 (ix2 (0 : Fin 1) q) = y) :
    (truncf .bf16 (mulf (maximumf (subf (sqrt v20) (broadcast S1x49152 (Scalar.ofBits .f32 0x3F000000#32))) (broadcast S1x49152 (Scalar.ofBits .f32 0x00000000#32)))
      (maximumf (subf (sqrt v20) (broadcast S1x49152 (Scalar.ofBits .f32 0x3F000000#32))) (broadcast S1x49152 (Scalar.ofBits .f32 0x00000000#32)))) bitsLt_bf16_f32
      : FVec Ideal S1x49152 .bf16) (ix2 (0 : Fin 1) q)
      = (max (Ideal.sqrt y - Ideal.ofBits .f32 0x3F000000#32) (Ideal.ofBits .f32 0x00000000#32))
        * (max (Ideal.sqrt y - Ideal.ofBits .f32 0x3F000000#32) (Ideal.ofBits .f32 0x00000000#32)) := by
  subst h; rfl

/-- The square of a difference, at (e, q), from the two operands' entries there. -/
theorem sqdiff_apply (u w : FVec Ideal S16x49152 .f32) (e : Fin 16) (q : Fin 49152) (a b : EReal)
    (ha : u (ix2 e q) = a) (hb : w (ix2 e q) = b) :
    mulf (subf u w) (subf u w) (ix2 e q) = (a - b) * (a - b) := by
  subst ha; subst hb; rfl

/-! ## The body's payload at an index -/

/-- What the body stores, at class k: what the accumulator held there plus the sum of the block's hinges over its pixels of
    label k. -/
theorem pay1_apply (x : Vec Ideal S1x16x49152 .f32) (tt : Vec Ideal S1x1x49152 .i32) (mm : Vec Ideal S1x16x24 .f32)
    (a : Vec Ideal S1x1x24 .f32) (k : Fin 24) :
    Gen.k1_pay1 (Gen.k1_pay4 x tt mm Gen.k1_pay3 a) (ix3 (0 : Fin 1) (0 : Fin 1) k)
      = a (ix3 (0 : Fin 1) (0 : Fin 1) k) + ∑ q : Fin 49152, hvB x mm tt q * ohB tt q k := by
  have hoh : ∀ (k' : Fin 24) (q : Fin 49152),
      (truncf .bf16 (sitofp (F := Ideal) .f32 (extui 32 (cmpi .eq (Gen.k1_pay3 : IVec S24x49152 32) (broadcastTo S24x49152 (shapeCast S1x49152 tt shapeCasts_S1x1x49152_S1x49152)
        broadcasts_S1x49152_S24x49152)) natLt_1_32)) bitsLt_bf16_f32 : FVec Ideal S24x49152 .bf16) (ix2 k' q) = ohB tt q k' := by
    intro k' q
    refine (onehot_apply tt Gen.k1_pay3 k' q).trans ?_
    rw [iota1_apply]
    rfl
  unfold Gen.k1_pay1
  refine (shapeCast_ab_1ab_apply _ _ (0 : Fin 1) (0 : Fin 1) k).trans ?_
  unfold Gen.k1_pay4
  refine (congrArg₂ (· + ·) (shapeCast_1ab_ab_apply a _ (0 : Fin 1) k) (dotS_apply _ _ k)).trans ?_
  refine congrArg (a (ix3 (0 : Fin 1) (0 : Fin 1) k) + ·) (Finset.sum_congr rfl fun q _ => ?_)
  refine congrArg₂ (· * ·) ?_ (hoh k q)
  refine hinge_apply _ q (∑ e : Fin 16, (x (ix3 (0 : Fin 1) e q) - mgB mm tt e q) * (x (ix3 (0 : Fin 1) e q) - mgB mm tt e q)) ?_
  refine (shapeCast_a_1a_apply _ _ (0 : Fin 1) q).trans ?_
  refine (chanSum_apply _ rfl q).trans ?_
  refine Finset.sum_congr rfl fun e _ => ?_
  refine sqdiff_apply _ _ e q _ _ (shapeCast_1ab_ab_apply x _ e q) ?_
  refine (dotG_apply _ _ e q).trans ?_
  exact Finset.sum_congr rfl fun k' _ => congrArg₂ (· * ·) (shapeCast_1ab_ab_apply mm _ e k') (hoh k' q)

end Cert.KernelIdeal.Hand

end
-- ==== Proof.KIValue1.lean ====
/-
  The value of the second region's output array, at the ideal instance.

  The region runs on the grid 4 × 12: point t = 12 n + j holds block j (49152 pixels) of sample n — the image's block
  (n, 0, j), the labels' block (n, 0, j), the table's block (n, 0, 0) — and accumulates into the output's block (n, 0, 0),
  a row over the 24 classes, which it zeroes at j = 0 and writes back after j = 11. One point adds to the row, per class k,
  the sum over the block's pixels of label k of the squared hinge of the pixel's distance to the table entry of its label
  (the payload at an index). A block's entries are the arrays' entries at pixel 49152 j + q of the sample, so a point's
  contribution is the sample's per-pixel term summed over block j; by induction along a run of twelve points the row
  holds the sums of blocks 0 … j, and twelve blocks of 49152 pixels are the sample's 589824 pixels (extended-real sums
  re-associate freely). Each index (n, 0, k) of the output array lies in the block written back at point 12 n + 11, so the
  array ends holding, at (n, 0, k), the sum over all pixels of sample n of the hinges of the pixels of label k.
-/
import proofs.«427995_j35871566856560_2_alg».proof.Proof.KIRegion1
import proofs.«427995_j35871566856560_2_alg».proof.Proof.KIPay1
import proofs.«427995_j35871566856560_2_alg».proof.Proof.SpecV
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## The arrays and the blocks, by their literal types -/

/-- The flattened image, the flattened labels and the table of means, as the region finds them. -/
abbrev arrX (c : Dev nD) : Vec Ideal S4x16x589824 .f32 := V c main_v0
abbrev arrT (c : Dev nD) : Vec Ideal S4x1x589824 .i32 := V c main_v1
abbrev arrM (c : Dev nD) : Vec Ideal S4x16x24 .f32 := V c main_v10

/-- The three input blocks at point `t`. -/
abbrev xblk (c : Dev nD) (t : Fin cfg1.N) : Vec Ideal S1x16x49152 .f32 := iblk1 V c 0 t
abbrev tblk (c : Dev nD) (t : Fin cfg1.N) : Vec Ideal S1x1x49152 .i32 := iblk1 V c 1 t
abbrev mblk (c : Dev nD) (t : Fin cfg1.N) : Vec Ideal S1x16x24 .f32 := iblk1 V c 2 t

/-! ## The index maps over the grid -/

/-- At point t = 12 n + j the image's and the labels' blocks are block (n, 0, j), the table's and the output's block
    (n, 0, 0): decided over the 48 points. -/
theorem idx1_facts : ∀ t : Fin cfg1.N,
    (win1_0.index t (0 : Fin 3) = t.val / 12 ∧ win1_0.index t (1 : Fin 3) = 0 ∧ win1_0.index t (2 : Fin 3) = t.val % 12)
    ∧ (win1_1.index t (0 : Fin 3) = t.val / 12 ∧ win1_1.index t (1 : Fin 3) = 0 ∧ win1_1.index t (2 : Fin 3) = t.val % 12)
    ∧ (win1_2.index t (0 : Fin 3) = t.val / 12 ∧ win1_2.index t (1 : Fin 3) = 0 ∧ win1_2.index t (2 : Fin 3) = 0)
    ∧ (win1_3.index t (0 : Fin 3) = t.val / 12 ∧ win1_3.index t (1 : Fin 3) = 0 ∧ win1_3.index t (2 : Fin 3) = 0) :=
  (by decide +kernel : ∀ t : Fin grid1.N, _)

/-! ## The blocks read the arrays -/

/-- The image's block at point 12 n + j, at (0, e, q), is the image at (n, e, 49152 j + q). -/
theorem xblk_apply (c : Dev nD) (t : Fin cfg1.N) (n : Fin 4) (j : ℕ) (ht : t.val = 12 * n.val + j) (hj : j < 12)
    (e : Fin 16) (q : Fin 49152) (p : Fin 589824) (hp : p.val = 49152 * j + q.val) :
    xblk V c t (ix3 (0 : Fin 1) e q) = arrX V c (ix3 n e p) := by
  have hi := (idx1_facts t).1
  show iblk1 V c 0 t (ix3 (0 : Fin 1) e q) = _
  unfold iblk1
  rw [View.read_apply]
  show V c main_v0 _ = V c main_v0 _
  congr 1
  funext a
  apply Fin.ext
  match a with
  | ⟨0, _⟩ => show win1_0.index t (0 : Fin 3) * 1 + 1 * 0 = n.val; rw [hi.1]; omega
  | ⟨1, _⟩ => show win1_0.index t (1 : Fin 3) * 16 + 1 * e.val = e.val; rw [hi.2.1]; omega
  | ⟨2, _⟩ => show win1_0.index t (2 : Fin 3) * 49152 + 1 * q.val = p.val; rw [hi.2.2]; omega

/-- The labels' block at point 12 n + j, at (0, 0, q), is the labels at (n, 0, 49152 j + q). -/
theorem tblk_apply (c : Dev nD) (t : Fin cfg1.N) (n : Fin 4) (j : ℕ) (ht : t.val = 12 * n.val + j) (hj : j < 12)
    (q : Fin 49152) (p : Fin 589824) (hp : p.val = 49152 * j + q.val) :
    tblk V c t (ix3 (0 : Fin 1) (0 : Fin 1) q) = arrT V c (ix3 n (0 : Fin 1) p) := by
  have hi := (idx1_facts t).2.1
  show iblk1 V c 1 t (ix3 (0 : Fin 1) (0 : Fin 1) q) = _
  unfold iblk1
  rw [View.read_apply]
  show V c main_v1 _ = V c main_v1 _
  congr 1
  funext a
  apply Fin.ext
  match a with
  | ⟨0, _⟩ => show win1_1.index t (0 : Fin 3) * 1 + 1 * 0 = n.val; rw [hi.1]; omega
  | ⟨1, _⟩ => show win1_1.index t (1 : Fin 3) * 1 + 1 * 0 = 0; rw [hi.2.1]
  | ⟨2, _⟩ => show win1_1.index t (2 : Fin 3) * 49152 + 1 * q.val = p.val; rw [hi.2.2]; omega

/-- The table's block at point 12 n + j, at (0, e, k), is the table at (n, e, k). -/
theorem mblk_apply (c : Dev nD) (t : Fin cfg1.N) (n : Fin 4) (j : ℕ) (ht : t.val = 12 * n.val + j) (hj : j < 12)
    (e : Fin 16) (k : Fin 24) :
    mblk V c t (ix3 (0 : Fin 1) e k) = arrM V c (ix3 n e k) := by
  have hi := (idx1_facts t).2.2.1
  show iblk1 V c 2 t (ix3 (0 : Fin 1) e k) = _
  unfold iblk1
  rw [View.read_apply]
  show V c main_v10 _ = V c main_v10 _
  congr 1
  funext a
  apply Fin.ext
  match a with
  | ⟨0, _⟩ => show win1_2.index t (0 : Fin 3) * 1 + 1 * 0 = n.val; rw [hi.1]; omega
  | ⟨1, _⟩ => show win1_2.index t (1 : Fin 3) * 16 + 1 * e.val = e.val; rw [hi.2.1]; omega
  | ⟨2, _⟩ => show win1_2.index t (2 : Fin 3) * 24 + 1 * k.val = k.val; rw [hi.2.2]; omega

/-! ## A block's quantities are the sample's, at the block's pixels -/

/-- The indicator of a block's pixel is the sample's at that pixel. -/
theorem ohB_eq (tt : Vec Ideal S1x1x49152 .i32) (T : SpecV.STf.Idx → BitVec 32) (n : Fin 4) (q : Fin 49152) (p : Fin 589824)
    (ht : tt (ix3 (0 : Fin 1) (0 : Fin 1) q) = T (ix3 n (0 : Fin 1) p)) (k : Fin 24) :
    ohB tt q k = SpecV.ohV T n p k := by
  unfold ohB SpecV.ohV
  rw [ht]

/-- The hinge of a block's pixel is the sample's at that pixel. -/
theorem hvB_eq (x : Vec Ideal S1x16x49152 .f32) (mm : Vec Ideal S1x16x24 .f32) (tt : Vec Ideal S1x1x49152 .i32)
    (X : SpecV.SXf.Idx → EReal) (M : SpecV.SM.Idx → EReal) (T : SpecV.STf.Idx → BitVec 32) (n : Fin 4) (q : Fin 49152) (p : Fin 589824)
    (hx : ∀ e, x (ix3 (0 : Fin 1) e q) = X (ix3 n e p)) (hm : ∀ e k, mm (ix3 (0 : Fin 1) e k) = M (ix3 n e k))
    (ht : tt (ix3 (0 : Fin 1) (0 : Fin 1) q) = T (ix3 n (0 : Fin 1) p)) :
    hvB x mm tt q = SpecV.hvV X M T n p := by
  unfold hvB SpecV.hvV mgB SpecV.mgV
  simp only [hx, hm, ohB_eq tt T n q p ht]

/-! ## One point's contribution -/

/-- Pixel 49152 j + q of a sample (for j < 12 it is below 589824). -/
def pixN (j : ℕ) (q : Fin 49152) : Fin 589824 := ⟨(49152 * j + q.val) % 589824, Nat.mod_lt _ (by decide)⟩

theorem pixN_val (j : ℕ) (hj : j < 12) (q : Fin 49152) : (pixN j q).val = 49152 * j + q.val := by
  show (49152 * j + q.val) % 589824 = _
  have := q.isLt
  omega

/-- The sum, over the pixels of block j of sample n, of the hinges of the pixels of label k. -/
def blockSum (c : Dev nD) (n : Fin 4) (k : Fin 24) (j : ℕ) : EReal :=
  ∑ q : Fin 49152, SpecV.hvV (arrX V c) (arrM V c) (arrT V c) n (pixN j q) * SpecV.ohV (arrT V c) n (pixN j q) k

/-- At point 12 n + j the body adds block j's sum to the accumulator. -/
theorem point_apply (c : Dev nD) (t : Fin cfg1.N) (n : Fin 4) (j : ℕ) (ht : t.val = 12 * n.val + j) (hj : j < 12)
    (a : Vec Ideal S1x1x24 .f32) (k : Fin 24) :
    Gen.k1_pay1 (Gen.k1_pay4 (xblk V c t) (tblk V c t) (mblk V c t) Gen.k1_pay3 a) (ix3 (0 : Fin 1) (0 : Fin 1) k)
      = a (ix3 (0 : Fin 1) (0 : Fin 1) k) + blockSum V c n k j := by
  refine (pay1_apply (xblk V c t) (tblk V c t) (mblk V c t) a k).trans ?_
  refine congrArg (a (ix3 (0 : Fin 1) (0 : Fin 1) k) + ·) (Finset.sum_congr rfl fun q _ => ?_)
  have hp := pixN_val j hj q
  have hT := tblk_apply V c t n j ht hj q (pixN j q) hp
  rw [hvB_eq (xblk V c t) (mblk V c t) (tblk V c t) (arrX V c) (arrM V c) (arrT V c) n q (pixN j q)
      (fun e => xblk_apply V c t n j ht hj e q (pixN j q) hp) (fun e k' => mblk_apply V c t n j ht hj e k') hT,
    ohB_eq (tblk V c t) (arrT V c) n q (pixN j q) hT k]

/-! ## The accumulator along a run of twelve points -/

/-- The zero row the body starts a run from. -/
theorem zeros_apply (k : Fin 24) : (Gen.k1_pay2 (F := Ideal)) (ix3 (0 : Fin 1) (0 : Fin 1) k) = 0 := by
  show Ideal.ofBits .f32 0x00000000#32 = 0
  exact Ideal.ofBits_zero_f32

/-- After point 12 n + j the staging buffer holds, at class k, the sums of blocks 0 … j of sample n. -/
theorem acc1_run (c : Dev nD) (n : Fin 4) (k : Fin 24) : ∀ (j : ℕ), j < 12 →
    acc1 V c (12 * n.val + j) (ix3 (0 : Fin 1) (0 : Fin 1) k) = ∑ jj ∈ Finset.range (j + 1), blockSum V c n k jj
  | 0, hj => by
    have hN : cfg1.N = 48 := Gen.N_1
    have hlt : 12 * n.val + 0 < cfg1.N := by rw [hN]; have := n.isLt; omega
    have h0 : (12 * n.val + 0) % 12 = 0 := by omega
    rw [acc1_eq V c (12 * n.val + 0) hlt, if_pos h0]
    refine (point_apply V c ⟨12 * n.val + 0, hlt⟩ n 0 rfl hj (Gen.k1_pay2 (F := Ideal)) k).trans ?_
    rw [zeros_apply, zero_add, Finset.sum_range_one]
  | j + 1, hj => by
    have hN : cfg1.N = 48 := Gen.N_1
    have hlt : 12 * n.val + (j + 1) < cfg1.N := by rw [hN]; have := n.isLt; omega
    have h0 : ¬(12 * n.val + (j + 1)) % 12 = 0 := by omega
    have hpred : 12 * n.val + (j + 1) - 1 = 12 * n.val + j := by omega
    rw [acc1_eq V c (12 * n.val + (j + 1)) hlt, if_neg h0, hpred]
    refine (point_apply V c ⟨12 * n.val + (j + 1), hlt⟩ n (j + 1) rfl hj (acc1 V c (12 * n.val + j)) k).trans ?_
    rw [acc1_run c n k j (by omega), Finset.sum_range_succ _ (j + 1)]

/-! ## Twelve blocks of 49152 pixels are the 589824 pixels -/

theorem sum_blocks (f : Fin 589824 → EReal) :
    ∑ jj ∈ Finset.range 12, ∑ q : Fin 49152, f (pixN jj q) = ∑ p : Fin 589824, f p := by
  rw [Finset.sum_range (fun jj => ∑ q : Fin 49152, f (pixN jj q)), ← Fintype.sum_prod_type']
  refine Fintype.sum_equiv (finProdFinEquiv (m := 12) (n := 49152)) _ _ fun x => congrArg f (Fin.ext ?_)
  have h1 := x.1.isLt
  have h2 := x.2.isLt
  show (49152 * x.1.val + x.2.val) % 589824 = x.2.val + 49152 * x.1.val
  omega

/-- After a run's last point the staging buffer holds, at class k, the sum over all the sample's pixels. -/
theorem acc1_last (c : Dev nD) (n : Fin 4) (k : Fin 24) :
    acc1 V c (12 * n.val + 11) (ix3 (0 : Fin 1) (0 : Fin 1) k) = SpecV.varsV (arrX V c) (arrM V c) (arrT V c) n k := by
  rw [acc1_run V c n k 11 (by decide)]
  exact sum_blocks fun p => SpecV.hvV (arrX V c) (arrM V c) (arrT V c) n p * SpecV.ohV (arrT V c) n p k

/-! ## The output array after the write-backs -/

/-- What the output array ends holding: at (n, 0, k), the sum over the pixels of sample n of the hinges of the pixels of
    label k. -/
def varArr (c : Dev nD) : Vec Ideal S4x1x24 .f32 := fun i =>
  SpecV.varsV (arrX V c) (arrM V c) (arrT V c) ⟨(i 0).val, (i 0).isLt⟩ ⟨(i 2).val, (i 2).isLt⟩

/-- A write-back (at a run's last point) writes that array's block. -/
theorem flushed1_eq (c : Dev nD) (t : Fin cfg1.N) (hf : (cfg1.win 3).flush t = true) :
    (dat1 (F := Ideal) V c).flushed 3 t = ((cfg1.win 3).blk t).view.read (Elt Ideal) (varArr V c) := by
  have hN : cfg1.N = 48 := Gen.N_1
  have h11 : t.val % 12 = 11 := (Gen.flush1_3 t).mp hf
  have hlt := t.isLt
  have hi := (idx1_facts t).2.2.2
  show (cfg1.win 3).cut (grid1.coords t) ((dat1 V c).after 3 t) = _
  rw [after1_out]
  funext y
  rw [View.read_apply]
  obtain ⟨u, v, k, rfl⟩ : ∃ (u : Fin 1) (v : Fin 1) (k : Fin 24), y = ix3 u v k := ⟨y 0, y 1, y 2, @eq_ix3 1 1 24 y⟩
  obtain rfl : u = 0 := Subsingleton.elim _ _
  obtain rfl : v = 0 := Subsingleton.elim _ _
  have hn : t.val / 12 < 4 := by omega
  have ht : t.val = 12 * (⟨t.val / 12, hn⟩ : Fin 4).val + 11 := by show t.val = 12 * (t.val / 12) + 11; omega
  refine (congrArg (acc1 V c t.val) (show (cfg1.win 3).xinj (grid1.coords t) (ix3 (0 : Fin 1) (0 : Fin 1) k) = ix3 (0 : Fin 1) (0 : Fin 1) k from
    funext fun a => Fin.ext rfl)).trans ?_
  rw [ht, acc1_last V c ⟨t.val / 12, hn⟩ k]
  unfold varArr
  congr 1
  · apply Fin.ext
    show t.val / 12 = win1_3.index t (0 : Fin 3) * 1 + 1 * 0
    rw [hi.1]; omega
  · apply Fin.ext
    show k.val = win1_3.index t (2 : Fin 3) * 24 + 1 * k.val
    rw [hi.2.2]; omega

/-- Every index of the output array is in the block written back at its sample's last point. -/
theorem cover1 (c : Dev nD) (i : S4x1x24.Idx) :
    ∃ t : Fin cfg1.N, (cfg1.win 3).flush t = true ∧ i ∈ ((cfg1.win 3).blk t).view.set := by
  have hN : cfg1.N = 48 := Gen.N_1
  have h0 : (i 0).val < 4 := (i 0).isLt
  have h1 : (i 1).val < 1 := (i 1).isLt
  have h2 : (i 2).val < 24 := (i 2).isLt
  have hlt : 12 * (i 0).val + 11 < cfg1.N := by rw [hN]; omega
  have hi := (idx1_facts ⟨12 * (i 0).val + 11, hlt⟩).2.2.2
  refine ⟨⟨12 * (i 0).val + 11, hlt⟩, (Gen.flush1_3 _).mpr (by show (12 * (i 0).val + 11) % 12 = 11; omega), ?_⟩
  show i ∈ ((View.whole main_v11).slice (win1_3.rect ⟨12 * (i 0).val + 11, hlt⟩)).set
  rw [View.set_slice_whole, Rect.mem_set_unit]
  intro a
  match a with
  | ⟨0, _⟩ =>
    show win1_3.index ⟨12 * (i 0).val + 11, hlt⟩ (0 : Fin 3) * 1 ≤ (i 0).val
      ∧ (i 0).val < win1_3.index ⟨12 * (i 0).val + 11, hlt⟩ (0 : Fin 3) * 1 + 1
    rw [hi.1]; show (12 * (i 0).val + 11) / 12 * 1 ≤ (i 0).val ∧ (i 0).val < (12 * (i 0).val + 11) / 12 * 1 + 1; omega
  | ⟨1, _⟩ =>
    show win1_3.index ⟨12 * (i 0).val + 11, hlt⟩ (1 : Fin 3) * 1 ≤ (i 1).val
      ∧ (i 1).val < win1_3.index ⟨12 * (i 0).val + 11, hlt⟩ (1 : Fin 3) * 1 + 1
    rw [hi.2.1]; omega
  | ⟨2, _⟩ =>
    show win1_3.index ⟨12 * (i 0).val + 11, hlt⟩ (2 : Fin 3) * 24 ≤ (i 2).val
      ∧ (i 2).val < win1_3.index ⟨12 * (i 0).val + 11, hlt⟩ (2 : Fin 3) * 24 + 24
    rw [hi.2.2]; omega

/-- So the output array ends holding the per-class sums of the hinges. -/
theorem arr1_eq (c : Dev nD) : (dat1 (F := Ideal) V c).arrAt 3 cfg1.N = varArr V c :=
  (dat1 (F := Ideal) V c).arrAt_eq_of_cover 3 (varArr V c) (flushed1_eq V c) (cover1 c)

/-- The output array after the region, at (n, 0, k): the sum over all 589824 pixels of sample n of the squared hinge of
    the pixels of label k. -/
theorem arr1_apply (c : Dev nD) (n : Fin 4) (k : Fin 24) :
    (dat1 (F := Ideal) V c).arrAt 3 cfg1.N (ix3 n (0 : Fin 1) k)
      = Cert.SpecV.varsV (V c main_v0) (V c main_v10) (V c main_v1) n k := by
  rw [arr1_eq V c]
  rfl

end Cert.KernelIdeal.Hand

end
-- ==== Proof.RefValue.lean ====
/-
  The reference program's two intermediate tables, read as the specification's functions.

  The reference flattens the image batch to rows x1[q, e], q = n · 589824 + p the flat pixel (sample n, pixel p = h · 768 + w),
  gives pixel q the segment id seg q = label + 24 n, and accumulates by segment: counts = the sum of ones, sums = the sum of
  the rows, means = sums / counts; it gathers each pixel's own mean back, takes the squared hinge of the distance, accumulates
  that by segment too and divides by the counts.

  An accumulating scatter at the ideal instance is, at each target element, the operand there plus the sum of the updates
  whose landing index is that element. With one start index per update (the segment id, read signed, not clamped) and a
  window that spans the remaining axes, an update lands on segment r exactly when its id is r (and, for the row scatter,
  the channels agree); the gather reads row r of its table when the start index is r, a start index in range not being
  clamped. Under the label range 0 ≤ label < 24 the id of pixel (n, p) is 24 n + label, below 96 and nonnegative, so the
  wrap-around select in front of the gather does nothing, and the pixels whose id is 24 n + c are sample n's pixels of
  class c. Splitting the flat sum over q into the double sum over (n, p) then turns each scatter into the specification's
  sum of f p · [label p = c] over the pixels of sample n, and the gather into the sum over the classes in which exactly
  one class, the pixel's own, contributes.
-/
import proofs.«427995_j35871566856560_2_alg».proof.Proof.RefRead
import proofs.«427995_j35871566856560_2_alg».proof.Proof.Spec
import Idealize.ShloMosaic.Lib.ValueIdx
import Idealize.ShloMosaic.PureOps.Ideal.Laws

noncomputable section

namespace Cert.RefValue

open Cert.ReferenceIdeal Cert.ReferenceIdeal.Gen Cert.ReferenceIdeal.ReadP Idealize.ShloMosaic Idealize.ShloMosaic.ValueIdx Cert.Spec
open scoped BigOperators

/-- The float word of one is the real one. -/
theorem one_f32 : Ideal.ofBits .f32 0x3F800000#32 = 1 := by
  simp [Ideal.ofBits, Ideal.ieee, -EReal.coe_mul]; norm_num

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into the 96 segments: where an update lands -/

abbrev d12 : ScatterDims S96 S2359296x1 S2359296 := scatter_S96_S2359296x1_S2359296_n_0_0_1

/-- The start of update q is the q-th segment id, read signed. -/
theorem start12 (idx : IVec S2359296x1 32) (q : Fin 2359296) :
    d12.start (ix1 q) idx 0 = (idx (ix2 q 0)).toInt := by
  unfold ScatterDims.start
  rw [dif_pos (show (0 : Fin 1) ∈ d12.scatterDimsToOperandDims from List.mem_singleton.mpr rfl)]
  refine congrArg (fun k => (idx k).toInt) ?_
  funext b; refine Fin.ext ?_
  match b with
  | ⟨0, _⟩ => rfl
  | ⟨1, _⟩ => rfl

theorem window12 (q : Fin 2359296) : d12.window (ix1 q) 0 = 0 := by
  unfold ScatterDims.window
  rw [dif_neg (by decide)]

/-- Update q lands on segment r exactly when its segment id, read signed, is r. -/
theorem res12 (idx : IVec S2359296x1 32) (q : Fin 2359296) (r : Fin 96) :
    d12.resultIdx? (ix1 q) idx = some (ix1 r) ↔ (idx (ix2 q 0)).toInt = (r.val : Int) := by
  unfold ScatterDims.resultIdx?
  constructor
  · intro h
    split at h
    · rename_i H
      have h1 := congrArg Fin.val (congrFun (Option.some.inj h) 0)
      have H0 := H 0
      rw [start12, window12] at H0
      simp only [start12, window12] at h1
      have : ((ix1 r : S96.Idx) 0).val = r.val := rfl
      omega
    · cases h
  · intro h
    have H : ∀ a, 0 ≤ d12.start (ix1 q) idx a + (d12.window (ix1 q) a : Int) ∧
        d12.start (ix1 q) idx a + (d12.window (ix1 q) a : Int) < (S96.size a : Int) := by
      intro a
      obtain rfl : a = 0 := Subsingleton.elim _ _
      rw [start12, window12, h]
      have : S96.size 0 = 96 := rfl
      have := r.isLt
      constructor <;> omega
    rw [dif_pos H]
    refine congrArg some ?_
    funext a
    obtain rfl : a = 0 := Subsingleton.elim _ _
    refine Fin.ext ?_
    show (d12.start (ix1 q) idx 0 + (d12.window (ix1 q) 0 : Int)).toNat = r.val
    rw [start12, window12, h]
    omega

/-- The accumulating scatter into the 96 segments, read at segment r: the operand there plus the updates whose
    segment id is r. -/
theorem scatter12_apply (x0 : S96.Idx → EReal) (idx : IVec S2359296x1 32) (upd : S2359296.Idx → EReal) (r : Fin 96) :
    Host.scatterAdd (F := Ideal) (φ := .f32) d12 x0 idx upd (ix1 r)
      = x0 (ix1 r) + ∑ q : Fin 2359296, if (idx (ix2 q 0)).toInt = (r.val : Int) then upd (ix1 q) else 0 := by
  show Ideal.hostScatterAdd d12 x0 idx upd (ix1 r) = _
  unfold Ideal.hostScatterAdd
  refine congrArg (x0 (ix1 r) + ·) ?_
  rw [Finset.sum_filter, sum_idx1]
  refine Finset.sum_congr rfl fun q _ => ?_
  by_cases h : (idx (ix2 q 0)).toInt = (r.val : Int)
  · rw [if_pos h, if_pos ((res12 idx q r).mpr h)]
  · rw [if_neg h, if_neg (fun h' => h ((res12 idx q r).mp h'))]

/-! ## The row scatter into the 96 × 16 table -/

abbrev d15 : ScatterDims S96x16 S2359296x1 S2359296x16 := scatter_S96x16_S2359296x1_S2359296x16_1_0_0_1

theorem start15_0 (idx : IVec S2359296x1 32) (q : Fin 2359296) (e : Fin 16) :
    d15.start (ix2 q e) idx 0 = (idx (ix2 q 0)).toInt := by
  unfold ScatterDims.start
  rw [dif_pos (show (0 : Fin 2) ∈ d15.scatterDimsToOperandDims from List.mem_singleton.mpr rfl)]
  refine congrArg (fun k => (idx k).toInt) ?_
  funext b; refine Fin.ext ?_
  match b with
  | ⟨0, _⟩ => rfl
  | ⟨1, _⟩ => rfl

theorem start15_1 (idx : IVec S2359296x1 32) (q : Fin 2359296) (e : Fin 16) :
    d15.start (ix2 q e) idx 1 = 0 := by
  unfold ScatterDims.start
  rw [dif_neg (by decide)]

theorem window15_0 (q : Fin 2359296) (e : Fin 16) : d15.window (ix2 q e) 0 = 0 := by
  unfold ScatterDims.window
  rw [dif_neg (by decide)]

theorem window15_1 (q : Fin 2359296) (e : Fin 16) : d15.window (ix2 q e) 1 = e.val := by
  unfold ScatterDims.window
  rw [dif_pos (by decide)]
  rfl

/-- Update (q, e) lands on (r, e') exactly when q's segment id, read signed, is r and the channels agree. -/
theorem res15 (idx : IVec S2359296x1 32) (q : Fin 2359296) (e : Fin 16) (r : Fin 96) (e' : Fin 16) :
    d15.resultIdx? (ix2 q e) idx = some (ix2 r e') ↔ (idx (ix2 q 0)).toInt = (r.val : Int) ∧ e = e' := by
  unfold ScatterDims.resultIdx?
  constructor
  · intro h
    split at h
    · rename_i H
      have h0 := congrArg Fin.val (congrFun (Option.some.inj h) 0)
      have h1 := congrArg Fin.val (congrFun (Option.some.inj h) 1)
      have H0 := H 0
      rw [start15_0, window15_0] at H0
      simp only [start15_0, window15_0] at h0
      simp only [start15_1, window15_1] at h1
      have e0 : ((ix2 r e' : S96x16.Idx) 0).val = r.val := rfl
      have e1 : ((ix2 r e' : S96x16.Idx) 1).val = e'.val := rfl
      refine ⟨by omega, Fin.ext (by omega)⟩
    · cases h
  · rintro ⟨h, rfl⟩
    have H : ∀ a, 0 ≤ d15.start (ix2 q e) idx a + (d15.window (ix2 q e) a : Int) ∧
        d15.start (ix2 q e) idx a + (d15.window (ix2 q e) a : Int) < (S96x16.size a : Int) := by
      intro a
      match a with
      | ⟨0, _⟩ =>
        show 0 ≤ d15.start (ix2 q e) idx 0 + (d15.window (ix2 q e) 0 : Int) ∧
          d15.start (ix2 q e) idx 0 + (d15.window (ix2 q e) 0 : Int) < ((96 : Nat) : Int)
        rw [start15_0, window15_0, h]
        have := r.isLt
        constructor <;> omega
      | ⟨1, _⟩ =>
        show 0 ≤ d15.start (ix2 q e) idx 1 + (d15.window (ix2 q e) 1 : Int) ∧
          d15.start (ix2 q e) idx 1 + (d15.window (ix2 q e) 1 : Int) < ((16 : Nat) : Int)
        rw [start15_1, window15_1]
        have := e.isLt
        constructor <;> omega
    rw [dif_pos H]
    refine congrArg some ?_
    funext a
    refine Fin.ext ?_
    match a with
    | ⟨0, _⟩ =>
      show (d15.start (ix2 q e) idx 0 + (d15.window (ix2 q e) 0 : Int)).toNat = r.val
      rw [start15_0, window15_0, h]
      omega
    | ⟨1, _⟩ =>
      show (d15.start (ix2 q e) idx 1 + (d15.window (ix2 q e) 1 : Int)).toNat = e.val
      rw [start15_1, window15_1]
      omega

/-- The accumulating row scatter read at (r, e): the operand there plus channel e of the rows whose segment id is r. -/
theorem scatter15_apply (x0 : S96x16.Idx → EReal) (idx : IVec S2359296x1 32) (upd : S2359296x16.Idx → EReal)
    (r : Fin 96) (e : Fin 16) :
    Host.scatterAdd (F := Ideal) (φ := .f32) d15 x0 idx upd (ix2 r e)
      = x0 (ix2 r e) + ∑ q : Fin 2359296, if (idx (ix2 q 0)).toInt = (r.val : Int) then upd (ix2 q e) else 0 := by
  show Ideal.hostScatterAdd d15 x0 idx upd (ix2 r e) = _
  unfold Ideal.hostScatterAdd
  refine congrArg (x0 (ix2 r e) + ·) ?_
  rw [Finset.sum_filter, sum_idx2]
  refine Finset.sum_congr rfl fun q _ => ?_
  by_cases h : (idx (ix2 q 0)).toInt = (r.val : Int)
  · rw [if_pos h, Finset.sum_eq_single e]
    · rw [if_pos ((res15 idx q e r e).mpr ⟨h, rfl⟩)]
    · intro e' _ hne
      rw [if_neg (fun h' => hne ((res15 idx q e' r e).mp h').2)]
    · intro hn; exact absurd (Finset.mem_univ e) hn
  · rw [if_neg h]
    refine Finset.sum_eq_zero fun e' _ => ?_
    rw [if_neg (fun h' => h ((res15 idx q e' r e).mp h').1)]

/-! ## The row gather out of the 96 × 16 table -/

abbrev dG : GatherDims S96x16 S2359296x1 S2359296x16 := gather_S96x16_S2359296x1_S2359296x16_1_0_n_n_0_1_116

/-- A start index in range is not clamped: result (q, e) is the table at (r, e), r the q-th start index read signed. -/
theorem gather_apply {α : Type} (x : S96x16.Idx → α) (idx : IVec S2359296x1 32) (q : Fin 2359296) (e : Fin 16) (r : Fin 96)
    (h : (idx (ix2 q 0)).toInt = (r.val : Int)) :
    Host.gather dG x idx (ix2 q e) = x (ix2 r e) := by
  unfold Host.gather
  refine congrArg x ?_
  funext a
  refine Fin.ext ?_
  match a with
  | ⟨0, _⟩ =>
    show dG.start (ix2 q e) idx 0 + dG.batchCoord (ix2 q e) 0 + dG.offCoord (ix2 q e) 0 = r.val
    rw [GatherDims.batchCoord_eq_zero _ _ _ List.not_mem_nil, GatherDims.offCoord_eq_zero _ _ _ (by decide)]
    unfold GatherDims.start
    rw [dif_pos (show (0 : Fin 2) ∈ dG.startIndexMap from List.mem_singleton.mpr rfl)]
    have hsi : dG.siIdx (ix2 q e) ⟨List.idxOf (0 : Fin 2) dG.startIndexMap,
        List.idxOf_lt_length_iff.2 (List.mem_singleton.mpr rfl)⟩ = ix2 q 0 := by
      funext b; refine Fin.ext ?_
      match b with
      | ⟨0, _⟩ => rfl
      | ⟨1, _⟩ => rfl
    rw [hsi, h]
    have h1 : S96x16.size 0 = 96 := rfl
    have h2 : dG.sliceSizes 0 = 1 := rfl
    have := r.isLt
    rw [h1, h2]
    omega
  | ⟨1, _⟩ =>
    show dG.start (ix2 q e) idx 1 + dG.batchCoord (ix2 q e) 1 + dG.offCoord (ix2 q e) 1 = e.val
    rw [GatherDims.batchCoord_eq_zero _ _ _ List.not_mem_nil]
    unfold GatherDims.start GatherDims.offCoord
    rw [dif_neg (by decide), dif_pos (by decide)]
    show 0 + 0 + e.val = e.val
    omega

/-! ## Flat pixels and segment ids -/

/-- Pixel p of sample n in the flattened batch. -/
abbrev flat (n : Fin 4) (p : Fin 589824) : Fin 2359296 :=
  ⟨n.val * 589824 + p.val, by have := n.isLt; have := p.isLt; omega⟩

/-- Segment (n, c) among the 96. -/
abbrev seg96 (n : Fin 4) (c : Fin 24) : Fin 96 :=
  ⟨n.val * 24 + c.val, by have := n.isLt; have := c.isLt; omega⟩

def flatEquiv : Fin 4 × Fin 589824 ≃ Fin 2359296 where
  toFun np := flat np.1 np.2
  invFun q := (⟨q.val / 589824, by have := q.isLt; omega⟩, ⟨q.val % 589824, by omega⟩)
  left_inv np := by
    obtain ⟨n, p⟩ := np
    have := n.isLt; have := p.isLt
    refine Prod.ext (Fin.ext ?_) (Fin.ext ?_)
    · show (n.val * 589824 + p.val) / 589824 = n.val; omega
    · show (n.val * 589824 + p.val) % 589824 = p.val; omega
  right_inv q := by
    refine Fin.ext ?_
    show q.val / 589824 * 589824 + q.val % 589824 = q.val; omega

/-- A sum over the flattened batch is the double sum over samples and pixels. -/
theorem sum_flat {M : Type*} [AddCommMonoid M] (f : Fin 2359296 → M) :
    ∑ q, f q = ∑ n : Fin 4, ∑ p : Fin 589824, f (flat n p) := by
  rw [← Equiv.sum_comp flatEquiv f, Fintype.sum_prod_type]
  rfl

/-- The segment id of pixel p of sample n is its label plus 24 n. -/
theorem seg_eq (tg : ST.Idx → BitVec 32) (n : Fin 4) (p : Fin 589824) :
    val_main_v8 (F := Ideal) tg (ix1 (flat n p)) = lab tg n p + BitVec.ofNat 32 n.val * 24#32 := by
  have hn := n.isLt
  have hp := p.isLt
  rw [val_main_v8_apply, val_main_v7_apply, val_main_v6_apply, val_main_v5_apply, val_main_v3_apply, val_main_v4_apply,
    val_main_v2_apply, val_main_c_apply]
  show tg _ + BitVec.ofNat 32 _ * 24#32 = _
  have e1 : idx_main_v8 (ix1 (flat n p)) = ix3 n (prow p) (pcol p) := by
    funext a; refine Fin.ext ?_
    match a with
    | ⟨0, _⟩ => show (n.val * 589824 + p.val) / 589824 = n.val; omega
    | ⟨1, _⟩ => show (n.val * 589824 + p.val) / 768 % 768 = p.val / 768; omega
    | ⟨2, _⟩ => show (n.val * 589824 + p.val) % 768 = p.val % 768; omega
  rw [e1]
  rfl

/-- Under the label range the segment id, read signed, is 24 n plus the label. -/
theorem seg_toInt (tg : ST.Idx → BitVec 32) (hr : ∀ i, (tg i).toNat < 24) (n : Fin 4) (p : Fin 589824) :
    (val_main_v8 (F := Ideal) tg (ix1 (flat n p))).toInt = ((n.val * 24 + (lab tg n p).toNat : Nat) : Int) := by
  have hn := n.isLt
  have hl : (lab tg n p).toNat < 24 := hr _
  rw [seg_eq, BitVec.toInt_eq_toNat_cond]
  have hN : (lab tg n p + BitVec.ofNat 32 n.val * 24#32).toNat = n.val * 24 + (lab tg n p).toNat := by
    rw [BitVec.toNat_add, BitVec.toNat_mul, BitVec.toNat_ofNat]
    show ((lab tg n p).toNat + n.val % 2 ^ 32 * 24 % 2 ^ 32) % 2 ^ 32 = _
    omega
  rw [hN]
  split <;> omega

/-- A sum over the pixels whose segment id is (n, c) is the sum over sample n's pixels against the cluster's indicator. -/
theorem segsum (tg : ST.Idx → BitVec 32) (hr : ∀ i, (tg i).toNat < 24) (f : Fin 2359296 → EReal) (n : Fin 4) (c : Fin 24) :
    (∑ q : Fin 2359296, if (val_main_v8 (F := Ideal) tg (ix1 q)).toInt = ((seg96 n c).val : Int) then f q else 0)
      = ∑ p : Fin 589824, f (flat n p) * oh tg n p c := by
  have hc := c.isLt
  rw [sum_flat, Finset.sum_eq_single n]
  · refine Finset.sum_congr rfl fun p _ => ?_
    have hl : (lab tg n p).toNat < 24 := hr _
    rw [seg_toInt tg hr]
    unfold oh
    by_cases hh : hit tg n p c
    · rw [if_pos hh, mul_one, if_pos]
      unfold hit at hh
      rw [hh, BitVec.toNat_ofNat]
      show ((n.val * 24 + c.val % 2 ^ 32 : Nat) : Int) = ((n.val * 24 + c.val : Nat) : Int)
      congr 2; omega
    · rw [if_neg hh, mul_zero, if_neg]
      intro h
      apply hh
      unfold hit
      apply BitVec.eq_of_toNat_eq
      rw [BitVec.toNat_ofNat]
      have : ((n.val * 24 + (lab tg n p).toNat : Nat) : Int) = ((n.val * 24 + c.val : Nat) : Int) := h
      omega
  · intro n' _ hne
    refine Finset.sum_eq_zero fun p _ => ?_
    have hl : (lab tg n' p).toNat < 24 := hr _
    rw [seg_toInt tg hr, if_neg]
    intro h
    have : ((n'.val * 24 + (lab tg n' p).toNat : Nat) : Int) = ((n.val * 24 + c.val : Nat) : Int) := h
    exact hne (Fin.ext (by omega))
  · intro h; exact absurd (Finset.mem_univ n) h

/-- The three scatters and the gather read the segment ids as a one-column table. -/
theorem v11_col (tg : ST.Idx → BitVec 32) (q : Fin 2359296) :
    val_main_v11 (F := Ideal) tg (ix2 q 0) = val_main_v8 (F := Ideal) tg (ix1 q) := by
  rw [val_main_v11_apply]
  refine congrArg (val_main_v8 (F := Ideal) tg) ?_
  funext a; match a with | ⟨0, _⟩ => rfl
theorem v14_col (tg : ST.Idx → BitVec 32) (q : Fin 2359296) :
    val_main_v14 (F := Ideal) tg (ix2 q 0) = val_main_v8 (F := Ideal) tg (ix1 q) := by
  rw [val_main_v14_apply]
  refine congrArg (val_main_v8 (F := Ideal) tg) ?_
  funext a; match a with | ⟨0, _⟩ => rfl
theorem v34_col (tg : ST.Idx → BitVec 32) (q : Fin 2359296) :
    val_main_v34 (F := Ideal) tg (ix2 q 0) = val_main_v8 (F := Ideal) tg (ix1 q) := by
  rw [val_main_v34_apply]
  refine congrArg (val_main_v8 (F := Ideal) tg) ?_
  funext a; match a with | ⟨0, _⟩ => rfl

/-! ## Counts, sums, means -/

/-- The reference's counts are the cluster sizes. -/
theorem ref_counts (tg : ST.Idx → BitVec 32) (hr : ∀ i, (tg i).toNat < 24) (n : Fin 4) (c : Fin 24) :
    val_main_v12 (F := Ideal) tg (ix1 (seg96 n c)) = cnt tg n c := by
  unfold val_main_v12
  rw [scatter12_apply]
  simp only [v11_col]
  have h1 : ∀ q : Fin 2359296, val_main_v9 (F := Ideal) (ix1 q) = 1 := by
    intro q; rw [val_main_v9_apply, val_main_cst_apply, Ideal.ofBits_def, one_f32]
  simp only [h1]
  rw [val_main_v10_apply, val_main_cst_0_apply, Ideal.ofBits_def, Ideal.ofBits_zero_f32, zero_add,
    segsum tg hr (fun _ => 1) n c]
  unfold cnt
  simp only [one_mul]

/-- Channel e of flat pixel (n, p). -/
theorem v1_flat (x : SX.Idx → EReal) (n : Fin 4) (p : Fin 589824) (e : Fin 16) :
    val_main_v1 (F := Ideal) x (ix2 (flat n p) e) = xv x n e p := by
  have hn := n.isLt
  have hp := p.isLt
  have he := e.isLt
  rw [val_main_v1_apply, val_main_v0_apply]
  unfold xv
  refine congrArg x ?_
  funext a; refine Fin.ext ?_
  match a with
  | ⟨0, _⟩ => show ((n.val * 589824 + p.val) * 16 + e.val) / 9437184 = n.val; omega
  | ⟨1, _⟩ => show ((n.val * 589824 + p.val) * 16 + e.val) % 16 = e.val; omega
  | ⟨2, _⟩ => show ((n.val * 589824 + p.val) * 16 + e.val) / 12288 % 768 = p.val / 768; omega
  | ⟨3, _⟩ => show ((n.val * 589824 + p.val) * 16 + e.val) / 16 % 768 = p.val % 768; omega

/-- The reference's sums are the cluster sums. -/
theorem ref_sums (x : SX.Idx → EReal) (tg : ST.Idx → BitVec 32) (hr : ∀ i, (tg i).toNat < 24) (n : Fin 4) (e : Fin 16) (c : Fin 24) :
    val_main_v15 (F := Ideal) x tg (ix2 (seg96 n c) e) = sm x tg n e c := by
  unfold val_main_v15
  rw [scatter15_apply]
  simp only [v14_col]
  rw [val_main_v13_apply, val_main_cst_1_apply, Ideal.ofBits_def, Ideal.ofBits_zero_f32, zero_add,
    segsum tg hr (fun q => val_main_v1 (F := Ideal) x (ix2 q e)) n c]
  unfold sm
  simp only [v1_flat]

/-- The reference's means are the cluster means over the cluster sizes. -/
theorem ref_means (x : SX.Idx → EReal) (tg : ST.Idx → BitVec 32) (hr : ∀ i, (tg i).toNat < 24) (n : Fin 4) (e : Fin 16) (c : Fin 24) :
    val_main_v18 (F := Ideal) x tg (ix2 (seg96 n c) e) = meanBy (dR tg) x tg n e c := by
  rw [val_main_v18_apply, ref_sums x tg hr, val_main_v17_apply, val_main_v16_apply]
  have e1 : idx_main_v16 (idx_main_v17 (ix2 (seg96 n c) e)) = ix1 (seg96 n c) := by
    funext a; match a with | ⟨0, _⟩ => rfl
  rw [e1, ref_counts tg hr]
  rfl

/-! ## The gathered means, the hinge and its sums -/

/-- The gather's start index at pixel p of sample n is the pixel's segment: a nonnegative id is not wrapped around. -/
theorem v24_toInt (tg : ST.Idx → BitVec 32) (hr : ∀ i, (tg i).toNat < 24) (n : Fin 4) (p : Fin 589824) :
    (val_main_v24 (F := Ideal) tg (ix2 (flat n p) 0)).toInt = ((n.val * 24 + (lab tg n p).toNat : Nat) : Int) := by
  have e1 : idx_main_v24 (ix2 (flat n p) 0) = ix1 (flat n p) := by
    funext a; match a with | ⟨0, _⟩ => rfl
  have hs := seg_toInt tg hr n p
  have hlt : IntOp.cmpi .slt (val_main_v8 (F := Ideal) tg (ix1 (flat n p))) 0#32 = 0#1 := by
    show BitVec.ofBool (BitVec.slt _ _) = 0#1
    rw [BitVec.slt_eq_decide, hs, BitVec.toInt_zero, decide_eq_false (by omega)]
    rfl
  rw [val_main_v24_apply, e1, val_main_v23_apply, val_main_v20_apply, val_main_v19_apply, val_main_c_2_apply, hlt,
    select_zero, hs]

/-- The gathered row at a pixel is the mean of the pixel's own cluster. -/
theorem ref_gather (x : SX.Idx → EReal) (tg : ST.Idx → BitVec 32) (hr : ∀ i, (tg i).toNat < 24) (n : Fin 4) (e : Fin 16)
    (p : Fin 589824) :
    val_main_v25 (F := Ideal) x tg (ix2 (flat n p) e) = mgBy (dR tg) x tg n e p := by
  have hl : (lab tg n p).toNat < 24 := hr _
  unfold val_main_v25
  rw [gather_apply _ _ (flat n p) e (seg96 n ⟨(lab tg n p).toNat, hl⟩) (v24_toInt tg hr n p), ref_means x tg hr]
  unfold mgBy oh
  rw [Finset.sum_eq_single ⟨(lab tg n p).toNat, hl⟩]
  · rw [if_pos, mul_one]
    unfold hit
    refine BitVec.eq_of_toNat_eq ?_
    rw [BitVec.toNat_ofNat]
    show (lab tg n p).toNat = (lab tg n p).toNat % 2 ^ 32
    omega
  · intro c _ hne
    rw [if_neg, mul_zero]
    intro hh
    unfold hit at hh
    apply hne
    refine Fin.ext ?_
    have hc := c.isLt
    show c.val = (lab tg n p).toNat
    rw [hh, BitVec.toNat_ofNat]; omega
  · intro h; exact absurd (Finset.mem_univ _) h

/-- The reference's squared hinge at a pixel. -/
theorem ref_hinge (x : SX.Idx → EReal) (tg : ST.Idx → BitVec 32) (hr : ∀ i, (tg i).toNat < 24) (n : Fin 4) (p : Fin 589824) :
    val_main_v32 (F := Ideal) x tg (ix1 (flat n p)) = hvBy (dR tg) x tg n p := by
  have hk : ∀ k : Fin 16, val_main_call0_v0 (F := Ideal) x tg (idx_main_call0_v1 (ix1 (flat n p)) k)
      = (xv x n k p - mgBy (dR tg) x tg n k p) * (xv x n k p - mgBy (dR tg) x tg n k p) := by
    intro k
    have e1 : idx_main_call0_v1 (ix1 (flat n p)) k = ix2 (flat n p) k := by
      funext a; match a with | ⟨0, _⟩ => rfl | ⟨1, _⟩ => rfl
    rw [e1, val_main_call0_v0_apply, val_main_v26_apply, v1_flat, ref_gather x tg hr]
    rfl
  rw [val_main_v32_apply, val_main_v31_apply, val_main_v30_apply, val_main_cst_5_apply, val_main_v29_apply,
    val_main_v28_apply, val_main_cst_4_apply, val_main_v27_apply, val_main_call0_v1_apply, val_main_call0_cst_apply]
  simp only [hk]
  unfold hvBy
  simp only [Ideal.ofBits_def, Ideal.ofBits_zero_f32, zero_add, Ideal.mulf_def, Ideal.maximumf_def, Ideal.subf_def,
    Ideal.hostUnary_sqrt_def]

/-- The reference's hinge sums are the sums of the hinge over the clusters. -/
theorem ref_vs (x : SX.Idx → EReal) (tg : ST.Idx → BitVec 32) (hr : ∀ i, (tg i).toNat < 24) (n : Fin 4) (c : Fin 24) :
    val_main_v35 (F := Ideal) x tg (ix1 (seg96 n c)) = vsBy (dR tg) x tg n c := by
  unfold val_main_v35
  rw [scatter12_apply]
  simp only [v34_col]
  rw [val_main_v33_apply, val_main_cst_6_apply, Ideal.ofBits_def, Ideal.ofBits_zero_f32, zero_add,
    segsum tg hr (fun q => val_main_v32 (F := Ideal) x tg (ix1 q)) n c]
  unfold vsBy
  simp only [ref_hinge x tg hr]

/-! ## The two tables -/

theorem ref_cm_apply (x : SX.Idx → EReal) (tg : ST.Idx → BitVec 32) (hr : ∀ i, (tg i).toNat < 24) (n : Fin 4) (c : Fin 24)
    (e : Fin 16) :
    val_main_v42 (F := Ideal) x tg (ix3 n c e) = meanBy (dR tg) x tg n e c := by
  have h0 := n.isLt
  have h1 := c.isLt
  have h2 := e.isLt
  have e1 : idx_main_v42 (ix3 n c e) = ix2 (seg96 n c) e := by
    funext a; refine Fin.ext ?_
    match a with
    | ⟨0, _⟩ => show ((n.val * 24 + c.val) * 16 + e.val) / 16 = n.val * 24 + c.val; omega
    | ⟨1, _⟩ => show ((n.val * 24 + c.val) * 16 + e.val) % 16 = e.val; omega
  rw [val_main_v42_apply, e1, ref_means x tg hr]

theorem ref_vq_apply (x : SX.Idx → EReal) (tg : ST.Idx → BitVec 32) (hr : ∀ i, (tg i).toNat < 24) (n : Fin 4) (c : Fin 24) :
    val_main_v38 (F := Ideal) x tg (ix2 n c) = Ideal.div (vsBy (dR tg) x tg n c) (dR tg n c) := by
  have e1 : idx_main_v36 (ix2 n c) = ix1 (seg96 n c) := by
    funext a; match a with | ⟨0, _⟩ => rfl
  have e2 : idx_main_v37 (ix2 n c) = ix1 (seg96 n c) := by
    funext a; match a with | ⟨0, _⟩ => rfl
  rw [val_main_v38_apply, val_main_v36_apply, val_main_v37_apply, e1, e2, ref_vs x tg hr, ref_counts tg hr]
  rfl

/-- The reference's means, reshaped [sample, class, channel], are the specification's. -/
theorem ref_cm (x : SX.Idx → EReal) (tg : ST.Idx → BitVec 32) (hr : ∀ i, (tg i).toNat < 24) :
    val_main_v42 (F := Ideal) x tg = cmBy (dR tg) x tg := by
  funext i
  exact (congrArg (val_main_v42 (F := Ideal) x tg) (eq_ix3 i)).trans (ref_cm_apply x tg hr (i 0) (i 1) (i 2))

/-- The reference's hinge sums over its counts, reshaped [sample, class], are the specification's. -/
theorem ref_vq (x : SX.Idx → EReal) (tg : ST.Idx → BitVec 32) (hr : ∀ i, (tg i).toNat < 24) :
    val_main_v38 (F := Ideal) x tg = vqBy (dR tg) x tg := by
  funext i
  exact (congrArg (val_main_v38 (F := Ideal) x tg) (eq_ix2 i)).trans (ref_vq_apply x tg hr (i 0) (i 1))

end Cert.RefValue

end
-- ==== Proof.TailRef.lean ====
/-
  The reference's closing operations are the shared chain: stage by stage, the reference's operation after its tables
  val_main_v42 (the cluster means) and val_main_v38 (the summed hinges over the cluster sizes) is the stage of the same
  name of the shared chain at those two tables and the edge tables.  Each equation unfolds the two definitions and
  rewrites with the equations of the stages before.
-/
import proofs.«427995_j35871566856560_2_alg».proof.Proof.RefRead
import proofs.«427995_j35871566856560_2_alg».proof.Proof.TailDefs

noncomputable section

namespace Cert.Tail

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

theorem r_cst_7 : val_main_cst_7 (F := F) = t_cst_7 (F := F) :=
  rfl
theorem r_v39 (x0 : (⟨S4x16x768x768, .f32⟩ : BufTy).Contents (Elt F)) (x1 : (⟨S4x768x768, .i32⟩ : BufTy).Contents (Elt F)) : val_main_v39 (F := F) x0 x1 = t_v39 (F := F) (val_main_v38 (F := F) x0 x1) := by
  unfold val_main_v39 t_v39; rw [r_cst_7]
theorem r_cst_8 : val_main_cst_8 (F := F) = t_cst_8 (F := F) :=
  rfl
theorem r_v40 : val_main_v40 (F := F) = t_v40 (F := F) := by
  unfold val_main_v40 t_v40; rw [r_cst_8]
theorem r_v41 (x0 : (⟨S4x16x768x768, .f32⟩ : BufTy).Contents (Elt F)) (x1 : (⟨S4x768x768, .i32⟩ : BufTy).Contents (Elt F)) : val_main_v41 (F := F) x0 x1 = t_v41 (F := F) (val_main_v38 (F := F) x0 x1) := by
  unfold val_main_v41 t_v41; rw [r_v39, r_v40]
theorem r_call1_v0 (x0 : (⟨S4x16x768x768, .f32⟩ : BufTy).Contents (Elt F)) (x1 : (⟨S4x768x768, .i32⟩ : BufTy).Contents (Elt F)) : val_main_call1_v0 (F := F) x0 x1 = t_call1_v0 (F := F) (val_main_v42 (F := F) x0 x1) :=
  rfl
theorem r_call1_cst : val_main_call1_cst (F := F) = t_call1_cst (F := F) :=
  rfl
theorem r_call1_v1 (x0 : (⟨S4x16x768x768, .f32⟩ : BufTy).Contents (Elt F)) (x1 : (⟨S4x768x768, .i32⟩ : BufTy).Contents (Elt F)) : val_main_call1_v1 (F := F) x0 x1 = t_call1_v1 (F := F) (val_main_v42 (F := F) x0 x1) := by
  unfold val_main_call1_v1 t_call1_v1; rw [r_call1_v0, r_call1_cst]
theorem r_v43 (x0 : (⟨S4x16x768x768, .f32⟩ : BufTy).Contents (Elt F)) (x1 : (⟨S4x768x768, .i32⟩ : BufTy).Contents (Elt F)) : val_main_v43 (F := F) x0 x1 = t_v43 (F := F) (val_main_v42 (F := F) x0 x1) := by
  unfold val_main_v43 t_v43; rw [r_call1_v1]
theorem r_cst_9 : val_main_cst_9 (F := F) = t_cst_9 (F := F) :=
  rfl
theorem r_v44 : val_main_v44 (F := F) = t_v44 (F := F) := by
  unfold val_main_v44 t_v44; rw [r_cst_9]
theorem r_v45 (x0 : (⟨S4x16x768x768, .f32⟩ : BufTy).Contents (Elt F)) (x1 : (⟨S4x768x768, .i32⟩ : BufTy).Contents (Elt F)) : val_main_v45 (F := F) x0 x1 = t_v45 (F := F) (val_main_v42 (F := F) x0 x1) := by
  unfold val_main_v45 t_v45; rw [r_v43, r_v44]
theorem r_v46 (x0 : (⟨S4x16x768x768, .f32⟩ : BufTy).Contents (Elt F)) (x1 : (⟨S4x768x768, .i32⟩ : BufTy).Contents (Elt F)) : val_main_v46 (F := F) x0 x1 = t_v46 (F := F) (val_main_v42 (F := F) x0 x1) := by
  unfold val_main_v46 t_v46; rw [r_v45]
theorem r_cst_10 : val_main_cst_10 (F := F) = t_cst_10 (F := F) :=
  rfl
theorem r_v47 (x0 : (⟨S4x16x768x768, .f32⟩ : BufTy).Contents (Elt F)) (x1 : (⟨S4x768x768, .i32⟩ : BufTy).Contents (Elt F)) : val_main_v47 (F := F) x0 x1 = t_v47 (F := F) (val_main_v42 (F := F) x0 x1) := by
  unfold val_main_v47 t_v47; rw [r_v46, r_cst_10]
theorem r_cst_11 : val_main_cst_11 (F := F) = t_cst_11 (F := F) :=
  rfl
theorem r_v48 : val_main_v48 (F := F) = t_v48 (F := F) := by
  unfold val_main_v48 t_v48; rw [r_cst_11]
theorem r_v49 (x0 : (⟨S4x16x768x768, .f32⟩ : BufTy).Contents (Elt F)) (x1 : (⟨S4x768x768, .i32⟩ : BufTy).Contents (Elt F)) : val_main_v49 (F := F) x0 x1 = t_v49 (F := F) (val_main_v42 (F := F) x0 x1) := by
  unfold val_main_v49 t_v49; rw [r_v47, r_v48]
theorem r_v50 (x2 : (⟨S4x2x200, .i32⟩ : BufTy).Contents (Elt F)) : val_main_v50 (F := F) x2 = t_v50 (F := F) x2 :=
  rfl
theorem r_v51 (x3 : (⟨S4x2x200, .i32⟩ : BufTy).Contents (Elt F)) : val_main_v51 (F := F) x3 = t_v51 (F := F) x3 :=
  rfl
theorem r_v52 (x2 : (⟨S4x2x200, .i32⟩ : BufTy).Contents (Elt F)) : val_main_v52 (F := F) x2 = t_v52 (F := F) x2 := by
  unfold val_main_v52 t_v52; rw [r_v50]
theorem r_v53 (x3 : (⟨S4x2x200, .i32⟩ : BufTy).Contents (Elt F)) : val_main_v53 (F := F) x3 = t_v53 (F := F) x3 := by
  unfold val_main_v53 t_v53; rw [r_v51]
theorem r_v54 (x2 : (⟨S4x2x200, .i32⟩ : BufTy).Contents (Elt F)) (x3 : (⟨S4x2x200, .i32⟩ : BufTy).Contents (Elt F)) : val_main_v54 (F := F) x2 x3 = t_v54 (F := F) x2 x3 := by
  unfold val_main_v54 t_v54; rw [r_v52, r_v53]
theorem r_v55 (x2 : (⟨S4x2x200, .i32⟩ : BufTy).Contents (Elt F)) (x3 : (⟨S4x2x200, .i32⟩ : BufTy).Contents (Elt F)) : val_main_v55 (F := F) x2 x3 = t_v55 (F := F) x2 x3 := by
  unfold val_main_v55 t_v55; rw [r_v54]
theorem r_c_12 : val_main_c_12 (F := F) = t_c_12 (F := F) :=
  rfl
theorem r_v56 (x2 : (⟨S4x2x200, .i32⟩ : BufTy).Contents (Elt F)) (x3 : (⟨S4x2x200, .i32⟩ : BufTy).Contents (Elt F)) : val_main_v56 (F := F) x2 x3 = t_v56 (F := F) x2 x3 := by
  unfold val_main_v56 t_v56; rw [r_v55, r_c_12]
theorem r_c_13 : val_main_c_13 (F := F) = t_c_13 (F := F) :=
  rfl
theorem r_v57 : val_main_v57 (F := F) = t_v57 (F := F) := by
  unfold val_main_v57 t_v57; rw [r_c_13]
theorem r_v58 (x2 : (⟨S4x2x200, .i32⟩ : BufTy).Contents (Elt F)) (x3 : (⟨S4x2x200, .i32⟩ : BufTy).Contents (Elt F)) : val_main_v58 (F := F) x2 x3 = t_v58 (F := F) x2 x3 := by
  unfold val_main_v58 t_v58; rw [r_v56, r_v57]
theorem r_v59 (x2 : (⟨S4x2x200, .i32⟩ : BufTy).Contents (Elt F)) : val_main_v59 (F := F) x2 = t_v59 (F := F) x2 :=
  rfl
theorem r_v60 (x2 : (⟨S4x2x200, .i32⟩ : BufTy).Contents (Elt F)) : val_main_v60 (F := F) x2 = t_v60 (F := F) x2 := by
  unfold val_main_v60 t_v60; rw [r_v59]
theorem r_c_14 : val_main_c_14 (F := F) = t_c_14 (F := F) :=
  rfl
theorem r_v61 : val_main_v61 (F := F) = t_v61 (F := F) := by
  unfold val_main_v61 t_v61; rw [r_c_14]
theorem r_v62 (x2 : (⟨S4x2x200, .i32⟩ : BufTy).Contents (Elt F)) : val_main_v62 (F := F) x2 = t_v62 (F := F) x2 := by
  unfold val_main_v62 t_v62; rw [r_v60, r_v61]
theorem r_c_15 : val_main_c_15 (F := F) = t_c_15 (F := F) :=
  rfl
theorem r_v63 : val_main_v63 (F := F) = t_v63 (F := F) := by
  unfold val_main_v63 t_v63; rw [r_c_15]
theorem r_v64 (x2 : (⟨S4x2x200, .i32⟩ : BufTy).Contents (Elt F)) : val_main_v64 (F := F) x2 = t_v64 (F := F) x2 := by
  unfold val_main_v64 t_v64; rw [r_v60, r_v63]
theorem r_v65 (x2 : (⟨S4x2x200, .i32⟩ : BufTy).Contents (Elt F)) : val_main_v65 (F := F) x2 = t_v65 (F := F) x2 := by
  unfold val_main_v65 t_v65; rw [r_v62, r_v64, r_v60]
theorem r_v66 (x2 : (⟨S4x2x200, .i32⟩ : BufTy).Contents (Elt F)) : val_main_v66 (F := F) x2 = t_v66 (F := F) x2 := by
  unfold val_main_v66 t_v66; rw [r_v65]
theorem r_v67 (x0 : (⟨S4x16x768x768, .f32⟩ : BufTy).Contents (Elt F)) (x1 : (⟨S4x768x768, .i32⟩ : BufTy).Contents (Elt F)) (x2 : (⟨S4x2x200, .i32⟩ : BufTy).Contents (Elt F)) : val_main_v67 (F := F) x0 x1 x2 = t_v67 (F := F) (val_main_v42 (F := F) x0 x1) x2 := by
  unfold val_main_v67 t_v67; rw [r_v66]
theorem r_v68 (x2 : (⟨S4x2x200, .i32⟩ : BufTy).Contents (Elt F)) : val_main_v68 (F := F) x2 = t_v68 (F := F) x2 :=
  rfl
theorem r_v69 (x2 : (⟨S4x2x200, .i32⟩ : BufTy).Contents (Elt F)) : val_main_v69 (F := F) x2 = t_v69 (F := F) x2 := by
  unfold val_main_v69 t_v69; rw [r_v68]
theorem r_c_16 : val_main_c_16 (F := F) = t_c_16 (F := F) :=
  rfl
theorem r_v70 : val_main_v70 (F := F) = t_v70 (F := F) := by
  unfold val_main_v70 t_v70; rw [r_c_16]
theorem r_v71 (x2 : (⟨S4x2x200, .i32⟩ : BufTy).Contents (Elt F)) : val_main_v71 (F := F) x2 = t_v71 (F := F) x2 := by
  unfold val_main_v71 t_v71; rw [r_v69, r_v70]
theorem r_c_17 : val_main_c_17 (F := F) = t_c_17 (F := F) :=
  rfl
theorem r_v72 : val_main_v72 (F := F) = t_v72 (F := F) := by
  unfold val_main_v72 t_v72; rw [r_c_17]
theorem r_v73 (x2 : (⟨S4x2x200, .i32⟩ : BufTy).Contents (Elt F)) : val_main_v73 (F := F) x2 = t_v73 (F := F) x2 := by
  unfold val_main_v73 t_v73; rw [r_v69, r_v72]
theorem r_v74 (x2 : (⟨S4x2x200, .i32⟩ : BufTy).Contents (Elt F)) : val_main_v74 (F := F) x2 = t_v74 (F := F) x2 := by
  unfold val_main_v74 t_v74; rw [r_v71, r_v73, r_v69]
theorem r_v75 (x2 : (⟨S4x2x200, .i32⟩ : BufTy).Contents (Elt F)) : val_main_v75 (F := F) x2 = t_v75 (F := F) x2 := by
  unfold val_main_v75 t_v75; rw [r_v74]
theorem r_v76 (x0 : (⟨S4x16x768x768, .f32⟩ : BufTy).Contents (Elt F)) (x1 : (⟨S4x768x768, .i32⟩ : BufTy).Contents (Elt F)) (x2 : (⟨S4x2x200, .i32⟩ : BufTy).Contents (Elt F)) : val_main_v76 (F := F) x0 x1 x2 = t_v76 (F := F) (val_main_v42 (F := F) x0 x1) x2 := by
  unfold val_main_v76 t_v76; rw [r_v75]
theorem r_v77 (x0 : (⟨S4x16x768x768, .f32⟩ : BufTy).Contents (Elt F)) (x1 : (⟨S4x768x768, .i32⟩ : BufTy).Contents (Elt F)) (x2 : (⟨S4x2x200, .i32⟩ : BufTy).Contents (Elt F)) : val_main_v77 (F := F) x0 x1 x2 = t_v77 (F := F) (val_main_v42 (F := F) x0 x1) x2 := by
  unfold val_main_v77 t_v77; rw [r_v67, r_v76]
theorem r_cst_18 : val_main_cst_18 (F := F) = t_cst_18 (F := F) :=
  rfl
theorem r_v78 : val_main_v78 (F := F) = t_v78 (F := F) := by
  unfold val_main_v78 t_v78; rw [r_cst_18]
theorem r_v79 (x0 : (⟨S4x16x768x768, .f32⟩ : BufTy).Contents (Elt F)) (x1 : (⟨S4x768x768, .i32⟩ : BufTy).Contents (Elt F)) (x2 : (⟨S4x2x200, .i32⟩ : BufTy).Contents (Elt F)) : val_main_v79 (F := F) x0 x1 x2 = t_v79 (F := F) (val_main_v42 (F := F) x0 x1) x2 := by
  unfold val_main_v79 t_v79; rw [r_v77, r_v78]
theorem r_v80 (x0 : (⟨S4x16x768x768, .f32⟩ : BufTy).Contents (Elt F)) (x1 : (⟨S4x768x768, .i32⟩ : BufTy).Contents (Elt F)) (x2 : (⟨S4x2x200, .i32⟩ : BufTy).Contents (Elt F)) : val_main_v80 (F := F) x0 x1 x2 = t_v80 (F := F) (val_main_v42 (F := F) x0 x1) x2 := by
  unfold val_main_v80 t_v80; rw [r_v79]
theorem r_cst_19 : val_main_cst_19 (F := F) = t_cst_19 (F := F) :=
  rfl
theorem r_v81 (x0 : (⟨S4x16x768x768, .f32⟩ : BufTy).Contents (Elt F)) (x1 : (⟨S4x768x768, .i32⟩ : BufTy).Contents (Elt F)) (x2 : (⟨S4x2x200, .i32⟩ : BufTy).Contents (Elt F)) : val_main_v81 (F := F) x0 x1 x2 = t_v81 (F := F) (val_main_v42 (F := F) x0 x1) x2 := by
  unfold val_main_v81 t_v81; rw [r_v80, r_cst_19]
theorem r_v82 (x3 : (⟨S4x2x200, .i32⟩ : BufTy).Contents (Elt F)) : val_main_v82 (F := F) x3 = t_v82 (F := F) x3 :=
  rfl
theorem r_v83 (x3 : (⟨S4x2x200, .i32⟩ : BufTy).Contents (Elt F)) : val_main_v83 (F := F) x3 = t_v83 (F := F) x3 := by
  unfold val_main_v83 t_v83; rw [r_v82]
theorem r_c_20 : val_main_c_20 (F := F) = t_c_20 (F := F) :=
  rfl
theorem r_v84 : val_main_v84 (F := F) = t_v84 (F := F) := by
  unfold val_main_v84 t_v84; rw [r_c_20]
theorem r_v85 (x3 : (⟨S4x2x200, .i32⟩ : BufTy).Contents (Elt F)) : val_main_v85 (F := F) x3 = t_v85 (F := F) x3 := by
  unfold val_main_v85 t_v85; rw [r_v83, r_v84]
theorem r_c_21 : val_main_c_21 (F := F) = t_c_21 (F := F) :=
  rfl
theorem r_v86 : val_main_v86 (F := F) = t_v86 (F := F) := by
  unfold val_main_v86 t_v86; rw [r_c_21]
theorem r_v87 (x3 : (⟨S4x2x200, .i32⟩ : BufTy).Contents (Elt F)) : val_main_v87 (F := F) x3 = t_v87 (F := F) x3 := by
  unfold val_main_v87 t_v87; rw [r_v83, r_v86]
theorem r_v88 (x3 : (⟨S4x2x200, .i32⟩ : BufTy).Contents (Elt F)) : val_main_v88 (F := F) x3 = t_v88 (F := F) x3 := by
  unfold val_main_v88 t_v88; rw [r_v85, r_v87, r_v83]
theorem r_v89 (x3 : (⟨S4x2x200, .i32⟩ : BufTy).Contents (Elt F)) : val_main_v89 (F := F) x3 = t_v89 (F := F) x3 := by
  unfold val_main_v89 t_v89; rw [r_v88]
theorem r_v90 (x0 : (⟨S4x16x768x768, .f32⟩ : BufTy).Contents (Elt F)) (x1 : (⟨S4x768x768, .i32⟩ : BufTy).Contents (Elt F)) (x3 : (⟨S4x2x200, .i32⟩ : BufTy).Contents (Elt F)) : val_main_v90 (F := F) x0 x1 x3 = t_v90 (F := F) (val_main_v42 (F := F) x0 x1) x3 := by
  unfold val_main_v90 t_v90; rw [r_v89]
theorem r_v91 (x3 : (⟨S4x2x200, .i32⟩ : BufTy).Contents (Elt F)) : val_main_v91 (F := F) x3 = t_v91 (F := F) x3 :=
  rfl
theorem r_v92 (x3 : (⟨S4x2x200, .i32⟩ : BufTy).Contents (Elt F)) : val_main_v92 (F := F) x3 = t_v92 (F := F) x3 := by
  unfold val_main_v92 t_v92; rw [r_v91]
theorem r_c_22 : val_main_c_22 (F := F) = t_c_22 (F := F) :=
  rfl
theorem r_v93 : val_main_v93 (F := F) = t_v93 (F := F) := by
  unfold val_main_v93 t_v93; rw [r_c_22]
theorem r_v94 (x3 : (⟨S4x2x200, .i32⟩ : BufTy).Contents (Elt F)) : val_main_v94 (F := F) x3 = t_v94 (F := F) x3 := by
  unfold val_main_v94 t_v94; rw [r_v92, r_v93]
theorem r_c_23 : val_main_c_23 (F := F) = t_c_23 (F := F) :=
  rfl
theorem r_v95 : val_main_v95 (F := F) = t_v95 (F := F) := by
  unfold val_main_v95 t_v95; rw [r_c_23]
theorem r_v96 (x3 : (⟨S4x2x200, .i32⟩ : BufTy).Contents (Elt F)) : val_main_v96 (F := F) x3 = t_v96 (F := F) x3 := by
  unfold val_main_v96 t_v96; rw [r_v92, r_v95]
theorem r_v97 (x3 : (⟨S4x2x200, .i32⟩ : BufTy).Contents (Elt F)) : val_main_v97 (F := F) x3 = t_v97 (F := F) x3 := by
  unfold val_main_v97 t_v97; rw [r_v94, r_v96, r_v92]
theorem r_v98 (x3 : (⟨S4x2x200, .i32⟩ : BufTy).Contents (Elt F)) : val_main_v98 (F := F) x3 = t_v98 (F := F) x3 := by
  unfold val_main_v98 t_v98; rw [r_v97]
theorem r_v99 (x0 : (⟨S4x16x768x768, .f32⟩ : BufTy).Contents (Elt F)) (x1 : (⟨S4x768x768, .i32⟩ : BufTy).Contents (Elt F)) (x3 : (⟨S4x2x200, .i32⟩ : BufTy).Contents (Elt F)) : val_main_v99 (F := F) x0 x1 x3 = t_v99 (F := F) (val_main_v42 (F := F) x0 x1) x3 := by
  unfold val_main_v99 t_v99; rw [r_v98]
theorem r_v100 (x0 : (⟨S4x16x768x768, .f32⟩ : BufTy).Contents (Elt F)) (x1 : (⟨S4x768x768, .i32⟩ : BufTy).Contents (Elt F)) (x3 : (⟨S4x2x200, .i32⟩ : BufTy).Contents (Elt F)) : val_main_v100 (F := F) x0 x1 x3 = t_v100 (F := F) (val_main_v42 (F := F) x0 x1) x3 := by
  unfold val_main_v100 t_v100; rw [r_v90, r_v99]
theorem r_cst_24 : val_main_cst_24 (F := F) = t_cst_24 (F := F) :=
  rfl
theorem r_v101 : val_main_v101 (F := F) = t_v101 (F := F) := by
  unfold val_main_v101 t_v101; rw [r_cst_24]
theorem r_v102 (x0 : (⟨S4x16x768x768, .f32⟩ : BufTy).Contents (Elt F)) (x1 : (⟨S4x768x768, .i32⟩ : BufTy).Contents (Elt F)) (x3 : (⟨S4x2x200, .i32⟩ : BufTy).Contents (Elt F)) : val_main_v102 (F := F) x0 x1 x3 = t_v102 (F := F) (val_main_v42 (F := F) x0 x1) x3 := by
  unfold val_main_v102 t_v102; rw [r_v100, r_v101]
theorem r_v103 (x0 : (⟨S4x16x768x768, .f32⟩ : BufTy).Contents (Elt F)) (x1 : (⟨S4x768x768, .i32⟩ : BufTy).Contents (Elt F)) (x3 : (⟨S4x2x200, .i32⟩ : BufTy).Contents (Elt F)) : val_main_v103 (F := F) x0 x1 x3 = t_v103 (F := F) (val_main_v42 (F := F) x0 x1) x3 := by
  unfold val_main_v103 t_v103; rw [r_v102]
theorem r_cst_25 : val_main_cst_25 (F := F) = t_cst_25 (F := F) :=
  rfl
theorem r_v104 (x0 : (⟨S4x16x768x768, .f32⟩ : BufTy).Contents (Elt F)) (x1 : (⟨S4x768x768, .i32⟩ : BufTy).Contents (Elt F)) (x3 : (⟨S4x2x200, .i32⟩ : BufTy).Contents (Elt F)) : val_main_v104 (F := F) x0 x1 x3 = t_v104 (F := F) (val_main_v42 (F := F) x0 x1) x3 := by
  unfold val_main_v104 t_v104; rw [r_v103, r_cst_25]
theorem r_v105 (x0 : (⟨S4x16x768x768, .f32⟩ : BufTy).Contents (Elt F)) (x1 : (⟨S4x768x768, .i32⟩ : BufTy).Contents (Elt F)) (x2 : (⟨S4x2x200, .i32⟩ : BufTy).Contents (Elt F)) : val_main_v105 (F := F) x0 x1 x2 = t_v105 (F := F) (val_main_v42 (F := F) x0 x1) x2 := by
  unfold val_main_v105 t_v105; rw [r_v81]
theorem r_v106 (x0 : (⟨S4x16x768x768, .f32⟩ : BufTy).Contents (Elt F)) (x1 : (⟨S4x768x768, .i32⟩ : BufTy).Contents (Elt F)) (x3 : (⟨S4x2x200, .i32⟩ : BufTy).Contents (Elt F)) : val_main_v106 (F := F) x0 x1 x3 = t_v106 (F := F) (val_main_v42 (F := F) x0 x1) x3 := by
  unfold val_main_v106 t_v106; rw [r_v104]
theorem r_v107 (x0 : (⟨S4x16x768x768, .f32⟩ : BufTy).Contents (Elt F)) (x1 : (⟨S4x768x768, .i32⟩ : BufTy).Contents (Elt F)) (x2 : (⟨S4x2x200, .i32⟩ : BufTy).Contents (Elt F)) : val_main_v107 (F := F) x0 x1 x2 = t_v107 (F := F) (val_main_v42 (F := F) x0 x1) x2 := by
  unfold val_main_v107 t_v107; rw [r_v105]
theorem r_v108 (x0 : (⟨S4x16x768x768, .f32⟩ : BufTy).Contents (Elt F)) (x1 : (⟨S4x768x768, .i32⟩ : BufTy).Contents (Elt F)) (x3 : (⟨S4x2x200, .i32⟩ : BufTy).Contents (Elt F)) : val_main_v108 (F := F) x0 x1 x3 = t_v108 (F := F) (val_main_v42 (F := F) x0 x1) x3 := by
  unfold val_main_v108 t_v108; rw [r_v106]
theorem r_v109 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v109 (F := F) x0 x1 x2 x3 = t_v109 (F := F) (val_main_v42 (F := F) x0 x1) x2 x3 := by
  unfold val_main_v109 t_v109; rw [r_v107, r_v108]
theorem r_cst_26 : val_main_cst_26 (F := F) = t_cst_26 (F := F) :=
  rfl
theorem r_v110 : val_main_v110 (F := F) = t_v110 (F := F) := by
  unfold val_main_v110 t_v110; rw [r_cst_26]
theorem r_v111 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v111 (F := F) x0 x1 x2 x3 = t_v111 (F := F) (val_main_v42 (F := F) x0 x1) x2 x3 := by
  unfold val_main_v111 t_v111; rw [r_v110, r_v109]
theorem r_cst_27 : val_main_cst_27 (F := F) = t_cst_27 (F := F) :=
  rfl
theorem r_v112 : val_main_v112 (F := F) = t_v112 (F := F) := by
  unfold val_main_v112 t_v112; rw [r_cst_27]
theorem r_v113 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v113 (F := F) x0 x1 x2 x3 = t_v113 (F := F) (val_main_v42 (F := F) x0 x1) x2 x3 := by
  unfold val_main_v113 t_v113; rw [r_v111, r_v112]
theorem r_cst_28 : val_main_cst_28 (F := F) = t_cst_28 (F := F) :=
  rfl
theorem r_v114 : val_main_v114 (F := F) = t_v114 (F := F) := by
  unfold val_main_v114 t_v114; rw [r_cst_28]
theorem r_v115 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v115 (F := F) x0 x1 x2 x3 = t_v115 (F := F) (val_main_v42 (F := F) x0 x1) x2 x3 := by
  unfold val_main_v115 t_v115; rw [r_v113, r_v114]
theorem r_v116 (x2 : (⟨S4x2x200, .i32⟩ : BufTy).Contents (Elt F)) (x3 : (⟨S4x2x200, .i32⟩ : BufTy).Contents (Elt F)) : val_main_v116 (F := F) x2 x3 = t_v116 (F := F) x2 x3 := by
  unfold val_main_v116 t_v116; rw [r_v58]
theorem r_v117 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v117 (F := F) x0 x1 x2 x3 = t_v117 (F := F) (val_main_v42 (F := F) x0 x1) x2 x3 := by
  unfold val_main_v117 t_v117; rw [r_v115, r_v116]
theorem r_cst_29 : val_main_cst_29 (F := F) = t_cst_29 (F := F) :=
  rfl
theorem r_v118 : val_main_v118 (F := F) = t_v118 (F := F) := by
  unfold val_main_v118 t_v118; rw [r_cst_29]
theorem r_v119 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v119 (F := F) x0 x1 x2 x3 = t_v119 (F := F) (val_main_v42 (F := F) x0 x1) x2 x3 := by
  unfold val_main_v119 t_v119; rw [r_v117, r_v118]
theorem r_v120 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v120 (F := F) x0 x1 x2 x3 = t_v120 (F := F) (val_main_v42 (F := F) x0 x1) x2 x3 := by
  unfold val_main_v120 t_v120; rw [r_v119]
theorem r_c_30 : val_main_c_30 (F := F) = t_c_30 (F := F) :=
  rfl
theorem r_v121 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v121 (F := F) x0 x1 x2 x3 = t_v121 (F := F) (val_main_v42 (F := F) x0 x1) x2 x3 := by
  unfold val_main_v121 t_v121; rw [r_v120, r_c_30]
theorem r_v122 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v122 (F := F) x0 x1 x2 x3 = t_v122 (F := F) (val_main_v42 (F := F) x0 x1) x2 x3 := by
  unfold val_main_v122 t_v122; rw [r_v121]
theorem r_cst_31 : val_main_cst_31 (F := F) = t_cst_31 (F := F) :=
  rfl
theorem r_v123 : val_main_v123 (F := F) = t_v123 (F := F) := by
  unfold val_main_v123 t_v123; rw [r_cst_31]
theorem r_v124 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v124 (F := F) x0 x1 x2 x3 = t_v124 (F := F) (val_main_v42 (F := F) x0 x1) x2 x3 := by
  unfold val_main_v124 t_v124; rw [r_v122, r_v123]
theorem r_cst_32 : val_main_cst_32 (F := F) = t_cst_32 (F := F) :=
  rfl
theorem r_v125 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v125 (F := F) x0 x1 x2 x3 = t_v125 (F := F) (val_main_v42 (F := F) x0 x1) x2 x3 := by
  unfold val_main_v125 t_v125; rw [r_v117, r_cst_32]
theorem r_v126 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v126 (F := F) x0 x1 x2 x3 = t_v126 (F := F) (val_main_v42 (F := F) x0 x1) x2 x3 := by
  unfold val_main_v126 t_v126; rw [r_v125, r_v122]
theorem r_cst_33 : val_main_cst_33 (F := F) = t_cst_33 (F := F) :=
  rfl
theorem r_call2_v0 : val_main_call2_v0 (F := F) = t_call2_v0 (F := F) := by
  unfold val_main_call2_v0 t_call2_v0; rw [r_cst_33]
theorem r_call2_v1 : val_main_call2_v1 (F := F) = t_call2_v1 (F := F) := by
  unfold val_main_call2_v1 t_call2_v1; rw [r_call2_v0]
theorem r_v127 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v127 (F := F) x0 x1 x2 x3 = t_v127 (F := F) (val_main_v42 (F := F) x0 x1) x2 x3 := by
  unfold val_main_v127 t_v127; rw [r_v124, r_v126, r_call2_v1]
theorem r_cst_34 : val_main_cst_34 (F := F) = t_cst_34 (F := F) :=
  rfl
theorem r_v128 : val_main_v128 (F := F) = t_v128 (F := F) := by
  unfold val_main_v128 t_v128; rw [r_cst_34]
theorem r_v129 (x0 : (⟨S4x16x768x768, .f32⟩ : BufTy).Contents (Elt F)) (x1 : (⟨S4x768x768, .i32⟩ : BufTy).Contents (Elt F)) : val_main_v129 (F := F) x0 x1 = t_v129 (F := F) (val_main_v38 (F := F) x0 x1) := by
  unfold val_main_v129 t_v129; rw [r_v128, r_v41]
theorem r_cst_35 : val_main_cst_35 (F := F) = t_cst_35 (F := F) :=
  rfl
theorem r_v130 : val_main_v130 (F := F) = t_v130 (F := F) := by
  unfold val_main_v130 t_v130; rw [r_cst_35]
theorem r_v131 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v131 (F := F) x0 x1 x2 x3 = t_v131 (F := F) (val_main_v42 (F := F) x0 x1) x2 x3 := by
  unfold val_main_v131 t_v131; rw [r_v130, r_v127]
theorem r_v132 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v132 (F := F) x0 x1 x2 x3 = t_v132 (F := F) (val_main_v42 (F := F) x0 x1) (val_main_v38 (F := F) x0 x1) x2 x3 := by
  unfold val_main_v132 t_v132; rw [r_v129, r_v131]
theorem r_cst_36 : val_main_cst_36 (F := F) = t_cst_36 (F := F) :=
  rfl
theorem r_v133 : val_main_v133 (F := F) = t_v133 (F := F) := by
  unfold val_main_v133 t_v133; rw [r_cst_36]
theorem r_v134 (x0 : (⟨S4x16x768x768, .f32⟩ : BufTy).Contents (Elt F)) (x1 : (⟨S4x768x768, .i32⟩ : BufTy).Contents (Elt F)) : val_main_v134 (F := F) x0 x1 = t_v134 (F := F) (val_main_v42 (F := F) x0 x1) := by
  unfold val_main_v134 t_v134; rw [r_v133, r_v49]
theorem r_v135 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v135 (F := F) x0 x1 x2 x3 = t_v135 (F := F) (val_main_v42 (F := F) x0 x1) (val_main_v38 (F := F) x0 x1) x2 x3 := by
  unfold val_main_v135 t_v135; rw [r_v132, r_v134]
theorem r_cst_37 : val_main_cst_37 (F := F) = t_cst_37 (F := F) :=
  rfl
theorem r_v136 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v136 (F := F) x0 x1 x2 x3 = t_v136 (F := F) (val_main_v42 (F := F) x0 x1) (val_main_v38 (F := F) x0 x1) x2 x3 := by
  unfold val_main_v136 t_v136; rw [r_v135, r_cst_37]
theorem r_cst_38 : val_main_cst_38 (F := F) = t_cst_38 (F := F) :=
  rfl
theorem r_v137 (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v137 (F := F) x0 x1 x2 x3 = t_v137 (F := F) (val_main_v42 (F := F) x0 x1) (val_main_v38 (F := F) x0 x1) x2 x3 := by
  unfold val_main_v137 t_v137; rw [r_v136, r_cst_38]

/-- The reference's result is the shared chain at its two tables. -/
theorem ref_tail (x0 : (⟨S4x16x768x768, .f32⟩ : BufTy).Contents (Elt F)) (x1 : (⟨S4x768x768, .i32⟩ : BufTy).Contents (Elt F)) (x2 : (⟨S4x2x200, .i32⟩ : BufTy).Contents (Elt F)) (x3 : (⟨S4x2x200, .i32⟩ : BufTy).Contents (Elt F)) : val_main_v137 (F := F) x0 x1 x2 x3 = tail (F := F) (val_main_v42 (F := F) x0 x1) (val_main_v38 (F := F) x0 x1) x2 x3 :=
  r_v137 x0 x1 x2 x3

end Cert.Tail

end
-- ==== Proof.PreFacts.lean ====
/-
  The precondition, read back as facts about the label array.

  The printed predicate is the conjunction of three tests, each a reduction by "and" to a single bit:
    every |x| is below infinity;
    every label tg[n, h, w] satisfies 0 ≤ tg and tg < 24, compared as signed words;
    for every sample n and class c < 24, SOME pixel p of the flattened image carries the label c: the label array is
    reshaped [4, 768, 768] → [4, 1, 589824] (row-major, so pixel p is row p / 768, column p % 768), laid along the class
    axis, compared for equality with the class numbers 0 … 23 laid along the sample and pixel axes, and reduced by
    "or" along the pixel axis from the bit 0.
  A reduction by "and" that came out 1 met only 1s; a reduction by "or" from 0 that came out 1 met a 1. From the second
  test every label is below 24 as an unsigned word; from the third every cluster (n, c) has a pixel.
-/
import proofs.«427995_j35871566856560_2_alg».proof.Proof.Spec
import proofs.«427995_j35871566856560_2_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

namespace Cert.PreFacts

open Idealize.ShloMosaic Idealize.ShloMosaic.ValueIdx
open Cert.Pre_finite_inputs Cert.Spec

/-! ## A reduction by "or" that is 1 -/

/-- A left fold by "or" over one-bit words that came out 1 either started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    -- the fold over the tail starts at init ∨ f a
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduce by "or" that is 1 at a result index j: the initial bit is 1, or the operand has a 1 at some index that
    reduces into j. -/
theorem reduce_ori_eq_one {s t u : Shape} {axes : List (Fin s.rank)} (x : s.Idx → BitVec 1) (init : u.Idx → BitVec 1)
    (h : s.ReducesTo axes t) (hu : 0 < u.numel) (j : t.Idx) (e : Host.reduce IntOp.ori x init h hu j = 1#1) :
    init (Shape.Idx.first hu) = 1#1 ∨ ∃ i : s.Idx, h.drop i = j ∧ x i = 1#1 := by
  rw [Host.reduce_eq_foldl] at e
  rcases foldl_ori_eq_one x _ _ e with hi | ⟨i, hi, hx⟩
  · exact Or.inl hi
  · exact Or.inr ⟨i, of_decide_eq_true (List.mem_filter.1 hi).2, hx⟩

/-! ## The layout operations of the third test, read at an element -/

/-- The flattened label array at (n, 0, p) is the label of row p / 768, column p % 768 of sample n. -/
theorem flat_read (tg : IVec S4x768x768 32) (hc : S4x768x768.ShapeCasts S4x1x589824) (n : Fin 4) (p : Fin 589824) :
    shapeCast S4x1x589824 tg hc (ix3 n (0 : Fin 1) p) = tg (ix3 n (prow p) (pcol p)) := by
  refine shapeCast_apply tg hc _ _ ?_
  rw [Shape.rowMajor_val_three, Shape.rowMajor_val_three]
  -- (n · 768 + p / 768) · 768 + p % 768 = (n · 1 + 0) · 589824 + p
  show (n.val * 768 + p.val / 768) * 768 + p.val % 768 = (n.val * 1 + 0) * 589824 + p.val
  have := p.isLt
  omega

/-- The class numbers as a [1, 24, 1] array: entry (0, c, 0) is c. -/
theorem classes_read (hc : S24.ShapeCasts S1x24x1) (c : Fin 24) :
    shapeCast S1x24x1 (iotaInDim S24 32 0) hc (ix3 (0 : Fin 1) c (0 : Fin 1)) = BitVec.ofNat 32 c.val := by
  refine (shapeCast_apply (iotaInDim S24 32 0) hc _ (ix1 c) ?_).trans rfl
  rw [Shape.rowMajor_val_one, Shape.rowMajor_val_three]
  show c.val = (0 * 24 + c.val) * 1 + 0
  omega

/-- A [4, 1, 589824] array laid along the class axis reads, at (n, c, p), its entry (n, 0, p). -/
theorem along_classes {α : Type} (hb : S4x1x589824.BroadcastsInDim S4x24x589824 (![0, 1, 2] : Fin 3 → Fin S4x24x589824.rank))
    (v : S4x1x589824.Idx → α) (n : Fin 4) (c : Fin 24) (p : Fin 589824) :
    broadcastInDim S4x24x589824 ![0, 1, 2] hb v (ix3 n c p) = v (ix3 n (0 : Fin 1) p) := by
  simp only [broadcastInDim]
  congr 1
  funext a
  apply Fin.ext
  match a with
  | ⟨0, _⟩ =>
    split
    · next h1 => change 4 = 1 at h1; omega
    · rfl
  | ⟨1, _⟩ =>
    split
    · rfl
    · next h1 => exact absurd rfl h1
  | ⟨2, _⟩ =>
    split
    · next h1 => change 589824 = 1 at h1; omega
    · rfl

/-- A [1, 24, 1] array laid along the sample and pixel axes reads, at (n, c, p), its entry (0, c, 0). -/
theorem along_pixels {α : Type} (hb : S1x24x1.BroadcastsInDim S4x24x589824 (![0, 1, 2] : Fin 3 → Fin S4x24x589824.rank))
    (v : S1x24x1.Idx → α) (n : Fin 4) (c : Fin 24) (p : Fin 589824) :
    broadcastInDim S4x24x589824 ![0, 1, 2] hb v (ix3 n c p) = v (ix3 (0 : Fin 1) c (0 : Fin 1)) := by
  simp only [broadcastInDim]
  congr 1
  funext a
  apply Fin.ext
  match a with
  | ⟨0, _⟩ =>
    split
    · rfl
    · next h1 => exact absurd rfl h1
  | ⟨1, _⟩ =>
    split
    · next h1 => change 24 = 1 at h1; omega
    · rfl
  | ⟨2, _⟩ =>
    split
    · rfl
    · next h1 => exact absurd rfl h1

/-! ## Words -/

/-- A word in [0, 24) as a signed number is below 24 as an unsigned one. -/
theorem toNat_lt_24 (w : BitVec 32) (h0 : IntOp.cmpi .sge w 0#32 = 1#1) (h1 : IntOp.cmpi .slt w 24#32 = 1#1) : w.toNat < 24 := by
  rw [IntOp.cmpi_sge] at h0
  rw [IntOp.cmpi_slt] at h1
  have e0 : (0#32 : BitVec 32).toInt = 0 := by decide
  have e24 : (24#32 : BitVec 32).toInt = 24 := by decide
  rw [e0] at h0
  rw [e24] at h1
  -- a non-negative signed value is the unsigned value
  have hw := w.isLt
  rw [BitVec.toInt_eq_toNat_cond] at h0 h1
  split at h0 <;> omega

/-! ## The precondition decoded -/

section Decode
variable {F : FTy → Type} [FloatOps F] [Cert.Pre_finite_inputs.Facts]

/-- The scalar shape has one index. -/
theorem scalar_idx_subsingleton : Subsingleton S_.Idx := ⟨fun _ _ => funext fun d => d.elim0⟩

/-- The precondition's three tests, each a single bit: the conjunction is 1, so the second and the third are. -/
theorem tests_of_pre (x : FVec F S4x16x768x768 .f32) (tg : IVec S4x768x768 32) (a2 a3 : IVec S4x2x200 32)
    (h : fn (F := F) x tg a2 a3 = fun _ => 1#1) :
    Host.reduce IntOp.andi
        (andi (cmpi .sge tg (broadcastInDim S4x768x768 ![] Facts.bcast_S_S4x768x768 (constantI S_ 32 0#32)))
          (cmpi .slt tg (broadcastInDim S4x768x768 ![] Facts.bcast_S_S4x768x768 (constantI S_ 32 24#32))))
        (constantI S_ 1 1#1) Facts.reducesTo_S4x768x768_S_d0_1_2 Facts.h_S_ ix0 = 1#1
    ∧ Host.reduce IntOp.andi
        (Host.reduce IntOp.ori
          (cmpi .eq
            (broadcastInDim S4x24x589824 ![0, 1, 2] Facts.bcast_S4x1x589824_S4x24x589824_0_1_2
              (shapeCast S4x1x589824 tg Facts.shapeCasts_S4x768x768_S4x1x589824))
            (broadcastInDim S4x24x589824 ![0, 1, 2] Facts.bcast_S1x24x1_S4x24x589824_0_1_2
              (shapeCast S1x24x1 (iotaInDim S24 32 0) Facts.shapeCasts_S24_S1x24x1)))
          (constantI S_ 1 0#1) Facts.reducesTo_S4x24x589824_S4x24_d2 Facts.h_S_)
        (constantI S_ 1 1#1) Facts.reducesTo_S4x24_S_d0_1 Facts.h_S_ ix0 = 1#1 := by
  have e := congrFun h ix0
  dsimp only [fn, fn_part1] at e
  obtain ⟨e10, e18⟩ := IntOp.andi_eq_one.1 e
  obtain ⟨-, e9⟩ := IntOp.andi_eq_one.1 e10
  exact ⟨e9, e18⟩

/-- Every label is below 24. -/
theorem range_of_pre (x : FVec F Cert.Pre_finite_inputs.S4x16x768x768 .f32) (tg : IVec Cert.Pre_finite_inputs.S4x768x768 32)
    (a2 a3 : IVec Cert.Pre_finite_inputs.S4x2x200 32)
    (h : Cert.Pre_finite_inputs.fn (F := F) x tg a2 a3 = fun _ => 1#1) : ∀ i, (tg i).toNat < 24 := by
  intro i
  haveI := scalar_idx_subsingleton
  -- the "and" over all labels is 1, so the test of label i is
  have ei := Host.reduce_andi_all _ _ _ _ _ (tests_of_pre x tg a2 a3 h).1 i
  obtain ⟨h0, h1⟩ := IntOp.andi_eq_one.1 ei
  exact toNat_lt_24 (tg i) h0 h1

/-- Every cluster (sample n, class c) has a pixel: some pixel p of sample n carries the label c. -/
theorem present_of_pre (x : FVec F Cert.Pre_finite_inputs.S4x16x768x768 .f32) (tg : IVec Cert.Pre_finite_inputs.S4x768x768 32)
    (a2 a3 : IVec Cert.Pre_finite_inputs.S4x2x200 32)
    (h : Cert.Pre_finite_inputs.fn (F := F) x tg a2 a3 = fun _ => 1#1) :
    ∀ (n : Fin 4) (c : Fin 24), ∃ p : Fin 589824, Cert.Spec.hit tg n p c := by
  intro n c
  haveI := scalar_idx_subsingleton
  -- the "and" over all (sample, class) pairs is 1, so the "or" along the pixels of the pair (n, c) is
  have enc := Host.reduce_andi_all _ _ _ _ _ (tests_of_pre x tg a2 a3 h).2 (ix2 n c)
  -- it started from 0, so it met a 1 at some index (a, b, p) that reduces into (n, c)
  rcases reduce_ori_eq_one _ _ _ _ _ enc with h0 | ⟨i, hi, hx⟩
  · exact absurd (show (0#1 : BitVec 1) = 1#1 from h0) (by decide)
  · obtain ⟨a, b, p, rfl⟩ : ∃ (a : Fin 4) (b : Fin 24) (p : Fin 589824), i = ix3 a b p := ⟨_, _, _, eq_ix3 i⟩
    -- reducing along the pixel axis keeps the sample and the class: a = n, b = c
    have ha : a = n := Fin.ext (by
      have := Shape.ReducesTo.drop_apply_val_of_eq Facts.reducesTo_S4x24x589824_S4x24_d2 (ix3 a b p) 0 0
      rw [hi] at this
      exact this.symm)
    have hb : b = c := Fin.ext (by
      have := Shape.ReducesTo.drop_apply_val_of_eq Facts.reducesTo_S4x24x589824_S4x24_d2 (ix3 a b p) 1 1
      rw [hi] at this
      exact this.symm)
    subst ha hb
    -- the 1 is an equality of the label of pixel p with the class number
    have hx' := StableHlo.Predicate.cmpi_eq_iff.1 hx
    rw [along_classes, along_pixels, flat_read, classes_read] at hx'
    exact ⟨p, hx'⟩

end Decode

end Cert.PreFacts

end
-- ==== Proof.Bridge.lean ====
/-
  The one difference between the two programs' tables: the kernel divides by max (cnt, 1), the reference by cnt.
  A cluster that has a pixel has size at least one (a sum of zeros and ones with a one among them), so where every
  cluster is non-empty the two divisors are the same table, and with them the two programs' tables.
-/
import proofs.«427995_j35871566856560_2_alg».proof.Proof.Spec

noncomputable section

namespace Cert.Spec

open Idealize.ShloMosaic

/-- The pattern of 1.0 denotes the real one. -/
theorem ofBits_one : Ideal.ofBits .f32 0x3F800000#32 = (1 : EReal) := by
  simp [Ideal.ofBits, Ideal.ieee, -EReal.coe_mul]; norm_num

theorem oh_nonneg (tg : ST.Idx → BitVec 32) (n : Fin 4) (p : Fin 589824) (c : Fin 24) : 0 ≤ oh tg n p c := by
  unfold oh; split
  · exact zero_le_one
  · exact le_refl _

/-- A cluster with a pixel has size at least one. -/
theorem one_le_cnt (tg : ST.Idx → BitVec 32) (n : Fin 4) (c : Fin 24) (h : ∃ p : Fin 589824, hit tg n p c) : 1 ≤ cnt tg n c := by
  obtain ⟨p0, hp0⟩ := h
  have h1 : oh tg n p0 c = 1 := by unfold oh; exact if_pos hp0
  calc (1 : EReal) = oh tg n p0 c := h1.symm
    _ ≤ ∑ p : Fin 589824, oh tg n p c :=
        Finset.single_le_sum (f := fun p => oh tg n p c) (fun p _ => oh_nonneg tg n p c) (Finset.mem_univ p0)

/-- Where every cluster is non-empty the kernel's divisors are the reference's. -/
theorem dK_eq_dR (tg : ST.Idx → BitVec 32) (hp : ∀ (n : Fin 4) (c : Fin 24), ∃ p : Fin 589824, hit tg n p c) : dK tg = dR tg := by
  funext n c
  unfold dK dR
  rw [ofBits_one]
  exact max_eq_left (one_le_cnt tg n c (hp n c))

end Cert.Spec

end
-- ==== Proof.lean ====
/-
  The certificate of the contrastive clustering loss kernel against its reference.

  Both programs reduce an image batch x[n, e, h, w] with integer labels tg[n, h, w] to per-cluster tables (a cluster
  is a sample and a label: its size, the sums of its channels, its mean embedding, the summed hinge of its pixels'
  distances to the mean) and then apply one and the same closing chain to two tables: the means laid out
  [sample, class, channel] and the hinge sums over the cluster sizes. The kernel forms the tables by one-hot matrix
  products accumulated over twelve pixel blocks in two pipelined regions and divides by max (size, 1); the reference
  by scatter-adds over segment ids n * 24 + label, a gather of the means, and a division by the size. The
  precondition bounds the labels (0 ≤ label < 24, so a segment id never leaves its sample's 24 segments) and has
  every label occur in every sample (so every size is at least one and max (size, 1) is the size); under it both
  programs' tables are the specification's (Proof/Spec.lean), and the results are the closing chain of equal tables.

  frame claims: the word-level and the idealized kernel by the run of their host stretches and two regions
  (Proof/KFrame.lean, Proof/KIFrame.lean), the reference by its run with the result dropped.
-/
import proofs.«427995_j35871566856560_2_alg».proof.Defs
import proofs.«427995_j35871566856560_2_alg».proof.Proof.Gen.Kernel
import proofs.«427995_j35871566856560_2_alg».proof.Proof.Gen.KernelIdeal
import proofs.«427995_j35871566856560_2_alg».proof.Proof.Gen.ReferenceIdeal
import proofs.«427995_j35871566856560_2_alg».proof.Proof.Gen.Pre_finite_inputs
import proofs.«427995_j35871566856560_2_alg».proof.Proof.KFrame
import proofs.«427995_j35871566856560_2_alg».proof.Proof.KIGlue
import proofs.«427995_j35871566856560_2_alg».proof.Proof.KIValue0
import proofs.«427995_j35871566856560_2_alg».proof.Proof.KIValue1
import proofs.«427995_j35871566856560_2_alg».proof.Proof.RefRead
import proofs.«427995_j35871566856560_2_alg».proof.Proof.RefValue
import proofs.«427995_j35871566856560_2_alg».proof.Proof.TailRef
import proofs.«427995_j35871566856560_2_alg».proof.Proof.PreFacts
import proofs.«427995_j35871566856560_2_alg».proof.Proof.Bridge
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The idealized kernel's result buffer after its run is the reference's result term, for memories that agree on
    the arguments and satisfy the precondition: both are the closing chain of the specification's two tables. -/
theorem value_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.ValueP.res_main_v137 m' c
      = Cert.KernelIdeal.Hand.W11 m ρ c (Proc.devRef .tc Cert.KernelIdeal.main_v112) := by
  have hr := Cert.PreFacts.range_of_pre _ _ _ _ hpre
  have hp := Cert.PreFacts.present_of_pre _ _ _ _ hpre
  rw [Cert.KernelIdeal.Hand.result_eq m ρ c (Cert.KernelIdeal.Hand.arr0_apply (Cert.KernelIdeal.Hand.V1 m ρ) c) (Cert.KernelIdeal.Hand.arr1_apply (Cert.KernelIdeal.Hand.V3 m ρ) c),
    Cert.ReferenceIdeal.ReadP.val_main_v137_eq m' c, h0, h1, h2, h3, Cert.Tail.ref_tail,
    Cert.RefValue.ref_cm _ _ hr, Cert.RefValue.ref_vq _ _ hr, Cert.Spec.dK_eq_dR _ hp]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The two idealized programs, from memories agreeing on the arguments, end with equal results. -/
theorem algebraic : Cert.algebraic_KernelIdeal_ReferenceIdeal := by
  intro m ρ m' ρ' hpre hagree
  refine ⟨fun c => Cert.KernelIdeal.Hand.W11 m ρ c (Proc.devRef .tc Cert.KernelIdeal.main_v112), ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v112 (by decide)),
      (h c _ (Cert.KernelIdeal.Hand.mem_uc Cert.KernelIdeal.main_arg0 (by decide))).trans (Cert.KernelIdeal.Hand.W11_main_arg0 m ρ c),
      (h c _ (Cert.KernelIdeal.Hand.mem_uc Cert.KernelIdeal.main_arg1 (by decide))).trans (Cert.KernelIdeal.Hand.W11_main_arg1 m ρ c),
      (h c _ (Cert.KernelIdeal.Hand.mem_uc Cert.KernelIdeal.main_arg2 (by decide))).trans (Cert.KernelIdeal.Hand.W11_main_arg2 m ρ c),
      (h c _ (Cert.KernelIdeal.Hand.mem_uc Cert.KernelIdeal.main_arg3 (by decide))).trans (Cert.KernelIdeal.Hand.W11_main_arg3 m ρ c)⟩
  · refine (θ_run Cert.ReferenceIdeal.defs _ _).mono (fun r h c => ?_) (Cert.ReferenceIdeal.ValueP.run (F := Ideal) m' ρ')
    exact ⟨(h c).1.trans (value_eq m ρ m' c (hpre c) (hagree c).1 (hagree c).2.1 (hagree c).2.2.1 (hagree c).2.2.2), (h c).2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
